-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "inv_3" .f32 0x3EAAAAAB#32 ((1 / 3 : ℝ) : EReal)
  ∧ IdealRules.named_const.Statement Cert.KernelIdeal.κ "inv_5" .f32 0x3E4CCCCD#32 ((1 / 5 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x480 : Shape := ⟨2, ![200000, 480]⟩
abbrev S224 : Shape := ⟨1, ![224]⟩
abbrev S128 : Shape := ⟨1, ![128]⟩
abbrev S200000 : Shape := ⟨1, ![200000]⟩
abbrev S_ : Shape := ⟨0, ![]⟩

class Facts : Prop where
  bcast_S_S200000x480 : S_.BroadcastsInDim S200000x480 (![] : Fin 0 → Fin S200000x480.rank)
  reducesTo_S200000x480_S_d0_1 : S200000x480.ReducesTo [0, 1] S_
  h_S_ : 0 < S_.numel
  bcast_S_S224 : S_.BroadcastsInDim S224 (![] : Fin 0 → Fin S224.rank)
  reducesTo_S224_S_d0 : S224.ReducesTo [0] S_
  bcast_S_S128 : S_.BroadcastsInDim S128 (![] : Fin 0 → Fin S128.rank)
  reducesTo_S128_S_d0 : S128.ReducesTo [0] S_
  bcast_S_S200000 : S_.BroadcastsInDim S200000 (![] : Fin 0 → Fin S200000.rank)
  reducesTo_S200000_S_d0 : S200000.ReducesTo [0] S_

variable [Facts]

def fn_part1 {F : FTy → Type} [FloatOps F] (main_arg3 : IVec S200000 32) (main_v13 : IVec S_ 1) (main_v15 : IVec S200000 1) (main_c_5 : IVec S_ 32) : IVec S_ 1 :=
  let main_v16 : IVec S200000 32 := broadcastInDim S200000 ![] bcast_S_S200000 main_c_5
  let main_v17 : IVec S200000 1 := cmpi .slt main_arg3 main_v16
  let main_v18 : IVec S200000 1 := andi main_v15 main_v17
  let main_c_6 : IVec S_ 1 := constantI S_ 1 1#1
  let main_v19 : IVec S_ 1 := (fun x v => Host.reduce IntOp.andi x v reducesTo_S200000_S_d0 h_S_) main_v18 main_c_6
  let main_v20 : IVec S_ 1 := andi main_v13 main_v19
  main_v20

def fn {F : FTy → Type} [FloatOps F] (main_arg0 : FVec F S200000x480 .f32) (main_arg1 : FVec F S224 .f32) (main_arg2 : FVec F S128 .f32) (main_arg3 : IVec S200000 32) : IVec S_ 1 :=
  let main_v0 : FVec F S200000x480 .f32 := Host.absf main_arg0
  let main_cst : FVec F S_ .f32 := constant S_ .f32 0x7F800000#32
  let main_v1 : FVec F S200000x480 .f32 := broadcastInDim S200000x480 ![] bcast_S_S200000x480 main_cst
  let main_v2 : IVec S200000x480 1 := cmpf .olt main_v0 main_v1
  let main_c : IVec S_ 1 := constantI S_ 1 1#1
  let main_v3 : IVec S_ 1 := (fun x v => Host.reduce IntOp.andi x v reducesTo_S200000x480_S_d0_1 h_S_) main_v2 main_c
  let main_v4 : FVec F S224 .f32 := Host.absf main_arg1
  let main_cst_0 : FVec F S_ .f32 := constant S_ .f32 0x7F800000#32
  let main_v5 : FVec F S224 .f32 := broadcastInDim S224 ![] bcast_S_S224 main_cst_0
  let main_v6 : IVec S224 1 := cmpf .olt main_v4 main_v5
  let main_c_1 : IVec S_ 1 := constantI S_ 1 1#1
  let main_v7 : IVec S_ 1 := (fun x v => Host.reduce IntOp.andi x v reducesTo_S224_S_d0 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_c_4 : IVec S_ 32 := constantI S_ 32 0#32
  let main_v14 : IVec S200000 32 := broadcastInDim S200000 ![] bcast_S_S200000 main_c_4
  let main_v15 : IVec S200000 1 := cmpi .sge main_arg3 main_v14
  let main_c_5 : IVec S_ 32 := constantI S_ 32 512#32
  fn_part1 (F := F) main_arg3 main_v13 main_v15 main_c_5
-- ==== Kernel.lean ====
abbrev S200000x480 : Shape := ⟨2, ![200000, 480]⟩
abbrev S224 : Shape := ⟨1, ![224]⟩
abbrev S128 : Shape := ⟨1, ![128]⟩
abbrev S200000 : Shape := ⟨1, ![200000]⟩
abbrev S_ : Shape := ⟨0, ![]⟩
abbrev S200000x1 : Shape := ⟨2, ![200000, 1]⟩
abbrev S1x128 : Shape := ⟨2, ![1, 128]⟩
abbrev S192 : Shape := ⟨1, ![192]⟩
abbrev S192x1 : Shape := ⟨2, ![192, 1]⟩
abbrev S64 : Shape := ⟨1, ![64]⟩
abbrev S1x64 : Shape := ⟨2, ![1, 64]⟩
abbrev S192x64 : Shape := ⟨2, ![192, 64]⟩
abbrev S160 : Shape := ⟨1, ![160]⟩
abbrev S160x1 : Shape := ⟨2, ![160, 1]⟩
abbrev S32 : Shape := ⟨1, ![32]⟩
abbrev S1x32 : Shape := ⟨2, ![1, 32]⟩
abbrev S160x32 : Shape := ⟨2, ![160, 32]⟩
abbrev S2x512x256 : Shape := ⟨3, ![2, 512, 256]⟩
abbrev S2x512x97 : Shape := ⟨3, ![2, 512, 97]⟩
abbrev S1000x1 : Shape := ⟨2, ![1000, 1]⟩
abbrev S1000x480 : Shape := ⟨2, ![1000, 480]⟩
abbrev S1x512x256 : Shape := ⟨3, ![1, 512, 256]⟩
abbrev S1x512x97 : Shape := ⟨3, ![1, 512, 97]⟩
abbrev S512x256 : Shape := ⟨2, ![512, 256]⟩
abbrev S512x97 : Shape := ⟨2, ![512, 97]⟩
abbrev S1x512 : Shape := ⟨2, ![1, 512]⟩
abbrev S1000x512 : Shape := ⟨2, ![1000, 512]⟩
abbrev S1000x128 : Shape := ⟨2, ![1000, 128]⟩
abbrev S1000x192 : Shape := ⟨2, ![1000, 192]⟩
abbrev S1000x160 : Shape := ⟨2, ![1000, 160]⟩
abbrev S1000x64 : Shape := ⟨2, ![1000, 64]⟩
abbrev S1000x32 : Shape := ⟨2, ![1000, 32]⟩
abbrev S1000x256 : Shape := ⟨2, ![1000, 256]⟩
abbrev S1000x97 : Shape := ⟨2, ![1000, 97]⟩
abbrev S512x128 : Shape := ⟨2, ![512, 128]⟩
abbrev S512x64 : Shape := ⟨2, ![512, 64]⟩
abbrev S512x32 : Shape := ⟨2, ![512, 32]⟩
abbrev S512x1 : Shape := ⟨2, ![512, 1]⟩
abbrev S512x224 : Shape := ⟨2, ![512, 224]⟩
abbrev S1x224 : Shape := ⟨2, ![1, 224]⟩
abbrev S1000x224 : Shape := ⟨2, ![1000, 224]⟩

abbrev nBuf : Space → Nat
  | .hbm => 101
  | .vmem => 21
  | .smem => 0
  | _ => 0

abbrev bufTy : (tb : Table) → Fin (tcTables nBuf tb) → BufTy
  | .hbm, ⟨0, _⟩ => ⟨S200000x480, .f32⟩
  | .hbm, ⟨1, _⟩ => ⟨S224, .f32⟩
  | .hbm, ⟨2, _⟩ => ⟨S128, .f32⟩
  | .hbm, ⟨3, _⟩ => ⟨S200000, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S200000, .i32⟩
  | .hbm, ⟨8, _⟩ => ⟨S200000, .i32⟩
  | .hbm, ⟨9, _⟩ => ⟨S_, .i32⟩
  | .hbm, ⟨10, _⟩ => ⟨S200000, .i32⟩
  | .hbm, ⟨11, _⟩ => ⟨S200000, .i32⟩
  | .hbm, ⟨12, _⟩ => ⟨S200000x1, .i32⟩
  | .hbm, ⟨13, _⟩ => ⟨S1x128, .f32⟩
  | .hbm, ⟨14, _⟩ => ⟨S192, .i32⟩
  | .hbm, ⟨15, _⟩ => ⟨S192x1, .i32⟩
  | .hbm, ⟨16, _⟩ => ⟨S_, .i32⟩
  | .hbm, ⟨17, _⟩ => ⟨S_, .i32⟩
  | .hbm, ⟨18, _⟩ => ⟨S192x1, .i32⟩
  | .hbm, ⟨19, _⟩ => ⟨S192x1, .i32⟩
  | .hbm, ⟨20, _⟩ => ⟨S192x1, .i32⟩
  | .hbm, ⟨21, _⟩ => ⟨S_, .i32⟩
  | .hbm, ⟨22, _⟩ => ⟨S192x1, .i32⟩
  | .hbm, ⟨23, _⟩ => ⟨S192x1, .i1⟩
  | .hbm, ⟨24, _⟩ => ⟨S192x1, .i32⟩
  | .hbm, ⟨25, _⟩ => ⟨S192x1, .i32⟩
  | .hbm, ⟨26, _⟩ => ⟨S_, .i32⟩
  | .hbm, ⟨27, _⟩ => ⟨S192x1, .i32⟩
  | .hbm, ⟨28, _⟩ => ⟨S192x1, .i1⟩
  | .hbm, ⟨29, _⟩ => ⟨S192x1, .i1⟩
  | .hbm, ⟨30, _⟩ => ⟨S_, .i32⟩
  | .hbm, ⟨31, _⟩ => ⟨S192x1, .i32⟩
  | .hbm, ⟨32, _⟩ => ⟨S192x1, .i32⟩
  | .hbm, ⟨33, _⟩ => ⟨S192x1, .i32⟩
  | .hbm, ⟨34, _⟩ => ⟨S64, .i32⟩
  | .hbm, ⟨35, _⟩ => ⟨S1x64, .i32⟩
  | .hbm, ⟨36, _⟩ => ⟨S192x64, .i32⟩
  | .hbm, ⟨37, _⟩ => ⟨S192x64, .i32⟩
  | .hbm, ⟨38, _⟩ => ⟨S192x64, .i1⟩
  | .hbm, ⟨39, _⟩ => ⟨S192x64, .bf16⟩
  | .hbm, ⟨40, _⟩ => ⟨S160, .i32⟩
  | .hbm, ⟨41, _⟩ => ⟨S160x1, .i32⟩
  | .hbm, ⟨42, _⟩ => ⟨S_, .i32⟩
  | .hbm, ⟨43, _⟩ => ⟨S_, .i32⟩
  | .hbm, ⟨44, _⟩ => ⟨S160x1, .i32⟩
  | .hbm, ⟨45, _⟩ => ⟨S160x1, .i32⟩
  | .hbm, ⟨46, _⟩ => ⟨S160x1, .i32⟩
  | .hbm, ⟨47, _⟩ => ⟨S_, .i32⟩
  | .hbm, ⟨48, _⟩ => ⟨S160x1, .i32⟩
  | .hbm, ⟨49, _⟩ => ⟨S160x1, .i1⟩
  | .hbm, ⟨50, _⟩ => ⟨S160x1, .i32⟩
  | .hbm, ⟨51, _⟩ => ⟨S160x1, .i32⟩
  | .hbm, ⟨52, _⟩ => ⟨S_, .i32⟩
  | .hbm, ⟨53, _⟩ => ⟨S160x1, .i32⟩
  | .hbm, ⟨54, _⟩ => ⟨S160x1, .i1⟩
  | .hbm, ⟨55, _⟩ => ⟨S160x1, .i1⟩
  | .hbm, ⟨56, _⟩ => ⟨S_, .i32⟩
  | .hbm, ⟨57, _⟩ => ⟨S160x1, .i32⟩
  | .hbm, ⟨58, _⟩ => ⟨S160x1, .i32⟩
  | .hbm, ⟨59, _⟩ => ⟨S160x1, .i32⟩
  | .hbm, ⟨60, _⟩ => ⟨S32, .i32⟩
  | .hbm, ⟨61, _⟩ => ⟨S1x32, .i32⟩
  | .hbm, ⟨62, _⟩ => ⟨S160x32, .i32⟩
  | .hbm, ⟨63, _⟩ => ⟨S160x32, .i32⟩
  | .hbm, ⟨64, _⟩ => ⟨S160x32, .i1⟩
  | .hbm, ⟨65, _⟩ => ⟨S160x32, .bf16⟩
  | .hbm, ⟨66, _⟩ => ⟨S2x512x256, .f32⟩
  | .hbm, ⟨67, _⟩ => ⟨S2x512x97, .f32⟩
  | .hbm, ⟨68, _⟩ => ⟨S_, .f32⟩
  | .hbm, ⟨69, _⟩ => ⟨S512x256, .f32⟩
  | .hbm, ⟨70, _⟩ => ⟨S_, .f32⟩
  | .hbm, ⟨71, _⟩ => ⟨S512x97, .f32⟩
  | .hbm, ⟨72, _⟩ => ⟨S512x128, .f32⟩
  | .hbm, ⟨73, _⟩ => ⟨S512x128, .f32⟩
  | .hbm, ⟨74, _⟩ => ⟨S512x64, .f32⟩
  | .hbm, ⟨75, _⟩ => ⟨S512x32, .f32⟩
  | .hbm, ⟨76, _⟩ => ⟨S512x1, .f32⟩
  | .hbm, ⟨77, _⟩ => ⟨S_, .f32⟩
  | .hbm, ⟨78, _⟩ => ⟨S512x1, .f32⟩
  | .hbm, ⟨79, _⟩ => ⟨S512x1, .f32⟩
  | .hbm, ⟨80, _⟩ => ⟨S512x128, .f32⟩
  | .hbm, ⟨81, _⟩ => ⟨S512x128, .f32⟩
  | .hbm, ⟨82, _⟩ => ⟨S512x128, .f32⟩
  | .hbm, ⟨83, _⟩ => ⟨S512x128, .f32⟩
  | .hbm, ⟨84, _⟩ => ⟨S512x128, .f32⟩
  | .hbm, ⟨85, _⟩ => ⟨S512x128, .f32⟩
  | .hbm, ⟨86, _⟩ => ⟨S512x64, .f32⟩
  | .hbm, ⟨87, _⟩ => ⟨S512x64, .f32⟩
  | .hbm, ⟨88, _⟩ => ⟨S512x32, .f32⟩
  | .hbm, ⟨89, _⟩ => ⟨S512x32, .f32⟩
  | .hbm, ⟨90, _⟩ => ⟨S512x224, .f32⟩
  | .hbm, ⟨91, _⟩ => ⟨S_, .f32⟩
  | .hbm, ⟨92, _⟩ => ⟨S512x224, .f32⟩
  | .hbm, ⟨93, _⟩ => ⟨S512x224, .f32⟩
  | .hbm, ⟨94, _⟩ => ⟨S_, .f32⟩
  | .hbm, ⟨95, _⟩ => ⟨S512x224, .f32⟩
  | .hbm, ⟨96, _⟩ => ⟨S512x224, .f32⟩
  | .hbm, ⟨97, _⟩ => ⟨S1x224, .f32⟩
  | .hbm, ⟨98, _⟩ => ⟨S512x224, .f32⟩
  | .hbm, ⟨99, _⟩ => ⟨S512x224, .f32⟩
  | .hbm, ⟨100, _⟩ => ⟨S200000x480, .f32⟩
  | .local _ .vmem, ⟨0, _⟩ => ⟨S1000x1, .i32⟩
  | .local _ .vmem, ⟨1, _⟩ => ⟨S1000x1, .i32⟩
  | .local _ .vmem, ⟨2, _⟩ => ⟨S1000x480, .f32⟩
  | .local _ .vmem, ⟨3, _⟩ => ⟨S1000x480, .f32⟩
  | .local _ .vmem, ⟨4, _⟩ => ⟨S192x64, .bf16⟩
  | .local _ .vmem, ⟨5, _⟩ => ⟨S160x32, .bf16⟩
  | .local _ .vmem, ⟨6, _⟩ => ⟨S1x512x256, .f32⟩
  | .local _ .vmem, ⟨7, _⟩ => ⟨S1x512x256, .f32⟩
  | .local _ .vmem, ⟨8, _⟩ => ⟨S1x512x97, .f32⟩
  | .local _ .vmem, ⟨9, _⟩ => ⟨S1x512x97, .f32⟩
  | .local _ .vmem, ⟨10, _⟩ => ⟨S1000x1, .i32⟩
  | .local _ .vmem, ⟨11, _⟩ => ⟨S1000x1, .i32⟩
  | .local _ .vmem, ⟨12, _⟩ => ⟨S1000x480, .f32⟩
  | .local _ .vmem, ⟨13, _⟩ => ⟨S1000x480, .f32⟩
  | .local _ .vmem, ⟨14, _⟩ => ⟨S512x128, .f32⟩
  | .local _ .vmem, ⟨15, _⟩ => ⟨S512x224, .f32⟩
  | .local _ .vmem, ⟨16, _⟩ => ⟨S1x128, .f32⟩
  | .local _ .vmem, ⟨17, _⟩ => ⟨S192x64, .bf16⟩
  | .local _ .vmem, ⟨18, _⟩ => ⟨S160x32, .bf16⟩
  | .local _ .vmem, ⟨19, _⟩ => ⟨S1000x480, .f32⟩
  | .local _ .vmem, ⟨20, _⟩ => ⟨S1000x480, .f32⟩
  | _, _ => ⟨S200000x480, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c_1 : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_call1_v5 : Ref sig .tc := ⟨.hbm, 22, rfl⟩
abbrev main_call1_v6 : Ref sig .tc := ⟨.hbm, 23, rfl⟩
abbrev main_call1_v7 : Ref sig .tc := ⟨.hbm, 24, rfl⟩
abbrev main_call1_v8 : Ref sig .tc := ⟨.hbm, 25, rfl⟩
abbrev main_call1_c : Ref sig .tc := ⟨.hbm, 26, rfl⟩
abbrev main_call1_v9 : Ref sig .tc := ⟨.hbm, 27, rfl⟩
abbrev main_call1_v10 : Ref sig .tc := ⟨.hbm, 28, rfl⟩
abbrev main_call1_v11 : Ref sig .tc := ⟨.hbm, 29, rfl⟩
abbrev main_call1_c_0 : Ref sig .tc := ⟨.hbm, 30, rfl⟩
abbrev main_call1_v12 : Ref sig .tc := ⟨.hbm, 31, rfl⟩
abbrev main_call1_v13 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_c_2 : Ref sig .tc := ⟨.hbm, 42, rfl⟩
abbrev main_call2_v0 : Ref sig .tc := ⟨.hbm, 43, rfl⟩
abbrev main_call2_v1 : Ref sig .tc := ⟨.hbm, 44, rfl⟩
abbrev main_call2_v2 : Ref sig .tc := ⟨.hbm, 45, rfl⟩
abbrev main_call2_v3 : Ref sig .tc := ⟨.hbm, 46, rfl⟩
abbrev main_call2_v4 : Ref sig .tc := ⟨.hbm, 47, rfl⟩
abbrev main_call2_v5 : Ref sig .tc := ⟨.hbm, 48, rfl⟩
abbrev main_call2_v6 : Ref sig .tc := ⟨.hbm, 49, rfl⟩
abbrev main_call2_v7 : Ref sig .tc := ⟨.hbm, 50, rfl⟩
abbrev main_call2_v8 : Ref sig .tc := ⟨.hbm, 51, rfl⟩
abbrev main_call2_c : Ref sig .tc := ⟨.hbm, 52, rfl⟩
abbrev main_call2_v9 : Ref sig .tc := ⟨.hbm, 53, rfl⟩
abbrev main_call2_v10 : Ref sig .tc := ⟨.hbm, 54, rfl⟩
abbrev main_call2_v11 : Ref sig .tc := ⟨.hbm, 55, rfl⟩
abbrev main_call2_c_0 : Ref sig .tc := ⟨.hbm, 56, rfl⟩
abbrev main_call2_v12 : Ref sig .tc := ⟨.hbm, 57, rfl⟩
abbrev main_call2_v13 : Ref sig .tc := ⟨.hbm, 58, rfl⟩
abbrev main_v14 : Ref sig .tc := ⟨.hbm, 59, rfl⟩
abbrev main_v15 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_v21_0 : Ref sig .tc := ⟨.hbm, 66, rfl⟩
abbrev main_v21_1 : Ref sig .tc := ⟨.hbm, 67, rfl⟩
abbrev main_cst : Ref sig .tc := ⟨.hbm, 68, rfl⟩
abbrev main_v22 : Ref sig .tc := ⟨.hbm, 69, rfl⟩
abbrev main_cst_3 : Ref sig .tc := ⟨.hbm, 70, rfl⟩
abbrev main_v23 : Ref sig .tc := ⟨.hbm, 71, rfl⟩
abbrev main_v24 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_cst_4 : Ref sig .tc := ⟨.hbm, 77, rfl⟩
abbrev main_v29 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_cst_5 : Ref sig .tc := ⟨.hbm, 91, rfl⟩
abbrev main_v42 : Ref sig .tc := ⟨.hbm, 92, rfl⟩
abbrev main_v43 : Ref sig .tc := ⟨.hbm, 93, rfl⟩
abbrev main_cst_6 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg7_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem7_1 : DmaSem sig := 20

abbrev nD : Nat := 1
abbrev τ : Topo := Topo.v7x

variable {F : FTy → Type} [FloatOps F]

abbrev grid0 : Pipeline.Grid := ⟨2, ![2, 100], ![false, false]⟩

def cc0_transform_0 (i : grid0.Coords) : Fin 2 → Nat :=
  let arg0 : BitVec 32 := BitVec.ofNat 32 (i 0).val
  let arg1 : BitVec 32 := BitVec.ofNat 32 (i 1).val
  let c100_i32 : BitVec 32 := 100#32
  let v0 : BitVec 32 := Scalar.muli arg0 c100_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c100_i32 : BitVec 32 := 100#32
  let v0 : BitVec 32 := Scalar.muli arg0 c100_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1000x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1000x480 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S192x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S160x32 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x97 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x1 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x480 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S512x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x224 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S192x64 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S160x32 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S1000x480 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  bcast_S_S200000 : S_.BroadcastsInDim S200000 (![] : Fin 0 → Fin S200000.rank)
  shapeCasts_S200000_S200000x1 : S200000.ShapeCasts S200000x1
  shapeCasts_S128_S1x128 : S128.ShapeCasts S1x128
  bcast_S192_S192x1_0 : S192.BroadcastsInDim S192x1 (![0] : Fin 1 → Fin S192x1.rank)
  bcast_S_S192x1 : S_.BroadcastsInDim S192x1 (![] : Fin 0 → Fin S192x1.rank)
  bcast_S64_S1x64_1 : S64.BroadcastsInDim S1x64 (![1] : Fin 1 → Fin S1x64.rank)
  bcast_S192x1_S192x64_0_1 : S192x1.BroadcastsInDim S192x64 (![0, 1] : Fin 2 → Fin S192x64.rank)
  bcast_S1x64_S192x64_0_1 : S1x64.BroadcastsInDim S192x64 (![0, 1] : Fin 2 → Fin S192x64.rank)
  bcast_S160_S160x1_0 : S160.BroadcastsInDim S160x1 (![0] : Fin 1 → Fin S160x1.rank)
  bcast_S_S160x1 : S_.BroadcastsInDim S160x1 (![] : Fin 0 → Fin S160x1.rank)
  bcast_S32_S1x32_1 : S32.BroadcastsInDim S1x32 (![1] : Fin 1 → Fin S1x32.rank)
  bcast_S160x1_S160x32_0_1 : S160x1.BroadcastsInDim S160x32 (![0, 1] : Fin 2 → Fin S160x32.rank)
  bcast_S1x32_S160x32_0_1 : S1x32.BroadcastsInDim S160x32 (![0, 1] : Fin 2 → Fin S160x32.rank)
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  shapeCasts_S512x256_S1x512x256 : S512x256.ShapeCasts S1x512x256
  inb_S1x512x97_S1x512x97_0_0_0 : ∀ a, (![0, 0, 0] : Fin 3 → Nat) a + S1x512x97.size a ≤ S1x512x97.size a
  h_S1x512x97 : 0 < S1x512x97.numel
  shapeCasts_S1x512x97_S512x97 : S1x512x97.ShapeCasts S512x97
  shapeCasts_S512x97_S1x512x97 : S512x97.ShapeCasts S1x512x97
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  iota_S1x512_d1_w32 : S1x512.Iotas .tc 32 [1]
  broadcasts_S1000x1_S1000x512 : S1000x1.Broadcasts S1000x512
  broadcasts_S1x512_S1000x512 : S1x512.Broadcasts S1000x512
  natLt_1_32 : 1 < 32
  bitsLt_bf16_f32 : FTy.bits .bf16 < FTy.bits .f32
  inb_S1000x480_S1000x480_0_0 : ∀ a, (![0, 0] : Fin 2 → Nat) a + S1000x480.size a ≤ S1000x480.size a
  h_S1000x480 : 0 < S1000x480.numel
  slices_S1000x480_o0_0_S1000x128 : S1000x480.Slices ![0, 0] S1000x128
  slices_S1000x480_o0_128_S1000x192 : S1000x480.Slices ![0, 128] S1000x192
  slices_S1000x480_o0_320_S1000x160 : S1000x480.Slices ![0, 320] S1000x160
  inb_S192x64_S192x64_0_0 : ∀ a, (![0, 0] : Fin 2 → Nat) a + S192x64.size a ≤ S192x64.size a
  h_S192x64 : 0 < S192x64.numel
  shapeCasts_S192x64_S192x64 : S192x64.ShapeCasts S192x64
  inb_S160x32_S160x32_0_0 : ∀ a, (![0, 0] : Fin 2 → Nat) a + S160x32.size a ≤ S160x32.size a
  h_S160x32 : 0 < S160x32.numel
  shapeCasts_S160x32_S160x32 : S160x32.ShapeCasts S160x32
  concatenates_S1000x128_S1000x128_S1000x256_d1 : Shape.Concatenates [S1000x128, S1000x128] S1000x256 1
  concatenates_S1000x64_S1000x32_S1000x1_S1000x97_d1 : Shape.Concatenates [S1000x64, S1000x32, S1000x1] S1000x97 1
  reducesTo_S2x512x256_S512x256_d0 : S2x512x256.ReducesTo [0] S512x256
  h_S_ : 0 < S_.numel
  reducesTo_S2x512x97_S512x97_d0 : S2x512x97.ReducesTo [0] S512x97
  slices_S512x256_S512x128_0_0 : S512x256.Slices ![0, 0] S512x128
  slices_S512x256_S512x128_0_128 : S512x256.Slices ![0, 128] S512x128
  slices_S512x97_S512x64_0_0 : S512x97.Slices ![0, 0] S512x64
  slices_S512x97_S512x32_0_64 : S512x97.Slices ![0, 64] S512x32
  slices_S512x97_S512x1_0_96 : S512x97.Slices ![0, 96] S512x1
  bcast_S_S512x1 : S_.BroadcastsInDim S512x1 (![] : Fin 0 → Fin S512x1.rank)
  bcast_S512x1_S512x128_0_1 : S512x1.BroadcastsInDim S512x128 (![0, 1] : Fin 2 → Fin S512x128.rank)
  bcast_S512x1_S512x64_0_1 : S512x1.BroadcastsInDim S512x64 (![0, 1] : Fin 2 → Fin S512x64.rank)
  bcast_S512x1_S512x32_0_1 : S512x1.BroadcastsInDim S512x32 (![0, 1] : Fin 2 → Fin S512x32.rank)
  concatenates_S512x128_S512x64_S512x32_S512x224_d1 : Shape.Concatenates [S512x128, S512x64, S512x32] S512x224 1
  bcast_S_S512x224 : S_.BroadcastsInDim S512x224 (![] : Fin 0 → Fin S512x224.rank)
  bcast_S224_S1x224_1 : S224.BroadcastsInDim S1x224 (![1] : Fin 1 → Fin S1x224.rank)
  bcast_S1x224_S512x224_0_1 : S1x224.BroadcastsInDim S512x224 (![0, 1] : Fin 2 → Fin S512x224.rank)
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S512x224_S512x224_0_0 : ∀ a, (![0, 0] : Fin 2 → Nat) a + S512x224.size a ≤ S512x224.size a
  h_S512x224 : 0 < S512x224.numel
  shapeCasts_S512x224_S512x224 : S512x224.ShapeCasts S512x224
  slices_S1000x224_o0_0_S1000x128 : S1000x224.Slices ![0, 0] S1000x128
  slices_S1000x224_o0_128_S1000x64 : S1000x224.Slices ![0, 128] S1000x64
  slices_S1000x224_o0_192_S1000x32 : S1000x224.Slices ![0, 192] S1000x32
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  inb_S1000x480_S1000x128_0_0 : ∀ a, (![0, 0] : Fin 2 → Nat) a + S1000x128.size a ≤ S1000x480.size a
  h_S1000x128 : 0 < S1000x128.numel
  inb_S1000x480_S1000x192_0_128 : ∀ a, (![0, 128] : Fin 2 → Nat) a + S1000x192.size a ≤ S1000x480.size a
  h_S1000x192 : 0 < S1000x192.numel
  inb_S1000x480_S1000x160_0_320 : ∀ a, (![0, 320] : Fin 2 → Nat) a + S1000x160.size a ≤ S1000x480.size a
  h_S1000x160 : 0 < S1000x160.numel
  dot_S1000x192_S192x64_S1000x64_1_0_0_1_n_n_wf : DotDims.WF S1000x192 S192x64 S1000x64 [1] [0] [0] [1] [] []
  dot_S1000x160_S160x32_S1000x32_1_0_0_1_n_n_wf : DotDims.WF S1000x160 S160x32 S1000x32 [1] [0] [0] [1] [] []
  dot_S1000x512_S1000x256_S512x256_0_0_1_1_n_n_wf : DotDims.WF S1000x512 S1000x256 S512x256 [0] [0] [1] [1] [] []
  dot_S1000x512_S1000x97_S512x97_0_0_1_1_n_n_wf : DotDims.WF S1000x512 S1000x97 S512x97 [0] [0] [1] [1] [] []
  dot_S1000x512_S512x128_S1000x128_1_0_0_1_n_n_wf : DotDims.WF S1000x512 S512x128 S1000x128 [1] [0] [0] [1] [] []
  dot_S1000x512_S512x224_S1000x224_1_0_0_1_n_n_wf : DotDims.WF S1000x512 S512x224 S1000x224 [1] [0] [0] [1] [] []
  dot_S1000x64_S192x64_S1000x192_1_1_0_0_n_n_wf : DotDims.WF S1000x64 S192x64 S1000x192 [1] [1] [0] [0] [] []
  dot_S1000x32_S160x32_S1000x160_1_1_0_0_n_n_wf : DotDims.WF S1000x32 S160x32 S1000x160 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x1.size a ≤ S200000x1.size a
  hwx0_0 : ∀ i : grid0.Coords, EltTy.bits .i32 = 32 ∨ (Rect.block (s := S200000x1) S1000x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x480.size a ≤ S200000x480.size a
  hwx0_1 : ∀ i : grid0.Coords, EltTy.bits .f32 = 32 ∨ (Rect.block (s := S200000x480) S1000x480.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S192x64.size a ≤ S192x64.size a
  hwx0_2 : ∀ i : grid0.Coords, EltTy.bits .bf16 = 32 ∨ (Rect.block (s := S192x64) S192x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S160x32.size a ≤ S160x32.size a
  hwx0_3 : ∀ i : grid0.Coords, EltTy.bits .bf16 = 32 ∨ (Rect.block (s := S160x32) S160x32.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x256.size a ≤ S2x512x256.size a
  hwx0_4 : ∀ i : grid0.Coords, EltTy.bits .f32 = 32 ∨ (Rect.block (s := S2x512x256) S1x512x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x97.size a ≤ S2x512x97.size a
  hwx0_5 : ∀ i : grid0.Coords, EltTy.bits .f32 = 32 ∨ (Rect.block (s := S2x512x97) S1x512x97.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x1.size a ≤ S200000x1.size a
  hwx1_0 : ∀ i : grid1.Coords, EltTy.bits .i32 = 32 ∨ (Rect.block (s := S200000x1) S1000x1.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x480.size a ≤ S200000x480.size a
  hwx1_1 : ∀ i : grid1.Coords, EltTy.bits .f32 = 32 ∨ (Rect.block (s := S200000x480) S1000x480.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x128.size a ≤ S512x128.size a
  hwx1_2 : ∀ i : grid1.Coords, EltTy.bits .f32 = 32 ∨ (Rect.block (s := S512x128) S512x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x224.size a ≤ S512x224.size a
  hwx1_3 : ∀ i : grid1.Coords, EltTy.bits .f32 = 32 ∨ (Rect.block (s := S512x224) S512x224.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S192x64.size a ≤ S192x64.size a
  hwx1_5 : ∀ i : grid1.Coords, EltTy.bits .bf16 = 32 ∨ (Rect.block (s := S192x64) S192x64.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S160x32.size a ≤ S160x32.size a
  hwx1_6 : ∀ i : grid1.Coords, EltTy.bits .bf16 = 32 ∨ (Rect.block (s := S160x32) S160x32.size (cc1_transform_6 i) (hinb1_6 i)).WholeWords (EltTy.packing .bf16)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1000x480.size a ≤ S200000x480.size a
  hwx1_7 : ∀ i : grid1.Coords, EltTy.bits .f32 = 32 ∨ (Rect.block (s := S200000x480) S1000x480.size (cc1_transform_7 i) (hinb1_7 i)).WholeWords (EltTy.packing .f32)

variable [Facts₀]

def dot_S1000x192_S192x64_S1000x64_1_0_0_1_n_n : DotDims S1000x192 S192x64 S1000x64 where
  lhsContracting := [1]
  rhsContracting := [0]
  lhsNonContracting := [0]
  rhsNonContracting := [1]
  lhsBatch := []
  rhsBatch := []
  wf := dot_S1000x192_S192x64_S1000x64_1_0_0_1_n_n_wf
def dot_S1000x160_S160x32_S1000x32_1_0_0_1_n_n : DotDims S1000x160 S160x32 S1000x32 where
  lhsContracting := [1]
  rhsContracting := [0]
  lhsNonContracting := [0]
  rhsNonContracting := [1]
  lhsBatch := []
  rhsBatch := []
  wf := dot_S1000x160_S160x32_S1000x32_1_0_0_1_n_n_wf
def dot_S1000x512_S1000x256_S512x256_0_0_1_1_n_n : DotDims S1000x512 S1000x256 S512x256 where
  lhsContracting := [0]
  rhsContracting := [0]
  lhsNonContracting := [1]
  rhsNonContracting := [1]
  lhsBatch := []
  rhsBatch := []
  wf := dot_S1000x512_S1000x256_S512x256_0_0_1_1_n_n_wf
def dot_S1000x512_S1000x97_S512x97_0_0_1_1_n_n : DotDims S1000x512 S1000x97 S512x97 where
  lhsContracting := [0]
  rhsContracting := [0]
  lhsNonContracting := [1]
  rhsNonContracting := [1]
  lhsBatch := []
  rhsBatch := []
  wf := dot_S1000x512_S1000x97_S512x97_0_0_1_1_n_n_wf
def dot_S1000x512_S512x128_S1000x128_1_0_0_1_n_n : DotDims S1000x512 S512x128 S1000x128 where
  lhsContracting := [1]
  rhsContracting := [0]
  lhsNonContracting := [0]
  rhsNonContracting := [1]
  lhsBatch := []
  rhsBatch := []
  wf := dot_S1000x512_S512x128_S1000x128_1_0_0_1_n_n_wf
def dot_S1000x512_S512x224_S1000x224_1_0_0_1_n_n : DotDims S1000x512 S512x224 S1000x224 where
  lhsContracting := [1]
  rhsContracting := [0]
  lhsNonContracting := [0]
  rhsNonContracting := [1]
  lhsBatch := []
  rhsBatch := []
  wf := dot_S1000x512_S512x224_S1000x224_1_0_0_1_n_n_wf
def dot_S1000x64_S192x64_S1000x192_1_1_0_0_n_n : DotDims S1000x64 S192x64 S1000x192 where
  lhsContracting := [1]
  rhsContracting := [1]
  lhsNonContracting := [0]
  rhsNonContracting := [0]
  lhsBatch := []
  rhsBatch := []
  wf := dot_S1000x64_S192x64_S1000x192_1_1_0_0_n_n_wf
def dot_S1000x32_S160x32_S1000x160_1_1_0_0_n_n : DotDims S1000x32 S160x32 S1000x160 where
  lhsContracting := [1]
  rhsContracting := [1]
  lhsNonContracting := [0]
  rhsNonContracting := [0]
  lhsBatch := []
  rhsBatch := []
  wf := dot_S1000x32_S160x32_S1000x160_1_1_0_0_n_n_wf

abbrev win0_0 : Pipeline.Window sig grid0 :=
  Pipeline.Window.ofSpec (Memref.whole main_v1) S1000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1000x480.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S192x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S160x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21_0) S1x512x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v21_1) S1x512x97.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v1) S1000x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S1000x480.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v32) S512x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S512x224.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v2) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v11) S192x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v20) S160x32.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v49) S1000x480.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S200000x480 : Shape := ⟨2, ![200000, 480]⟩
abbrev S224 : Shape := ⟨1, ![224]⟩
abbrev S128 : Shape := ⟨1, ![128]⟩
abbrev S200000 : Shape := ⟨1, ![200000]⟩
abbrev S_ : Shape := ⟨0, ![]⟩
abbrev S512 : Shape := ⟨1, ![512]⟩
abbrev S200000x1 : Shape := ⟨2, ![200000, 1]⟩
abbrev S200000x128 : Shape := ⟨2, ![200000, 128]⟩
abbrev S200000x128x1 : Shape := ⟨3, ![200000, 128, 1]⟩
abbrev S512x128 : Shape := ⟨2, ![512, 128]⟩
abbrev S512x1 : Shape := ⟨2, ![512, 1]⟩
abbrev S1x128 : Shape := ⟨2, ![1, 128]⟩
abbrev S1x128x1 : Shape := ⟨3, ![1, 128, 1]⟩
abbrev S200000x192 : Shape := ⟨2, ![200000, 192]⟩
abbrev S200000x64x3 : Shape := ⟨3, ![200000, 64, 3]⟩
abbrev S200000x64 : Shape := ⟨2, ![200000, 64]⟩
abbrev S512x64 : Shape := ⟨2, ![512, 64]⟩
abbrev S64 : Shape := ⟨1, ![64]⟩
abbrev S1x64 : Shape := ⟨2, ![1, 64]⟩
abbrev S200000x64x1 : Shape := ⟨3, ![200000, 64, 1]⟩
abbrev S200000x160 : Shape := ⟨2, ![200000, 160]⟩
abbrev S200000x32x5 : Shape := ⟨3, ![200000, 32, 5]⟩
abbrev S200000x32 : Shape := ⟨2, ![200000, 32]⟩
abbrev S512x32 : Shape := ⟨2, ![512, 32]⟩
abbrev S32 : Shape := ⟨1, ![32]⟩
abbrev S1x32 : Shape := ⟨2, ![1, 32]⟩
abbrev S200000x32x1 : Shape := ⟨3, ![200000, 32, 1]⟩

abbrev nBuf : Space → Nat
  | .hbm => 149
  | .vmem => 0
  | .smem => 0
  | _ => 0

abbrev hbmTy0_0 (i : Nat) : BufTy := match i % 128 with
  | 0 => ⟨S200000x480, .f32⟩
  | 1 => ⟨S224, .f32⟩
  | 2 => ⟨S128, .f32⟩
  | 3 => ⟨S200000, .i32⟩
  | 4 => ⟨S_, .f32⟩
  | 5 => ⟨S200000, .f32⟩
  | 6 => ⟨S_, .f32⟩
  | 7 => ⟨S512, .f32⟩
  | 8 => ⟨S200000x1, .i32⟩
  | 9 => ⟨S512, .f32⟩
  | 10 => ⟨S_, .f32⟩
  | 11 => ⟨S512, .f32⟩
  | 12 => ⟨S512, .f32⟩
  | 13 => ⟨S200000x128, .f32⟩
  | 14 => ⟨S200000x128x1, .f32⟩
  | 15 => ⟨S200000x128, .f32⟩
  | 16 => ⟨S_, .f32⟩
  | 17 => ⟨S512x128, .f32⟩
  | 18 => ⟨S200000x1, .i32⟩
  | 19 => ⟨S512x128, .f32⟩
  | 20 => ⟨S512x1, .f32⟩
  | 21 => ⟨S512x128, .f32⟩
  | 22 => ⟨S512x128, .f32⟩
  | 23 => ⟨S_, .i32⟩
  | 24 => ⟨S200000, .i32⟩
  | 25 => ⟨S200000, .i1⟩
  | 26 => ⟨S_, .i32⟩
  | 27 => ⟨S200000, .i32⟩
  | 28 => ⟨S200000, .i32⟩
  | 29 => ⟨S200000, .i32⟩
  | 30 => ⟨S200000x1, .i32⟩
  | 31 => ⟨S200000x128, .f32⟩
  | 32 => ⟨S200000x128x1, .f32⟩
  | 33 => ⟨S200000x128x1, .f32⟩
  | 34 => ⟨S200000x128x1, .f32⟩
  | 35 => ⟨S_, .f32⟩
  | 36 => ⟨S200000x128, .f32⟩
  | 37 => ⟨S_, .f32⟩
  | 38 => ⟨S200000x128, .f32⟩
  | 39 => ⟨S200000x128, .f32⟩
  | 40 => ⟨S_, .f32⟩
  | 41 => ⟨S512x128, .f32⟩
  | 42 => ⟨S200000x1, .i32⟩
  | 43 => ⟨S512x128, .f32⟩
  | 44 => ⟨S512x1, .f32⟩
  | 45 => ⟨S512x128, .f32⟩
  | 46 => ⟨S512x128, .f32⟩
  | 47 => ⟨S_, .f32⟩
  | 48 => ⟨S512x128, .f32⟩
  | 49 => ⟨S512x128, .f32⟩
  | 50 => ⟨S_, .f32⟩
  | 51 => ⟨S512x128, .f32⟩
  | 52 => ⟨S512x128, .f32⟩
  | 53 => ⟨S128, .f32⟩
  | 54 => ⟨S1x128, .f32⟩
  | 55 => ⟨S512x128, .f32⟩
  | 56 => ⟨S512x128, .f32⟩
  | 57 => ⟨S_, .i32⟩
  | 58 => ⟨S200000, .i32⟩
  | 59 => ⟨S200000, .i1⟩
  | 60 => ⟨S_, .i32⟩
  | 61 => ⟨S200000, .i32⟩
  | 62 => ⟨S200000, .i32⟩
  | 63 => ⟨S200000, .i32⟩
  | 64 => ⟨S200000x1, .i32⟩
  | 65 => ⟨S200000x128, .f32⟩
  | 66 => ⟨S200000x128x1, .f32⟩
  | 67 => ⟨S200000x128x1, .f32⟩
  | 68 => ⟨S1x128x1, .f32⟩
  | 69 => ⟨S200000x128x1, .f32⟩
  | 70 => ⟨S200000x128x1, .f32⟩
  | 71 => ⟨S200000x128, .f32⟩
  | 72 => ⟨S200000x192, .f32⟩
  | 73 => ⟨S200000x64x3, .f32⟩
  | 74 => ⟨S200000x64x3, .f32⟩
  | 75 => ⟨S_, .f32⟩
  | 76 => ⟨S200000x64, .f32⟩
  | 77 => ⟨S_, .f32⟩
  | 78 => ⟨S200000x64, .f32⟩
  | 79 => ⟨S200000x64, .f32⟩
  | 80 => ⟨S_, .f32⟩
  | 81 => ⟨S512x64, .f32⟩
  | 82 => ⟨S200000x1, .i32⟩
  | 83 => ⟨S512x64, .f32⟩
  | 84 => ⟨S512x1, .f32⟩
  | 85 => ⟨S512x64, .f32⟩
  | 86 => ⟨S512x64, .f32⟩
  | 87 => ⟨S_, .f32⟩
  | 88 => ⟨S512x64, .f32⟩
  | 89 => ⟨S512x64, .f32⟩
  | 90 => ⟨S_, .f32⟩
  | 91 => ⟨S512x64, .f32⟩
  | 92 => ⟨S512x64, .f32⟩
  | 93 => ⟨S64, .f32⟩
  | 94 => ⟨S1x64, .f32⟩
  | 95 => ⟨S512x64, .f32⟩
  | 96 => ⟨S512x64, .f32⟩
  | 97 => ⟨S_, .i32⟩
  | 98 => ⟨S200000, .i32⟩
  | 99 => ⟨S200000, .i1⟩
  | 100 => ⟨S_, .i32⟩
  | 101 => ⟨S200000, .i32⟩
  | 102 => ⟨S200000, .i32⟩
  | 103 => ⟨S200000, .i32⟩
  | 104 => ⟨S200000x1, .i32⟩
  | 105 => ⟨S200000x64, .f32⟩
  | 106 => ⟨S200000x64x1, .f32⟩
  | 107 => ⟨S200000x64x3, .f32⟩
  | 108 => ⟨S200000x64x3, .f32⟩
  | 109 => ⟨S200000x192, .f32⟩
  | 110 => ⟨S200000x160, .f32⟩
  | 111 => ⟨S200000x32x5, .f32⟩
  | 112 => ⟨S200000x32x5, .f32⟩
  | 113 => ⟨S_, .f32⟩
  | 114 => ⟨S200000x32, .f32⟩
  | 115 => ⟨S_, .f32⟩
  | 116 => ⟨S200000x32, .f32⟩
  | 117 => ⟨S200000x32, .f32⟩
  | 118 => ⟨S_, .f32⟩
  | 119 => ⟨S512x32, .f32⟩
  | 120 => ⟨S200000x1, .i32⟩
  | 121 => ⟨S512x32, .f32⟩
  | 122 => ⟨S512x1, .f32⟩
  | 123 => ⟨S512x32, .f32⟩
  | 124 => ⟨S512x32, .f32⟩
  | 125 => ⟨S_, .f32⟩
  | 126 => ⟨S512x32, .f32⟩
  | 127 => ⟨S512x32, .f32⟩
  | _ => ⟨S200000x480, .f32⟩

abbrev hbmTy0_1 (i : Nat) : BufTy := match i % 128 with
  | 0 => ⟨S_, .f32⟩
  | 1 => ⟨S512x32, .f32⟩
  | 2 => ⟨S512x32, .f32⟩
  | 3 => ⟨S32, .f32⟩
  | 4 => ⟨S1x32, .f32⟩
  | 5 => ⟨S512x32, .f32⟩
  | 6 => ⟨S512x32, .f32⟩
  | 7 => ⟨S_, .i32⟩
  | 8 => ⟨S200000, .i32⟩
  | 9 => ⟨S200000, .i1⟩
  | 10 => ⟨S_, .i32⟩
  | 11 => ⟨S200000, .i32⟩
  | 12 => ⟨S200000, .i32⟩
  | 13 => ⟨S200000, .i32⟩
  | 14 => ⟨S200000x1, .i32⟩
  | 15 => ⟨S200000x32, .f32⟩
  | 16 => ⟨S200000x32x1, .f32⟩
  | 17 => ⟨S200000x32x5, .f32⟩
  | 18 => ⟨S200000x32x5, .f32⟩
  | 19 => ⟨S200000x160, .f32⟩
  | 20 => ⟨S200000x480, .f32⟩
  | _ => ⟨S200000x480, .f32⟩

abbrev hbmTy (i : Nat) : BufTy := match i / 128 with
  | 0 => hbmTy0_0 i
  | 1 => hbmTy0_1 i
  | _ => ⟨S200000x480, .f32⟩

abbrev bufTy : (tb : Table) → Fin (tcTables nBuf tb) → BufTy
  | .hbm, ⟨i, _⟩ => hbmTy i
  | _, _ => ⟨S200000x480, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c : Ref sig .tc := ⟨.hbm, 23, rfl⟩
abbrev main_v15 : Ref sig .tc := ⟨.hbm, 24, rfl⟩
abbrev main_v16 : Ref sig .tc := ⟨.hbm, 25, rfl⟩
abbrev main_c_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_c_9 : Ref sig .tc := ⟨.hbm, 57, rfl⟩
abbrev main_v42 : Ref sig .tc := ⟨.hbm, 58, rfl⟩
abbrev main_v43 : Ref sig .tc := ⟨.hbm, 59, rfl⟩
abbrev main_c_10 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_11 : Ref sig .tc := ⟨.hbm, 75, rfl⟩
abbrev main_v58 : Ref sig .tc := ⟨.hbm, 76, rfl⟩
abbrev main_cst_12 : Ref sig .tc := ⟨.hbm, 77, rfl⟩
abbrev main_v59 : Ref sig .tc := ⟨.hbm, 78, rfl⟩
abbrev main_v60 : Ref sig .tc := ⟨.hbm, 79, rfl⟩
abbrev main_cst_13 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_cst_14 : Ref sig .tc := ⟨.hbm, 87, rfl⟩
abbrev main_v67 : Ref sig .tc := ⟨.hbm, 88, rfl⟩
abbrev main_v68 : Ref sig .tc := ⟨.hbm, 89, rfl⟩
abbrev main_cst_15 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_c_16 : Ref sig .tc := ⟨.hbm, 97, rfl⟩
abbrev main_v75 : Ref sig .tc := ⟨.hbm, 98, rfl⟩
abbrev main_v76 : Ref sig .tc := ⟨.hbm, 99, rfl⟩
abbrev main_c_17 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_cst_18 : Ref sig .tc := ⟨.hbm, 113, rfl⟩
abbrev main_v89 : Ref sig .tc := ⟨.hbm, 114, rfl⟩
abbrev main_cst_19 : Ref sig .tc := ⟨.hbm, 115, rfl⟩
abbrev main_v90 : Ref sig .tc := ⟨.hbm, 116, rfl⟩
abbrev main_v91 : Ref sig .tc := ⟨.hbm, 117, rfl⟩
abbrev main_cst_20 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_cst_21 : Ref sig .tc := ⟨.hbm, 125, rfl⟩
abbrev main_v98 : Ref sig .tc := ⟨.hbm, 126, rfl⟩
abbrev main_v99 : Ref sig .tc := ⟨.hbm, 127, rfl⟩
abbrev main_cst_22 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_c_23 : Ref sig .tc := ⟨.hbm, 135, rfl⟩
abbrev main_v106 : Ref sig .tc := ⟨.hbm, 136, rfl⟩
abbrev main_v107 : Ref sig .tc := ⟨.hbm, 137, rfl⟩
abbrev main_c_24 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩

abbrev nD : Nat := 1
abbrev τ : Topo := Topo.v7x

variable {F : FTy → Type} [FloatOps F]

class Facts₀ : Prop where
  bcast_S_S200000 : S_.BroadcastsInDim S200000 (![] : Fin 0 → Fin S200000.rank)
  bcast_S_S512 : S_.BroadcastsInDim S512 (![] : Fin 0 → Fin S512.rank)
  bcast_S200000_S200000x1_0 : S200000.BroadcastsInDim S200000x1 (![0] : Fin 1 → Fin S200000x1.rank)
  slices_S200000x480_S200000x128_0_0 : S200000x480.Slices ![0, 0] S200000x128
  shapeCasts_S200000x128_S200000x128x1 : S200000x128.ShapeCasts S200000x128x1
  shapeCasts_S200000x128x1_S200000x128 : S200000x128x1.ShapeCasts S200000x128
  bcast_S_S512x128 : S_.BroadcastsInDim S512x128 (![] : Fin 0 → Fin S512x128.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S200000x128_S200000x128x1_0_1 : S200000x128.BroadcastsInDim S200000x128x1 (![0, 1] : Fin 2 → Fin S200000x128x1.rank)
  reducesTo_S200000x128x1_S200000x128_d2 : S200000x128x1.ReducesTo [2] S200000x128
  h_S_ : 0 < S_.numel
  bcast_S_S200000x128 : S_.BroadcastsInDim S200000x128 (![] : Fin 0 → Fin S200000x128.rank)
  slices_S224_S128_0 : S224.Slices ![0] S128
  bcast_S128_S1x128_1 : S128.BroadcastsInDim S1x128 (![1] : Fin 1 → Fin S1x128.rank)
  bcast_S1x128_S512x128_0_1 : S1x128.BroadcastsInDim S512x128 (![0, 1] : Fin 2 → Fin S512x128.rank)
  bcast_S128_S1x128x1_1 : S128.BroadcastsInDim S1x128x1 (![1] : Fin 1 → Fin S1x128x1.rank)
  bcast_S1x128x1_S200000x128x1_0_1_2 : S1x128x1.BroadcastsInDim S200000x128x1 (![0, 1, 2] : Fin 3 → Fin S200000x128x1.rank)
  slices_S200000x480_S200000x192_0_128 : S200000x480.Slices ![0, 128] S200000x192
  shapeCasts_S200000x192_S200000x64x3 : S200000x192.ShapeCasts S200000x64x3
  reducesTo_S200000x64x3_S200000x64_d2 : S200000x64x3.ReducesTo [2] S200000x64
  bcast_S_S200000x64 : S_.BroadcastsInDim S200000x64 (![] : Fin 0 → Fin S200000x64.rank)
  bcast_S_S512x64 : S_.BroadcastsInDim S512x64 (![] : Fin 0 → Fin S512x64.rank)
  bcast_S512x1_S512x64_0_1 : S512x1.BroadcastsInDim S512x64 (![0, 1] : Fin 2 → Fin S512x64.rank)
  slices_S224_S64_128 : S224.Slices ![128] S64
  bcast_S64_S1x64_1 : S64.BroadcastsInDim S1x64 (![1] : Fin 1 → Fin S1x64.rank)
  bcast_S1x64_S512x64_0_1 : S1x64.BroadcastsInDim S512x64 (![0, 1] : Fin 2 → Fin S512x64.rank)
  bcast_S200000x64_S200000x64x1_0_1 : S200000x64.BroadcastsInDim S200000x64x1 (![0, 1] : Fin 2 → Fin S200000x64x1.rank)
  bcast_S200000x64x1_S200000x64x3_0_1_2 : S200000x64x1.BroadcastsInDim S200000x64x3 (![0, 1, 2] : Fin 3 → Fin S200000x64x3.rank)
  shapeCasts_S200000x64x3_S200000x192 : S200000x64x3.ShapeCasts S200000x192
  slices_S200000x480_S200000x160_0_320 : S200000x480.Slices ![0, 320] S200000x160
  shapeCasts_S200000x160_S200000x32x5 : S200000x160.ShapeCasts S200000x32x5
  reducesTo_S200000x32x5_S200000x32_d2 : S200000x32x5.ReducesTo [2] S200000x32
  bcast_S_S200000x32 : S_.BroadcastsInDim S200000x32 (![] : Fin 0 → Fin S200000x32.rank)
  bcast_S_S512x32 : S_.BroadcastsInDim S512x32 (![] : Fin 0 → Fin S512x32.rank)
  bcast_S512x1_S512x32_0_1 : S512x1.BroadcastsInDim S512x32 (![0, 1] : Fin 2 → Fin S512x32.rank)
  slices_S224_S32_192 : S224.Slices ![192] S32
  bcast_S32_S1x32_1 : S32.BroadcastsInDim S1x32 (![1] : Fin 1 → Fin S1x32.rank)
  bcast_S1x32_S512x32_0_1 : S1x32.BroadcastsInDim S512x32 (![0, 1] : Fin 2 → Fin S512x32.rank)
  bcast_S200000x32_S200000x32x1_0_1 : S200000x32.BroadcastsInDim S200000x32x1 (![0, 1] : Fin 2 → Fin S200000x32x1.rank)
  bcast_S200000x32x1_S200000x32x5_0_1_2 : S200000x32x1.BroadcastsInDim S200000x32x5 (![0, 1, 2] : Fin 3 → Fin S200000x32x5.rank)
  shapeCasts_S200000x32x5_S200000x160 : S200000x32x5.ShapeCasts S200000x160
  concatenates_S200000x128_S200000x192_S200000x160_S200000x480_d1 : Shape.Concatenates [S200000x128, S200000x192, S200000x160] S200000x480 1
  scatter_S512_S200000x1_S200000_n_0_0_1_wf : ScatterDims.WF S512 S200000x1 S200000 [] [0] [0] 1
  scatter_S512x128_S200000x1_S200000x128_1_0_0_1_wf : ScatterDims.WF S512x128 S200000x1 S200000x128 [1] [0] [0] 1
  gather_S512x128_S200000x1_S200000x128_1_0_n_n_0_1_1128_wf : GatherDims.WF S512x128 S200000x1 S200000x128 [1] [0] [] [0] [] 1 ![1, 128]
  scatter_S512x64_S200000x1_S200000x64_1_0_0_1_wf : ScatterDims.WF S512x64 S200000x1 S200000x64 [1] [0] [0] 1
  gather_S512x64_S200000x1_S200000x64_1_0_n_n_0_1_164_wf : GatherDims.WF S512x64 S200000x1 S200000x64 [1] [0] [] [0] [] 1 ![1, 64]
  scatter_S512x32_S200000x1_S200000x32_1_0_0_1_wf : ScatterDims.WF S512x32 S200000x1 S200000x32 [1] [0] [0] 1
  gather_S512x32_S200000x1_S200000x32_1_0_n_n_0_1_132_wf : GatherDims.WF S512x32 S200000x1 S200000x32 [1] [0] [] [0] [] 1 ![1, 32]

variable [Facts₀]

def scatter_S512_S200000x1_S200000_n_0_0_1 : ScatterDims S512 S200000x1 S200000 where
  updateWindowDims := []
  insertedWindowDims := [0]
  scatterDimsToOperandDims := [0]
  indexVectorDim := 1
  wf := scatter_S512_S200000x1_S200000_n_0_0_1_wf
def scatter_S512x128_S200000x1_S200000x128_1_0_0_1 : ScatterDims S512x128 S200000x1 S200000x128 where
  updateWindowDims := [1]
  insertedWindowDims := [0]
  scatterDimsToOperandDims := [0]
  indexVectorDim := 1
  wf := scatter_S512x128_S200000x1_S200000x128_1_0_0_1_wf
def gather_S512x128_S200000x1_S200000x128_1_0_n_n_0_1_1128 : GatherDims S512x128 S200000x1 S200000x128 where
  offsetDims := [1]
  collapsedSliceDims := [0]
  operandBatchingDims := []
  startIndicesBatchingDims := []
  startIndexMap := [0]
  indexVectorDim := 1
  sliceSizes := ![1, 128]
  wf := gather_S512x128_S200000x1_S200000x128_1_0_n_n_0_1_1128_wf
def scatter_S512x64_S200000x1_S200000x64_1_0_0_1 : ScatterDims S512x64 S200000x1 S200000x64 where
  updateWindowDims := [1]
  insertedWindowDims := [0]
  scatterDimsToOperandDims := [0]
  indexVectorDim := 1
  wf := scatter_S512x64_S200000x1_S200000x64_1_0_0_1_wf
def gather_S512x64_S200000x1_S200000x64_1_0_n_n_0_1_164 : GatherDims S512x64 S200000x1 S200000x64 where
  offsetDims := [1]
  collapsedSliceDims := [0]
  operandBatchingDims := []
  startIndicesBatchingDims := []
  startIndexMap := [0]
  indexVectorDim := 1
  sliceSizes := ![1, 64]
  wf := gather_S512x64_S200000x1_S200000x64_1_0_n_n_0_1_164_wf
def scatter_S512x32_S200000x1_S200000x32_1_0_0_1 : ScatterDims S512x32 S200000x1 S200000x32 where
  updateWindowDims := [1]
  insertedWindowDims := [0]
  scatterDimsToOperandDims := [0]
  indexVectorDim := 1
  wf := scatter_S512x32_S200000x1_S200000x32_1_0_0_1_wf
def gather_S512x32_S200000x1_S200000x32_1_0_n_n_0_1_132 : GatherDims S512x32 S200000x1 S200000x32 where
  offsetDims := [1]
  collapsedSliceDims := [0]
  operandBatchingDims := []
  startIndicesBatchingDims := []
  startIndexMap := [0]
  indexVectorDim := 1
  sliceSizes := ![1, 32]
  wf := gather_S512x32_S200000x1_S200000x32_1_0_n_n_0_1_132_wf

class Facts : Prop extends Facts₀ where

variable [Facts]
-- ==== Proof.K.R0.lean ====
/- Region 0 of the printed program (the reduction kernel on its 2 × 100 grid): the proof data of its pipeline and
   the body obligation, at any float instance and at any contents `V` of the TensorCore's buffers when the region is
   entered. The body has one conditional, on the second grid coordinate: at a point with `t % 100 = 0` it first
   zero-fills both output blocks; at every point it then reads the four input blocks, reads each output block and
   stores the block plus the point's product. So the two output blocks ACCUMULATE over the hundred points of a row of
   the grid: after a point of the first kind they hold that point's product over zero, after any other point what the
   point before left plus the point's product. -/
import proofs.«421439_j25340307046985_3_alg».proof.Proof.Gen.Kernel.Launch
import proofs.«421439_j25340307046985_3_alg».proof.Proof.Gen.Kernel.Skeleton
import proofs.«421439_j25340307046985_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's branch condition -/

/-- The condition of the body's one conditional, from the grid coordinates: the second coordinate is zero. -/
abbrev cond0_0 (i : grid0.Coords) : Prop := (Scalar.cmpi .ne (Scalar.extui (Scalar.cmpi .eq (BitVec.ofNat 32 (i 1).val) 0#32)) 0#32) = 1#1
/-- It holds at the first point of each row of the grid — decided over the grid. -/
theorem hcond0_0 : ∀ t : Fin cfg0.N, cond0_0 (grid0.coords t) ↔ t.val % 100 = 0 :=
  (by decide +kernel : ∀ t : Fin grid0.N, cond0_0 (grid0.coords t) ↔ t.val % 100 = 0)

/-! ## The staging memrefs at a point -/

/-- One staging buffer of each output window, through which its contents are stated (the choice does not matter:
    a covering list of pieces reads back the same through any whole view). -/
abbrev VO0_4 : View sig .tc .vmem S1x512x256 .f32 := (Memref.whole cc0_stg4_0 : Memref sig .tc .vmem S1x512x256 .f32).view
abbrev VO0_5 : View sig .tc .vmem S1x512x97 .f32 := (Memref.whole cc0_stg5_0 : Memref sig .tc .vmem S1x512x97 .f32).view
/-- Each window's current staging memref at point `t`, spelled as the pipeline passes it, and its wholeness. -/
abbrev ms0_0 (t : Fin cfg0.N) : Memref sig .tc .vmem S1000x1 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1000x480 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S192x64 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S160x32 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512x97 .f32 := win0_5.stage (cfg0.slots t 5)
abbrev hs0_5 (t : Fin cfg0.N) : (ms0_5 t).IsWhole := hstage0_5 ((cfg0.slots t 5).cast nbuf0_5)

/-! ## What an input's staging buffer holds when the body is called -/

/-- An input window's current staging buffer holds its block at every point, fetched there or not, for ANY proof
    data whose array is `V`'s (`hA`) and whose body leaves the block in place (`hafter`): unfetched, the block
    index has not moved; the windows are uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The kernel body on any staging memrefs: what each case's stores leave -/

set_option maxHeartbeats 1000000 in
/-- What the body's stores leave in each output's staging memref, as pieces (last first), AT A POINT WHOSE SECOND
    COORDINATE IS ZERO (the conditional taken), with the proof that on whole staging memrefs — the inputs' at their
    contents, the outputs' at anything — the body runs to the continuation holding the inputs' as they were and each
    output's buffer with its pieces written: the zero fill, then the zero-filled block read back plus the product. -/
noncomputable def kernelRun0_A (c : Dev nD) (i : grid0.Coords)
    (arg2 : Memref sig .tc .vmem S1000x1 .i32) (harg2 : arg2.IsWhole) (arg3 : Memref sig .tc .vmem S1000x480 .f32) (harg3 : arg3.IsWhole)
    (arg4 : Memref sig .tc .vmem S192x64 .bf16) (harg4 : arg4.IsWhole) (arg5 : Memref sig .tc .vmem S160x32 .bf16) (harg5 : arg5.IsWhole)
    (arg6 : Memref sig .tc .vmem S1x512x256 .f32) (harg6 : arg6.IsWhole) (arg7 : Memref sig .tc .vmem S1x512x97 .f32) (harg7 : arg7.IsWhole)
    (hc0 : cond0_0 i)
    (x0 : Vec F S1000x1 .i32) (x1 : Vec F S1000x480 .f32) (x2 : Vec F S192x64 .bf16) (x3 : Vec F S160x32 .bf16) :
    Σ' (L4 : List (View.Piece (Elt F) S1x512x256 .f32)), { L5 : List (View.Piece (Elt F) S1x512x97 .f32) //
      ∀ (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare x3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1
                ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f L5)) -∗ K ⟨⟩))
          ⊢ wp frame (wpE (defs₀ (F := F)) Variants.none c none) E (cc0_reduce_kernel i arg2 harg2 arg3 harg3 arg4 harg4 arg5 harg5 arg6 harg6 arg7 harg7) K } := by
  refine ⟨?_, ?_, fun E K => ?run⟩
  case run =>
    simp only [cc0_reduce_kernel_eq_skeleton]; unfold cc0_reduce_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; iexact H5

set_option maxHeartbeats 1000000 in
/-- What the body's stores leave in each output's staging memref, as pieces (last first), AT A POINT WHOSE SECOND
    COORDINATE IS NOT ZERO (the conditional not taken), with the proof that on whole staging memrefs — the inputs' at
    their contents, the two outputs' at their running contents `xo4`, `xo5` — the body runs to the continuation
    holding the inputs' as they were and each output's buffer with its piece written: the running block plus the
    point's product. -/
noncomputable def kernelRun0_B (c : Dev nD) (i : grid0.Coords)
    (arg2 : Memref sig .tc .vmem S1000x1 .i32) (harg2 : arg2.IsWhole) (arg3 : Memref sig .tc .vmem S1000x480 .f32) (harg3 : arg3.IsWhole)
    (arg4 : Memref sig .tc .vmem S192x64 .bf16) (harg4 : arg4.IsWhole) (arg5 : Memref sig .tc .vmem S160x32 .bf16) (harg5 : arg5.IsWhole)
    (arg6 : Memref sig .tc .vmem S1x512x256 .f32) (harg6 : arg6.IsWhole) (arg7 : Memref sig .tc .vmem S1x512x97 .f32) (harg7 : arg7.IsWhole)
    (hc0 : ¬cond0_0 i)
    (x0 : Vec F S1000x1 .i32) (x1 : Vec F S1000x480 .f32) (x2 : Vec F S192x64 .bf16) (x3 : Vec F S160x32 .bf16)
    (xo4 : Vec F S1x512x256 .f32) (xo5 : Vec F S1x512x97 .f32) :
    Σ' (L4 : List (View.Piece (Elt F) S1x512x256 .f32)), { L5 : List (View.Piece (Elt F) S1x512x97 .f32) //
      ∀ (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare xo4 ∗ owns (c : Thread nD τ) arg7 fullShare xo5
            ∗ (iprop(owns (c : Thread nD τ) arg2 fullShare x0 ∗ owns (c : Thread nD τ) arg3 fullShare x1
                ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f L5)) -∗ K ⟨⟩))
          ⊢ wp frame (wpE (defs₀ (F := F)) Variants.none c none) E (cc0_reduce_kernel i arg2 harg2 arg3 harg3 arg4 harg4 arg5 harg5 arg6 harg6 arg7 harg7) K } := by
  refine ⟨?_, ?_, fun E K => ?run⟩
  case run =>
    simp only [cc0_reduce_kernel_eq_skeleton]; unfold cc0_reduce_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; iexact H5

/-! ## What each case leaves in the outputs' buffers -/

/-- The first-in-row case's pieces for the first output tile its block (the zero fill and the accumulating store,
    each the whole block), so they cover it. -/
theorem cover0_A_4 (c : Dev nD) (i : grid0.Coords)
    (arg2 : Memref sig .tc .vmem S1000x1 .i32) (harg2 : arg2.IsWhole) (arg3 : Memref sig .tc .vmem S1000x480 .f32) (harg3 : arg3.IsWhole)
    (arg4 : Memref sig .tc .vmem S192x64 .bf16) (harg4 : arg4.IsWhole) (arg5 : Memref sig .tc .vmem S160x32 .bf16) (harg5 : arg5.IsWhole)
    (arg6 : Memref sig .tc .vmem S1x512x256 .f32) (harg6 : arg6.IsWhole) (arg7 : Memref sig .tc .vmem S1x512x97 .f32) (harg7 : arg7.IsWhole)
    (hc0 : cond0_0 i)
    (x0 : Vec F S1000x1 .i32) (x1 : Vec F S1000x480 .f32) (x2 : Vec F S192x64 .bf16) (x3 : Vec F S160x32 .bf16) (y : S1x512x256.Idx) :
    ∃ pc ∈ (kernelRun0_A c i arg2 harg2 arg3 harg3 arg4 harg4 arg5 harg5 arg6 harg6 arg7 harg7 hc0 x0 x1 x2 x3).1, y ∈ pc.1.set :=
  View.cover_of_tiledL (kernelRun0_A c i arg2 harg2 arg3 harg3 arg4 harg4 arg5 harg5 arg6 harg6 arg7 harg7 hc0 x0 x1 x2 x3).1 S1x512x256.size (by sl_kernel_rfl) y

/-- What the first-in-row case leaves in the first output's staging buffer: its pieces read back over junk. -/
def out0_A_4 (c : Dev nD) (i : grid0.Coords)
    (arg2 : Memref sig .tc .vmem S1000x1 .i32) (harg2 : arg2.IsWhole) (arg3 : Memref sig .tc .vmem S1000x480 .f32) (harg3 : arg3.IsWhole)
    (arg4 : Memref sig .tc .vmem S192x64 .bf16) (harg4 : arg4.IsWhole) (arg5 : Memref sig .tc .vmem S160x32 .bf16) (harg5 : arg5.IsWhole)
    (arg6 : Memref sig .tc .vmem S1x512x256 .f32) (harg6 : arg6.IsWhole) (arg7 : Memref sig .tc .vmem S1x512x97 .f32) (harg7 : arg7.IsWhole)
    (hc0 : cond0_0 i)
    (x0 : Vec F S1000x1 .i32) (x1 : Vec F S1000x480 .f32) (x2 : Vec F S192x64 .bf16) (x3 : Vec F S160x32 .bf16) : Vec F S1x512x256 .f32 :=
  VO0_4.read (Elt F) (VO0_4.writes (Elt F) VO0_4.junk (kernelRun0_A c i arg2 harg2 arg3 harg3 arg4 harg4 arg5 harg5 arg6 harg6 arg7 harg7 hc0 x0 x1 x2 x3).1)

/-- The first-in-row case's pieces for the second output cover its block. -/
theorem cover0_A_5 (c : Dev nD) (i : grid0.Coords)
    (arg2 : Memref sig .tc .vmem S1000x1 .i32) (harg2 : arg2.IsWhole) (arg3 : Memref sig .tc .vmem S1000x480 .f32) (harg3 : arg3.IsWhole)
    (arg4 : Memref sig .tc .vmem S192x64 .bf16) (harg4 : arg4.IsWhole) (arg5 : Memref sig .tc .vmem S160x32 .bf16) (harg5 : arg5.IsWhole)
    (arg6 : Memref sig .tc .vmem S1x512x256 .f32) (harg6 : arg6.IsWhole) (arg7 : Memref sig .tc .vmem S1x512x97 .f32) (harg7 : arg7.IsWhole)
    (hc0 : cond0_0 i)
    (x0 : Vec F S1000x1 .i32) (x1 : Vec F S1000x480 .f32) (x2 : Vec F S192x64 .bf16) (x3 : Vec F S160x32 .bf16) (y : S1x512x97.Idx) :
    ∃ pc ∈ (kernelRun0_A c i arg2 harg2 arg3 harg3 arg4 harg4 arg5 harg5 arg6 harg6 arg7 harg7 hc0 x0 x1 x2 x3).2.1, y ∈ pc.1.set :=
  View.cover_of_tiledL (kernelRun0_A c i arg2 harg2 arg3 harg3 arg4 harg4 arg5 harg5 arg6 harg6 arg7 harg7 hc0 x0 x1 x2 x3).2.1 S1x512x97.size (by sl_kernel_rfl) y

/-- What the first-in-row case leaves in the second output's staging buffer: its pieces read back over junk. -/
def out0_A_5 (c : Dev nD) (i : grid0.Coords)
    (arg2 : Memref sig .tc .vmem S1000x1 .i32) (harg2 : arg2.IsWhole) (arg3 : Memref sig .tc .vmem S1000x480 .f32) (harg3 : arg3.IsWhole)
    (arg4 : Memref sig .tc .vmem S192x64 .bf16) (harg4 : arg4.IsWhole) (arg5 : Memref sig .tc .vmem S160x32 .bf16) (harg5 : arg5.IsWhole)
    (arg6 : Memref sig .tc .vmem S1x512x256 .f32) (harg6 : arg6.IsWhole) (arg7 : Memref sig .tc .vmem S1x512x97 .f32) (harg7 : arg7.IsWhole)
    (hc0 : cond0_0 i)
    (x0 : Vec F S1000x1 .i32) (x1 : Vec F S1000x480 .f32) (x2 : Vec F S192x64 .bf16) (x3 : Vec F S160x32 .bf16) : Vec F S1x512x97 .f32 :=
  VO0_5.read (Elt F) (VO0_5.writes (Elt F) VO0_5.junk (kernelRun0_A c i arg2 harg2 arg3 harg3 arg4 harg4 arg5 harg5 arg6 harg6 arg7 harg7 hc0 x0 x1 x2 x3).2.1)

/-- The later-in-row case's piece for the first output (one store of the whole block) covers its block. -/
theorem cover0_B_4 (c : Dev nD) (i : grid0.Coords)
    (arg2 : Memref sig .tc .vmem S1000x1 .i32) (harg2 : arg2.IsWhole) (arg3 : Memref sig .tc .vmem S1000x480 .f32) (harg3 : arg3.IsWhole)
    (arg4 : Memref sig .tc .vmem S192x64 .bf16) (harg4 : arg4.IsWhole) (arg5 : Memref sig .tc .vmem S160x32 .bf16) (harg5 : arg5.IsWhole)
    (arg6 : Memref sig .tc .vmem S1x512x256 .f32) (harg6 : arg6.IsWhole) (arg7 : Memref sig .tc .vmem S1x512x97 .f32) (harg7 : arg7.IsWhole)
    (hc0 : ¬cond0_0 i)
    (x0 : Vec F S1000x1 .i32) (x1 : Vec F S1000x480 .f32) (x2 : Vec F S192x64 .bf16) (x3 : Vec F S160x32 .bf16)
    (xo4 : Vec F S1x512x256 .f32) (xo5 : Vec F S1x512x97 .f32) (y : S1x512x256.Idx) :
    ∃ pc ∈ (kernelRun0_B c i arg2 harg2 arg3 harg3 arg4 harg4 arg5 harg5 arg6 harg6 arg7 harg7 hc0 x0 x1 x2 x3 xo4 xo5).1, y ∈ pc.1.set :=
  View.cover_of_tiledL (kernelRun0_B c i arg2 harg2 arg3 harg3 arg4 harg4 arg5 harg5 arg6 harg6 arg7 harg7 hc0 x0 x1 x2 x3 xo4 xo5).1 S1x512x256.size (by sl_kernel_rfl) y

/-- What the later-in-row case leaves in the first output's staging buffer: its piece read back over junk. -/
def out0_B_4 (c : Dev nD) (i : grid0.Coords)
    (arg2 : Memref sig .tc .vmem S1000x1 .i32) (harg2 : arg2.IsWhole) (arg3 : Memref sig .tc .vmem S1000x480 .f32) (harg3 : arg3.IsWhole)
    (arg4 : Memref sig .tc .vmem S192x64 .bf16) (harg4 : arg4.IsWhole) (arg5 : Memref sig .tc .vmem S160x32 .bf16) (harg5 : arg5.IsWhole)
    (arg6 : Memref sig .tc .vmem S1x512x256 .f32) (harg6 : arg6.IsWhole) (arg7 : Memref sig .tc .vmem S1x512x97 .f32) (harg7 : arg7.IsWhole)
    (hc0 : ¬cond0_0 i)
    (x0 : Vec F S1000x1 .i32) (x1 : Vec F S1000x480 .f32) (x2 : Vec F S192x64 .bf16) (x3 : Vec F S160x32 .bf16)
    (xo4 : Vec F S1x512x256 .f32) (xo5 : Vec F S1x512x97 .f32) : Vec F S1x512x256 .f32 :=
  VO0_4.read (Elt F) (VO0_4.writes (Elt F) VO0_4.junk (kernelRun0_B c i arg2 harg2 arg3 harg3 arg4 harg4 arg5 harg5 arg6 harg6 arg7 harg7 hc0 x0 x1 x2 x3 xo4 xo5).1)

/-- The later-in-row case's piece for the second output covers its block. -/
theorem cover0_B_5 (c : Dev nD) (i : grid0.Coords)
    (arg2 : Memref sig .tc .vmem S1000x1 .i32) (harg2 : arg2.IsWhole) (arg3 : Memref sig .tc .vmem S1000x480 .f32) (harg3 : arg3.IsWhole)
    (arg4 : Memref sig .tc .vmem S192x64 .bf16) (harg4 : arg4.IsWhole) (arg5 : Memref sig .tc .vmem S160x32 .bf16) (harg5 : arg5.IsWhole)
    (arg6 : Memref sig .tc .vmem S1x512x256 .f32) (harg6 : arg6.IsWhole) (arg7 : Memref sig .tc .vmem S1x512x97 .f32) (harg7 : arg7.IsWhole)
    (hc0 : ¬cond0_0 i)
    (x0 : Vec F S1000x1 .i32) (x1 : Vec F S1000x480 .f32) (x2 : Vec F S192x64 .bf16) (x3 : Vec F S160x32 .bf16)
    (xo4 : Vec F S1x512x256 .f32) (xo5 : Vec F S1x512x97 .f32) (y : S1x512x97.Idx) :
    ∃ pc ∈ (kernelRun0_B c i arg2 harg2 arg3 harg3 arg4 harg4 arg5 harg5 arg6 harg6 arg7 harg7 hc0 x0 x1 x2 x3 xo4 xo5).2.1, y ∈ pc.1.set :=
  View.cover_of_tiledL (kernelRun0_B c i arg2 harg2 arg3 harg3 arg4 harg4 arg5 harg5 arg6 harg6 arg7 harg7 hc0 x0 x1 x2 x3 xo4 xo5).2.1 S1x512x97.size (by sl_kernel_rfl) y

/-- What the later-in-row case leaves in the second output's staging buffer: its piece read back over junk. -/
def out0_B_5 (c : Dev nD) (i : grid0.Coords)
    (arg2 : Memref sig .tc .vmem S1000x1 .i32) (harg2 : arg2.IsWhole) (arg3 : Memref sig .tc .vmem S1000x480 .f32) (harg3 : arg3.IsWhole)
    (arg4 : Memref sig .tc .vmem S192x64 .bf16) (harg4 : arg4.IsWhole) (arg5 : Memref sig .tc .vmem S160x32 .bf16) (harg5 : arg5.IsWhole)
    (arg6 : Memref sig .tc .vmem S1x512x256 .f32) (harg6 : arg6.IsWhole) (arg7 : Memref sig .tc .vmem S1x512x97 .f32) (harg7 : arg7.IsWhole)
    (hc0 : ¬cond0_0 i)
    (x0 : Vec F S1000x1 .i32) (x1 : Vec F S1000x480 .f32) (x2 : Vec F S192x64 .bf16) (x3 : Vec F S160x32 .bf16)
    (xo4 : Vec F S1x512x256 .f32) (xo5 : Vec F S1x512x97 .f32) : Vec F S1x512x97 .f32 :=
  VO0_5.read (Elt F) (VO0_5.writes (Elt F) VO0_5.junk (kernelRun0_B c i arg2 harg2 arg3 harg3 arg4 harg4 arg5 harg5 arg6 harg6 arg7 harg7 hc0 x0 x1 x2 x3 xo4 xo5).2.1)

/-! ## What the outputs hold after each point -/

/-- THE ACCUMULATION. What the two outputs' staging buffers hold after the body at position `n`: at a position
    with `n % 100 = 0` the first-in-row case run at the point's memrefs and input blocks; at any other the
    later-in-row case, the two outputs entered at what this leaves at `n - 1` (their buffers are not written back
    between, and the row of the grid has not changed, so neither has the buffer). -/
def outsAt0 (c : Dev nD) : (n : ℕ) → n < cfg0.N → Vec F S1x512x256 .f32 × Vec F S1x512x97 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩),
      out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩))
  | n + 1, hn =>
    if h0 : (n + 1) % 100 = 0 then
      (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩),
        out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩))
    else
      (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).1 (outsAt0 c n (Nat.lt_of_succ_lt hn)).2,
        out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).1 (outsAt0 c n (Nat.lt_of_succ_lt hn)).2)

/-- `outsAt0` at a first-in-row point: that case's contents. -/
theorem outsAt0_A (c : Dev nD) (t : Fin cfg0.N) (h0 : t.val % 100 = 0) :
    outsAt0 V c t.val t.isLt = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t) (iblk0 V c 3 t),
      out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t) (iblk0 V c 3 t)) := by
  obtain ⟨n, hn⟩ := t
  cases n with
  | zero => exact rfl
  | succ n => exact (dif_pos h0).trans rfl

/-- `outsAt0` at a later-in-row point: that case's contents, over what the point before left. -/
theorem outsAt0_B (c : Dev nD) (t : Fin cfg0.N) (h0 : ¬t.val % 100 = 0) :
    outsAt0 V c t.val t.isLt = (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t) (iblk0 V c 3 t) (outsAt0 V c (t.val - 1) (Nat.lt_of_le_of_lt (Nat.sub_le _ _) t.isLt)).1 (outsAt0 V c (t.val - 1) (Nat.lt_of_le_of_lt (Nat.sub_le _ _) t.isLt)).2,
      out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t) (iblk0 V c 3 t) (outsAt0 V c (t.val - 1) (Nat.lt_of_le_of_lt (Nat.sub_le _ _) t.isLt)).1 (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The proof data of the region's pipeline on core `c`: the arrays as the region finds them (`V`); after the
    body at point `t` each input's buffer at its block and the two outputs' at `outsAt0`'s components; the
    invariant the scoped rest and the generator register; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
    | ⟨5, _⟩ => (outsAt0 V c t.val t.isLt).2
  Φ _ := Pipeline.ΦA spec0 c
  q _ := fullShare
  owed _ := 0

/-- The proof data's arrays are the region-entry contents (the definition projected, `V` never unfolded). -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]
theorem after0_5 (c : Dev nD) (t : Fin cfg0.N) : (dat0 V c).after 5 t = (outsAt0 V c t.val t.isLt).2 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- At a later-in-row point an output's current staging buffer holds what the body left at the point before: the
    point is not the first, the buffer was not written back between (that happens after the last point of a row
    only), the window is live and uncut. -/
theorem before0_4_B (c : Dev nD) (t : Fin cfg0.N) (h0 : ¬t.val % 100 = 0) (d) :
    (dat0 V c).before 4 t d = (outsAt0 V c (t.val - 1) (Nat.lt_of_le_of_lt (Nat.sub_le _ _) t.isLt)).1 := by
  have hN : t.val < 200 := lt_of_lt_of_eq t.isLt (show cfg0.N = 200 from N_0)
  rw [Dat.before_out_kept _ 4 rfl t (by omega) (Bool.eq_false_iff.mpr fun h => by have := (flush0_4 _).mp h; dsimp only at this; omega)
    (fun _ => rfl) (fun _ _ => rfl)]
  dsimp only [dat0]
theorem before0_5_B (c : Dev nD) (t : Fin cfg0.N) (h0 : ¬t.val % 100 = 0) (d) :
    (dat0 V c).before 5 t d = (outsAt0 V c (t.val - 1) (Nat.lt_of_le_of_lt (Nat.sub_le _ _) t.isLt)).2 := by
  have hN : t.val < 200 := lt_of_lt_of_eq t.isLt (show cfg0.N = 200 from N_0)
  rw [Dat.before_out_kept _ 5 rfl t (by omega) (Bool.eq_false_iff.mpr fun h => by have := (flush0_5 _).mp h; dsimp only at this; omega)
    (fun _ => rfl) (fun _ _ => rfl)]
  dsimp only [dat0]

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t))

set_option maxHeartbeats 1600000 in
/-- The body at any point: the inputs' memrefs hold their blocks; the closed form says which case the point is in;
    at a later-in-row point the outputs' buffers hold what the point before left; so the case's run applies; the
    invariant passes through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5]
  have hN : t.val < 200 := lt_of_lt_of_eq t.isLt (show cfg0.N = 200 from N_0)
  by_cases h0 : t.val % 100 = 0
  · rw [outsAt0_A V c t h0]
    dsimp only
    unfold out0_A_4 out0_A_5
    iintro ⟨HΦ, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ ((hcond0_0 t).mpr h0) (iblk0 V c 0 t) (iblk0 V c 1 t) (iblk0 V c 2 t) (iblk0 V c 3 t)).2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_A_4 c _ _ _ _ _ _ _ _ _ _ _ _ _ _ _ _ _ _)
    unfold owns; iexists _; isplitr
    swap; · iexact H5
    ipureintro; exact View.read_writes_of_cover _ _ _ _ _ (cover0_A_5 c _ _ _ _ _ _ _ _ _ _ _ _ _ _ _ _ _ _)
  · rw [outsAt0_B V c t h0]
    simp only [before0_4_B V c t h0, before0_5_B V c t h0]
    unfold out0_B_4 out0_B_5
    iintro ⟨HΦ, Ho, ⟨%d0, H0⟩, ⟨%d1, H1⟩, ⟨%d2, H2⟩, ⟨%d3, H3⟩, ⟨%d4, H4⟩, ⟨%d5, H5⟩⟩
    iapply ((kernelRun0_B c (grid0.coords t) _ _ _ _ _ _ _ _ _ _ _ _ (fun h => h0 ((hcond0_0 t).mp h)) (iblk0 V c 0 t) (iblk0 V c 1 t) (iblk0 V c 2 t) (iblk0 V c 3 t) _ _).2.2 Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_B_4 c _ _ _ _ _ _ _ _ _ _ _ _ _ _ _ _ _ _ _ _)
    unfold owns; iexists _; isplitr
    swap; · iexact H5
    ipureintro; exact View.read_writes_of_cover _ _ _ _ _ (cover0_B_5 c _ _ _ _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1.lean ====
/- Kernel region 1 (custom_call 1, `cc1_final_kernel`, pipeline 1, grid (200)) at a parameter `V`, the TensorCore's
   buffer contents when the region is entered: each window's block at a point, what the body leaves in the output
   window's buffer as a function of the input blocks, the body's triple, the pipeline's proof data and its body
   obligation. Generic in the float instance. -/
import proofs.«421439_j25340307046985_3_alg».proof.Proof.Gen.Kernel.Launch
import proofs.«421439_j25340307046985_3_alg».proof.Proof.Gen.Kernel.Skeleton
import proofs.«421439_j25340307046985_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384
noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses -/

/-- The input blocks, each read whole. -/
abbrev r1_in0 : Rect S1000x1 := Rect.unit (s := S1000x1) ![0, 0] S1000x1.size inb_S1000x1_S1000x1_0_0
abbrev r1_in1 : Rect S1000x480 := Rect.unit (s := S1000x480) ![0, 0] S1000x480.size inb_S1000x480_S1000x480_0_0
abbrev r1_in2 : Rect S512x128 := Rect.unit (s := S512x128) ![0, 0] S512x128.size inb_S512x128_S512x128_0_0
abbrev r1_in3 : Rect S512x224 := Rect.unit (s := S512x224) ![0, 0] S512x224.size inb_S512x224_S512x224_0_0
abbrev r1_in4 : Rect S1x128 := Rect.unit (s := S1x128) ![0, 0] S1x128.size inb_S1x128_S1x128_0_0
abbrev r1_in5 : Rect S192x64 := Rect.unit (s := S192x64) ![0, 0] S192x64.size inb_S192x64_S192x64_0_0
abbrev r1_in6 : Rect S160x32 := Rect.unit (s := S160x32) ![0, 0] S160x32.size inb_S160x32_S160x32_0_0

/-- The three column bands of the output block: columns 0–127, 128–319, 320–479, all 1000 rows. -/
abbrev r1_a : Rect S1000x480 := Rect.unit (s := S1000x480) ![0, 0] S1000x128.size inb_S1000x480_S1000x128_0_0
abbrev r1_b : Rect S1000x480 := Rect.unit (s := S1000x480) ![0, 128] S1000x192.size inb_S1000x480_S1000x192_0_128
abbrev r1_c : Rect S1000x480 := Rect.unit (s := S1000x480) ![0, 320] S1000x160.size inb_S1000x480_S1000x160_0_320

/-! ## What the body leaves in the output window's buffer -/

/-- Window 7's staging buffer after the body, from the input windows' blocks: its three column bands, the last
    stored first, each holding its payload of the input blocks. -/
def out1_7 (x0 : Vec F S1000x1 .i32) (x1 : Vec F S1000x480 .f32) (x2 : Vec F S512x128 .f32) (x3 : Vec F S512x224 .f32)
    (x4 : Vec F S1x128 .f32) (x5 : Vec F S192x64 .bf16) (x6 : Vec F S160x32 .bf16) : Vec F S1000x480 .f32 :=
  View.canon [⟨r1_c, k1_pay5 (View.ld x0 r1_in0) (View.ld x3 r1_in3) (View.ld x1 r1_in1) (View.ld x6 r1_in6)⟩,
    ⟨r1_b, k1_pay4 (View.ld x0 r1_in0) (View.ld x3 r1_in3) (View.ld x1 r1_in1) (View.ld x5 r1_in5)⟩,
    ⟨r1_a, k1_pay3 (View.ld x0 r1_in0) (View.ld x2 r1_in2) (View.ld x3 r1_in3) (View.ld x1 r1_in1) (View.ld x4 r1_in4)⟩]

/-- The three bands, cut into blocks of 1000 rows by 32 columns (32 divides every band's width and offset), tile the
    block, so every index of the block lies in one of them. -/
theorem cover1_7 (p0 : Vec F S1000x160 .f32) (p1 : Vec F S1000x192 .f32) (p2 : Vec F S1000x128 .f32) (y : S1000x480.Idx) :
    ∃ pc ∈ ([⟨r1_c, p0⟩, ⟨r1_b, p1⟩, ⟨r1_a, p2⟩] : List (View.Piece (Elt F) S1000x480 .f32)), y ∈ pc.1.set :=
  View.cover_of_tiledBy [⟨r1_c, p0⟩, ⟨r1_b, p1⟩, ⟨r1_a, p2⟩] ![1000, 32] (by sl_kernel_rfl) y

/-! ## The body's triple -/

set_option maxHeartbeats 1000000 in
/-- The kernel body on whole staging memrefs, the inputs' at read contents `x0`…`x6` and the output's at anything, runs
    to the continuation holding the inputs' as they were and the output's at `out1_7` of the inputs': the seven blocks
    are read whole, and each column band of the output is written with its payload of them, the three bands covering
    the block. -/
theorem sound_kernel1 (c : Dev nD) (E : Set ℕ) (i : grid1.Coords) (arg1 : Memref sig .tc .vmem S1000x1 .i32) (harg1 : arg1.IsWhole) (arg2 : Memref sig .tc .vmem S1000x480 .f32) (harg2 : arg2.IsWhole) (arg3 : Memref sig .tc .vmem S512x128 .f32) (harg3 : arg3.IsWhole) (arg4 : Memref sig .tc .vmem S512x224 .f32) (harg4 : arg4.IsWhole) (arg5 : Memref sig .tc .vmem S1x128 .f32) (harg5 : arg5.IsWhole) (arg6 : Memref sig .tc .vmem S192x64 .bf16) (harg6 : arg6.IsWhole) (arg7 : Memref sig .tc .vmem S160x32 .bf16) (harg7 : arg7.IsWhole) (arg8 : Memref sig .tc .vmem S1000x480 .f32) (harg8 : arg8.IsWhole)
    (x0 : Vec F S1000x1 .i32) (x1 : Vec F S1000x480 .f32) (x2 : Vec F S512x128 .f32) (x3 : Vec F S512x224 .f32)
    (x4 : Vec F S1x128 .f32) (x5 : Vec F S192x64 .bf16) (x6 : Vec F S160x32 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out1_7 x0 x1 x2 x3 x4 x5 x6)) -∗ K ⟨⟩))
      ⊢ wp frame (wpE (defs₀ (F := F)) Variants.none c none) E (cc1_final_kernel i arg1 harg1 arg2 harg2 arg3 harg3 arg4 harg4 arg5 harg5 arg6 harg6 arg7 harg7 arg8 harg8) K := by
  simp only [cc1_final_kernel_eq_skeleton]; unfold cc1_final_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _ _ _)

/-! ## The input windows' buffers when the body is called -/

/-- An input window's current staging buffer holds its block at every point, whether the pipeline fetched it there
    or not (an input not fetched at a point has the block index it had at the point before), for ANY proof data whose
    array is `V`'s (`hA`) and whose body leaves the block in place (`hafter`); the windows are uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The pipeline's proof data -/

/-- The proof data of pipeline 1 on core `c`: the arrays as the region finds them (`V`); after the body at point `t`
    each input's buffer holds its block and the output's holds `out1_7` of the input blocks; the invariant is the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window: each input's block in place, -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
/-- and in the output's buffer the three column bands' payloads of the input blocks. -/
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t`: the invariant, what is owed, and every window's current staging buffer, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' buffers hold their blocks, so the body's triple applies; the invariant and what
    is owed pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Trunk.lean ====
/- THE RUN of the printed program: @main is seven host stretches, kernel region 0 (custom_call 0), one host stretch and
   kernel region 1 (custom_call 1). Here: what the regions leave in their output arrays (the unknowns the generated
   valuations between items are written over), the two regions as segment records at those valuations, and the launch —
   every weakly fair execution terminates and every final memory holds every unscoped buffer at the last valuation;
   from it the frame claim (each argument array ends as launched) and the result buffer's contents. -/
import proofs.«421439_j25340307046985_3_alg».proof.Proof.Gen.Kernel.Launch
import proofs.«421439_j25340307046985_3_alg».proof.Proof.Gen.Kernel.Skeleton
import proofs.«421439_j25340307046985_3_alg».proof.Proof.Gen.Kernel.Points
import proofs.«421439_j25340307046985_3_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Pipeline.Frame
import Idealize.ShloMosaic.Lib.Ring
import Idealize.ShloMosaic.Lib.Tactic
import proofs.«421439_j25340307046985_3_alg».proof.Proof.K.R0
import proofs.«421439_j25340307046985_3_alg».proof.Proof.K.R1
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # The contents the two kernel regions are entered at and leave

Between two items of @main every unscoped buffer of a core is at a known valuation: the launch memory, then each
host stretch's effect, then at a region's exit the region's output arrays at what its write-backs have folded. -/

/-- Region 0's entry contents (after the seventh host stretch), read at the TensorCore's references. -/
abbrev E0 : (c : Dev nD) → (b : Ref sig .tc) → Buf (Elt F) ((c : Thread nD τ).loc b) := fun c b => V7 m c b
/-- Region 1's entry contents (after the host stretch that follows region 0), read at the TensorCore's references,
    given what the regions leave. -/
abbrev E1 (outs : Outs (F := F)) : (c : Dev nD) → (b : Ref sig .tc) → Buf (Elt F) ((c : Thread nD τ).loc b) :=
  fun c b => V9 m outs c b

/-- What region 0 leaves in its two output arrays: windows 4 and 5 with every point's write-back folded in. Every
    other reference is given its entry contents (never read). -/
def outs8 : Outs (F := F) := fun _ r c =>
  if h0 : r = main_v21_0 then h0 ▸ (show Buf (Elt F) ((c : Thread nD τ).loc main_v21_0) from (dat0 (E0 m) c).arrAt 4 cfg0.N)
  else if h1 : r = main_v21_1 then h1 ▸ (show Buf (Elt F) ((c : Thread nD τ).loc main_v21_1) from (dat0 (E0 m) c).arrAt 5 cfg0.N)
  else V7 m c r

/-- What both regions leave: region 1's output array (window 7) with every point's write-back folded in, region 1
    having been entered at the contents that follow from what region 0 left; elsewhere as `outs8`. -/
def outsOf : Outs (F := F) := fun J r c =>
  if h : r = main_v49 then h ▸ (show Buf (Elt F) ((c : Thread nD τ).loc main_v49) from (dat1 (E1 m (outs8 m)) c).arrAt 7 cfg1.N)
  else outs8 m J r c

theorem outs8_at0 (J : ℕ) (c : Dev nD) : outs8 m J main_v21_0 c = (dat0 (E0 m) c).arrAt 4 cfg0.N := by
  unfold outs8; rw [dif_pos rfl]
theorem outs8_at1 (J : ℕ) (c : Dev nD) : outs8 m J main_v21_1 c = (dat0 (E0 m) c).arrAt 5 cfg0.N := by
  unfold outs8; rw [dif_neg (by decide), dif_pos rfl]

/-- Region 0's first output array after the region: window 4 folded over all points. -/
theorem outs8_0 (c : Dev nD) : outsOf m 8 main_v21_0 c = (dat0 (E0 m) c).arrAt 4 cfg0.N := by
  unfold outsOf; rw [dif_neg (by decide)]; exact outs8_at0 m 8 c
/-- Region 0's second output array after the region: window 5 folded over all points. -/
theorem outs8_1 (c : Dev nD) : outsOf m 8 main_v21_1 c = (dat0 (E0 m) c).arrAt 5 cfg0.N := by
  unfold outsOf; rw [dif_neg (by decide)]; exact outs8_at1 m 8 c

/-- Region 1's entry contents read what region 0 left only, so they are the same over `outsOf` as over `outs8`. -/
theorem V9_outsOf (c : Dev nD) : V9 m (outsOf m) c = V9 m (outs8 m) c := by
  unfold V9 V8; rw [outs8_0, outs8_1, outs8_at0, outs8_at1]
theorem E1_outsOf : E1 m (outsOf m) = E1 m (outs8 m) := by
  funext c b; exact congrFun (V9_outsOf m c) _

/-- Region 1's output array after the region: window 7 folded over all points, from the entry contents over `outsOf`. -/
theorem outsOf_10 (c : Dev nD) : outsOf m 10 main_v49 c = (dat1 (E1 m (outsOf m)) c).arrAt 7 cfg1.N := by
  rw [E1_outsOf]; unfold outsOf; rw [dif_pos rfl]

/-- The result buffer at the end of @main. -/
theorem result_eq (c : Dev nD) : V10 m (outsOf m) c main_v49 = (dat1 (E1 m (outsOf m)) c).arrAt 7 cfg1.N := by
  unfold V10; rw [Function.update_self]; exact outsOf_10 m c

/-! # Region 0's and region 1's arrays at the regions' exits -/

/-- Region 0's exit contents, read at the TensorCore's references. -/
abbrev X0 : (c : Dev nD) → (b : Ref sig .tc) → Buf (Elt F) ((c : Thread nD τ).loc b) := fun c b => V8 m (outsOf m) c b
/-- Region 1's exit contents (the contents at @main's return), read at the TensorCore's references. -/
abbrev X1 : (c : Dev nD) → (b : Ref sig .tc) → Buf (Elt F) ((c : Thread nD τ).loc b) := fun c b => V10 m (outsOf m) c b

theorem V8_at0 (outs : Outs (F := F)) (c : Dev nD) : V8 m outs c main_v21_0 = outs 8 main_v21_0 c := by
  unfold V8
  rw [Function.update_of_ne (StableHlo.devRef_ne_of_ne (by decide) : (Proc.devRef .tc main_v21_0 : DevRef τ sig) ≠ Proc.devRef .tc main_v21_1),
    Function.update_self]
theorem V8_at1 (outs : Outs (F := F)) (c : Dev nD) : V8 m outs c main_v21_1 = outs 8 main_v21_1 c := by
  unfold V8; rw [Function.update_self]

/-- At region 0's exit each of its arrays holds what the pipeline leaves: an input window's array its entry contents
    (no item of the region writes it), an output window's array its folded write-backs. -/
theorem hF0 (c : Dev nD) : ∀ w : Fin cfg0.W, (dat0 (E0 m) c).arrAt w cfg0.N = X0 m c (Pipeline.arrRef spec0 w)
  | ⟨0, _⟩ => ((dat0 (E0 m) c).arrAt_in 0 rfl _).trans ((A_eq0 (E0 m) c 0).trans (V8_of m (outsOf m) c main_v1 (by decide)).symm)
  | ⟨1, _⟩ => ((dat0 (E0 m) c).arrAt_in 1 rfl _).trans ((A_eq0 (E0 m) c 1).trans (V8_of m (outsOf m) c main_arg0 (by decide)).symm)
  | ⟨2, _⟩ => ((dat0 (E0 m) c).arrAt_in 2 rfl _).trans ((A_eq0 (E0 m) c 2).trans (V8_of m (outsOf m) c main_v11 (by decide)).symm)
  | ⟨3, _⟩ => ((dat0 (E0 m) c).arrAt_in 3 rfl _).trans ((A_eq0 (E0 m) c 3).trans (V8_of m (outsOf m) c main_v20 (by decide)).symm)
  | ⟨4, _⟩ => (outs8_0 m c).symm.trans (V8_at0 m (outsOf m) c).symm
  | ⟨5, _⟩ => (outs8_1 m c).symm.trans (V8_at1 m (outsOf m) c).symm
/-- Every buffer that is none of region 0's arrays is at the exit what it was at the entry. -/
theorem hrest0 (c : Dev nD) : ∀ b, b ∉ Finset.univ.image (Pipeline.arrRef spec0) → X0 m c b = E0 m c b := fun b hb =>
  V8_of m (outsOf m) c b (by
    intro h; simp only [List.mem_cons, List.mem_nil_iff, or_false] at h
    rcases h with rfl | rfl
    · exact hb (Finset.mem_image.mpr ⟨4, Finset.mem_univ _, rfl⟩)
    · exact hb (Finset.mem_image.mpr ⟨5, Finset.mem_univ _, rfl⟩))

theorem V10_at (outs : Outs (F := F)) (c : Dev nD) : V10 m outs c main_v49 = outs 10 main_v49 c := by
  unfold V10; rw [Function.update_self]

/-- An input window's array is at every point what the region found in it. -/
theorem arr_in1 (V : (c : Dev nD) → (b : Ref sig .tc) → Buf (Elt F) ((c : Thread nD τ).loc b)) (c : Dev nD) (w : Fin cfg1.W)
    (hin : (cfg1.win w).isOut = false) : (dat1 V c).arrAt w cfg1.N = V c (Pipeline.arrRef spec1 w) :=
  ((dat1 V c).arrAt_in w hin _).trans (A_eq1 V c w)
/-- Region 1 may change its output array only. -/
theorem X1_of (c : Dev nD) (r : Ref sig .tc) (h : r ∉ ([main_v49] : List (Ref sig .tc))) : X1 m c r = E1 m (outsOf m) c r :=
  V10_of m (outsOf m) c r h
theorem X1_at (c : Dev nD) : X1 m c main_v49 = (dat1 (E1 m (outsOf m)) c).arrAt 7 cfg1.N :=
  (V10_at m (outsOf m) c).trans (outsOf_10 m c)

/-- Every window of region 1 but the last is an input window, on an array other than the result's. -/
theorem in1 : ∀ w : Fin cfg1.W, w ≠ 7 → (cfg1.win w).isOut = false ∧ Pipeline.arrRef spec1 w ∉ ([main_v49] : List (Ref sig .tc)) := by decide

/-- At region 1's exit each of its arrays holds what the pipeline leaves: the seven input windows' arrays their entry
    contents, the output window's array its folded write-backs. -/
theorem hF1 (c : Dev nD) (w : Fin cfg1.W) : (dat1 (E1 m (outsOf m)) c).arrAt w cfg1.N = X1 m c (Pipeline.arrRef spec1 w) := by
  by_cases h : w = 7
  · subst h; exact (X1_at m c).symm
  · exact (arr_in1 (E1 m (outsOf m)) c w (in1 w h).1).trans (X1_of m c (Pipeline.arrRef spec1 w) (in1 w h).2).symm
/-- Every buffer that is none of region 1's arrays is at the exit what it was at the entry. -/
theorem hrest1 (c : Dev nD) : ∀ b, b ∉ Finset.univ.image (Pipeline.arrRef spec1) → X1 m c b = E1 m (outsOf m) c b := fun b hb =>
  X1_of m c b (by
    intro h; simp only [List.mem_cons, List.mem_nil_iff, or_false] at h
    subst h
    exact hb (Finset.mem_image.mpr ⟨7, Finset.mem_univ _, rfl⟩))

/-! # The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m (outsOf m)) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state (a region's
    invariant takes it in and gives it back) and the core owing nothing. -/
abbrev R (c : Dev nD) : sProp 𝕄 := iprop((∃ r, prngReg c r) ∗ ∃ W, owes (c : Thread nD τ) (0 : CellTallies nD τ sig Unit) W)
/-- The same rest before, between and after the two regions. -/
abbrev E : Fin 3 → Dev nD → sProp 𝕄 := fun _ => R
/-- The last thread state without the `owes`: every unscoped buffer at the contents at @main's return, the generator
    register at some state. -/
abbrev Tₙ (c : Dev nD) : sProp 𝕄 := iprop(StableHlo.held (c : Thread nD τ) (Pipeline.ucRefs τ sig) (V10 m (outsOf m) c) ∗ ∃ r, prngReg c r)

/-! # The regions as segments -/

set_option backward.isDefEq.respectTransparency.types false in
/-- REGION 0 (custom_call 0): entered from every unscoped buffer at the contents after the seventh host stretch, left
    with its two output arrays at their folded write-backs and every other buffer as entered. Its arrays are split
    out of the unscoped buffers at entry and put back at exit; the generator register goes into the region's
    invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (V7 m c) ∗ R c)
  post c := iprop(StableHlo.held (c : Thread nD τ) (Pipeline.ucRefs τ sig) (V8 m (outsOf m) c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (X0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 (custom_call 1): entered from every unscoped buffer at the contents after the host stretch that follows
    region 0, left with its output array at its folded write-backs and every other buffer as entered — the contents
    at @main's return. The same protocol as region 0. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m (outsOf m)) c).loose
  hwaits := Pipeline.hwaits_of_owed_zero _ _ _ _ L lv 1 fun _ _ => rfl
  pre c := iprop(StableHlo.held (c : Thread nD τ) (Pipeline.ucRefs τ sig) (V9 m (outsOf m) c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E1 m (outsOf m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m (outsOf m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m (outsOf m) c) (X1 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! # @main as segments, and the launch -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

variable (ρ : Dev nD → PrngReg)

set_option backward.isDefEq.respectTransparency.types false in
/-- THE RUN. From any memory with zero counters, every weakly fair execution of @main on the TensorCores terminates,
    nothing faulting, and every final memory holds EVERY unscoped buffer of every core at the last boundary's contents:
    the launch memory carried through the seven host stretches, region 0 (its two output arrays at their folded
    write-backs), the next host stretch and region 1 (its output array at its folded write-backs). -/
theorem run : θ_run defs (onTc (τ := τ) (main (F := F))) ⟨m, fun _ => 0, ρ⟩
    (fun r => ∀ c : Dev nD, ∀ b ∈ Pipeline.ucRefs τ sig, r.2.mem ((c : Thread nD τ).1, b) = V10 m (outsOf m) c b) := by
  refine Pipeline.θ_run_regions_kit_dev (pcfgs (F := F)) adm (pdats m) () cellOf_inj emb₁ defs₀ 𝒱₀ L lv m ρ main
    (segs m (outsOf m) 𝒱₀ L lv E () (pdats m) (reg0 m) (reg1 m))
    (fun c Q => by
      rewrite [main_chain c, Pipeline.Seg.run_eq_chain,
        show (segs m (outsOf m) 𝒱₀ L lv E () (pdats m) (reg0 m) (reg1 m) c).map Pipeline.Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          Prog.lift (.customCall (Pipeline.entry 0) ()),
          StableHlo.seq hostOps1,
          Prog.lift (.customCall (Pipeline.entry 1) ()) ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := ?_)
    (T₀ := fun c => iprop(StableHlo.held (c : Thread nD τ) (Pipeline.ucRefs τ sig) (V0 m c) ∗ R c)) (Tₙ := Tₙ m)
    (hch := fun c => ⟨.rfl, .rfl, .rfl, .rfl, .rfl, .rfl, .rfl, .rfl, .rfl, .rfl, .rfl⟩)
    (hinit := ?_)
    (QY := fun c s => ∀ b ∈ Pipeline.ucRefs τ sig, s.mem ((c : Thread nD τ).1, b) = V10 m (outsOf m) c b)
    (hfin := fun c s' => ?_) (hQ := fun s h => h)
  · -- the launch element is the pipeline library's at every staging cell; no ghost resource per core
    iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · -- the launch: on each core the unscoped buffers are held at the launch memory, the generator register is at its
    -- launch state, nothing is owed
    refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · -- the end: every unscoped buffer read off the last valuation
    iintro ⟨⟨Hh, -⟩, HSI⟩
    unfold StableHlo.held
    imodintro
    iapply (pointsTo_read_all (Pipeline.ucRefs τ sig) (fun b => ((c : Thread nD τ).1, b)) (V10 m (outsOf m) c) s')
    isplitl [Hh] <;> iassumption

/-- THE FRAME: every argument array ends holding its launch contents — no host stretch writes an argument and no
    region may change one, so the last valuation at an argument walks back to the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (V10_main_arg0 m (outsOf m) c),
      (h c _ (mem_uc main_arg1 (by decide))).trans (V10_main_arg1 m (outsOf m) c),
      (h c _ (mem_uc main_arg2 (by decide))).trans (V10_main_arg2 m (outsOf m) c),
      (h c _ (mem_uc main_arg3 (by decide))).trans (V10_main_arg3 m (outsOf m) c)⟩) (run m ρ)

end Cert.Kernel.Hand

end
-- ==== Proof.KI.R0.lean ====
/- Region 0 of the printed program (the reduction kernel on its 2 × 100 grid): the proof data of its pipeline and
   the body obligation, at any float instance and at any contents `V` of the TensorCore's buffers when the region is
   entered. The body has one conditional, on the second grid coordinate: at a point with `t % 100 = 0` it first
   zero-fills both output blocks; at every point it then reads the four input blocks, reads each output block and
   stores the block plus the point's product. So the two output blocks ACCUMULATE over the hundred points of a row of
   the grid: after a point of the first kind they hold that point's product over zero, after any other point what the
   point before left plus the point's product. -/
import proofs.«421439_j25340307046985_3_alg».proof.Proof.Gen.KernelIdeal.Launch
import proofs.«421439_j25340307046985_3_alg».proof.Proof.Gen.KernelIdeal.Skeleton
import proofs.«421439_j25340307046985_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's branch condition -/

/-- The condition of the body's one conditional, from the grid coordinates: the second coordinate is zero. -/
abbrev cond0_0 (i : grid0.Coords) : Prop := (Scalar.cmpi .ne (Scalar.extui (Scalar.cmpi .eq (BitVec.ofNat 32 (i 1).val) 0#32)) 0#32) = 1#1
/-- It holds at the first point of each row of the grid — decided over the grid. -/
theorem hcond0_0 : ∀ t : Fin cfg0.N, cond0_0 (grid0.coords t) ↔ t.val % 100 = 0 :=
  (by decide +kernel : ∀ t : Fin grid0.N, cond0_0 (grid0.coords t) ↔ t.val % 100 = 0)

/-! ## The staging memrefs at a point -/

/-- One staging buffer of each output window, through which its contents are stated (the choice does not matter:
    a covering list of pieces reads back the same through any whole view). -/
abbrev VO0_4 : View sig .tc .vmem S1x512x256 .f32 := (Memref.whole cc0_stg4_0 : Memref sig .tc .vmem S1x512x256 .f32).view
abbrev VO0_5 : View sig .tc .vmem S1x512x97 .f32 := (Memref.whole cc0_stg5_0 : Memref sig .tc .vmem S1x512x97 .f32).view
/-- Each window's current staging memref at point `t`, spelled as the pipeline passes it, and its wholeness. -/
abbrev ms0_0 (t : Fin cfg0.N) : Memref sig .tc .vmem S1000x1 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1000x480 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S192x64 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S160x32 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512x97 .f32 := win0_5.stage (cfg0.slots t 5)
abbrev hs0_5 (t : Fin cfg0.N) : (ms0_5 t).IsWhole := hstage0_5 ((cfg0.slots t 5).cast nbuf0_5)

/-! ## What an input's staging buffer holds when the body is called -/

/-- An input window's current staging buffer holds its block at every point, fetched there or not, for ANY proof
    data whose array is `V`'s (`hA`) and whose body leaves the block in place (`hafter`): unfetched, the block
    index has not moved; the windows are uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The kernel body on any staging memrefs: what each case's stores leave -/

set_option maxHeartbeats 1000000 in
/-- What the body's stores leave in each output's staging memref, as pieces (last first), AT A POINT WHOSE SECOND
    COORDINATE IS ZERO (the conditional taken), with the proof that on whole staging memrefs — the inputs' at their
    contents, the outputs' at anything — the body runs to the continuation holding the inputs' as they were and each
    output's buffer with its pieces written: the zero fill, then the zero-filled block read back plus the product. -/
noncomputable def kernelRun0_A (c : Dev nD) (i : grid0.Coords)
    (arg2 : Memref sig .tc .vmem S1000x1 .i32) (harg2 : arg2.IsWhole) (arg3 : Memref sig .tc .vmem S1000x480 .f32) (harg3 : arg3.IsWhole)
    (arg4 : Memref sig .tc .vmem S192x64 .bf16) (harg4 : arg4.IsWhole) (arg5 : Memref sig .tc .vmem S160x32 .bf16) (harg5 : arg5.IsWhole)
    (arg6 : Memref sig .tc .vmem S1x512x256 .f32) (harg6 : arg6.IsWhole) (arg7 : Memref sig .tc .vmem S1x512x97 .f32) (harg7 : arg7.IsWhole)
    (hc0 : cond0_0 i)
    (x0 : Vec F S1000x1 .i32) (x1 : Vec F S1000x480 .f32) (x2 : Vec F S192x64 .bf16) (x3 : Vec F S160x32 .bf16) :
    Σ' (L4 : List (View.Piece (Elt F) S1x512x256 .f32)), { L5 : List (View.Piece (Elt F) S1x512x97 .f32) //
      ∀ (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare x3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1
                ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f L5)) -∗ K ⟨⟩))
          ⊢ wp frame (wpE (defs₀ (F := F)) Variants.none c none) E (cc0_reduce_kernel i arg2 harg2 arg3 harg3 arg4 harg4 arg5 harg5 arg6 harg6 arg7 harg7) K } := by
  refine ⟨?_, ?_, fun E K => ?run⟩
  case run =>
    simp only [cc0_reduce_kernel_eq_skeleton]; unfold cc0_reduce_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; iexact H5

set_option maxHeartbeats 1000000 in
/-- What the body's stores leave in each output's staging memref, as pieces (last first), AT A POINT WHOSE SECOND
    COORDINATE IS NOT ZERO (the conditional not taken), with the proof that on whole staging memrefs — the inputs' at
    their contents, the two outputs' at their running contents `xo4`, `xo5` — the body runs to the continuation
    holding the inputs' as they were and each output's buffer with its piece written: the running block plus the
    point's product. -/
noncomputable def kernelRun0_B (c : Dev nD) (i : grid0.Coords)
    (arg2 : Memref sig .tc .vmem S1000x1 .i32) (harg2 : arg2.IsWhole) (arg3 : Memref sig .tc .vmem S1000x480 .f32) (harg3 : arg3.IsWhole)
    (arg4 : Memref sig .tc .vmem S192x64 .bf16) (harg4 : arg4.IsWhole) (arg5 : Memref sig .tc .vmem S160x32 .bf16) (harg5 : arg5.IsWhole)
    (arg6 : Memref sig .tc .vmem S1x512x256 .f32) (harg6 : arg6.IsWhole) (arg7 : Memref sig .tc .vmem S1x512x97 .f32) (harg7 : arg7.IsWhole)
    (hc0 : ¬cond0_0 i)
    (x0 : Vec F S1000x1 .i32) (x1 : Vec F S1000x480 .f32) (x2 : Vec F S192x64 .bf16) (x3 : Vec F S160x32 .bf16)
    (xo4 : Vec F S1x512x256 .f32) (xo5 : Vec F S1x512x97 .f32) :
    Σ' (L4 : List (View.Piece (Elt F) S1x512x256 .f32)), { L5 : List (View.Piece (Elt F) S1x512x97 .f32) //
      ∀ (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare xo4 ∗ owns (c : Thread nD τ) arg7 fullShare xo5
            ∗ (iprop(owns (c : Thread nD τ) arg2 fullShare x0 ∗ owns (c : Thread nD τ) arg3 fullShare x1
                ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f L5)) -∗ K ⟨⟩))
          ⊢ wp frame (wpE (defs₀ (F := F)) Variants.none c none) E (cc0_reduce_kernel i arg2 harg2 arg3 harg3 arg4 harg4 arg5 harg5 arg6 harg6 arg7 harg7) K } := by
  refine ⟨?_, ?_, fun E K => ?run⟩
  case run =>
    simp only [cc0_reduce_kernel_eq_skeleton]; unfold cc0_reduce_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; iexact H5

/-! ## What each case leaves in the outputs' buffers -/

/-- The first-in-row case's pieces for the first output tile its block (the zero fill and the accumulating store,
    each the whole block), so they cover it. -/
theorem cover0_A_4 (c : Dev nD) (i : grid0.Coords)
    (arg2 : Memref sig .tc .vmem S1000x1 .i32) (harg2 : arg2.IsWhole) (arg3 : Memref sig .tc .vmem S1000x480 .f32) (harg3 : arg3.IsWhole)
    (arg4 : Memref sig .tc .vmem S192x64 .bf16) (harg4 : arg4.IsWhole) (arg5 : Memref sig .tc .vmem S160x32 .bf16) (harg5 : arg5.IsWhole)
    (arg6 : Memref sig .tc .vmem S1x512x256 .f32) (harg6 : arg6.IsWhole) (arg7 : Memref sig .tc .vmem S1x512x97 .f32) (harg7 : arg7.IsWhole)
    (hc0 : cond0_0 i)
    (x0 : Vec F S1000x1 .i32) (x1 : Vec F S1000x480 .f32) (x2 : Vec F S192x64 .bf16) (x3 : Vec F S160x32 .bf16) (y : S1x512x256.Idx) :
    ∃ pc ∈ (kernelRun0_A c i arg2 harg2 arg3 harg3 arg4 harg4 arg5 harg5 arg6 harg6 arg7 harg7 hc0 x0 x1 x2 x3).1, y ∈ pc.1.set :=
  View.cover_of_tiledL (kernelRun0_A c i arg2 harg2 arg3 harg3 arg4 harg4 arg5 harg5 arg6 harg6 arg7 harg7 hc0 x0 x1 x2 x3).1 S1x512x256.size (by sl_kernel_rfl) y

/-- What the first-in-row case leaves in the first output's staging buffer: its pieces read back over junk. -/
def out0_A_4 (c : Dev nD) (i : grid0.Coords)
    (arg2 : Memref sig .tc .vmem S1000x1 .i32) (harg2 : arg2.IsWhole) (arg3 : Memref sig .tc .vmem S1000x480 .f32) (harg3 : arg3.IsWhole)
    (arg4 : Memref sig .tc .vmem S192x64 .bf16) (harg4 : arg4.IsWhole) (arg5 : Memref sig .tc .vmem S160x32 .bf16) (harg5 : arg5.IsWhole)
    (arg6 : Memref sig .tc .vmem S1x512x256 .f32) (harg6 : arg6.IsWhole) (arg7 : Memref sig .tc .vmem S1x512x97 .f32) (harg7 : arg7.IsWhole)
    (hc0 : cond0_0 i)
    (x0 : Vec F S1000x1 .i32) (x1 : Vec F S1000x480 .f32) (x2 : Vec F S192x64 .bf16) (x3 : Vec F S160x32 .bf16) : Vec F S1x512x256 .f32 :=
  VO0_4.read (Elt F) (VO0_4.writes (Elt F) VO0_4.junk (kernelRun0_A c i arg2 harg2 arg3 harg3 arg4 harg4 arg5 harg5 arg6 harg6 arg7 harg7 hc0 x0 x1 x2 x3).1)

/-- The first-in-row case's pieces for the second output cover its block. -/
theorem cover0_A_5 (c : Dev nD) (i : grid0.Coords)
    (arg2 : Memref sig .tc .vmem S1000x1 .i32) (harg2 : arg2.IsWhole) (arg3 : Memref sig .tc .vmem S1000x480 .f32) (harg3 : arg3.IsWhole)
    (arg4 : Memref sig .tc .vmem S192x64 .bf16) (harg4 : arg4.IsWhole) (arg5 : Memref sig .tc .vmem S160x32 .bf16) (harg5 : arg5.IsWhole)
    (arg6 : Memref sig .tc .vmem S1x512x256 .f32) (harg6 : arg6.IsWhole) (arg7 : Memref sig .tc .vmem S1x512x97 .f32) (harg7 : arg7.IsWhole)
    (hc0 : cond0_0 i)
    (x0 : Vec F S1000x1 .i32) (x1 : Vec F S1000x480 .f32) (x2 : Vec F S192x64 .bf16) (x3 : Vec F S160x32 .bf16) (y : S1x512x97.Idx) :
    ∃ pc ∈ (kernelRun0_A c i arg2 harg2 arg3 harg3 arg4 harg4 arg5 harg5 arg6 harg6 arg7 harg7 hc0 x0 x1 x2 x3).2.1, y ∈ pc.1.set :=
  View.cover_of_tiledL (kernelRun0_A c i arg2 harg2 arg3 harg3 arg4 harg4 arg5 harg5 arg6 harg6 arg7 harg7 hc0 x0 x1 x2 x3).2.1 S1x512x97.size (by sl_kernel_rfl) y

/-- What the first-in-row case leaves in the second output's staging buffer: its pieces read back over junk. -/
def out0_A_5 (c : Dev nD) (i : grid0.Coords)
    (arg2 : Memref sig .tc .vmem S1000x1 .i32) (harg2 : arg2.IsWhole) (arg3 : Memref sig .tc .vmem S1000x480 .f32) (harg3 : arg3.IsWhole)
    (arg4 : Memref sig .tc .vmem S192x64 .bf16) (harg4 : arg4.IsWhole) (arg5 : Memref sig .tc .vmem S160x32 .bf16) (harg5 : arg5.IsWhole)
    (arg6 : Memref sig .tc .vmem S1x512x256 .f32) (harg6 : arg6.IsWhole) (arg7 : Memref sig .tc .vmem S1x512x97 .f32) (harg7 : arg7.IsWhole)
    (hc0 : cond0_0 i)
    (x0 : Vec F S1000x1 .i32) (x1 : Vec F S1000x480 .f32) (x2 : Vec F S192x64 .bf16) (x3 : Vec F S160x32 .bf16) : Vec F S1x512x97 .f32 :=
  VO0_5.read (Elt F) (VO0_5.writes (Elt F) VO0_5.junk (kernelRun0_A c i arg2 harg2 arg3 harg3 arg4 harg4 arg5 harg5 arg6 harg6 arg7 harg7 hc0 x0 x1 x2 x3).2.1)

/-- The later-in-row case's piece for the first output (one store of the whole block) covers its block. -/
theorem cover0_B_4 (c : Dev nD) (i : grid0.Coords)
    (arg2 : Memref sig .tc .vmem S1000x1 .i32) (harg2 : arg2.IsWhole) (arg3 : Memref sig .tc .vmem S1000x480 .f32) (harg3 : arg3.IsWhole)
    (arg4 : Memref sig .tc .vmem S192x64 .bf16) (harg4 : arg4.IsWhole) (arg5 : Memref sig .tc .vmem S160x32 .bf16) (harg5 : arg5.IsWhole)
    (arg6 : Memref sig .tc .vmem S1x512x256 .f32) (harg6 : arg6.IsWhole) (arg7 : Memref sig .tc .vmem S1x512x97 .f32) (harg7 : arg7.IsWhole)
    (hc0 : ¬cond0_0 i)
    (x0 : Vec F S1000x1 .i32) (x1 : Vec F S1000x480 .f32) (x2 : Vec F S192x64 .bf16) (x3 : Vec F S160x32 .bf16)
    (xo4 : Vec F S1x512x256 .f32) (xo5 : Vec F S1x512x97 .f32) (y : S1x512x256.Idx) :
    ∃ pc ∈ (kernelRun0_B c i arg2 harg2 arg3 harg3 arg4 harg4 arg5 harg5 arg6 harg6 arg7 harg7 hc0 x0 x1 x2 x3 xo4 xo5).1, y ∈ pc.1.set :=
  View.cover_of_tiledL (kernelRun0_B c i arg2 harg2 arg3 harg3 arg4 harg4 arg5 harg5 arg6 harg6 arg7 harg7 hc0 x0 x1 x2 x3 xo4 xo5).1 S1x512x256.size (by sl_kernel_rfl) y

/-- What the later-in-row case leaves in the first output's staging buffer: its piece read back over junk. -/
def out0_B_4 (c : Dev nD) (i : grid0.Coords)
    (arg2 : Memref sig .tc .vmem S1000x1 .i32) (harg2 : arg2.IsWhole) (arg3 : Memref sig .tc .vmem S1000x480 .f32) (harg3 : arg3.IsWhole)
    (arg4 : Memref sig .tc .vmem S192x64 .bf16) (harg4 : arg4.IsWhole) (arg5 : Memref sig .tc .vmem S160x32 .bf16) (harg5 : arg5.IsWhole)
    (arg6 : Memref sig .tc .vmem S1x512x256 .f32) (harg6 : arg6.IsWhole) (arg7 : Memref sig .tc .vmem S1x512x97 .f32) (harg7 : arg7.IsWhole)
    (hc0 : ¬cond0_0 i)
    (x0 : Vec F S1000x1 .i32) (x1 : Vec F S1000x480 .f32) (x2 : Vec F S192x64 .bf16) (x3 : Vec F S160x32 .bf16)
    (xo4 : Vec F S1x512x256 .f32) (xo5 : Vec F S1x512x97 .f32) : Vec F S1x512x256 .f32 :=
  VO0_4.read (Elt F) (VO0_4.writes (Elt F) VO0_4.junk (kernelRun0_B c i arg2 harg2 arg3 harg3 arg4 harg4 arg5 harg5 arg6 harg6 arg7 harg7 hc0 x0 x1 x2 x3 xo4 xo5).1)

/-- The later-in-row case's piece for the second output covers its block. -/
theorem cover0_B_5 (c : Dev nD) (i : grid0.Coords)
    (arg2 : Memref sig .tc .vmem S1000x1 .i32) (harg2 : arg2.IsWhole) (arg3 : Memref sig .tc .vmem S1000x480 .f32) (harg3 : arg3.IsWhole)
    (arg4 : Memref sig .tc .vmem S192x64 .bf16) (harg4 : arg4.IsWhole) (arg5 : Memref sig .tc .vmem S160x32 .bf16) (harg5 : arg5.IsWhole)
    (arg6 : Memref sig .tc .vmem S1x512x256 .f32) (harg6 : arg6.IsWhole) (arg7 : Memref sig .tc .vmem S1x512x97 .f32) (harg7 : arg7.IsWhole)
    (hc0 : ¬cond0_0 i)
    (x0 : Vec F S1000x1 .i32) (x1 : Vec F S1000x480 .f32) (x2 : Vec F S192x64 .bf16) (x3 : Vec F S160x32 .bf16)
    (xo4 : Vec F S1x512x256 .f32) (xo5 : Vec F S1x512x97 .f32) (y : S1x512x97.Idx) :
    ∃ pc ∈ (kernelRun0_B c i arg2 harg2 arg3 harg3 arg4 harg4 arg5 harg5 arg6 harg6 arg7 harg7 hc0 x0 x1 x2 x3 xo4 xo5).2.1, y ∈ pc.1.set :=
  View.cover_of_tiledL (kernelRun0_B c i arg2 harg2 arg3 harg3 arg4 harg4 arg5 harg5 arg6 harg6 arg7 harg7 hc0 x0 x1 x2 x3 xo4 xo5).2.1 S1x512x97.size (by sl_kernel_rfl) y

/-- What the later-in-row case leaves in the second output's staging buffer: its piece read back over junk. -/
def out0_B_5 (c : Dev nD) (i : grid0.Coords)
    (arg2 : Memref sig .tc .vmem S1000x1 .i32) (harg2 : arg2.IsWhole) (arg3 : Memref sig .tc .vmem S1000x480 .f32) (harg3 : arg3.IsWhole)
    (arg4 : Memref sig .tc .vmem S192x64 .bf16) (harg4 : arg4.IsWhole) (arg5 : Memref sig .tc .vmem S160x32 .bf16) (harg5 : arg5.IsWhole)
    (arg6 : Memref sig .tc .vmem S1x512x256 .f32) (harg6 : arg6.IsWhole) (arg7 : Memref sig .tc .vmem S1x512x97 .f32) (harg7 : arg7.IsWhole)
    (hc0 : ¬cond0_0 i)
    (x0 : Vec F S1000x1 .i32) (x1 : Vec F S1000x480 .f32) (x2 : Vec F S192x64 .bf16) (x3 : Vec F S160x32 .bf16)
    (xo4 : Vec F S1x512x256 .f32) (xo5 : Vec F S1x512x97 .f32) : Vec F S1x512x97 .f32 :=
  VO0_5.read (Elt F) (VO0_5.writes (Elt F) VO0_5.junk (kernelRun0_B c i arg2 harg2 arg3 harg3 arg4 harg4 arg5 harg5 arg6 harg6 arg7 harg7 hc0 x0 x1 x2 x3 xo4 xo5).2.1)

/-! ## What the outputs hold after each point -/

/-- THE ACCUMULATION. What the two outputs' staging buffers hold after the body at position `n`: at a position
    with `n % 100 = 0` the first-in-row case run at the point's memrefs and input blocks; at any other the
    later-in-row case, the two outputs entered at what this leaves at `n - 1` (their buffers are not written back
    between, and the row of the grid has not changed, so neither has the buffer). -/
def outsAt0 (c : Dev nD) : (n : ℕ) → n < cfg0.N → Vec F S1x512x256 .f32 × Vec F S1x512x97 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩),
      out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩))
  | n + 1, hn =>
    if h0 : (n + 1) % 100 = 0 then
      (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩),
        out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩))
    else
      (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).1 (outsAt0 c n (Nat.lt_of_succ_lt hn)).2,
        out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).1 (outsAt0 c n (Nat.lt_of_succ_lt hn)).2)

/-- `outsAt0` at a first-in-row point: that case's contents. -/
theorem outsAt0_A (c : Dev nD) (t : Fin cfg0.N) (h0 : t.val % 100 = 0) :
    outsAt0 V c t.val t.isLt = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t) (iblk0 V c 3 t),
      out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t) (iblk0 V c 3 t)) := by
  obtain ⟨n, hn⟩ := t
  cases n with
  | zero => exact rfl
  | succ n => exact (dif_pos h0).trans rfl

/-- `outsAt0` at a later-in-row point: that case's contents, over what the point before left. -/
theorem outsAt0_B (c : Dev nD) (t : Fin cfg0.N) (h0 : ¬t.val % 100 = 0) :
    outsAt0 V c t.val t.isLt = (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t) (iblk0 V c 3 t) (outsAt0 V c (t.val - 1) (Nat.lt_of_le_of_lt (Nat.sub_le _ _) t.isLt)).1 (outsAt0 V c (t.val - 1) (Nat.lt_of_le_of_lt (Nat.sub_le _ _) t.isLt)).2,
      out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t) (iblk0 V c 3 t) (outsAt0 V c (t.val - 1) (Nat.lt_of_le_of_lt (Nat.sub_le _ _) t.isLt)).1 (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The proof data of the region's pipeline on core `c`: the arrays as the region finds them (`V`); after the
    body at point `t` each input's buffer at its block and the two outputs' at `outsAt0`'s components; the
    invariant the scoped rest and the generator register; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
    | ⟨5, _⟩ => (outsAt0 V c t.val t.isLt).2
  Φ _ := Pipeline.ΦA spec0 c
  q _ := fullShare
  owed _ := 0

/-- The proof data's arrays are the region-entry contents (the definition projected, `V` never unfolded). -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]
theorem after0_5 (c : Dev nD) (t : Fin cfg0.N) : (dat0 V c).after 5 t = (outsAt0 V c t.val t.isLt).2 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- At a later-in-row point an output's current staging buffer holds what the body left at the point before: the
    point is not the first, the buffer was not written back between (that happens after the last point of a row
    only), the window is live and uncut. -/
theorem before0_4_B (c : Dev nD) (t : Fin cfg0.N) (h0 : ¬t.val % 100 = 0) (d) :
    (dat0 V c).before 4 t d = (outsAt0 V c (t.val - 1) (Nat.lt_of_le_of_lt (Nat.sub_le _ _) t.isLt)).1 := by
  have hN : t.val < 200 := lt_of_lt_of_eq t.isLt (show cfg0.N = 200 from N_0)
  rw [Dat.before_out_kept _ 4 rfl t (by omega) (Bool.eq_false_iff.mpr fun h => by have := (flush0_4 _).mp h; dsimp only at this; omega)
    (fun _ => rfl) (fun _ _ => rfl)]
  dsimp only [dat0]
theorem before0_5_B (c : Dev nD) (t : Fin cfg0.N) (h0 : ¬t.val % 100 = 0) (d) :
    (dat0 V c).before 5 t d = (outsAt0 V c (t.val - 1) (Nat.lt_of_le_of_lt (Nat.sub_le _ _) t.isLt)).2 := by
  have hN : t.val < 200 := lt_of_lt_of_eq t.isLt (show cfg0.N = 200 from N_0)
  rw [Dat.before_out_kept _ 5 rfl t (by omega) (Bool.eq_false_iff.mpr fun h => by have := (flush0_5 _).mp h; dsimp only at this; omega)
    (fun _ => rfl) (fun _ _ => rfl)]
  dsimp only [dat0]

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t))

set_option maxHeartbeats 1600000 in
/-- The body at any point: the inputs' memrefs hold their blocks; the closed form says which case the point is in;
    at a later-in-row point the outputs' buffers hold what the point before left; so the case's run applies; the
    invariant passes through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5]
  have hN : t.val < 200 := lt_of_lt_of_eq t.isLt (show cfg0.N = 200 from N_0)
  by_cases h0 : t.val % 100 = 0
  · rw [outsAt0_A V c t h0]
    dsimp only
    unfold out0_A_4 out0_A_5
    iintro ⟨HΦ, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ ((hcond0_0 t).mpr h0) (iblk0 V c 0 t) (iblk0 V c 1 t) (iblk0 V c 2 t) (iblk0 V c 3 t)).2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_A_4 c _ _ _ _ _ _ _ _ _ _ _ _ _ _ _ _ _ _)
    unfold owns; iexists _; isplitr
    swap; · iexact H5
    ipureintro; exact View.read_writes_of_cover _ _ _ _ _ (cover0_A_5 c _ _ _ _ _ _ _ _ _ _ _ _ _ _ _ _ _ _)
  · rw [outsAt0_B V c t h0]
    simp only [before0_4_B V c t h0, before0_5_B V c t h0]
    unfold out0_B_4 out0_B_5
    iintro ⟨HΦ, Ho, ⟨%d0, H0⟩, ⟨%d1, H1⟩, ⟨%d2, H2⟩, ⟨%d3, H3⟩, ⟨%d4, H4⟩, ⟨%d5, H5⟩⟩
    iapply ((kernelRun0_B c (grid0.coords t) _ _ _ _ _ _ _ _ _ _ _ _ (fun h => h0 ((hcond0_0 t).mp h)) (iblk0 V c 0 t) (iblk0 V c 1 t) (iblk0 V c 2 t) (iblk0 V c 3 t) _ _).2.2 Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_B_4 c _ _ _ _ _ _ _ _ _ _ _ _ _ _ _ _ _ _ _ _)
    unfold owns; iexists _; isplitr
    swap; · iexact H5
    ipureintro; exact View.read_writes_of_cover _ _ _ _ _ (cover0_B_5 c _ _ _ _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1.lean ====
/- Kernel region 1 (custom_call 1, `cc1_final_kernel`, pipeline 1, grid (200)) at a parameter `V`, the TensorCore's
   buffer contents when the region is entered: each window's block at a point, what the body leaves in the output
   window's buffer as a function of the input blocks, the body's triple, the pipeline's proof data and its body
   obligation. Generic in the float instance. -/
import proofs.«421439_j25340307046985_3_alg».proof.Proof.Gen.KernelIdeal.Launch
import proofs.«421439_j25340307046985_3_alg».proof.Proof.Gen.KernelIdeal.Skeleton
import proofs.«421439_j25340307046985_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384
noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses -/

/-- The input blocks, each read whole. -/
abbrev r1_in0 : Rect S1000x1 := Rect.unit (s := S1000x1) ![0, 0] S1000x1.size inb_S1000x1_S1000x1_0_0
abbrev r1_in1 : Rect S1000x480 := Rect.unit (s := S1000x480) ![0, 0] S1000x480.size inb_S1000x480_S1000x480_0_0
abbrev r1_in2 : Rect S512x128 := Rect.unit (s := S512x128) ![0, 0] S512x128.size inb_S512x128_S512x128_0_0
abbrev r1_in3 : Rect S512x224 := Rect.unit (s := S512x224) ![0, 0] S512x224.size inb_S512x224_S512x224_0_0
abbrev r1_in4 : Rect S1x128 := Rect.unit (s := S1x128) ![0, 0] S1x128.size inb_S1x128_S1x128_0_0
abbrev r1_in5 : Rect S192x64 := Rect.unit (s := S192x64) ![0, 0] S192x64.size inb_S192x64_S192x64_0_0
abbrev r1_in6 : Rect S160x32 := Rect.unit (s := S160x32) ![0, 0] S160x32.size inb_S160x32_S160x32_0_0

/-- The three column bands of the output block: columns 0–127, 128–319, 320–479, all 1000 rows. -/
abbrev r1_a : Rect S1000x480 := Rect.unit (s := S1000x480) ![0, 0] S1000x128.size inb_S1000x480_S1000x128_0_0
abbrev r1_b : Rect S1000x480 := Rect.unit (s := S1000x480) ![0, 128] S1000x192.size inb_S1000x480_S1000x192_0_128
abbrev r1_c : Rect S1000x480 := Rect.unit (s := S1000x480) ![0, 320] S1000x160.size inb_S1000x480_S1000x160_0_320

/-! ## What the body leaves in the output window's buffer -/

/-- Window 7's staging buffer after the body, from the input windows' blocks: its three column bands, the last
    stored first, each holding its payload of the input blocks. -/
def out1_7 (x0 : Vec F S1000x1 .i32) (x1 : Vec F S1000x480 .f32) (x2 : Vec F S512x128 .f32) (x3 : Vec F S512x224 .f32)
    (x4 : Vec F S1x128 .f32) (x5 : Vec F S192x64 .bf16) (x6 : Vec F S160x32 .bf16) : Vec F S1000x480 .f32 :=
  View.canon [⟨r1_c, k1_pay5 (View.ld x0 r1_in0) (View.ld x3 r1_in3) (View.ld x1 r1_in1) (View.ld x6 r1_in6)⟩,
    ⟨r1_b, k1_pay4 (View.ld x0 r1_in0) (View.ld x3 r1_in3) (View.ld x1 r1_in1) (View.ld x5 r1_in5)⟩,
    ⟨r1_a, k1_pay3 (View.ld x0 r1_in0) (View.ld x2 r1_in2) (View.ld x3 r1_in3) (View.ld x1 r1_in1) (View.ld x4 r1_in4)⟩]

/-- The three bands, cut into blocks of 1000 rows by 32 columns (32 divides every band's width and offset), tile the
    block, so every index of the block lies in one of them. -/
theorem cover1_7 (p0 : Vec F S1000x160 .f32) (p1 : Vec F S1000x192 .f32) (p2 : Vec F S1000x128 .f32) (y : S1000x480.Idx) :
    ∃ pc ∈ ([⟨r1_c, p0⟩, ⟨r1_b, p1⟩, ⟨r1_a, p2⟩] : List (View.Piece (Elt F) S1000x480 .f32)), y ∈ pc.1.set :=
  View.cover_of_tiledBy [⟨r1_c, p0⟩, ⟨r1_b, p1⟩, ⟨r1_a, p2⟩] ![1000, 32] (by sl_kernel_rfl) y

/-! ## The body's triple -/

set_option maxHeartbeats 1000000 in
/-- The kernel body on whole staging memrefs, the inputs' at read contents `x0`…`x6` and the output's at anything, runs
    to the continuation holding the inputs' as they were and the output's at `out1_7` of the inputs': the seven blocks
    are read whole, and each column band of the output is written with its payload of them, the three bands covering
    the block. -/
theorem sound_kernel1 (c : Dev nD) (E : Set ℕ) (i : grid1.Coords) (arg1 : Memref sig .tc .vmem S1000x1 .i32) (harg1 : arg1.IsWhole) (arg2 : Memref sig .tc .vmem S1000x480 .f32) (harg2 : arg2.IsWhole) (arg3 : Memref sig .tc .vmem S512x128 .f32) (harg3 : arg3.IsWhole) (arg4 : Memref sig .tc .vmem S512x224 .f32) (harg4 : arg4.IsWhole) (arg5 : Memref sig .tc .vmem S1x128 .f32) (harg5 : arg5.IsWhole) (arg6 : Memref sig .tc .vmem S192x64 .bf16) (harg6 : arg6.IsWhole) (arg7 : Memref sig .tc .vmem S160x32 .bf16) (harg7 : arg7.IsWhole) (arg8 : Memref sig .tc .vmem S1000x480 .f32) (harg8 : arg8.IsWhole)
    (x0 : Vec F S1000x1 .i32) (x1 : Vec F S1000x480 .f32) (x2 : Vec F S512x128 .f32) (x3 : Vec F S512x224 .f32)
    (x4 : Vec F S1x128 .f32) (x5 : Vec F S192x64 .bf16) (x6 : Vec F S160x32 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out1_7 x0 x1 x2 x3 x4 x5 x6)) -∗ K ⟨⟩))
      ⊢ wp frame (wpE (defs₀ (F := F)) Variants.none c none) E (cc1_final_kernel i arg1 harg1 arg2 harg2 arg3 harg3 arg4 harg4 arg5 harg5 arg6 harg6 arg7 harg7 arg8 harg8) K := by
  simp only [cc1_final_kernel_eq_skeleton]; unfold cc1_final_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _ _ _)

/-! ## The input windows' buffers when the body is called -/

/-- An input window's current staging buffer holds its block at every point, whether the pipeline fetched it there
    or not (an input not fetched at a point has the block index it had at the point before), for ANY proof data whose
    array is `V`'s (`hA`) and whose body leaves the block in place (`hafter`); the windows are uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The pipeline's proof data -/

/-- The proof data of pipeline 1 on core `c`: the arrays as the region finds them (`V`); after the body at point `t`
    each input's buffer holds its block and the output's holds `out1_7` of the input blocks; the invariant is the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window: each input's block in place, -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
/-- and in the output's buffer the three column bands' payloads of the input blocks. -/
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t`: the invariant, what is owed, and every window's current staging buffer, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' buffers hold their blocks, so the body's triple applies; the invariant and what
    is owed pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Trunk.lean ====
/- THE RUN of the printed program: @main is seven host stretches, kernel region 0 (custom_call 0), one host stretch and
   kernel region 1 (custom_call 1). Here: what the regions leave in their output arrays (the unknowns the generated
   valuations between items are written over), the two regions as segment records at those valuations, and the launch —
   every weakly fair execution terminates and every final memory holds every unscoped buffer at the last valuation;
   from it the frame claim (each argument array ends as launched) and the result buffer's contents. -/
import proofs.«421439_j25340307046985_3_alg».proof.Proof.Gen.KernelIdeal.Launch
import proofs.«421439_j25340307046985_3_alg».proof.Proof.Gen.KernelIdeal.Skeleton
import proofs.«421439_j25340307046985_3_alg».proof.Proof.Gen.KernelIdeal.Points
import proofs.«421439_j25340307046985_3_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Pipeline.Frame
import Idealize.ShloMosaic.Lib.Ring
import Idealize.ShloMosaic.Lib.Tactic
import proofs.«421439_j25340307046985_3_alg».proof.Proof.KI.R0
import proofs.«421439_j25340307046985_3_alg».proof.Proof.KI.R1
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-! # The contents the two kernel regions are entered at and leave

Between two items of @main every unscoped buffer of a core is at a known valuation: the launch memory, then each
host stretch's effect, then at a region's exit the region's output arrays at what its write-backs have folded. -/

/-- Region 0's entry contents (after the seventh host stretch), read at the TensorCore's references. -/
abbrev E0 : (c : Dev nD) → (b : Ref sig .tc) → Buf (Elt F) ((c : Thread nD τ).loc b) := fun c b => V7 m c b
/-- Region 1's entry contents (after the host stretch that follows region 0), read at the TensorCore's references,
    given what the regions leave. -/
abbrev E1 (outs : Outs (F := F)) : (c : Dev nD) → (b : Ref sig .tc) → Buf (Elt F) ((c : Thread nD τ).loc b) :=
  fun c b => V9 m outs c b

/-- What region 0 leaves in its two output arrays: windows 4 and 5 with every point's write-back folded in. Every
    other reference is given its entry contents (never read). -/
def outs8 : Outs (F := F) := fun _ r c =>
  if h0 : r = main_v21_0 then h0 ▸ (show Buf (Elt F) ((c : Thread nD τ).loc main_v21_0) from (dat0 (E0 m) c).arrAt 4 cfg0.N)
  else if h1 : r = main_v21_1 then h1 ▸ (show Buf (Elt F) ((c : Thread nD τ).loc main_v21_1) from (dat0 (E0 m) c).arrAt 5 cfg0.N)
  else V7 m c r

/-- What both regions leave: region 1's output array (window 7) with every point's write-back folded in, region 1
    having been entered at the contents that follow from what region 0 left; elsewhere as `outs8`. -/
def outsOf : Outs (F := F) := fun J r c =>
  if h : r = main_v49 then h ▸ (show Buf (Elt F) ((c : Thread nD τ).loc main_v49) from (dat1 (E1 m (outs8 m)) c).arrAt 7 cfg1.N)
  else outs8 m J r c

theorem outs8_at0 (J : ℕ) (c : Dev nD) : outs8 m J main_v21_0 c = (dat0 (E0 m) c).arrAt 4 cfg0.N := by
  unfold outs8; rw [dif_pos rfl]
theorem outs8_at1 (J : ℕ) (c : Dev nD) : outs8 m J main_v21_1 c = (dat0 (E0 m) c).arrAt 5 cfg0.N := by
  unfold outs8; rw [dif_neg (by decide), dif_pos rfl]

/-- Region 0's first output array after the region: window 4 folded over all points. -/
theorem outs8_0 (c : Dev nD) : outsOf m 8 main_v21_0 c = (dat0 (E0 m) c).arrAt 4 cfg0.N := by
  unfold outsOf; rw [dif_neg (by decide)]; exact outs8_at0 m 8 c
/-- Region 0's second output array after the region: window 5 folded over all points. -/
theorem outs8_1 (c : Dev nD) : outsOf m 8 main_v21_1 c = (dat0 (E0 m) c).arrAt 5 cfg0.N := by
  unfold outsOf; rw [dif_neg (by decide)]; exact outs8_at1 m 8 c

/-- Region 1's entry contents read what region 0 left only, so they are the same over `outsOf` as over `outs8`. -/
theorem V9_outsOf (c : Dev nD) : V9 m (outsOf m) c = V9 m (outs8 m) c := by
  unfold V9 V8; rw [outs8_0, outs8_1, outs8_at0, outs8_at1]
theorem E1_outsOf : E1 m (outsOf m) = E1 m (outs8 m) := by
  funext c b; exact congrFun (V9_outsOf m c) _

/-- Region 1's output array after the region: window 7 folded over all points, from the entry contents over `outsOf`. -/
theorem outsOf_10 (c : Dev nD) : outsOf m 10 main_v49 c = (dat1 (E1 m (outsOf m)) c).arrAt 7 cfg1.N := by
  rw [E1_outsOf]; unfold outsOf; rw [dif_pos rfl]

/-- The result buffer at the end of @main. -/
theorem result_eq (c : Dev nD) : V10 m (outsOf m) c main_v49 = (dat1 (E1 m (outsOf m)) c).arrAt 7 cfg1.N := by
  unfold V10; rw [Function.update_self]; exact outsOf_10 m c

/-! # Region 0's and region 1's arrays at the regions' exits -/

/-- Region 0's exit contents, read at the TensorCore's references. -/
abbrev X0 : (c : Dev nD) → (b : Ref sig .tc) → Buf (Elt F) ((c : Thread nD τ).loc b) := fun c b => V8 m (outsOf m) c b
/-- Region 1's exit contents (the contents at @main's return), read at the TensorCore's references. -/
abbrev X1 : (c : Dev nD) → (b : Ref sig .tc) → Buf (Elt F) ((c : Thread nD τ).loc b) := fun c b => V10 m (outsOf m) c b

theorem V8_at0 (outs : Outs (F := F)) (c : Dev nD) : V8 m outs c main_v21_0 = outs 8 main_v21_0 c := by
  unfold V8
  rw [Function.update_of_ne (StableHlo.devRef_ne_of_ne (by decide) : (Proc.devRef .tc main_v21_0 : DevRef τ sig) ≠ Proc.devRef .tc main_v21_1),
    Function.update_self]
theorem V8_at1 (outs : Outs (F := F)) (c : Dev nD) : V8 m outs c main_v21_1 = outs 8 main_v21_1 c := by
  unfold V8; rw [Function.update_self]

/-- At region 0's exit each of its arrays holds what the pipeline leaves: an input window's array its entry contents
    (no item of the region writes it), an output window's array its folded write-backs. -/
theorem hF0 (c : Dev nD) : ∀ w : Fin cfg0.W, (dat0 (E0 m) c).arrAt w cfg0.N = X0 m c (Pipeline.arrRef spec0 w)
  | ⟨0, _⟩ => ((dat0 (E0 m) c).arrAt_in 0 rfl _).trans ((A_eq0 (E0 m) c 0).trans (V8_of m (outsOf m) c main_v1 (by decide)).symm)
  | ⟨1, _⟩ => ((dat0 (E0 m) c).arrAt_in 1 rfl _).trans ((A_eq0 (E0 m) c 1).trans (V8_of m (outsOf m) c main_arg0 (by decide)).symm)
  | ⟨2, _⟩ => ((dat0 (E0 m) c).arrAt_in 2 rfl _).trans ((A_eq0 (E0 m) c 2).trans (V8_of m (outsOf m) c main_v11 (by decide)).symm)
  | ⟨3, _⟩ => ((dat0 (E0 m) c).arrAt_in 3 rfl _).trans ((A_eq0 (E0 m) c 3).trans (V8_of m (outsOf m) c main_v20 (by decide)).symm)
  | ⟨4, _⟩ => (outs8_0 m c).symm.trans (V8_at0 m (outsOf m) c).symm
  | ⟨5, _⟩ => (outs8_1 m c).symm.trans (V8_at1 m (outsOf m) c).symm
/-- Every buffer that is none of region 0's arrays is at the exit what it was at the entry. -/
theorem hrest0 (c : Dev nD) : ∀ b, b ∉ Finset.univ.image (Pipeline.arrRef spec0) → X0 m c b = E0 m c b := fun b hb =>
  V8_of m (outsOf m) c b (by
    intro h; simp only [List.mem_cons, List.mem_nil_iff, or_false] at h
    rcases h with rfl | rfl
    · exact hb (Finset.mem_image.mpr ⟨4, Finset.mem_univ _, rfl⟩)
    · exact hb (Finset.mem_image.mpr ⟨5, Finset.mem_univ _, rfl⟩))

theorem V10_at (outs : Outs (F := F)) (c : Dev nD) : V10 m outs c main_v49 = outs 10 main_v49 c := by
  unfold V10; rw [Function.update_self]

/-- An input window's array is at every point what the region found in it. -/
theorem arr_in1 (V : (c : Dev nD) → (b : Ref sig .tc) → Buf (Elt F) ((c : Thread nD τ).loc b)) (c : Dev nD) (w : Fin cfg1.W)
    (hin : (cfg1.win w).isOut = false) : (dat1 V c).arrAt w cfg1.N = V c (Pipeline.arrRef spec1 w) :=
  ((dat1 V c).arrAt_in w hin _).trans (A_eq1 V c w)
/-- Region 1 may change its output array only. -/
theorem X1_of (c : Dev nD) (r : Ref sig .tc) (h : r ∉ ([main_v49] : List (Ref sig .tc))) : X1 m c r = E1 m (outsOf m) c r :=
  V10_of m (outsOf m) c r h
theorem X1_at (c : Dev nD) : X1 m c main_v49 = (dat1 (E1 m (outsOf m)) c).arrAt 7 cfg1.N :=
  (V10_at m (outsOf m) c).trans (outsOf_10 m c)

/-- Every window of region 1 but the last is an input window, on an array other than the result's. -/
theorem in1 : ∀ w : Fin cfg1.W, w ≠ 7 → (cfg1.win w).isOut = false ∧ Pipeline.arrRef spec1 w ∉ ([main_v49] : List (Ref sig .tc)) := by decide

/-- At region 1's exit each of its arrays holds what the pipeline leaves: the seven input windows' arrays their entry
    contents, the output window's array its folded write-backs. -/
theorem hF1 (c : Dev nD) (w : Fin cfg1.W) : (dat1 (E1 m (outsOf m)) c).arrAt w cfg1.N = X1 m c (Pipeline.arrRef spec1 w) := by
  by_cases h : w = 7
  · subst h; exact (X1_at m c).symm
  · exact (arr_in1 (E1 m (outsOf m)) c w (in1 w h).1).trans (X1_of m c (Pipeline.arrRef spec1 w) (in1 w h).2).symm
/-- Every buffer that is none of region 1's arrays is at the exit what it was at the entry. -/
theorem hrest1 (c : Dev nD) : ∀ b, b ∉ Finset.univ.image (Pipeline.arrRef spec1) → X1 m c b = E1 m (outsOf m) c b := fun b hb =>
  X1_of m c b (by
    intro h; simp only [List.mem_cons, List.mem_nil_iff, or_false] at h
    subst h
    exact hb (Finset.mem_image.mpr ⟨7, Finset.mem_univ _, rfl⟩))

/-! # The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m (outsOf m)) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state (a region's
    invariant takes it in and gives it back) and the core owing nothing. -/
abbrev R (c : Dev nD) : sProp 𝕄 := iprop((∃ r, prngReg c r) ∗ ∃ W, owes (c : Thread nD τ) (0 : CellTallies nD τ sig Unit) W)
/-- The same rest before, between and after the two regions. -/
abbrev E : Fin 3 → Dev nD → sProp 𝕄 := fun _ => R
/-- The last thread state without the `owes`: every unscoped buffer at the contents at @main's return, the generator
    register at some state. -/
abbrev Tₙ (c : Dev nD) : sProp 𝕄 := iprop(StableHlo.held (c : Thread nD τ) (Pipeline.ucRefs τ sig) (V10 m (outsOf m) c) ∗ ∃ r, prngReg c r)

/-! # The regions as segments -/

set_option backward.isDefEq.respectTransparency.types false in
/-- REGION 0 (custom_call 0): entered from every unscoped buffer at the contents after the seventh host stretch, left
    with its two output arrays at their folded write-backs and every other buffer as entered. Its arrays are split
    out of the unscoped buffers at entry and put back at exit; the generator register goes into the region's
    invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (V7 m c) ∗ R c)
  post c := iprop(StableHlo.held (c : Thread nD τ) (Pipeline.ucRefs τ sig) (V8 m (outsOf m) c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (X0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 (custom_call 1): entered from every unscoped buffer at the contents after the host stretch that follows
    region 0, left with its output array at its folded write-backs and every other buffer as entered — the contents
    at @main's return. The same protocol as region 0. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m (outsOf m)) c).loose
  hwaits := Pipeline.hwaits_of_owed_zero _ _ _ _ L lv 1 fun _ _ => rfl
  pre c := iprop(StableHlo.held (c : Thread nD τ) (Pipeline.ucRefs τ sig) (V9 m (outsOf m) c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E1 m (outsOf m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m (outsOf m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m (outsOf m) c) (X1 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! # @main as segments, and the launch -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

variable (ρ : Dev nD → PrngReg)

set_option backward.isDefEq.respectTransparency.types false in
/-- THE RUN. From any memory with zero counters, every weakly fair execution of @main on the TensorCores terminates,
    nothing faulting, and every final memory holds EVERY unscoped buffer of every core at the last boundary's contents:
    the launch memory carried through the seven host stretches, region 0 (its two output arrays at their folded
    write-backs), the next host stretch and region 1 (its output array at its folded write-backs). -/
theorem run : θ_run defs (onTc (τ := τ) (main (F := F))) ⟨m, fun _ => 0, ρ⟩
    (fun r => ∀ c : Dev nD, ∀ b ∈ Pipeline.ucRefs τ sig, r.2.mem ((c : Thread nD τ).1, b) = V10 m (outsOf m) c b) := by
  refine Pipeline.θ_run_regions_kit_dev (pcfgs (F := F)) adm (pdats m) () cellOf_inj emb₁ defs₀ 𝒱₀ L lv m ρ main
    (segs m (outsOf m) 𝒱₀ L lv E () (pdats m) (reg0 m) (reg1 m))
    (fun c Q => by
      rewrite [main_chain c, Pipeline.Seg.run_eq_chain,
        show (segs m (outsOf m) 𝒱₀ L lv E () (pdats m) (reg0 m) (reg1 m) c).map Pipeline.Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          Prog.lift (.customCall (Pipeline.entry 0) ()),
          StableHlo.seq hostOps1,
          Prog.lift (.customCall (Pipeline.entry 1) ()) ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := ?_)
    (T₀ := fun c => iprop(StableHlo.held (c : Thread nD τ) (Pipeline.ucRefs τ sig) (V0 m c) ∗ R c)) (Tₙ := Tₙ m)
    (hch := fun c => ⟨.rfl, .rfl, .rfl, .rfl, .rfl, .rfl, .rfl, .rfl, .rfl, .rfl, .rfl⟩)
    (hinit := ?_)
    (QY := fun c s => ∀ b ∈ Pipeline.ucRefs τ sig, s.mem ((c : Thread nD τ).1, b) = V10 m (outsOf m) c b)
    (hfin := fun c s' => ?_) (hQ := fun s h => h)
  · -- the launch element is the pipeline library's at every staging cell; no ghost resource per core
    iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · -- the launch: on each core the unscoped buffers are held at the launch memory, the generator register is at its
    -- launch state, nothing is owed
    refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · -- the end: every unscoped buffer read off the last valuation
    iintro ⟨⟨Hh, -⟩, HSI⟩
    unfold StableHlo.held
    imodintro
    iapply (pointsTo_read_all (Pipeline.ucRefs τ sig) (fun b => ((c : Thread nD τ).1, b)) (V10 m (outsOf m) c) s')
    isplitl [Hh] <;> iassumption

/-- THE FRAME: every argument array ends holding its launch contents — no host stretch writes an argument and no
    region may change one, so the last valuation at an argument walks back to the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (V10_main_arg0 m (outsOf m) c),
      (h c _ (mem_uc main_arg1 (by decide))).trans (V10_main_arg1 m (outsOf m) c),
      (h c _ (mem_uc main_arg2 (by decide))).trans (V10_main_arg2 m (outsOf m) c),
      (h c _ (mem_uc main_arg3 (by decide))).trans (V10_main_arg3 m (outsOf m) c)⟩) (run m ρ)

end Cert.KernelIdeal.Hand

end
-- ==== Proof.Spec.lean ====
/-
  The shared vocabulary of the value proof. A node `n` belongs to graph `g` when its (32-bit) graph id is the
  word `g`; `oh b g` is the weight 1 or 0 that says so. Every segment sum of the two programs — the kernel's
  one-hot matrix products and the reference's accumulating scatters — is a sum over the nodes of `oh` times a term,
  and every per-node read of a per-graph table (the kernel's one-hot product with the table, the reference's gather)
  is a sum over the graphs of `oh` times the table's row.
-/
import Idealize.ShloMosaic.PureOps.Ideal
import Idealize.ShloMosaic.Lib.ValueIdx

noncomputable section

namespace Cert.Spec

open Idealize.ShloMosaic Idealize.ShloMosaic.ValueIdx

/-- The weight of node id `b` in graph `g`: 1 when `b` is the word `g`, else 0. -/
def oh (b : BitVec 32) (g : Fin 512) : EReal := if b = BitVec.ofNat 32 g.val then 1 else 0

theorem oh_self (g : Fin 512) : oh (BitVec.ofNat 32 g.val) g = 1 := if_pos rfl

theorem oh_of_ne {b : BitVec 32} {g : Fin 512} (h : b ≠ BitVec.ofNat 32 g.val) : oh b g = 0 := if_neg h

/-- An id in range is the word of exactly one graph. -/
theorem ofNat_inj_of_lt {g g' : Fin 512} (h : BitVec.ofNat 32 g.val = BitVec.ofNat 32 g'.val) : g = g' := by
  have := congrArg BitVec.toNat h
  simp only [BitVec.toNat_ofNat] at this
  have h1 : g.val % 2 ^ 32 = g.val := Nat.mod_eq_of_lt (by omega)
  have h2 : g'.val % 2 ^ 32 = g'.val := Nat.mod_eq_of_lt (by omega)
  exact Fin.ext (by omega)

/-- Reading a per-graph table through the one-hot weights of an id that is the word of graph `g₀`: only the row of
    `g₀` survives. -/
theorem sum_oh_mul (g₀ : Fin 512) (f : Fin 512 → EReal) :
    ∑ g : Fin 512, oh (BitVec.ofNat 32 g₀.val) g * f g = f g₀ := by
  rw [Finset.sum_eq_single g₀]
  · rw [oh_self, one_mul]
  · intro g _ hg
    rw [oh_of_ne (fun h => hg (ofNat_inj_of_lt h).symm), zero_mul]
  · intro h; exact absurd (Finset.mem_univ _) h

end Cert.Spec

end
-- ==== Proof.Val.Pay1.lean ====
/- The payloads of kernel region 1 read at an index, at the ideal values: the one-hot matrix of the node ids, its
   products with the per-graph tables as sums over the graphs weighted by `oh`, and the three column bands the body
   stores. -/
import proofs.«421439_j25340307046985_3_alg».proof.Proof.Gen.KernelIdeal.Skeleton
import proofs.«421439_j25340307046985_3_alg».proof.Proof.Spec
import Idealize.ShloMosaic.Lib.Pipeline.Value
import Idealize.ShloMosaic.Lib.ValueIdx
import Idealize.ShloMosaic.PureOps.Ideal.Laws

noncomputable section

namespace Cert.KernelIdeal.Hand

open Idealize.ShloMosaic Idealize.ShloMosaic.ValueIdx Idealize.ShloMosaic.Pipeline
open Cert.KernelIdeal Cert.KernelIdeal.Gen Cert.Spec

/-- The node-id column laid along 512 columns reads the row's id. -/
theorem bc_ids_apply (v0 : Vec Ideal S1000x1 .i32) (h : S1000x1.Broadcasts S1000x512) (r : Fin 1000) (g : Fin 512) :
    broadcastTo S1000x512 v0 h (ix2 r g) = v0 (ix2 r 0) := by
  refine broadcastTo_apply v0 h (ix2 r g) (ix2 r 0) fun a => ?_
  match a with
  | ⟨0, _⟩ => rfl
  | ⟨1, _⟩ => rfl

/-- The column counter laid along 1000 rows reads the column's word. -/
theorem bc_iota_apply (hi : S1x512.Iotas .tc 32 [1]) (h : S1x512.Broadcasts S1000x512) (r : Fin 1000) (g : Fin 512) :
    broadcastTo S1000x512 (iota .tc S1x512 32 [1] hi) h (ix2 r g) = BitVec.ofNat 32 g.val := by
  refine (broadcastTo_apply _ h (ix2 r g) (ix2 0 g) fun a => ?_).trans ?_
  · match a with
    | ⟨0, _⟩ => rfl
    | ⟨1, _⟩ => rfl
  · exact iota_single_apply .tc S1x512 32 1 hi (ix2 0 g)

/-- A one-bit comparison word, widened to 32 bits and read as a signed integer, is 1 or 0. -/
theorem sitofp_extui_cmpi_eq (x y : BitVec 32) :
    (FloatOps.sitofp (F := Ideal) .f32 ((IntOp.cmpi .eq x y).setWidth 32) : EReal) = if x = y then 1 else 0 := by
  by_cases h : x = y
  · subst h
    rw [if_pos rfl, IntOp.cmpi_eq.mpr rfl]
    show ((((1#1 : BitVec 1).setWidth 32).toInt : ℝ) : EReal) = 1
    rw [show ((1#1 : BitVec 1).setWidth 32).toInt = 1 from by decide]
    simp
  · rw [if_neg h, eq_zero_of_ne_one (fun e => h (IntOp.cmpi_eq.mp e))]
    show ((((0#1 : BitVec 1).setWidth 32).toInt : ℝ) : EReal) = 0
    rw [show ((0#1 : BitVec 1).setWidth 32).toInt = 0 from by decide]
    simp

/-- THE ONE-HOT MATRIX: row `r`, column `g` holds the weight of the row's node id in graph `g`. -/
theorem k1_pay1_apply (v0 : Vec Ideal S1000x1 .i32) (r : Fin 1000) (g : Fin 512) :
    k1_pay1 (F := Ideal) v0 (ix2 r g) = oh (v0 (ix2 r 0)) g := by
  unfold k1_pay1
  show FloatOps.sitofp (F := Ideal) .f32 ((IntOp.cmpi .eq (broadcastTo S1000x512 (shapeCast S1000x1 v0 _) _ (ix2 r g))
    (broadcastTo S1000x512 (iota .tc S1x512 32 [1] _) _ (ix2 r g))).setWidth 32) = _
  rw [shapeCast_self, bc_ids_apply, bc_iota_apply, sitofp_extui_cmpi_eq]
  rfl

/-- A matrix product contracting the left operand's columns with the right operand's rows, into a zero accumulator,
    read at an index: the sum over the contracted coordinate of the products of the entries. -/
theorem matmul_rows_apply {m k n : Nat} {φ₁ φ₂ : FTy}
    (w : DotDims.WF ⟨2, ![m, k]⟩ ⟨2, ![k, n]⟩ ⟨2, ![m, n]⟩ [1] [0] [0] [1] [] [])
    (A : FVec Ideal ⟨2, ![m, k]⟩ φ₁) (B : FVec Ideal ⟨2, ![k, n]⟩ φ₂) (a : Fin m) (b : Fin n) :
    FloatOps.matmul (⟨[1], [0], [0], [1], [], [], w⟩ : DotDims _ _ _) none A B
        (constant ⟨2, ![m, n]⟩ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A matrix product contracting the columns of BOTH operands, into a zero accumulator, read at an index. -/
theorem matmul_cols_apply {m k n : Nat} {φ₁ φ₂ : FTy}
    (w : DotDims.WF ⟨2, ![m, k]⟩ ⟨2, ![n, k]⟩ ⟨2, ![m, n]⟩ [1] [1] [0] [0] [] [])
    (A : FVec Ideal ⟨2, ![m, k]⟩ φ₁) (B : FVec Ideal ⟨2, ![n, k]⟩ φ₂) (a : Fin m) (b : Fin n) :
    FloatOps.matmul (⟨[1], [1], [0], [0], [], [], w⟩ : DotDims _ _ _) none A B
        (constant ⟨2, ![m, n]⟩ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

/-- A slice of columns `[o, o + n')` of a matrix read at `(r, c)` is the matrix at `(r, o + c)`. -/
theorem slice_cols_apply {α : Type} {m n n' : Nat} (o : Nat) (x : (⟨2, ![m, n]⟩ : Shape).Idx → α)
    (h : (⟨2, ![m, n]⟩ : Shape).Slices ![0, o] ⟨2, ![m, n']⟩) (r : Fin m) (c : Fin n') (c' : Fin n)
    (hc : c'.val = o + c.val) :
    extractStridedSlice ⟨2, ![m, n']⟩ ![0, o] x h (ix2 r c) = x (ix2 r c') := by
  refine extractStridedSlice_apply _ x h (ix2 r c) (ix2 r c') fun a => ?_
  match a with
  | ⟨0, _⟩ => exact (Nat.zero_add _).symm
  | ⟨1, _⟩ => exact hc

/-- One row laid along every row of a matrix reads its column's entry. -/
theorem bc_row_apply {α : Type} {m n : Nat} (x : (⟨2, ![1, n]⟩ : Shape).Idx → α)
    (h : (⟨2, ![1, n]⟩ : Shape).Broadcasts ⟨2, ![m, n]⟩) (hn : n ≠ 1) (r : Fin m) (c : Fin n) :
    broadcastTo ⟨2, ![m, n]⟩ x h (ix2 r c) = x (ix2 0 c) := by
  refine broadcastTo_apply x h (ix2 r c) (ix2 0 c) fun a => ?_
  match a with
  | ⟨0, _⟩ => rfl
  | ⟨1, _⟩ => exact (if_neg hn).symm

/-- THE SCALE TABLE READ PER NODE: row `r` of the one-hot matrix times the table is the table's rows weighted by
    the row's node id. -/
theorem k1_pay2_apply (v0 : Vec Ideal S1000x1 .i32) (v12 : Vec Ideal S512x224 .f32) (r : Fin 1000) (f : Fin 224) :
    k1_pay2 (F := Ideal) v0 v12 (ix2 r f) = ∑ g : Fin 512, oh (v0 (ix2 r 0)) g * v12 (ix2 g f) := by
  unfold k1_pay2
  refine (matmul_rows_apply dot_S1000x512_S512x224_S1000x224_1_0_0_1_n_n_wf (k1_pay1 v0) _ r f).trans ?_
  refine Finset.sum_congr rfl fun g _ => ?_
  rw [k1_pay1_apply, truncf_apply, shapeCast_self]

/-- THE FIRST 128 COLUMNS: the input less the node's graph mean, times the node's graph scale, plus the bias. -/
theorem k1_pay3_apply (v0 : Vec Ideal S1000x1 .i32) (v9 : Vec Ideal S512x128 .f32) (v12 : Vec Ideal S512x224 .f32)
    (v17 : Vec Ideal S1000x480 .f32) (v26 : Vec Ideal S1x128 .f32) (r : Fin 1000) (k : Fin 128) :
    k1_pay3 (F := Ideal) v0 v9 v12 v17 v26 (ix2 r k)
      = (v17 (ix2 r ⟨k.val, by omega⟩) - ∑ g : Fin 512, oh (v0 (ix2 r 0)) g * v9 (ix2 g k))
          * (∑ g : Fin 512, oh (v0 (ix2 r 0)) g * v12 (ix2 g ⟨k.val, by omega⟩)) + v26 (ix2 0 k) := by
  unfold k1_pay3
  refine (addf_apply _ _ _).trans (congrArg₂ (· + ·) ((mulf_apply _ _ _).trans (congrArg₂ (· * ·)
    ((subf_apply _ _ _).trans (congrArg₂ (· - ·) ?_ ?_)) ?_)) ?_)
  · exact slice_cols_apply 0 v17 _ r k _ (Nat.zero_add _).symm
  · refine (matmul_rows_apply dot_S1000x512_S512x128_S1000x128_1_0_0_1_n_n_wf (k1_pay1 v0) _ r k).trans ?_
    refine Finset.sum_congr rfl fun g _ => ?_
    rw [k1_pay1_apply, truncf_apply, shapeCast_self]
  · exact (slice_cols_apply 0 (k1_pay2 v0 v12) _ r k ⟨k.val, by omega⟩ (Nat.zero_add _).symm).trans
      (k1_pay2_apply v0 v12 r _)
  · rw [shapeCast_self]
    exact bc_row_apply v26 _ (by decide) r k

/-- THE MIDDLE 192 COLUMNS: the input times the node's 64 graph scales spread over the columns by the table `v31`. -/
theorem k1_pay4_apply (v0 : Vec Ideal S1000x1 .i32) (v12 : Vec Ideal S512x224 .f32) (v17 : Vec Ideal S1000x480 .f32)
    (v31 : Vec Ideal S192x64 .bf16) (r : Fin 1000) (j : Fin 192) :
    k1_pay4 (F := Ideal) v0 v12 v17 v31 (ix2 r j)
      = v17 (ix2 r ⟨128 + j.val, by omega⟩)
          * ∑ k : Fin 64, (∑ g : Fin 512, oh (v0 (ix2 r 0)) g * v12 (ix2 g ⟨128 + k.val, by omega⟩)) * v31 (ix2 j k) := by
  unfold k1_pay4
  refine (mulf_apply _ _ _).trans (congrArg₂ (· * ·) ?_ ?_)
  · exact slice_cols_apply 128 v17 _ r j _ rfl
  · refine (matmul_cols_apply dot_S1000x64_S192x64_S1000x192_1_1_0_0_n_n_wf _ _ r j).trans ?_
    refine Finset.sum_congr rfl fun k _ => ?_
    rw [truncf_apply, shapeCast_self]
    exact congrArg (· * v31 (ix2 j k)) ((slice_cols_apply 128 (k1_pay2 v0 v12) _ r k ⟨128 + k.val, by omega⟩ rfl).trans
      (k1_pay2_apply v0 v12 r _))

/-- THE LAST 160 COLUMNS: the input times the node's 32 graph scales spread over the columns by the table `v36`. -/
theorem k1_pay5_apply (v0 : Vec Ideal S1000x1 .i32) (v12 : Vec Ideal S512x224 .f32) (v17 : Vec Ideal S1000x480 .f32)
    (v36 : Vec Ideal S160x32 .bf16) (r : Fin 1000) (j : Fin 160) :
    k1_pay5 (F := Ideal) v0 v12 v17 v36 (ix2 r j)
      = v17 (ix2 r ⟨320 + j.val, by omega⟩)
          * ∑ k : Fin 32, (∑ g : Fin 512, oh (v0 (ix2 r 0)) g * v12 (ix2 g ⟨192 + k.val, by omega⟩)) * v36 (ix2 j k) := by
  unfold k1_pay5
  refine (mulf_apply _ _ _).trans (congrArg₂ (· * ·) ?_ ?_)
  · exact slice_cols_apply 320 v17 _ r j _ rfl
  · refine (matmul_cols_apply dot_S1000x32_S160x32_S1000x160_1_1_0_0_n_n_wf _ _ r j).trans ?_
    refine Finset.sum_congr rfl fun k _ => ?_
    rw [truncf_apply, shapeCast_self]
    exact congrArg (· * v36 (ix2 j k)) ((slice_cols_apply 192 (k1_pay2 v0 v12) _ r k ⟨192 + k.val, by omega⟩ rfl).trans
      (k1_pay2_apply v0 v12 r _))

end Cert.KernelIdeal.Hand

end
-- ==== Proof.Val.Out1.lean ====
/- The value of kernel region 1: what its output array holds after the run, index by index, as a function of the
   arrays the region finds. -/
import proofs.«421439_j25340307046985_3_alg».proof.Proof.KI.R1
import proofs.«421439_j25340307046985_3_alg».proof.Proof.Spec
import Idealize.ShloMosaic.Lib.Pipeline.Value
import Idealize.ShloMosaic.Lib.ValueIdx
import proofs.«421439_j25340307046985_3_alg».proof.Proof.Val.Pay1

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen Cert.Spec

variable (V : (c : Dev nD) → (b : Ref sig .tc) → Buf (Elt Ideal) ((c : Thread nD τ).loc b))

/-- The index maps of region 1, over its 200 points: the two row-blocked inputs and the output are at block `t` of their
    rows, the five tables at their one block. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- The node-id block at point `t` is rows `1000 t …` of the id column. -/
theorem iblk1_0_apply (c : Dev nD) (t : Fin cfg1.N) (x : S1000x1.Idx) (k : S200000x1.Idx)
    (hk0 : (k 0).val = t.val * 1000 + (x 0).val) :
    (iblk1 V c 0 t : Vec Ideal S1000x1 .i32) x = (V c main_v1 : S200000x1.Idx → BitVec 32) k := by
  obtain ⟨e0, e1, -⟩ := idx_facts1 t
  unfold iblk1
  rw [View.read_apply]
  show V c main_v1 _ = V c main_v1 _
  congr 1
  funext a
  apply Fin.ext
  match a with
  | ⟨0, _⟩ => show win1_0.index t 0 * 1000 + 1 * (x 0).val = (k 0).val; rw [e0, hk0]; omega
  | ⟨1, _⟩ => show win1_0.index t 1 * 1 + 1 * (x 1).val = (k 1).val; rw [e1]; have h1 : (x 1).val < 1 := (x 1).isLt; have h2 : (k 1).val < 1 := (k 1).isLt; omega

/-- The input block at point `t` is rows `1000 t …` of the input. -/
theorem iblk1_1_apply (c : Dev nD) (t : Fin cfg1.N) (x : S1000x480.Idx) (k : S200000x480.Idx)
    (hk0 : (k 0).val = t.val * 1000 + (x 0).val) (hk1 : (k 1).val = (x 1).val) :
    (iblk1 V c 1 t : Vec Ideal S1000x480 .f32) x = (V c main_arg0 : S200000x480.Idx → EReal) k := by
  obtain ⟨-, -, e0, e1, -⟩ := idx_facts1 t
  unfold iblk1
  rw [View.read_apply]
  show V c main_arg0 _ = V c main_arg0 _
  congr 1
  funext a
  apply Fin.ext
  match a with
  | ⟨0, _⟩ => show win1_1.index t 0 * 1000 + 1 * (x 0).val = (k 0).val; rw [e0, hk0]; omega
  | ⟨1, _⟩ => show win1_1.index t 1 * 480 + 1 * (x 1).val = (k 1).val; rw [e1, hk1]; omega

/-- Each table's block at every point is the whole table. -/
theorem iblk1_2_eq (c : Dev nD) (t : Fin cfg1.N) :
    (iblk1 V c 2 t : Vec Ideal S512x128 .f32) = (V c main_v32 : S512x128.Idx → EReal) := by
  obtain ⟨-, -, -, -, e0, e1, -⟩ := idx_facts1 t
  funext x
  unfold iblk1
  rw [View.read_apply]
  show V c main_v32 _ = V c main_v32 _
  congr 1
  funext a
  apply Fin.ext
  match a with
  | ⟨0, _⟩ => show win1_2.index t 0 * 512 + 1 * (x 0).val = (x 0).val; rw [e0]; omega
  | ⟨1, _⟩ => show win1_2.index t 1 * 128 + 1 * (x 1).val = (x 1).val; rw [e1]; omega

theorem iblk1_3_eq (c : Dev nD) (t : Fin cfg1.N) :
    (iblk1 V c 3 t : Vec Ideal S512x224 .f32) = (V c main_v48 : S512x224.Idx → EReal) := by
  obtain ⟨-, -, -, -, -, -, e0, e1, -⟩ := idx_facts1 t
  funext x
  unfold iblk1
  rw [View.read_apply]
  show V c main_v48 _ = V c main_v48 _
  congr 1
  funext a
  apply Fin.ext
  match a with
  | ⟨0, _⟩ => show win1_3.index t 0 * 512 + 1 * (x 0).val = (x 0).val; rw [e0]; omega
  | ⟨1, _⟩ => show win1_3.index t 1 * 224 + 1 * (x 1).val = (x 1).val; rw [e1]; omega

theorem iblk1_4_eq (c : Dev nD) (t : Fin cfg1.N) :
    (iblk1 V c 4 t : Vec Ideal S1x128 .f32) = (V c main_v2 : S1x128.Idx → EReal) := by
  obtain ⟨-, -, -, -, -, -, -, -, e0, e1, -⟩ := idx_facts1 t
  funext x
  unfold iblk1
  rw [View.read_apply]
  show V c main_v2 _ = V c main_v2 _
  congr 1
  funext a
  apply Fin.ext
  match a with
  | ⟨0, _⟩ => show win1_4.index t 0 * 1 + 1 * (x 0).val = (x 0).val; rw [e0]; omega
  | ⟨1, _⟩ => show win1_4.index t 1 * 128 + 1 * (x 1).val = (x 1).val; rw [e1]; omega

theorem iblk1_5_eq (c : Dev nD) (t : Fin cfg1.N) :
    (iblk1 V c 5 t : Vec Ideal S192x64 .bf16) = (V c main_v11 : S192x64.Idx → EReal) := by
  obtain ⟨-, -, -, -, -, -, -, -, -, -, e0, e1, -⟩ := idx_facts1 t
  funext x
  unfold iblk1
  rw [View.read_apply]
  show V c main_v11 _ = V c main_v11 _
  congr 1
  funext a
  apply Fin.ext
  match a with
  | ⟨0, _⟩ => show win1_5.index t 0 * 192 + 1 * (x 0).val = (x 0).val; rw [e0]; omega
  | ⟨1, _⟩ => show win1_5.index t 1 * 64 + 1 * (x 1).val = (x 1).val; rw [e1]; omega

theorem iblk1_6_eq (c : Dev nD) (t : Fin cfg1.N) :
    (iblk1 V c 6 t : Vec Ideal S160x32 .bf16) = (V c main_v20 : S160x32.Idx → EReal) := by
  obtain ⟨-, -, -, -, -, -, -, -, -, -, -, -, e0, e1, -⟩ := idx_facts1 t
  funext x
  unfold iblk1
  rw [View.read_apply]
  show V c main_v20 _ = V c main_v20 _
  congr 1
  funext a
  apply Fin.ext
  match a with
  | ⟨0, _⟩ => show win1_6.index t 0 * 160 + 1 * (x 0).val = (x 0).val; rw [e0]; omega
  | ⟨1, _⟩ => show win1_6.index t 1 * 32 + 1 * (x 1).val = (x 1).val; rw [e1]; omega

theorem hz2 : (![0, 0] : Fin 2 → Nat) = fun _ => 0 := funext fun a => by fin_cases a <;> rfl

/-- A column left of 320 is not in the last band, -/
theorem not_mem_r1_c {y : S1000x480.Idx} (h : (y 1).val < 320) : y ∉ r1_c.set := fun hm => by
  have hm' : y ∈ (Rect.unit (s := S1000x480) ![0, 320] S1000x160.size inb_S1000x480_S1000x160_0_320).set := hm
  rw [Rect.mem_set_unit] at hm'
  have h1 : 320 ≤ (y 1).val := (hm' 1).1
  omega
/-- and one left of 128 is not in the middle band. -/
theorem not_mem_r1_b {y : S1000x480.Idx} (h : (y 1).val < 128) : y ∉ r1_b.set := fun hm => by
  have hm' : y ∈ (Rect.unit (s := S1000x480) ![0, 128] S1000x192.size inb_S1000x480_S1000x192_0_128).set := hm
  rw [Rect.mem_set_unit] at hm'
  have h1 : 128 ≤ (y 1).val := (hm' 1).1
  omega

section Bands
variable (x0 : Vec Ideal S1000x1 .i32) (x1 : Vec Ideal S1000x480 .f32) (x2 : Vec Ideal S512x128 .f32)
  (x3 : Vec Ideal S512x224 .f32) (x4 : Vec Ideal S1x128 .f32) (x5 : Vec Ideal S192x64 .bf16) (x6 : Vec Ideal S160x32 .bf16)

/-- The output block at a column of the first band holds the first band's payload. -/
theorem out1_7_a (r : Fin 1000) (k : Fin 128) :
    out1_7 x0 x1 x2 x3 x4 x5 x6 (ix2 r ⟨k.val, by omega⟩) = k1_pay3 x0 x2 x3 x1 x4 (ix2 r k) := by
  unfold out1_7
  simp only [View.ld_unit_zero (S := S1000x1) hz2, View.ld_unit_zero (S := S1000x480) hz2, View.ld_unit_zero (S := S512x128) hz2,
    View.ld_unit_zero (S := S512x224) hz2, View.ld_unit_zero (S := S1x128) hz2, View.ld_unit_zero (S := S192x64) hz2,
    View.ld_unit_zero (S := S160x32) hz2]
  refine (View.canon_cons_of_not_mem ⟨r1_c, _⟩ _ (not_mem_r1_c (by show k.val < 320; omega))).trans ?_
  refine (View.canon_cons_of_not_mem ⟨r1_b, _⟩ _ (not_mem_r1_b (by show k.val < 128; omega))).trans ?_
  have e : r1_a.emb (ix2 r k) = ix2 r ⟨k.val, by omega⟩ := by
    funext a; apply Fin.ext
    match a with
    | ⟨0, _⟩ => show 0 + 1 * r.val = r.val; omega
    | ⟨1, _⟩ => show 0 + 1 * k.val = k.val; omega
  rw [← e]
  exact View.canon_cons_emb r1_a _ _ (ix2 r k)

/-- The output block at a column of the middle band holds the middle band's payload. -/
theorem out1_7_b (r : Fin 1000) (j : Fin 192) :
    out1_7 x0 x1 x2 x3 x4 x5 x6 (ix2 r ⟨128 + j.val, by omega⟩) = k1_pay4 x0 x3 x1 x5 (ix2 r j) := by
  unfold out1_7
  simp only [View.ld_unit_zero (S := S1000x1) hz2, View.ld_unit_zero (S := S1000x480) hz2, View.ld_unit_zero (S := S512x128) hz2,
    View.ld_unit_zero (S := S512x224) hz2, View.ld_unit_zero (S := S1x128) hz2, View.ld_unit_zero (S := S192x64) hz2,
    View.ld_unit_zero (S := S160x32) hz2]
  refine (View.canon_cons_of_not_mem ⟨r1_c, _⟩ _ (not_mem_r1_c (by show 128 + j.val < 320; omega))).trans ?_
  have e : r1_b.emb (ix2 r j) = ix2 r ⟨128 + j.val, by omega⟩ := by
    funext a; apply Fin.ext
    match a with
    | ⟨0, _⟩ => show 0 + 1 * r.val = r.val; omega
    | ⟨1, _⟩ => show 128 + 1 * j.val = 128 + j.val; omega
  rw [← e]
  exact View.canon_cons_emb r1_b _ _ (ix2 r j)

/-- The output block at a column of the last band holds the last band's payload. -/
theorem out1_7_c (r : Fin 1000) (j : Fin 160) :
    out1_7 x0 x1 x2 x3 x4 x5 x6 (ix2 r ⟨320 + j.val, by omega⟩) = k1_pay5 x0 x3 x1 x6 (ix2 r j) := by
  unfold out1_7
  simp only [View.ld_unit_zero (S := S1000x1) hz2, View.ld_unit_zero (S := S1000x480) hz2, View.ld_unit_zero (S := S512x128) hz2,
    View.ld_unit_zero (S := S512x224) hz2, View.ld_unit_zero (S := S1x128) hz2, View.ld_unit_zero (S := S192x64) hz2,
    View.ld_unit_zero (S := S160x32) hz2]
  have e : r1_c.emb (ix2 r j) = ix2 r ⟨320 + j.val, by omega⟩ := by
    funext a; apply Fin.ext
    match a with
    | ⟨0, _⟩ => show 0 + 1 * r.val = r.val; omega
    | ⟨1, _⟩ => show 320 + 1 * j.val = 320 + j.val; omega
  rw [← e]
  exact View.canon_cons_emb r1_c _ _ (ix2 r j)

end Bands

/-! ## The closed form -/

/-- The arrays the region finds, each at its shape: the node ids, the input, the per-graph means and scales, the bias,
    and the two spreading tables. -/
abbrev aBc (c : Dev nD) : S200000x1.Idx → BitVec 32 := V c main_v1
abbrev aX (c : Dev nD) : S200000x480.Idx → EReal := V c main_arg0
abbrev aMn (c : Dev nD) : S512x128.Idx → EReal := V c main_v32
abbrev aSc (c : Dev nD) : S512x224.Idx → EReal := V c main_v48
abbrev aB2 (c : Dev nD) : S1x128.Idx → EReal := V c main_v2
abbrev aG1 (c : Dev nD) : S192x64.Idx → EReal := V c main_v11
abbrev aG2 (c : Dev nD) : S160x32.Idx → EReal := V c main_v20

/-- The first 128 columns of the result at node `n`: the input less the mean of the node's graph, times the scale of the
    node's graph, plus the bias. -/
def bandA (c : Dev nD) (n : Fin 200000) (k : Fin 128) : EReal :=
  (aX V c (ix2 n ⟨k.val, by omega⟩)
      - ∑ g : Fin 512, oh (aBc V c (ix2 n 0)) g * aMn V c (ix2 g k))
    * (∑ g : Fin 512, oh (aBc V c (ix2 n 0)) g
        * aSc V c (ix2 g ⟨k.val, by omega⟩))
    + aB2 V c (ix2 0 k)

/-- The middle 192 columns: the input times the 64 scales of the node's graph spread over the columns. -/
def bandB (c : Dev nD) (n : Fin 200000) (j : Fin 192) : EReal :=
  aX V c (ix2 n ⟨128 + j.val, by omega⟩)
    * ∑ k : Fin 64, (∑ g : Fin 512, oh (aBc V c (ix2 n 0)) g
        * aSc V c (ix2 g ⟨128 + k.val, by omega⟩)) * aG1 V c (ix2 j k)

/-- The last 160 columns: the input times the 32 scales of the node's graph spread over the columns. -/
def bandC (c : Dev nD) (n : Fin 200000) (j : Fin 160) : EReal :=
  aX V c (ix2 n ⟨320 + j.val, by omega⟩)
    * ∑ k : Fin 32, (∑ g : Fin 512, oh (aBc V c (ix2 n 0)) g
        * aSc V c (ix2 g ⟨192 + k.val, by omega⟩)) * aG2 V c (ix2 j k)

/-- The result at node `n`, column `col`: the band of the column. -/
def G1c (c : Dev nD) (n : Fin 200000) (col : Fin 480) : EReal :=
  if h1 : col.val < 128 then bandA V c n ⟨col.val, h1⟩
  else if h2 : col.val < 320 then bandB V c n ⟨col.val - 128, by omega⟩
  else bandC V c n ⟨col.val - 320, by omega⟩

/-- The result array. -/
def G1 (c : Dev nD) : S200000x480.Idx → EReal := fun i => G1c V c (i 0) (i 1)

section Block
variable (c : Dev nD) (t : Fin cfg1.N)

/-- Point `t`'s output block at row `r` is the closed form at node `1000 t + r`: the first band, -/
theorem blk1_a (r : Fin 1000) (k : Fin 128) (n : Fin 200000) (hn : n.val = t.val * 1000 + r.val) :
    out1_7 (iblk1 V c 0 t) (iblk1 V c 1 t) (iblk1 V c 2 t) (iblk1 V c 3 t) (iblk1 V c 4 t) (iblk1 V c 5 t) (iblk1 V c 6 t)
      (ix2 r ⟨k.val, by omega⟩) = bandA V c n k := by
  rw [out1_7_a, k1_pay3_apply, iblk1_2_eq, iblk1_3_eq, iblk1_4_eq,
    iblk1_0_apply V c t (ix2 r 0) (ix2 n 0) hn, iblk1_1_apply V c t (ix2 r ⟨k.val, by omega⟩) (ix2 n ⟨k.val, by omega⟩) hn rfl]
  rfl

/-- the middle band, -/
theorem blk1_b (r : Fin 1000) (j : Fin 192) (n : Fin 200000) (hn : n.val = t.val * 1000 + r.val) :
    out1_7 (iblk1 V c 0 t) (iblk1 V c 1 t) (iblk1 V c 2 t) (iblk1 V c 3 t) (iblk1 V c 4 t) (iblk1 V c 5 t) (iblk1 V c 6 t)
      (ix2 r ⟨128 + j.val, by omega⟩) = bandB V c n j := by
  rw [out1_7_b, k1_pay4_apply, iblk1_3_eq, iblk1_5_eq,
    iblk1_0_apply V c t (ix2 r 0) (ix2 n 0) hn, iblk1_1_apply V c t (ix2 r ⟨128 + j.val, by omega⟩) (ix2 n ⟨128 + j.val, by omega⟩) hn rfl]
  rfl

/-- the last band. -/
theorem blk1_c (r : Fin 1000) (j : Fin 160) (n : Fin 200000) (hn : n.val = t.val * 1000 + r.val) :
    out1_7 (iblk1 V c 0 t) (iblk1 V c 1 t) (iblk1 V c 2 t) (iblk1 V c 3 t) (iblk1 V c 4 t) (iblk1 V c 5 t) (iblk1 V c 6 t)
      (ix2 r ⟨320 + j.val, by omega⟩) = bandC V c n j := by
  rw [out1_7_c, k1_pay5_apply, iblk1_3_eq, iblk1_6_eq,
    iblk1_0_apply V c t (ix2 r 0) (ix2 n 0) hn, iblk1_1_apply V c t (ix2 r ⟨320 + j.val, by omega⟩) (ix2 n ⟨320 + j.val, by omega⟩) hn rfl]
  rfl

/-- So at every column the block holds the closed form. -/
theorem blk1_eq (r : Fin 1000) (col : Fin 480) (n : Fin 200000) (hn : n.val = t.val * 1000 + r.val) :
    out1_7 (iblk1 V c 0 t) (iblk1 V c 1 t) (iblk1 V c 2 t) (iblk1 V c 3 t) (iblk1 V c 4 t) (iblk1 V c 5 t) (iblk1 V c 6 t)
      (ix2 r col) = G1c V c n col := by
  unfold G1c
  by_cases h1 : col.val < 128
  · rw [dif_pos h1]
    exact blk1_a V c t r ⟨col.val, h1⟩ n hn
  · rw [dif_neg h1]
    by_cases h2 : col.val < 320
    · rw [dif_pos h2]
      have hc : col = ⟨128 + (col.val - 128), by omega⟩ := Fin.ext (by show col.val = 128 + (col.val - 128); omega)
      refine (congrArg (fun z => out1_7 (iblk1 V c 0 t) (iblk1 V c 1 t) (iblk1 V c 2 t) (iblk1 V c 3 t) (iblk1 V c 4 t)
        (iblk1 V c 5 t) (iblk1 V c 6 t) (ix2 r z)) hc).trans ?_
      exact blk1_b V c t r ⟨col.val - 128, by omega⟩ n hn
    · rw [dif_neg h2]
      have hc : col = ⟨320 + (col.val - 320), by omega⟩ := Fin.ext (by show col.val = 320 + (col.val - 320); omega)
      refine (congrArg (fun z => out1_7 (iblk1 V c 0 t) (iblk1 V c 1 t) (iblk1 V c 2 t) (iblk1 V c 3 t) (iblk1 V c 4 t)
        (iblk1 V c 5 t) (iblk1 V c 6 t) (ix2 r z)) hc).trans ?_
      exact blk1_c V c t r ⟨col.val - 320, by omega⟩ n hn

end Block

/-! ## The array after the run -/

/-- WHAT POINT `t` WRITES BACK is block `t` of the closed form. -/
theorem flushed1_7_eq (c : Dev nD) (t : Fin cfg1.N) :
    (dat1 V c).flushed 7 t = ((cfg1.win 7).blk t).view.read (Elt Ideal) (G1 V c) := by
  show (cfg1.win 7).cut (grid1.coords t) ((dat1 V c).after 7 t) = _
  rw [after1_7]
  obtain ⟨-, -, -, -, -, -, -, -, -, -, -, -, -, -, e0, e1⟩ := idx_facts1 t
  funext j
  obtain ⟨r, col, rfl⟩ : ∃ (r : Fin 1000) (col : Fin 480), j = ix2 r col := ⟨j 0, j 1, eq_ix2 j⟩
  have ht : t.val < 200 := t.isLt
  have hemb : ((cfg1.win 7).blk t).view.emb (ix2 r col) = ix2 (⟨t.val * 1000 + r.val, by omega⟩ : Fin 200000) col := by
    funext a; apply Fin.ext
    match a with
    | ⟨0, _⟩ => show win1_7.index t 0 * 1000 + 1 * r.val = t.val * 1000 + r.val; rw [e0]; omega
    | ⟨1, _⟩ => show win1_7.index t 1 * 480 + 1 * col.val = col.val; rw [e1]; omega
  show out1_7 (iblk1 V c 0 t) (iblk1 V c 1 t) (iblk1 V c 2 t) (iblk1 V c 3 t) (iblk1 V c 4 t) (iblk1 V c 5 t) (iblk1 V c 6 t)
      (ix2 r col) = G1 V c (((cfg1.win 7).blk t).view.emb (ix2 r col))
  rw [hemb]
  exact blk1_eq V c t r col ⟨t.val * 1000 + r.val, by omega⟩ rfl

/-- Every row of the array is in some point's block: row `n` in point `n / 1000`'s. -/
theorem cover1 (i : S200000x480.Idx) :
    ∃ t : Fin cfg1.N, (cfg1.win 7).flush t = true ∧ i ∈ ((cfg1.win 7).blk t).view.set := by
  have hi0 : (i 0).val < 200000 := (i 0).isLt
  have hi1 : (i 1).val < 480 := (i 1).isLt
  obtain ⟨t, ht⟩ : ∃ t : Fin cfg1.N, t.val = (i 0).val / 1000 := ⟨⟨(i 0).val / 1000, by show _ < 200; omega⟩, rfl⟩
  obtain ⟨-, -, -, -, -, -, -, -, -, -, -, -, -, -, e0, e1⟩ := idx_facts1 t
  refine ⟨t, flush1_7 t, ?_⟩
  show i ∈ ((View.whole main_v49).slice (win1_7.rect t)).set
  rw [View.set_slice_whole, Rect.mem_set_unit]
  intro a
  match a with
  | ⟨0, _⟩ =>
    show win1_7.index t 0 * 1000 ≤ (i 0).val ∧ (i 0).val < win1_7.index t 0 * 1000 + 1000
    rw [e0, ht]; omega
  | ⟨1, _⟩ =>
    show win1_7.index t 1 * 480 ≤ (i 1).val ∧ (i 1).val < win1_7.index t 1 * 480 + 480
    rw [e1]; omega

/-- THE RESULT ARRAY after the run is the closed form. -/
theorem final1 (c : Dev nD) : (dat1 V c).arrAt 7 cfg1.N = G1 V c :=
  (dat1 V c).arrAt_eq_of_cover 7 (G1 V c) (fun t _ => flushed1_7_eq V c t) cover1

/-- THE RESULT, column band by column band: the first 128 columns, -/
theorem out_eq_a (c : Dev nD) (n : Fin 200000) (k : Fin 128) :
    ((dat1 V c).arrAt 7 cfg1.N : S200000x480.Idx → EReal) (ix2 n ⟨k.val, by omega⟩)
      = (aX V c (ix2 n ⟨k.val, by omega⟩) - ∑ g : Fin 512, oh (aBc V c (ix2 n 0)) g * aMn V c (ix2 g k))
          * (∑ g : Fin 512, oh (aBc V c (ix2 n 0)) g * aSc V c (ix2 g ⟨k.val, by omega⟩)) + aB2 V c (ix2 0 k) := by
  rw [final1]
  show G1c V c n ⟨k.val, _⟩ = _
  unfold G1c
  rw [dif_pos (show (⟨k.val, _⟩ : Fin 480).val < 128 from k.isLt)]
  rfl

/-- the middle 192, -/
theorem out_eq_b (c : Dev nD) (n : Fin 200000) (j : Fin 192) :
    ((dat1 V c).arrAt 7 cfg1.N : S200000x480.Idx → EReal) (ix2 n ⟨128 + j.val, by omega⟩)
      = aX V c (ix2 n ⟨128 + j.val, by omega⟩)
          * ∑ k : Fin 64, (∑ g : Fin 512, oh (aBc V c (ix2 n 0)) g * aSc V c (ix2 g ⟨128 + k.val, by omega⟩)) * aG1 V c (ix2 j k) := by
  rw [final1]
  show G1c V c n ⟨128 + j.val, _⟩ = _
  unfold G1c
  rw [dif_neg (show ¬ (⟨128 + j.val, _⟩ : Fin 480).val < 128 from by show ¬ 128 + j.val < 128; omega),
    dif_pos (show (⟨128 + j.val, _⟩ : Fin 480).val < 320 from by show 128 + j.val < 320; omega)]
  have hj : (⟨128 + j.val - 128, by omega⟩ : Fin 192) = j := Fin.ext (by show 128 + j.val - 128 = j.val; omega)
  show bandB V c n ⟨128 + j.val - 128, _⟩ = _
  rw [hj]
  rfl

/-- the last 160. -/
theorem out_eq_c (c : Dev nD) (n : Fin 200000) (j : Fin 160) :
    ((dat1 V c).arrAt 7 cfg1.N : S200000x480.Idx → EReal) (ix2 n ⟨320 + j.val, by omega⟩)
      = aX V c (ix2 n ⟨320 + j.val, by omega⟩)
          * ∑ k : Fin 32, (∑ g : Fin 512, oh (aBc V c (ix2 n 0)) g * aSc V c (ix2 g ⟨192 + k.val, by omega⟩)) * aG2 V c (ix2 j k) := by
  rw [final1]
  show G1c V c n ⟨320 + j.val, _⟩ = _
  unfold G1c
  rw [dif_neg (show ¬ (⟨320 + j.val, _⟩ : Fin 480).val < 128 from by show ¬ 320 + j.val < 128; omega),
    dif_neg (show ¬ (⟨320 + j.val, _⟩ : Fin 480).val < 320 from by show ¬ 320 + j.val < 320; omega)]
  have hj : (⟨320 + j.val - 320, by omega⟩ : Fin 160) = j := Fin.ext (by show 320 + j.val - 320 = j.val; omega)
  show bandC V c n ⟨320 + j.val - 320, _⟩ = _
  rw [hj]
  rfl

end Cert.KernelIdeal.Hand

end
-- ==== Proof.Val.HostPre.lean ====
/-
  The buffers the first kernel region is entered at, read at an index (floats the extended reals, every operation exact).
  Before the first region the program clamps the graph ids to [0, 511] and lays them as a column, lays the bias as a row,
  and builds two 0/1 matrices: entry (j, k) of the first is 1 exactly when j / 3 = k (192 components, three to each of 64
  features), entry (j, k) of the second 1 exactly when j / 5 = k (160 components, five to each of 32 features). The
  quotient is printed as a floor division — the quotient toward zero, less one when the signs of the operands differ and
  the remainder is not zero — which on the non-negative row numbers is the natural quotient; that is decided once over
  the 192 and the 160 rows. An id that already lies in [0, 512) is its own clamp.
-/
import proofs.«421439_j25340307046985_3_alg».proof.Proof.Gen.KernelIdeal.Regions
import proofs.«421439_j25340307046985_3_alg».proof.Proof.Spec
import Idealize.ShloMosaic.Lib.StableHlo.Run
import Idealize.ShloMosaic.Lib.StableHlo.Predicate
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Idealize.ShloMosaic Idealize.ShloMosaic.TcCoe Idealize.ShloMosaic.ValueIdx Idealize.ShloMosaic.StableHlo
open Idealize.SL.Sem
open Cert.KernelIdeal Cert.KernelIdeal.Gen Cert.Spec

variable (m : (ℓ : Loc nD τ sig) → Buf (Elt Ideal) ℓ) (outs : Outs (F := Ideal))

/-! ## The scalar facts -/

/-- Clamping a signed word that already lies in [0, 512) to that range changes nothing. -/
private theorem clip_word (x : BitVec 32) (h : 0 ≤ x.toInt ∧ x.toInt < 512) :
    IntOp.minsi 511#32 (IntOp.maxsi 0#32 x) = x := by
  have h0 : (0#32 : BitVec 32).toInt = 0 := by decide
  have h511 : (511#32 : BitVec 32).toInt = 511 := by decide
  have h1 : x.slt 0#32 = false := by
    rw [BitVec.slt, h0]; exact decide_eq_false (by omega)
  have h2 : (511#32 : BitVec 32).slt x = false := by
    rw [BitVec.slt, h511]; exact decide_eq_false (by omega)
  unfold IntOp.minsi IntOp.maxsi
  rw [h1]
  simp only [Bool.false_eq_true, if_false]
  rw [h2]
  simp only [Bool.false_eq_true, if_false]

/-- The sign word of a signed word: 0, -1 or 1. -/
def signW (x : BitVec 32) : BitVec 32 := if x = 0 then 0 else if x.msb then -1 else 1

/-- The printed floor division at one element: the quotient toward zero, less one when the operands' signs differ
    and the remainder is not zero. -/
def fdivW (x d : BitVec 32) : BitVec 32 :=
  Scalar.select (IntOp.andi (IntOp.cmpi .ne (signW x) (signW d)) (IntOp.cmpi .ne (IntOp.remsi .host x d) 0#32))
    (IntOp.subi (IntOp.divsi .host x d) 1#32) (IntOp.divsi .host x d)

/-- On the 192 row numbers the floor division by 3 is the natural quotient. -/
theorem fdivW_3 : ∀ j : Fin 192, fdivW (BitVec.ofNat 32 j.val) 3#32 = BitVec.ofNat 32 (j.val / 3) := by
  decide +kernel

/-- On the 160 row numbers the floor division by 5 is the natural quotient. -/
theorem fdivW_5 : ∀ j : Fin 160, fdivW (BitVec.ofNat 32 j.val) 5#32 = BitVec.ofNat 32 (j.val / 5) := by
  decide +kernel

/-! ## References no stretch before the first region writes -/

theorem V7_arg0 (c : Dev nD) : V7 m c main_arg0 = m ((c : Thread nD τ).loc main_arg0) := by
  rw [V7_of m c main_arg0 (by decide), V6_of m c main_arg0 (by decide), V5_of m c main_arg0 (by decide),
    V4_of m c main_arg0 (by decide), V3_of m c main_arg0 (by decide), V2_of m c main_arg0 (by decide),
    V1_of m c main_arg0 (by decide)]

theorem V7_arg1 (c : Dev nD) : V7 m c main_arg1 = m ((c : Thread nD τ).loc main_arg1) := by
  rw [V7_of m c main_arg1 (by decide), V6_of m c main_arg1 (by decide), V5_of m c main_arg1 (by decide),
    V4_of m c main_arg1 (by decide), V3_of m c main_arg1 (by decide), V2_of m c main_arg1 (by decide),
    V1_of m c main_arg1 (by decide)]

/-! ## The graph ids, clamped and laid as a column -/

/-- The column of clamped ids as the operations compute it from the ids. -/
theorem V3_v1 (c : Dev nD) : (V3 m c main_v1 : S200000x1.Idx → BitVec 32)
    = shapeCast S200000x1 (minsi (broadcastInDim S200000 ![] bcast_S_S200000 (constantI S_ 32 511#32))
        (maxsi (broadcastInDim S200000 ![] bcast_S_S200000 (constantI S_ 32 0#32))
          (m ((c : Thread nD τ).loc main_arg3) : S200000.Idx → BitVec 32))) shapeCasts_S200000_S200000x1 := by
  dsimp only [V3]
  simp only [hostOps0_2, hostOps0_1, hostOps0]
  after_results
  rfl

/-- Row `n` of the id column holds node `n`'s id when that id is a graph number. -/
theorem V7_batch (c : Dev nD) (n : Fin 200000)
    (hb : 0 ≤ ((m ((c : Thread nD τ).loc main_arg3) : S200000.Idx → BitVec 32) (ix1 n)).toInt
      ∧ ((m ((c : Thread nD τ).loc main_arg3) : S200000.Idx → BitVec 32) (ix1 n)).toInt < 512) :
    (V7 m c main_v1 : S200000x1.Idx → BitVec 32) (ix2 n 0)
      = (m ((c : Thread nD τ).loc main_arg3) : S200000.Idx → BitVec 32) (ix1 n) := by
  rw [V7_of m c main_v1 (by decide), V6_of m c main_v1 (by decide), V5_of m c main_v1 (by decide),
    V4_of m c main_v1 (by decide), V3_v1]
  refine (shapeCast_apply _ shapeCasts_S200000_S200000x1 (ix2 n 0) (ix1 n) ?_).trans ?_
  · rw [Shape.rowMajor_val_one, Shape.rowMajor_val_two]
    show n.val = n.val * 1 + 0
    omega
  · show IntOp.minsi (broadcastInDim S200000 ![] bcast_S_S200000 (constantI S_ 32 511#32) (ix1 n))
        (IntOp.maxsi (broadcastInDim S200000 ![] bcast_S_S200000 (constantI S_ 32 0#32) (ix1 n)) _) = _
    rw [broadcastInDim_apply _ bcast_S_S200000 (constantI S_ 32 511#32) (ix1 n) ix0 (fun a => a.elim0),
      broadcastInDim_apply _ bcast_S_S200000 (constantI S_ 32 0#32) (ix1 n) ix0 (fun a => a.elim0)]
    exact clip_word _ hb

/-! ## The bias as a row -/

theorem V3_v2 (c : Dev nD) : (V3 m c main_v2 : S1x128.Idx → EReal)
    = shapeCast S1x128 (m ((c : Thread nD τ).loc main_arg2) : S128.Idx → EReal) shapeCasts_S128_S1x128 := by
  dsimp only [V3]
  simp only [hostOps0_2]
  after_results
  rfl

/-- The bias row holds the bias. -/
theorem V7_bias (c : Dev nD) (k : Fin 128) :
    (V7 m c main_v2 : S1x128.Idx → EReal) (ix2 0 k) = (m ((c : Thread nD τ).loc main_arg2) : S128.Idx → EReal) (ix1 k) := by
  rw [V7_of m c main_v2 (by decide), V6_of m c main_v2 (by decide), V5_of m c main_v2 (by decide),
    V4_of m c main_v2 (by decide), V3_v2]
  refine shapeCast_apply _ shapeCasts_S128_S1x128 (ix2 0 k) (ix1 k) ?_
  rw [Shape.rowMajor_val_one, Shape.rowMajor_val_two]
  show k.val = 0 * 128 + k.val
  omega

/-! ## The two 0/1 grouping matrices -/

/-- A one-bit comparison word read unsigned is 1 or 0. -/
private theorem uitofp_cmpi_eq (x y : BitVec 32) :
    (FloatOps.uitofp (F := Ideal) .bf16 (IntOp.cmpi .eq x y) : EReal) = if x = y then 1 else 0 := by
  by_cases h : x = y
  · subst h
    rw [if_pos rfl, IntOp.cmpi_eq.mpr rfl]
    show ((((1#1 : BitVec 1).toNat : ℝ)) : EReal) = 1
    rw [show (1#1 : BitVec 1).toNat = 1 from by decide]
    simp
  · rw [if_neg h, eq_zero_of_ne_one (fun e => h (IntOp.cmpi_eq.mp e))]
    show ((((0#1 : BitVec 1).toNat : ℝ)) : EReal) = 0
    rw [show (0#1 : BitVec 1).toNat = 0 from by decide]
    simp

/-- Two small numbers have the same 32-bit word only when they are equal. -/
private theorem ofNat_eq_iff {a b : Nat} (ha : a < 2 ^ 32) (hb : b < 2 ^ 32) : BitVec.ofNat 32 a = BitVec.ofNat 32 b ↔ a = b := by
  constructor
  · intro h
    have e := congrArg BitVec.toNat h
    simp only [BitVec.toNat_ofNat] at e
    rw [Nat.mod_eq_of_lt ha, Nat.mod_eq_of_lt hb] at e
    exact e
  · intro h
    rw [h]

/-- The printed floor division of a tensor of words by one word, operation by operation. -/
def fdivV {s : Shape} (hb : S_.BroadcastsInDim s ![]) (x : IVec s 32) (d : IVec S_ 32) : IVec s 32 :=
  select
    (andi (cmpi .ne (signi x) (broadcastInDim s ![] hb (signi d)))
      (cmpi .ne (Host.remsi x (broadcastInDim s ![] hb d)) (broadcastInDim s ![] hb (constantI S_ 32 0#32))))
    (subi (Host.divsi x (broadcastInDim s ![] hb d)) (broadcastInDim s ![] hb (constantI S_ 32 1#32)))
    (Host.divsi x (broadcastInDim s ![] hb d))

/-- Element by element it is the floor division of the two words. -/
theorem fdivV_apply {s : Shape} (hb : S_.BroadcastsInDim s ![]) (x : IVec s 32) (d : IVec S_ 32) (i : s.Idx) :
    fdivV hb x d i = fdivW (x i) (d ix0) := by
  have e : ∀ y : IVec S_ 32, broadcastInDim s ![] hb y i = y ix0 := fun y =>
    broadcastInDim_apply _ hb y i ix0 (fun a => a.elim0)
  show Scalar.select (IntOp.andi (IntOp.cmpi .ne (signi x i) (broadcastInDim s ![] hb (signi d) i))
      (IntOp.cmpi .ne (IntOp.remsi .host (x i) (broadcastInDim s ![] hb d i)) (broadcastInDim s ![] hb (constantI S_ 32 0#32) i)))
      (IntOp.subi (IntOp.divsi .host (x i) (broadcastInDim s ![] hb d i)) (broadcastInDim s ![] hb (constantI S_ 32 1#32) i))
      (IntOp.divsi .host (x i) (broadcastInDim s ![] hb d i)) = _
  simp only [e]
  rfl

/-- The column of row numbers divided by 3, as the operations compute it. -/
theorem V4_v5 (c : Dev nD) : (V4 m c main_v5 : S192x1.Idx → BitVec 32)
    = fdivV bcast_S_S192x1 (broadcastInDim S192x1 ![0] bcast_S192_S192x1_0 (iotaInDim S192 32 0)) (constantI S_ 32 3#32) := by
  dsimp only [V4, V3]
  generalize V2 m c = W
  simp only [hostOps0_3, hostOps0_2]
  after_results
  rfl

theorem V4_v5_apply (c : Dev nD) (j : Fin 192) :
    (V4 m c main_v5 : S192x1.Idx → BitVec 32) (ix2 j 0) = BitVec.ofNat 32 (j.val / 3) := by
  rw [V4_v5, fdivV_apply,
    broadcastInDim_apply _ bcast_S192_S192x1_0 (iotaInDim S192 32 0) (ix2 j 0) (ix1 j) (fun a => match a with | ⟨0, _⟩ => rfl)]
  exact fdivW_3 j

/-- The first grouping matrix as the operations compute it from the divided row numbers. -/
theorem V5_v11 (c : Dev nD) : (V5 m c main_v11 : S192x64.Idx → EReal)
    = uitofp (F := Ideal) .bf16 (cmpi .eq
        (broadcastInDim S192x64 ![0, 1] bcast_S192x1_S192x64_0_1 (V4 m c main_v5 : S192x1.Idx → BitVec 32))
        (broadcastInDim S192x64 ![0, 1] bcast_S1x64_S192x64_0_1
          (broadcastInDim S1x64 ![1] bcast_S64_S1x64_1 (iotaInDim S64 32 0)))) := by
  show after hostOps0_4 (V4 m c) _ = _
  generalize V4 m c = W
  simp only [hostOps0_4]
  after_results

/-- Row `j`, column `k` of the first grouping matrix: 1 when component `j` belongs to feature `k` (three components a feature). -/
theorem V7_G1 (c : Dev nD) (j : Fin 192) (k : Fin 64) :
    (V7 m c main_v11 : S192x64.Idx → EReal) (ix2 j k) = (if j.val / 3 = k.val then 1 else 0 : EReal) := by
  rw [V7_of m c main_v11 (by decide), V6_of m c main_v11 (by decide), V5_v11]
  show FloatOps.uitofp (F := Ideal) .bf16 (IntOp.cmpi .eq
      (broadcastInDim S192x64 ![0, 1] bcast_S192x1_S192x64_0_1 (V4 m c main_v5 : S192x1.Idx → BitVec 32) (ix2 j k))
      (broadcastInDim S192x64 ![0, 1] bcast_S1x64_S192x64_0_1
        (broadcastInDim S1x64 ![1] bcast_S64_S1x64_1 (iotaInDim S64 32 0)) (ix2 j k))) = _
  rw [broadcastInDim_apply _ bcast_S192x1_S192x64_0_1 _ (ix2 j k) (ix2 j 0)
      (fun a => match a with | ⟨0, _⟩ => rfl | ⟨1, _⟩ => rfl),
    broadcastInDim_apply _ bcast_S1x64_S192x64_0_1 _ (ix2 j k) (ix2 0 k)
      (fun a => match a with | ⟨0, _⟩ => rfl | ⟨1, _⟩ => rfl),
    broadcastInDim_apply _ bcast_S64_S1x64_1 (iotaInDim S64 32 0) (ix2 0 k) (ix1 k)
      (fun a => match a with | ⟨0, _⟩ => rfl),
    V4_v5_apply, uitofp_cmpi_eq]
  show (if BitVec.ofNat 32 (j.val / 3) = BitVec.ofNat 32 k.val then (1 : EReal) else 0) = _
  exact if_congr (ofNat_eq_iff (by omega) (by omega)) rfl rfl

/-- The column of row numbers divided by 5, as the operations compute it. -/
theorem V6_v14 (c : Dev nD) : (V6 m c main_v14 : S160x1.Idx → BitVec 32)
    = fdivV bcast_S_S160x1 (broadcastInDim S160x1 ![0] bcast_S160_S160x1_0 (iotaInDim S160 32 0)) (constantI S_ 32 5#32) := by
  dsimp only [V6, V5]
  generalize V4 m c = W
  simp only [hostOps0_5, hostOps0_4]
  after_results
  rfl

theorem V6_v14_apply (c : Dev nD) (j : Fin 160) :
    (V6 m c main_v14 : S160x1.Idx → BitVec 32) (ix2 j 0) = BitVec.ofNat 32 (j.val / 5) := by
  rw [V6_v14, fdivV_apply,
    broadcastInDim_apply _ bcast_S160_S160x1_0 (iotaInDim S160 32 0) (ix2 j 0) (ix1 j) (fun a => match a with | ⟨0, _⟩ => rfl)]
  exact fdivW_5 j

/-- The second grouping matrix as the operations compute it from the divided row numbers. -/
theorem V7_v20 (c : Dev nD) : (V7 m c main_v20 : S160x32.Idx → EReal)
    = uitofp (F := Ideal) .bf16 (cmpi .eq
        (broadcastInDim S160x32 ![0, 1] bcast_S160x1_S160x32_0_1 (V6 m c main_v14 : S160x1.Idx → BitVec 32))
        (broadcastInDim S160x32 ![0, 1] bcast_S1x32_S160x32_0_1
          (broadcastInDim S1x32 ![1] bcast_S32_S1x32_1 (iotaInDim S32 32 0)))) := by
  show after hostOps0_6 (V6 m c) _ = _
  generalize V6 m c = W
  simp only [hostOps0_6]
  after_results

/-- Row `j`, column `k` of the second grouping matrix: 1 when component `j` belongs to feature `k` (five components a feature). -/
theorem V7_G2 (c : Dev nD) (j : Fin 160) (k : Fin 32) :
    (V7 m c main_v20 : S160x32.Idx → EReal) (ix2 j k) = (if j.val / 5 = k.val then 1 else 0 : EReal) := by
  rw [V7_v20]
  show FloatOps.uitofp (F := Ideal) .bf16 (IntOp.cmpi .eq
      (broadcastInDim S160x32 ![0, 1] bcast_S160x1_S160x32_0_1 (V6 m c main_v14 : S160x1.Idx → BitVec 32) (ix2 j k))
      (broadcastInDim S160x32 ![0, 1] bcast_S1x32_S160x32_0_1
        (broadcastInDim S1x32 ![1] bcast_S32_S1x32_1 (iotaInDim S32 32 0)) (ix2 j k))) = _
  rw [broadcastInDim_apply _ bcast_S160x1_S160x32_0_1 _ (ix2 j k) (ix2 j 0)
      (fun a => match a with | ⟨0, _⟩ => rfl | ⟨1, _⟩ => rfl),
    broadcastInDim_apply _ bcast_S1x32_S160x32_0_1 _ (ix2 j k) (ix2 0 k)
      (fun a => match a with | ⟨0, _⟩ => rfl | ⟨1, _⟩ => rfl),
    broadcastInDim_apply _ bcast_S32_S1x32_1 (iotaInDim S32 32 0) (ix2 0 k) (ix1 k)
      (fun a => match a with | ⟨0, _⟩ => rfl),
    V6_v14_apply, uitofp_cmpi_eq]
  show (if BitVec.ofNat 32 (j.val / 5) = BitVec.ofNat 32 k.val then (1 : EReal) else 0) = _
  exact if_congr (ofNat_eq_iff (by omega) (by omega)) rfl rfl

/-! ## What the second region is entered at: the first region and the stretch after it leave these buffers alone -/

theorem V9_arg0 (c : Dev nD) : V9 m outs c main_arg0 = V7 m c main_arg0 := by
  rw [V9_of m outs c main_arg0 (by decide), V8_of m outs c main_arg0 (by decide)]
theorem V9_arg1 (c : Dev nD) : V9 m outs c main_arg1 = V7 m c main_arg1 := by
  rw [V9_of m outs c main_arg1 (by decide), V8_of m outs c main_arg1 (by decide)]
theorem V9_v1 (c : Dev nD) : V9 m outs c main_v1 = V7 m c main_v1 := by
  rw [V9_of m outs c main_v1 (by decide), V8_of m outs c main_v1 (by decide)]
theorem V9_v2 (c : Dev nD) : V9 m outs c main_v2 = V7 m c main_v2 := by
  rw [V9_of m outs c main_v2 (by decide), V8_of m outs c main_v2 (by decide)]
theorem V9_v11 (c : Dev nD) : V9 m outs c main_v11 = V7 m c main_v11 := by
  rw [V9_of m outs c main_v11 (by decide), V8_of m outs c main_v11 (by decide)]
theorem V9_v20 (c : Dev nD) : V9 m outs c main_v20 = V7 m c main_v20 := by
  rw [V9_of m outs c main_v20 (by decide), V8_of m outs c main_v20 (by decide)]

end Cert.KernelIdeal.Hand
end
-- ==== Proof.Val.HostMid.lean ====
/-
  The buffers the second kernel region is entered at, read at an index (floats the extended reals, every operation exact).
  Between the two regions the program adds the first region's two partial results (one for each half of the rows), takes
  each graph's node count from column 96 of the second and clamps it below at 1, divides the summed scalar features, their
  summed squares and the summed squared norms of the vector features by it, subtracts the squared mean from the mean square
  of the scalar features, lays the three blocks of field norms side by side as 224 columns, adds a small constant, raises
  to the power minus one half and multiplies by the weight. Each entry of the means and of the scales is read here as that
  expression in the sums over the two partial results. The stretch is cut in two before the three blocks are laid side by
  side: the blocks are read off the first 22 operations, the scales off the rest.
-/
import proofs.«421439_j25340307046985_3_alg».proof.Proof.Gen.KernelIdeal.Regions
import proofs.«421439_j25340307046985_3_alg».proof.Proof.Spec
import Idealize.ShloMosaic.Lib.StableHlo.Run
import Idealize.ShloMosaic.Lib.StableHlo.Predicate
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Idealize.ShloMosaic Idealize.ShloMosaic.TcCoe Idealize.ShloMosaic.ValueIdx Idealize.ShloMosaic.StableHlo
open Idealize.SL.Sem
open Cert.KernelIdeal Cert.KernelIdeal.Gen Cert.Spec

variable (m : (ℓ : Loc nD τ sig) → Buf (Elt Ideal) ℓ) (outs : Outs (F := Ideal))

/-! ## The operations of the stretch between the two regions, as functions of what the first region leaves

`A` is the first region's pair of partial sums over the scalar features and their squares, `Bq` its pair of partial sums
over the squared norms of the vector features and the node counts, `Wt` the weight. -/

section Pure

variable (A : FVec Ideal S2x512x256 .f32) (Bq : FVec Ideal S2x512x97 .f32) (Wt : FVec Ideal S224 .f32)

/-- The two partial sums of `A` added. -/
def sumA : FVec Ideal S512x256 .f32 :=
  Host.reduceAdd A (constant (F := Ideal) S_ .f32 0x00000000#32) reducesTo_S2x512x256_S512x256_d0 h_S_

/-- The two partial sums of `Bq` added. -/
def sumB : FVec Ideal S512x97 .f32 :=
  Host.reduceAdd Bq (constant (F := Ideal) S_ .f32 0x00000000#32) reducesTo_S2x512x97_S512x97_d0 h_S_

/-- The node count of graph `g` (column 96 of the second pair of sums), at least 1. -/
def hcc (g : Fin 512) : EReal :=
  max (Ideal.ofBits .f32 0x00000000#32 + ∑ k : Fin 2, Bq (ix3 k g (⟨96, by decide⟩ : Fin 97))) (Ideal.ofBits .f32 0x3F800000#32)

theorem sumA_apply (g : Fin 512) (k : Fin 256) :
    sumA A (ix2 g k) = Ideal.ofBits .f32 0x00000000#32 + ∑ k' : Fin 2, A (ix3 k' g k) := by
  unfold sumA
  simp only [Host.reduceAdd, Ideal.hostReduceAdd_def]
  rw [Ideal.hostReduceAdd_single reducesTo_S2x512x256_S512x256_d0 (by decide)]
  refine congrArg (_ + ·) (Finset.sum_congr rfl fun k' _ => ?_)
  exact congrArg A (funext fun a => Fin.ext (by match a with | ⟨0, _⟩ => rfl | ⟨1, _⟩ => rfl | ⟨2, _⟩ => rfl))

theorem sumB_apply (g : Fin 512) (k : Fin 97) :
    sumB Bq (ix2 g k) = Ideal.ofBits .f32 0x00000000#32 + ∑ k' : Fin 2, Bq (ix3 k' g k) := by
  unfold sumB
  simp only [Host.reduceAdd, Ideal.hostReduceAdd_def]
  rw [Ideal.hostReduceAdd_single reducesTo_S2x512x97_S512x97_d0 (by decide)]
  refine congrArg (_ + ·) (Finset.sum_congr rfl fun k' _ => ?_)
  exact congrArg Bq (funext fun a => Fin.ext (by match a with | ⟨0, _⟩ => rfl | ⟨1, _⟩ => rfl | ⟨2, _⟩ => rfl))

/-- The column of clamped node counts. -/
def cntV : FVec Ideal S512x1 .f32 :=
  maximumf (extractStridedSlice S512x1 ![0, 96] (sumB Bq) slices_S512x97_S512x1_0_96)
    (broadcastInDim S512x1 ![] bcast_S_S512x1 (constant (F := Ideal) S_ .f32 0x3F800000#32))

theorem cntV_apply (g : Fin 512) : cntV Bq (ix2 g 0) = hcc Bq g := by
  show max (extractStridedSlice S512x1 ![0, 96] (sumB Bq) slices_S512x97_S512x1_0_96 (ix2 g 0))
      (broadcastInDim S512x1 ![] bcast_S_S512x1 (constant (F := Ideal) S_ .f32 0x3F800000#32) (ix2 g 0)) = _
  rw [extractStridedSlice_apply _ (sumB Bq) slices_S512x97_S512x1_0_96 (ix2 g 0) (ix2 g (⟨96, by decide⟩ : Fin 97))
      (fun a => match a with | ⟨0, _⟩ => (Nat.zero_add _).symm | ⟨1, _⟩ => rfl),
    broadcastInDim_apply _ bcast_S_S512x1 _ (ix2 g 0) ix0 (fun a => a.elim0), sumB_apply]
  rfl

/-- The clamped count laid along `n` columns reads the row's count. -/
private theorem bc_cnt_apply {n : Nat} (h : S512x1.BroadcastsInDim (⟨2, ![512, n]⟩ : Shape) ![0, 1]) (g : Fin 512) (k : Fin n) :
    broadcastInDim (⟨2, ![512, n]⟩ : Shape) ![0, 1] h (cntV Bq) (ix2 g k) = hcc Bq g := by
  rw [broadcastInDim_apply _ h (cntV Bq) (ix2 g k) (ix2 g 0)
      (fun a => match a with | ⟨0, _⟩ => rfl | ⟨1, _⟩ => rfl)]
  exact cntV_apply Bq g

/-- The per-graph means of the scalar features. -/
def meanV : FVec Ideal S512x128 .f32 :=
  Host.divf (extractStridedSlice S512x128 ![0, 0] (sumA A) slices_S512x256_S512x128_0_0)
    (broadcastInDim S512x128 ![0, 1] bcast_S512x1_S512x128_0_1 (cntV Bq))

/-- The mean of scalar feature `k` over graph `g`: the summed feature over the clamped count. -/
def hmean (g : Fin 512) (k : Fin 128) : EReal :=
  Ideal.div (Ideal.ofBits .f32 0x00000000#32
    + ∑ k' : Fin 2, A (ix3 k' g (⟨k.val, Nat.lt_of_lt_of_le k.isLt (by decide)⟩ : Fin 256))) (hcc Bq g)

theorem meanV_apply (g : Fin 512) (k : Fin 128) : meanV A Bq (ix2 g k) = hmean A Bq g k := by
  show Ideal.div (extractStridedSlice S512x128 ![0, 0] (sumA A) slices_S512x256_S512x128_0_0 (ix2 g k))
      (broadcastInDim S512x128 ![0, 1] bcast_S512x1_S512x128_0_1 (cntV Bq) (ix2 g k)) = _
  rw [extractStridedSlice_apply _ (sumA A) slices_S512x256_S512x128_0_0 (ix2 g k)
      (ix2 g (⟨k.val, Nat.lt_of_lt_of_le k.isLt (by decide)⟩ : Fin 256))
      (fun a => match a with | ⟨0, _⟩ => (Nat.zero_add _).symm | ⟨1, _⟩ => (Nat.zero_add _).symm),
    bc_cnt_apply, sumA_apply]
  rfl

/-- The per-graph second moments of the scalar features less the squared means. -/
def fn0V : FVec Ideal S512x128 .f32 :=
  subf (Host.divf (extractStridedSlice S512x128 ![0, 128] (sumA A) slices_S512x256_S512x128_0_128)
      (broadcastInDim S512x128 ![0, 1] bcast_S512x1_S512x128_0_1 (cntV Bq)))
    (mulf (meanV A Bq) (meanV A Bq))

/-- The per-graph mean squared norms of the 64 three-component features. -/
def fn1V : FVec Ideal S512x64 .f32 :=
  Host.divf (extractStridedSlice S512x64 ![0, 0] (sumB Bq) slices_S512x97_S512x64_0_0)
    (broadcastInDim S512x64 ![0, 1] bcast_S512x1_S512x64_0_1 (cntV Bq))

/-- The per-graph mean squared norms of the 32 five-component features. -/
def fn2V : FVec Ideal S512x32 .f32 :=
  Host.divf (extractStridedSlice S512x32 ![0, 64] (sumB Bq) slices_S512x97_S512x32_0_64)
    (broadcastInDim S512x32 ![0, 1] bcast_S512x1_S512x32_0_1 (cntV Bq))

/-- The field norm of scalar feature `k` over graph `g`: the mean square less the squared mean. -/
def hfn0 (g : Fin 512) (k : Fin 128) : EReal :=
  Ideal.div (Ideal.ofBits .f32 0x00000000#32
      + ∑ k' : Fin 2, A (ix3 k' g (⟨128 + k.val, Nat.add_lt_add_left k.isLt 128⟩ : Fin 256))) (hcc Bq g)
    - hmean A Bq g k * hmean A Bq g k

/-- The field norm of three-component feature `k` over graph `g`. -/
def hfn1 (g : Fin 512) (k : Fin 64) : EReal :=
  Ideal.div (Ideal.ofBits .f32 0x00000000#32
    + ∑ k' : Fin 2, Bq (ix3 k' g (⟨k.val, Nat.lt_of_lt_of_le k.isLt (by decide)⟩ : Fin 97))) (hcc Bq g)

/-- The field norm of five-component feature `k` over graph `g`. -/
def hfn2 (g : Fin 512) (k : Fin 32) : EReal :=
  Ideal.div (Ideal.ofBits .f32 0x00000000#32
    + ∑ k' : Fin 2, Bq (ix3 k' g (⟨64 + k.val, Nat.lt_of_lt_of_le (Nat.add_lt_add_left k.isLt 64) (by decide)⟩ : Fin 97))) (hcc Bq g)

theorem fn0V_apply (g : Fin 512) (k : Fin 128) : fn0V A Bq (ix2 g k) = hfn0 A Bq g k := by
  show Ideal.div (extractStridedSlice S512x128 ![0, 128] (sumA A) slices_S512x256_S512x128_0_128 (ix2 g k))
      (broadcastInDim S512x128 ![0, 1] bcast_S512x1_S512x128_0_1 (cntV Bq) (ix2 g k))
      - meanV A Bq (ix2 g k) * meanV A Bq (ix2 g k) = _
  rw [extractStridedSlice_apply _ (sumA A) slices_S512x256_S512x128_0_128 (ix2 g k)
      (ix2 g (⟨128 + k.val, Nat.add_lt_add_left k.isLt 128⟩ : Fin 256))
      (fun a => match a with | ⟨0, _⟩ => (Nat.zero_add _).symm | ⟨1, _⟩ => rfl),
    bc_cnt_apply, sumA_apply, meanV_apply]
  rfl

theorem fn1V_apply (g : Fin 512) (k : Fin 64) : fn1V Bq (ix2 g k) = hfn1 Bq g k := by
  show Ideal.div (extractStridedSlice S512x64 ![0, 0] (sumB Bq) slices_S512x97_S512x64_0_0 (ix2 g k))
      (broadcastInDim S512x64 ![0, 1] bcast_S512x1_S512x64_0_1 (cntV Bq) (ix2 g k)) = _
  rw [extractStridedSlice_apply _ (sumB Bq) slices_S512x97_S512x64_0_0 (ix2 g k)
      (ix2 g (⟨k.val, Nat.lt_of_lt_of_le k.isLt (by decide)⟩ : Fin 97))
      (fun a => match a with | ⟨0, _⟩ => (Nat.zero_add _).symm | ⟨1, _⟩ => (Nat.zero_add _).symm),
    bc_cnt_apply, sumB_apply]
  rfl

theorem fn2V_apply (g : Fin 512) (k : Fin 32) : fn2V Bq (ix2 g k) = hfn2 Bq g k := by
  show Ideal.div (extractStridedSlice S512x32 ![0, 64] (sumB Bq) slices_S512x97_S512x32_0_64 (ix2 g k))
      (broadcastInDim S512x32 ![0, 1] bcast_S512x1_S512x32_0_1 (cntV Bq) (ix2 g k)) = _
  rw [extractStridedSlice_apply _ (sumB Bq) slices_S512x97_S512x32_0_64 (ix2 g k)
      (ix2 g (⟨64 + k.val, Nat.lt_of_lt_of_le (Nat.add_lt_add_left k.isLt 64) (by decide)⟩ : Fin 97))
      (fun a => match a with | ⟨0, _⟩ => (Nat.zero_add _).symm | ⟨1, _⟩ => rfl),
    bc_cnt_apply, sumB_apply]
  rfl

/-- The three field norms side by side: 224 columns. -/
def fnV : FVec Ideal S512x224 .f32 :=
  concatenate S512x224 1 [⟨S512x128, fn0V A Bq⟩, ⟨S512x64, fn1V Bq⟩, ⟨S512x32, fn2V Bq⟩]
    concatenates_S512x128_S512x64_S512x32_S512x224_d1

/-- The field norm of feature `f` of the 224 over graph `g`: the 128 scalar features, then the 64 three-component ones,
    then the 32 five-component ones. -/
def hfn (g : Fin 512) (f : Fin 224) : EReal :=
  if h : f.val < 128 then hfn0 A Bq g ⟨f.val, h⟩
  else if h2 : f.val < 192 then hfn1 Bq g ⟨f.val - 128, by omega⟩
  else hfn2 Bq g ⟨f.val - 192, by have := f.isLt; omega⟩

theorem fnV_apply (g : Fin 512) (f : Fin 224) : fnV A Bq (ix2 g f) = hfn A Bq g f := by
  unfold hfn
  by_cases h : f.val < 128
  · rw [dif_pos h]
    refine (concatenate_apply_piece (t := S512x224) 1 [⟨S512x128, fn0V A Bq⟩, ⟨S512x64, fn1V Bq⟩, ⟨S512x32, fn2V Bq⟩]
      concatenates_S512x128_S512x64_S512x32_S512x224_d1 (ix2 g f) 0 (by show (0 : Nat) < 3; omega) S512x128 (fn0V A Bq) rfl rfl
      0 rfl (ix2 g ⟨f.val, h⟩) ?_ ?_).trans (fn0V_apply A Bq g ⟨f.val, h⟩)
    · intro b hb
      match b with
      | ⟨0, _⟩ => rfl
      | ⟨1, _⟩ => exact absurd rfl hb
    · exact Nat.zero_add _
  · rw [dif_neg h]
    by_cases h2 : f.val < 192
    · rw [dif_pos h2]
      refine (concatenate_apply_piece (t := S512x224) 1 [⟨S512x128, fn0V A Bq⟩, ⟨S512x64, fn1V Bq⟩, ⟨S512x32, fn2V Bq⟩]
        concatenates_S512x128_S512x64_S512x32_S512x224_d1 (ix2 g f) 1 (by show (1 : Nat) < 3; omega) S512x64 (fn1V Bq) rfl rfl
        128 rfl (ix2 g ⟨f.val - 128, by omega⟩) ?_ ?_).trans (fn1V_apply Bq g ⟨f.val - 128, by omega⟩)
      · intro b hb
        match b with
        | ⟨0, _⟩ => rfl
        | ⟨1, _⟩ => exact absurd rfl hb
      · show 128 + (f.val - 128) = f.val
        omega
    · rw [dif_neg h2]
      have hf := f.isLt
      refine (concatenate_apply_piece (t := S512x224) 1 [⟨S512x128, fn0V A Bq⟩, ⟨S512x64, fn1V Bq⟩, ⟨S512x32, fn2V Bq⟩]
        concatenates_S512x128_S512x64_S512x32_S512x224_d1 (ix2 g f) 2 (by show (2 : Nat) < 3; omega) S512x32 (fn2V Bq) rfl rfl
        192 rfl (ix2 g ⟨f.val - 192, by omega⟩) ?_ ?_).trans (fn2V_apply Bq g ⟨f.val - 192, by omega⟩)
      · intro b hb
        match b with
        | ⟨0, _⟩ => rfl
        | ⟨1, _⟩ => exact absurd rfl hb
      · show 192 + (f.val - 192) = f.val
        omega

/-- The per-graph scales: the field norm plus the printed small constant, raised to the printed power, times the weight. -/
def scaleV : FVec Ideal S512x224 .f32 :=
  mulf (Host.powf (addf (fnV A Bq) (broadcastInDim S512x224 ![] bcast_S_S512x224 (constant (F := Ideal) S_ .f32 0x3727C5AC#32)))
      (broadcastInDim S512x224 ![] bcast_S_S512x224 (constant (F := Ideal) S_ .f32 0xBF000000#32)))
    (broadcastInDim S512x224 ![0, 1] bcast_S1x224_S512x224_0_1 (broadcastInDim S1x224 ![1] bcast_S224_S1x224_1 Wt))

/-- Column `f` of the scales from column `f` of the field norms. -/
theorem scaleV_apply (g : Fin 512) (f : Fin 224) :
    scaleV A Bq Wt (ix2 g f)
      = Ideal.pow (hfn A Bq g f + Ideal.ofBits .f32 0x3727C5AC#32) (Ideal.ofBits .f32 0xBF000000#32) * Wt (ix1 f) := by
  show Ideal.pow (fnV A Bq (ix2 g f)
        + broadcastInDim S512x224 ![] bcast_S_S512x224 (constant (F := Ideal) S_ .f32 0x3727C5AC#32) (ix2 g f))
      (broadcastInDim S512x224 ![] bcast_S_S512x224 (constant (F := Ideal) S_ .f32 0xBF000000#32) (ix2 g f))
      * broadcastInDim S512x224 ![0, 1] bcast_S1x224_S512x224_0_1 (broadcastInDim S1x224 ![1] bcast_S224_S1x224_1 Wt) (ix2 g f) = _
  rw [broadcastInDim_apply _ bcast_S_S512x224 (constant (F := Ideal) S_ .f32 0x3727C5AC#32) (ix2 g f) ix0 (fun a => a.elim0),
    broadcastInDim_apply _ bcast_S_S512x224 (constant (F := Ideal) S_ .f32 0xBF000000#32) (ix2 g f) ix0 (fun a => a.elim0),
    broadcastInDim_apply _ bcast_S1x224_S512x224_0_1 _ (ix2 g f) (ix2 0 f)
      (fun a => match a with | ⟨0, _⟩ => rfl | ⟨1, _⟩ => rfl),
    broadcastInDim_apply _ bcast_S224_S1x224_1 Wt (ix2 0 f) (ix1 f) (fun a => match a with | ⟨0, _⟩ => rfl),
    fnV_apply]
  rfl

end Pure

/-! ## The buffers the second region is entered at -/

/-- What the first region leaves in its two result buffers. -/
theorem V8_v21_0 (c : Dev nD) : V8 m outs c main_v21_0 = outs 8 main_v21_0 c := by
  dsimp only [V8]
  rw [Function.update_of_ne (StableHlo.devRef_ne_of_ne (by decide) : (Proc.devRef .tc main_v21_0 : DevRef τ sig) ≠ Proc.devRef .tc main_v21_1),
    Function.update_self]

theorem V8_v21_1 (c : Dev nD) : V8 m outs c main_v21_1 = outs 8 main_v21_1 c := by
  dsimp only [V8]
  rw [Function.update_self]

/-- The weight is as launched. -/
theorem V8_arg1 (c : Dev nD) : V8 m outs c main_arg1 = m ((c : Thread nD τ).loc main_arg1) := by
  rw [V8_of m outs c main_arg1 (by decide), V7_of m c main_arg1 (by decide), V6_of m c main_arg1 (by decide),
    V5_of m c main_arg1 (by decide), V4_of m c main_arg1 (by decide), V3_of m c main_arg1 (by decide),
    V2_of m c main_arg1 (by decide), V1_of m c main_arg1 (by decide)]

/-- Operations run one list after another are the two lists run as one. -/
private theorem after_append {Val : EltTy → Type} (l₁ l₂ : List (HloOp τ sig Val)) (V : Valuation τ sig Val) :
    after (l₁ ++ l₂) V = after l₂ (after l₁ V) := by
  induction l₁ generalizing V with
  | nil => rfl
  | cons op l ih => exact ih _

/-- The stretch cut before the joining of the three field norms: its first 22 operations, then the rest. -/
private theorem after_hostOps1 (W : Valuation τ sig (Elt Ideal)) :
    after hostOps1 W = after (hostOps1.drop 22) (after (hostOps1.take 22) W) :=
  (congrArg (fun l => after l W) (List.take_append_drop 22 hostOps1).symm).trans (after_append _ _ W)

section Head
variable (W : Valuation τ sig (Elt Ideal))

private theorem head_v32 : (after (hostOps1.take 22) W main_v32 : S512x128.Idx → EReal) = meanV (W main_v21_0) (W main_v21_1) := by
  simp (disch := decide) only [hostOps1, List.take_succ_cons, List.take_zero, after_cons, after_nil, nullary_result', unary_result', binary_result', nary_result',
    nullary_result_ne', unary_result_ne', binary_result_ne', nary_result_ne', Matrix.cons_val]
  rfl

private theorem head_v36 : (after (hostOps1.take 22) W main_v36 : S512x128.Idx → EReal) = fn0V (W main_v21_0) (W main_v21_1) := by
  simp (disch := decide) only [hostOps1, List.take_succ_cons, List.take_zero, after_cons, after_nil, nullary_result', unary_result', binary_result', nary_result',
    nullary_result_ne', unary_result_ne', binary_result_ne', nary_result_ne', Matrix.cons_val]
  rfl

private theorem head_v38 : (after (hostOps1.take 22) W main_v38 : S512x64.Idx → EReal) = fn1V (W main_v21_1) := by
  simp (disch := decide) only [hostOps1, List.take_succ_cons, List.take_zero, after_cons, after_nil, nullary_result', unary_result', binary_result', nary_result',
    nullary_result_ne', unary_result_ne', binary_result_ne', nary_result_ne', Matrix.cons_val]
  rfl

private theorem head_v40 : (after (hostOps1.take 22) W main_v40 : S512x32.Idx → EReal) = fn2V (W main_v21_1) := by
  simp (disch := decide) only [hostOps1, List.take_succ_cons, List.take_zero, after_cons, after_nil, nullary_result', unary_result', binary_result', nary_result',
    nullary_result_ne', unary_result_ne', binary_result_ne', nary_result_ne', Matrix.cons_val]
  rfl

private theorem head_arg1 : after (hostOps1.take 22) W main_arg1 = W main_arg1 := by
  simp (disch := decide) only [hostOps1, List.take_succ_cons, List.take_zero, after_cons, after_nil, nullary_result', unary_result', binary_result', nary_result',
    nullary_result_ne', unary_result_ne', binary_result_ne', nary_result_ne', Matrix.cons_val]

end Head

section Tail
variable (X : Valuation τ sig (Elt Ideal))

private theorem tail_v32 : after (hostOps1.drop 22) X main_v32 = X main_v32 := by
  simp (disch := decide) only [hostOps1, List.drop_succ_cons, List.drop_zero, after_cons, after_nil, nullary_result', unary_result', binary_result', nary_result',
    nullary_result_ne', unary_result_ne', binary_result_ne', nary_result_ne', Matrix.cons_val]

private theorem tail_v48 : (after (hostOps1.drop 22) X main_v48 : S512x224.Idx → EReal)
    = mulf (Host.powf (addf
          (concatenate S512x224 1 [⟨S512x128, (X main_v36 : S512x128.Idx → EReal)⟩, ⟨S512x64, (X main_v38 : S512x64.Idx → EReal)⟩,
              ⟨S512x32, (X main_v40 : S512x32.Idx → EReal)⟩] concatenates_S512x128_S512x64_S512x32_S512x224_d1)
          (broadcastInDim S512x224 ![] bcast_S_S512x224 (constant (F := Ideal) S_ .f32 0x3727C5AC#32)))
        (broadcastInDim S512x224 ![] bcast_S_S512x224 (constant (F := Ideal) S_ .f32 0xBF000000#32)))
      (broadcastInDim S512x224 ![0, 1] bcast_S1x224_S512x224_0_1
        (broadcastInDim S1x224 ![1] bcast_S224_S1x224_1 (X main_arg1 : S224.Idx → EReal))) := by
  simp (disch := decide) only [hostOps1, List.drop_succ_cons, List.drop_zero, after_cons, after_nil, nullary_result', unary_result', binary_result', nary_result',
    nullary_result_ne', unary_result_ne', binary_result_ne', nary_result_ne', Matrix.cons_val]

end Tail

/-- The means buffer as the operations compute it from what the first region leaves. -/
theorem V9_v32_eq (c : Dev nD) : (V9 m outs c main_v32 : S512x128.Idx → EReal)
    = meanV (outs 8 main_v21_0 c) (outs 8 main_v21_1 c) := by
  show after hostOps1 (V8 m outs c) _ = _
  rw [after_hostOps1, tail_v32, head_v32, V8_v21_0, V8_v21_1]

/-- The scales buffer as the operations compute it from what the first region leaves and the weight. -/
theorem V9_v48_eq (c : Dev nD) : (V9 m outs c main_v48 : S512x224.Idx → EReal)
    = scaleV (outs 8 main_v21_0 c) (outs 8 main_v21_1 c) (m ((c : Thread nD τ).loc main_arg1)) := by
  show after hostOps1 (V8 m outs c) _ = _
  rw [after_hostOps1, tail_v48, head_v36, head_v38, head_v40, head_arg1, V8_v21_0, V8_v21_1, V8_arg1]
  rfl

/-- Entry (g, k) of the means buffer: the mean of scalar feature `k` over graph `g`. -/
theorem V9_mean (c : Dev nD) (g : Fin 512) (k : Fin 128) :
    (V9 m outs c main_v32 : S512x128.Idx → EReal) (ix2 g k)
      = hmean (outs 8 main_v21_0 c) (outs 8 main_v21_1 c) g k := by
  rw [V9_v32_eq]
  exact meanV_apply _ _ g k

/-- Entry (g, f) of the scales buffer: the field norm of feature `f` over graph `g` plus the small constant, to the
    power minus one half, times the feature's weight. -/
theorem V9_scale (c : Dev nD) (g : Fin 512) (f : Fin 224) :
    (V9 m outs c main_v48 : S512x224.Idx → EReal) (ix2 g f)
      = Ideal.pow (hfn (outs 8 main_v21_0 c) (outs 8 main_v21_1 c) g f + Ideal.ofBits .f32 0x3727C5AC#32)
          (Ideal.ofBits .f32 0xBF000000#32)
        * (m ((c : Thread nD τ).loc main_arg1) : S224.Idx → EReal) (ix1 f) := by
  rw [V9_v48_eq]
  exact scaleV_apply _ _ _ g f

end Cert.KernelIdeal.Hand
end
-- ==== Proof.Val.Pay0.lean ====
/-
  The payloads of the first reduction kernel read at an index, at the ideal values (floats are extended reals, a
  change of float format is the identity). The one-hot matrix of the node ids, the two products that sum a block's
  per-node rows into their graphs, and the two accumulator updates.
-/
import proofs.«421439_j25340307046985_3_alg».proof.Proof.Gen.KernelIdeal.Skeleton
import proofs.«421439_j25340307046985_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen Cert.Spec Idealize.ShloMosaic Idealize.ShloMosaic.ValueIdx

/-! ## The accumulator updates and the zero resets -/

/-- The zero reset of the first accumulator holds the extended real `0` everywhere. -/
theorem pay3_apply (g : Fin 512) (col : Fin 256) : k0_pay3 (F := Ideal) (ix3 (0 : Fin 1) g col) = 0 := by
  unfold k0_pay3
  refine (shapeCast_ab_1ab_apply _ _ 0 g col).trans ?_
  exact Ideal.ofBits_zero_f32

/-- The zero reset of the second accumulator likewise. -/
theorem pay4_apply (g : Fin 512) (col : Fin 97) : k0_pay4 (F := Ideal) (ix3 (0 : Fin 1) g col) = 0 := by
  unfold k0_pay4
  refine (shapeCast_ab_1ab_apply _ _ 0 g col).trans ?_
  exact Ideal.ofBits_zero_f32

/-- The first accumulator's update: what it held plus the block's product, element by element. -/
theorem pay1_apply (v38 : FVec Ideal S512x256 .f32) (v40 : Vec Ideal S1x512x256 .f32) (g : Fin 512) (col : Fin 256) :
    k0_pay1 (F := Ideal) v38 v40 (ix3 (0 : Fin 1) g col) = v40 (ix3 (0 : Fin 1) g col) + v38 (ix2 g col) := by
  unfold k0_pay1
  refine (shapeCast_ab_1ab_apply _ _ 0 g col).trans ?_
  refine (addf_apply _ _ _).trans ?_
  exact congrArg (· + v38 (ix2 g col)) (shapeCast_1ab_ab_apply v40 _ g col)

/-- The second accumulator's update likewise. -/
theorem pay2_apply (v39 : FVec Ideal S512x97 .f32) (v46 : Vec Ideal S1x512x97 .f32) (g : Fin 512) (col : Fin 97) :
    k0_pay2 (F := Ideal) v39 v46 (ix3 (0 : Fin 1) g col) = v46 (ix3 (0 : Fin 1) g col) + v39 (ix2 g col) := by
  unfold k0_pay2
  refine (shapeCast_ab_1ab_apply _ _ 0 g col).trans ?_
  refine (addf_apply _ _ _).trans ?_
  exact congrArg (· + v39 (ix2 g col)) (shapeCast_1ab_ab_apply v46 _ g col)

/-! ## The one-hot matrix of the node ids -/

/-- The comparison bit of two 32-bit words, widened to 32 bits and read as a signed integer, is `1` when the words
    are equal and `0` when they are not. -/
theorem sitofp_extui_cmpi_eq (b c : BitVec 32) :
    (FloatOps.sitofp (F := Ideal) .f32 ((IntOp.cmpi .eq b c).setWidth 32) : EReal) = if b = c then 1 else 0 := by
  show ((((IntOp.cmpi .eq b c).setWidth 32).toInt : ℝ) : EReal) = _
  by_cases h : b = c
  · subst h
    rw [if_pos rfl]
    have e : (IntOp.cmpi .eq b b).setWidth 32 = 1#32 := by simp [IntOp.cmpi]
    rw [e]
    norm_num
  · rw [if_neg h]
    have hb : (b == c) = false := by simpa using h
    have e : (IntOp.cmpi .eq b c).setWidth 32 = 0#32 := by simp [IntOp.cmpi, hb]
    rw [e]
    norm_num

/-- The one-hot matrix: row `r`, column `g` holds the weight of node `r`'s id in graph `g`. -/
theorem pay5_apply (v3 : Vec Ideal S1000x1 .i32) (r : Fin 1000) (g : Fin 512) :
    k0_pay5 (F := Ideal) v3 (ix2 r g) = oh (v3 (ix2 r 0)) g := by
  unfold k0_pay5
  have e6 : broadcastTo S1000x512 (shapeCast S1000x1 v3 Facts₀.shapeCasts_S1000x1_S1000x1) Facts₀.broadcasts_S1000x1_S1000x512
      (ix2 r g) = v3 (ix2 r 0) := by
    refine (broadcastTo_apply _ _ (ix2 r g) (ix2 r (0 : Fin 1)) fun a => ?_).trans ?_
    · match a with
      | ⟨0, _⟩ => rfl
      | ⟨1, _⟩ => rfl
    · exact shapeCast_apply v3 _ _ _ rfl
  have e7 : broadcastTo S1000x512 (iota .tc S1x512 32 [1] Facts₀.iota_S1x512_d1_w32) Facts₀.broadcasts_S1x512_S1000x512
      (ix2 r g) = BitVec.ofNat 32 g.val := by
    refine (broadcastTo_apply _ _ (ix2 r g) (ix2 (0 : Fin 1) g) fun a => ?_).trans ?_
    · match a with
      | ⟨0, _⟩ => rfl
      | ⟨1, _⟩ => rfl
    · exact iota_single_apply .tc S1x512 32 1 _ _
  show (FloatOps.sitofp (F := Ideal) .f32 ((IntOp.cmpi .eq _ _).setWidth 32) : EReal) = _
  rw [e6, e7]
  exact sitofp_extui_cmpi_eq _ _

/-! ## The operand indices of the four products

Each product contracts one axis. At output index `j` and contraction index `k` an operand's index has `k`'s one
coordinate on the contracted axis and a coordinate of `j` on the other. The two one-hot products contract axis 0 of
both operands (the block's rows); the two inner products contract the left operand's columns with the right's rows. -/

theorem lhsA_0 (j : S512x256.Idx) (k : dot_S1000x512_S1000x256_S512x256_0_0_1_1_n_n.contr.Idx) :
    (dot_S1000x512_S1000x256_S512x256_0_0_1_1_n_n.lhsIdx j k 0 : ℕ) = k ⟨0, by decide⟩ :=
  DotDims.lhsIdx_val_of_single _ rfl j k
theorem lhsA_1 (j : S512x256.Idx) (k : dot_S1000x512_S1000x256_S512x256_0_0_1_1_n_n.contr.Idx) :
    (dot_S1000x512_S1000x256_S512x256_0_0_1_1_n_n.lhsIdx j k 1 : ℕ) = j 0 := by
  simp [DotDims.lhsIdx, dot_S1000x512_S1000x256_S512x256_0_0_1_1_n_n]; rfl
theorem rhsA_0 (j : S512x256.Idx) (k : dot_S1000x512_S1000x256_S512x256_0_0_1_1_n_n.contr.Idx) :
    (dot_S1000x512_S1000x256_S512x256_0_0_1_1_n_n.rhsIdx j k 0 : ℕ) = k ⟨0, by decide⟩ :=
  DotDims.rhsIdx_val_of_single _ rfl j k
theorem rhsA_1 (j : S512x256.Idx) (k : dot_S1000x512_S1000x256_S512x256_0_0_1_1_n_n.contr.Idx) :
    (dot_S1000x512_S1000x256_S512x256_0_0_1_1_n_n.rhsIdx j k 1 : ℕ) = j 1 := by
  simp [DotDims.rhsIdx, dot_S1000x512_S1000x256_S512x256_0_0_1_1_n_n]; rfl

theorem lhsB_0 (j : S512x97.Idx) (k : dot_S1000x512_S1000x97_S512x97_0_0_1_1_n_n.contr.Idx) :
    (dot_S1000x512_S1000x97_S512x97_0_0_1_1_n_n.lhsIdx j k 0 : ℕ) = k ⟨0, by decide⟩ :=
  DotDims.lhsIdx_val_of_single _ rfl j k
theorem lhsB_1 (j : S512x97.Idx) (k : dot_S1000x512_S1000x97_S512x97_0_0_1_1_n_n.contr.Idx) :
    (dot_S1000x512_S1000x97_S512x97_0_0_1_1_n_n.lhsIdx j k 1 : ℕ) = j 0 := by
  simp [DotDims.lhsIdx, dot_S1000x512_S1000x97_S512x97_0_0_1_1_n_n]; rfl
theorem rhsB_0 (j : S512x97.Idx) (k : dot_S1000x512_S1000x97_S512x97_0_0_1_1_n_n.contr.Idx) :
    (dot_S1000x512_S1000x97_S512x97_0_0_1_1_n_n.rhsIdx j k 0 : ℕ) = k ⟨0, by decide⟩ :=
  DotDims.rhsIdx_val_of_single _ rfl j k
theorem rhsB_1 (j : S512x97.Idx) (k : dot_S1000x512_S1000x97_S512x97_0_0_1_1_n_n.contr.Idx) :
    (dot_S1000x512_S1000x97_S512x97_0_0_1_1_n_n.rhsIdx j k 1 : ℕ) = j 1 := by
  simp [DotDims.rhsIdx, dot_S1000x512_S1000x97_S512x97_0_0_1_1_n_n]; rfl

theorem lhsG1_1 (j : S1000x64.Idx) (k : dot_S1000x192_S192x64_S1000x64_1_0_0_1_n_n.contr.Idx) :
    (dot_S1000x192_S192x64_S1000x64_1_0_0_1_n_n.lhsIdx j k 1 : ℕ) = k ⟨0, by decide⟩ :=
  DotDims.lhsIdx_val_of_single _ rfl j k
theorem lhsG1_0 (j : S1000x64.Idx) (k : dot_S1000x192_S192x64_S1000x64_1_0_0_1_n_n.contr.Idx) :
    (dot_S1000x192_S192x64_S1000x64_1_0_0_1_n_n.lhsIdx j k 0 : ℕ) = j 0 := by
  simp [DotDims.lhsIdx, dot_S1000x192_S192x64_S1000x64_1_0_0_1_n_n]; rfl
theorem rhsG1_0 (j : S1000x64.Idx) (k : dot_S1000x192_S192x64_S1000x64_1_0_0_1_n_n.contr.Idx) :
    (dot_S1000x192_S192x64_S1000x64_1_0_0_1_n_n.rhsIdx j k 0 : ℕ) = k ⟨0, by decide⟩ :=
  DotDims.rhsIdx_val_of_single _ rfl j k
theorem rhsG1_1 (j : S1000x64.Idx) (k : dot_S1000x192_S192x64_S1000x64_1_0_0_1_n_n.contr.Idx) :
    (dot_S1000x192_S192x64_S1000x64_1_0_0_1_n_n.rhsIdx j k 1 : ℕ) = j 1 := by
  simp [DotDims.rhsIdx, dot_S1000x192_S192x64_S1000x64_1_0_0_1_n_n]; rfl

theorem lhsG2_1 (j : S1000x32.Idx) (k : dot_S1000x160_S160x32_S1000x32_1_0_0_1_n_n.contr.Idx) :
    (dot_S1000x160_S160x32_S1000x32_1_0_0_1_n_n.lhsIdx j k 1 : ℕ) = k ⟨0, by decide⟩ :=
  DotDims.lhsIdx_val_of_single _ rfl j k
theorem lhsG2_0 (j : S1000x32.Idx) (k : dot_S1000x160_S160x32_S1000x32_1_0_0_1_n_n.contr.Idx) :
    (dot_S1000x160_S160x32_S1000x32_1_0_0_1_n_n.lhsIdx j k 0 : ℕ) = j 0 := by
  simp [DotDims.lhsIdx, dot_S1000x160_S160x32_S1000x32_1_0_0_1_n_n]; rfl
theorem rhsG2_0 (j : S1000x32.Idx) (k : dot_S1000x160_S160x32_S1000x32_1_0_0_1_n_n.contr.Idx) :
    (dot_S1000x160_S160x32_S1000x32_1_0_0_1_n_n.rhsIdx j k 0 : ℕ) = k ⟨0, by decide⟩ :=
  DotDims.rhsIdx_val_of_single _ rfl j k
theorem rhsG2_1 (j : S1000x32.Idx) (k : dot_S1000x160_S160x32_S1000x32_1_0_0_1_n_n.contr.Idx) :
    (dot_S1000x160_S160x32_S1000x32_1_0_0_1_n_n.rhsIdx j k 1 : ℕ) = j 1 := by
  simp [DotDims.rhsIdx, dot_S1000x160_S160x32_S1000x32_1_0_0_1_n_n]; rfl

/-! ## A product read as a sum over a literal index range -/

/-- The one-hot product into a zero accumulator, read at `(g, col)`: the sum over the block's rows. -/
theorem prodA_apply (O : FVec Ideal S1000x512 .bf16) (R : FVec Ideal S1000x256 .bf16) (g : Fin 512) (col : Fin 256) :
    matmul dot_S1000x512_S1000x256_S512x256_0_0_1_1_n_n none O R (constant S512x256 .f32 0x00000000#32) (ix2 g col)
      = ∑ r : Fin 1000, O (ix2 r g) * R (ix2 r col) := by
  refine (Ideal.matmul_constant_zero_apply dot_S1000x512_S1000x256_S512x256_0_0_1_1_n_n none O R (ix2 g col)).trans ?_
  rw [← Equiv.sum_comp (contrEquiv1 dot_S1000x512_S1000x256_S512x256_0_0_1_1_n_n 1000 rfl rfl).symm]
  refine Finset.sum_congr rfl fun r _ => ?_
  have el : dot_S1000x512_S1000x256_S512x256_0_0_1_1_n_n.lhsIdx (ix2 g col) ((contrEquiv1 dot_S1000x512_S1000x256_S512x256_0_0_1_1_n_n 1000 rfl rfl).symm r) = ix2 r g :=
    Shape.idx_ext₂ ((lhsA_0 _ _).trans (contrEquiv1_symm_val _ _ _ _ _)) (lhsA_1 _ _)
  have er : dot_S1000x512_S1000x256_S512x256_0_0_1_1_n_n.rhsIdx (ix2 g col) ((contrEquiv1 dot_S1000x512_S1000x256_S512x256_0_0_1_1_n_n 1000 rfl rfl).symm r) = ix2 r col :=
    Shape.idx_ext₂ ((rhsA_0 _ _).trans (contrEquiv1_symm_val _ _ _ _ _)) (rhsA_1 _ _)
  rw [el, er]

/-- The one-hot product into a zero accumulator, read at `(g, col)`: the sum over the block's rows. -/
theorem prodB_apply (O : FVec Ideal S1000x512 .bf16) (R : FVec Ideal S1000x97 .bf16) (g : Fin 512) (col : Fin 97) :
    matmul dot_S1000x512_S1000x97_S512x97_0_0_1_1_n_n none O R (constant S512x97 .f32 0x00000000#32) (ix2 g col)
      = ∑ r : Fin 1000, O (ix2 r g) * R (ix2 r col) := by
  refine (Ideal.matmul_constant_zero_apply dot_S1000x512_S1000x97_S512x97_0_0_1_1_n_n none O R (ix2 g col)).trans ?_
  rw [← Equiv.sum_comp (contrEquiv1 dot_S1000x512_S1000x97_S512x97_0_0_1_1_n_n 1000 rfl rfl).symm]
  refine Finset.sum_congr rfl fun r _ => ?_
  have el : dot_S1000x512_S1000x97_S512x97_0_0_1_1_n_n.lhsIdx (ix2 g col) ((contrEquiv1 dot_S1000x512_S1000x97_S512x97_0_0_1_1_n_n 1000 rfl rfl).symm r) = ix2 r g :=
    Shape.idx_ext₂ ((lhsB_0 _ _).trans (contrEquiv1_symm_val _ _ _ _ _)) (lhsB_1 _ _)
  have er : dot_S1000x512_S1000x97_S512x97_0_0_1_1_n_n.rhsIdx (ix2 g col) ((contrEquiv1 dot_S1000x512_S1000x97_S512x97_0_0_1_1_n_n 1000 rfl rfl).symm r) = ix2 r col :=
    Shape.idx_ext₂ ((rhsB_0 _ _).trans (contrEquiv1_symm_val _ _ _ _ _)) (rhsB_1 _ _)
  rw [el, er]

/-- The inner product into a zero accumulator, read at `(r, c)`: the sum over the contracted columns. -/
theorem prodG1_apply (P : FVec Ideal S1000x192 .bf16) (G : FVec Ideal S192x64 .bf16) (r : Fin 1000) (c : Fin 64) :
    matmul dot_S1000x192_S192x64_S1000x64_1_0_0_1_n_n none P G (constant S1000x64 .f32 0x00000000#32) (ix2 r c)
      = ∑ j : Fin 192, P (ix2 r j) * G (ix2 j c) := by
  refine (Ideal.matmul_constant_zero_apply dot_S1000x192_S192x64_S1000x64_1_0_0_1_n_n none P G (ix2 r c)).trans ?_
  rw [← Equiv.sum_comp (contrEquiv1 dot_S1000x192_S192x64_S1000x64_1_0_0_1_n_n 192 rfl rfl).symm]
  refine Finset.sum_congr rfl fun j _ => ?_
  have el : dot_S1000x192_S192x64_S1000x64_1_0_0_1_n_n.lhsIdx (ix2 r c) ((contrEquiv1 dot_S1000x192_S192x64_S1000x64_1_0_0_1_n_n 192 rfl rfl).symm j) = ix2 r j :=
    Shape.idx_ext₂ (lhsG1_0 _ _) ((lhsG1_1 _ _).trans (contrEquiv1_symm_val _ _ _ _ _))
  have er : dot_S1000x192_S192x64_S1000x64_1_0_0_1_n_n.rhsIdx (ix2 r c) ((contrEquiv1 dot_S1000x192_S192x64_S1000x64_1_0_0_1_n_n 192 rfl rfl).symm j) = ix2 j c :=
    Shape.idx_ext₂ ((rhsG1_0 _ _).trans (contrEquiv1_symm_val _ _ _ _ _)) (rhsG1_1 _ _)
  rw [el, er]

/-- The inner product into a zero accumulator, read at `(r, c)`: the sum over the contracted columns. -/
theorem prodG2_apply (P : FVec Ideal S1000x160 .bf16) (G : FVec Ideal S160x32 .bf16) (r : Fin 1000) (c : Fin 32) :
    matmul dot_S1000x160_S160x32_S1000x32_1_0_0_1_n_n none P G (constant S1000x32 .f32 0x00000000#32) (ix2 r c)
      = ∑ j : Fin 160, P (ix2 r j) * G (ix2 j c) := by
  refine (Ideal.matmul_constant_zero_apply dot_S1000x160_S160x32_S1000x32_1_0_0_1_n_n none P G (ix2 r c)).trans ?_
  rw [← Equiv.sum_comp (contrEquiv1 dot_S1000x160_S160x32_S1000x32_1_0_0_1_n_n 160 rfl rfl).symm]
  refine Finset.sum_congr rfl fun j _ => ?_
  have el : dot_S1000x160_S160x32_S1000x32_1_0_0_1_n_n.lhsIdx (ix2 r c) ((contrEquiv1 dot_S1000x160_S160x32_S1000x32_1_0_0_1_n_n 160 rfl rfl).symm j) = ix2 r j :=
    Shape.idx_ext₂ (lhsG2_0 _ _) ((lhsG2_1 _ _).trans (contrEquiv1_symm_val _ _ _ _ _))
  have er : dot_S1000x160_S160x32_S1000x32_1_0_0_1_n_n.rhsIdx (ix2 r c) ((contrEquiv1 dot_S1000x160_S160x32_S1000x32_1_0_0_1_n_n 160 rfl rfl).symm j) = ix2 j c :=
    Shape.idx_ext₂ ((rhsG2_0 _ _).trans (contrEquiv1_symm_val _ _ _ _ _)) (rhsG2_1 _ _)
  rw [el, er]

/-! ## The two concatenations along the columns, read at an index -/

/-- Two 128-column pieces side by side: a column below 128 reads the first piece, any other the second, 128 less. -/
theorem cat2_apply (A B : FVec Ideal S1000x128 .bf16) (h : Shape.Concatenates [S1000x128, S1000x128] S1000x256 1)
    (r : Fin 1000) (col : Fin 256) :
    concatenate S1000x256 1 [⟨S1000x128, A⟩, ⟨S1000x128, B⟩] h (ix2 r col)
      = if hc : col.val < 128 then A (ix2 r ⟨col.val, hc⟩) else B (ix2 r ⟨col.val - 128, by omega⟩) := by
  by_cases hc : col.val < 128
  · rw [dif_pos hc]
    exact concatenate_pair_apply_left 1 A B h (ix2 r col) rfl (ix2 r ⟨col.val, hc⟩) fun b =>
      match b with
      | ⟨0, _⟩ => rfl
      | ⟨1, _⟩ => rfl
  · rw [dif_neg hc]
    refine concatenate_pair_apply_right 1 A B h (ix2 r col) rfl rfl (ix2 r ⟨col.val - 128, by omega⟩) (fun b hb => ?_) ?_
    · match b with
      | ⟨0, _⟩ => rfl
      | ⟨1, _⟩ => exact absurd rfl hb
    · show (col.val - 128) + 128 = col.val
      omega

/-- Pieces of 64, 32 and 1 columns side by side. -/
theorem cat3_apply (A : FVec Ideal S1000x64 .bf16) (B : FVec Ideal S1000x32 .bf16) (C : FVec Ideal S1000x1 .bf16)
    (h : Shape.Concatenates [S1000x64, S1000x32, S1000x1] S1000x97 1) (r : Fin 1000) (col : Fin 97) :
    concatenate S1000x97 1 [⟨S1000x64, A⟩, ⟨S1000x32, B⟩, ⟨S1000x1, C⟩] h (ix2 r col)
      = if h1 : col.val < 64 then A (ix2 r ⟨col.val, h1⟩)
        else if h2 : col.val < 96 then B (ix2 r ⟨col.val - 64, by omega⟩) else C (ix2 r (0 : Fin 1)) := by
  by_cases h1 : col.val < 64
  · rw [dif_pos h1]
    refine concatenate_apply_piece 1 [⟨S1000x64, A⟩, ⟨S1000x32, B⟩, ⟨S1000x1, C⟩] h (ix2 r col) 0 (Nat.zero_lt_succ _) S1000x64 A rfl rfl 0 rfl (ix2 r ⟨col.val, h1⟩)
      (fun b hb => ?_) ?_
    · match b with
      | ⟨0, _⟩ => rfl
      | ⟨1, _⟩ => exact absurd rfl hb
    · show 0 + col.val = col.val
      omega
  · rw [dif_neg h1]
    by_cases h2 : col.val < 96
    · rw [dif_pos h2]
      refine concatenate_apply_piece 1 [⟨S1000x64, A⟩, ⟨S1000x32, B⟩, ⟨S1000x1, C⟩] h (ix2 r col) 1 (Nat.succ_lt_succ (Nat.zero_lt_succ _)) S1000x32 B rfl rfl 64 rfl
        (ix2 r ⟨col.val - 64, by omega⟩) (fun b hb => ?_) ?_
      · match b with
        | ⟨0, _⟩ => rfl
        | ⟨1, _⟩ => exact absurd rfl hb
      · show 64 + (col.val - 64) = col.val
        omega
    · rw [dif_neg h2]
      refine concatenate_apply_piece 1 [⟨S1000x64, A⟩, ⟨S1000x32, B⟩, ⟨S1000x1, C⟩] h (ix2 r col) 2 (Nat.succ_lt_succ (Nat.succ_lt_succ (Nat.zero_lt_succ _))) S1000x1 C rfl rfl 96 rfl
        (ix2 r (0 : Fin 1)) (fun b hb => ?_) ?_
      · match b with
        | ⟨0, _⟩ => rfl
        | ⟨1, _⟩ => exact absurd rfl hb
      · show 96 + 0 = col.val
        have := col.isLt
        omega

/-! ## The three column slices of a block of node features -/

theorem sliceA_apply (x : Vec Ideal S1000x480 .f32) (r : Fin 1000) (c : Fin 128) :
    extractStridedSlice S1000x128 ![0, 0] x Facts₀.slices_S1000x480_o0_0_S1000x128 (ix2 r c)
      = x (ix2 r ⟨c.val, by omega⟩) :=
  extractStridedSlice_apply _ x _ (ix2 r c) (ix2 r ⟨c.val, by omega⟩) fun a =>
    match a with
    | ⟨0, _⟩ => by show r.val = 0 + r.val; omega
    | ⟨1, _⟩ => by show c.val = 0 + c.val; omega

theorem sliceB_apply (x : Vec Ideal S1000x480 .f32) (r : Fin 1000) (c : Fin 192) :
    extractStridedSlice S1000x192 ![0, 128] x Facts₀.slices_S1000x480_o0_128_S1000x192 (ix2 r c)
      = x (ix2 r ⟨128 + c.val, by omega⟩) :=
  extractStridedSlice_apply _ x _ (ix2 r c) (ix2 r ⟨128 + c.val, by omega⟩) fun a =>
    match a with
    | ⟨0, _⟩ => by show r.val = 0 + r.val; omega
    | ⟨1, _⟩ => rfl

theorem sliceC_apply (x : Vec Ideal S1000x480 .f32) (r : Fin 1000) (c : Fin 160) :
    extractStridedSlice S1000x160 ![0, 320] x Facts₀.slices_S1000x480_o0_320_S1000x160 (ix2 r c)
      = x (ix2 r ⟨320 + c.val, by omega⟩) :=
  extractStridedSlice_apply _ x _ (ix2 r c) (ix2 r ⟨320 + c.val, by omega⟩) fun a =>
    match a with
    | ⟨0, _⟩ => by show r.val = 0 + r.val; omega
    | ⟨1, _⟩ => rfl

/-! ## The first product: per-graph sums of the leading features and of their squares -/

/-- Node `r`'s row of the first product's right operand: its 128 leading features, then their squares. -/
def catA (x : Vec Ideal S1000x480 .f32) (r : Fin 1000) (col : Fin 256) : EReal :=
  if h : col.val < 128 then x (ix2 r ⟨col.val, by omega⟩)
  else x (ix2 r ⟨col.val - 128, by omega⟩) * x (ix2 r ⟨col.val - 128, by omega⟩)

/-- The first product at `(g, col)`: the sum over the block's nodes of the node's weight in graph `g` times its
    row's entry `col`. -/
theorem pay6_apply (v3 : Vec Ideal S1000x1 .i32) (v12 : Vec Ideal S1000x480 .f32) (g : Fin 512) (col : Fin 256) :
    k0_pay6 (F := Ideal) v3 v12 (ix2 g col) = ∑ r : Fin 1000, oh (v3 (ix2 r 0)) g * catA v12 r col := by
  unfold k0_pay6
  refine (prodA_apply _ _ g col).trans ?_
  refine Finset.sum_congr rfl fun r _ => ?_
  rw [pay5_apply]
  refine congrArg (oh (v3 (ix2 r 0)) g * ·) ?_
  refine (cat2_apply _ _ _ r col).trans ?_
  unfold catA
  by_cases hc : col.val < 128
  · rw [dif_pos hc, dif_pos hc]
    exact sliceA_apply v12 r ⟨col.val, hc⟩
  · rw [dif_neg hc, dif_neg hc]
    have e := sliceA_apply v12 r ⟨col.val - 128, by omega⟩
    exact congrArg (fun t => t * t) e

/-! ## The second product: per-graph sums of the two projected squared blocks and the node count -/

/-- Node `r`'s row of the second product's right operand: the squares of its features 128 … 319 projected by `G1` and
    scaled, the squares of its features 320 … 479 projected by `G2` and scaled, and a final `1`. -/
def catB (x : Vec Ideal S1000x480 .f32) (G1 : Vec Ideal S192x64 .bf16) (G2 : Vec Ideal S160x32 .bf16) (r : Fin 1000)
    (col : Fin 97) : EReal :=
  if h1 : col.val < 64 then
    (∑ j : Fin 192, (x (ix2 r ⟨128 + j.val, by omega⟩) * x (ix2 r ⟨128 + j.val, by omega⟩)) * G1 (ix2 j ⟨col.val, h1⟩))
      * Named.named (F := Ideal) κ "inv_3" (φ := .f32) 0x3EAAAAAB#32
  else if h2 : col.val < 96 then
    (∑ j : Fin 160, (x (ix2 r ⟨320 + j.val, by omega⟩) * x (ix2 r ⟨320 + j.val, by omega⟩))
        * G2 (ix2 j ⟨col.val - 64, by omega⟩))
      * Named.named (F := Ideal) κ "inv_5" (φ := .f32) 0x3E4CCCCD#32
  else Ideal.ofBits .bf16 0x3F80#16

/-- The second product at `(g, col)`. -/
theorem pay7_apply (v3 : Vec Ideal S1000x1 .i32) (v12 : Vec Ideal S1000x480 .f32) (v23 : Vec Ideal S192x64 .bf16)
    (v28 : Vec Ideal S160x32 .bf16) (g : Fin 512) (col : Fin 97) :
    k0_pay7 (F := Ideal) v3 v12 v23 v28 (ix2 g col) = ∑ r : Fin 1000, oh (v3 (ix2 r 0)) g * catB v12 v23 v28 r col := by
  unfold k0_pay7
  refine (prodB_apply _ _ g col).trans ?_
  refine Finset.sum_congr rfl fun r _ => ?_
  rw [pay5_apply]
  refine congrArg (oh (v3 (ix2 r 0)) g * ·) ?_
  refine (cat3_apply _ _ _ _ r col).trans ?_
  unfold catB
  by_cases h1 : col.val < 64
  · rw [dif_pos h1, dif_pos h1]
    refine congrArg (· * Named.named (F := Ideal) κ "inv_3" (φ := .f32) 0x3EAAAAAB#32) ?_
    refine (prodG1_apply _ _ r ⟨col.val, h1⟩).trans ?_
    refine Finset.sum_congr rfl fun j _ => ?_
    have e := sliceB_apply v12 r j
    have eg : shapeCast S192x64 v23 Facts₀.shapeCasts_S192x64_S192x64 (ix2 j (⟨col.val, h1⟩ : Fin 64))
        = v23 (ix2 j ⟨col.val, h1⟩) := shapeCast_apply v23 _ _ _ rfl
    exact congrArg₂ (· * ·) (congrArg (fun t => t * t) e) eg
  · rw [dif_neg h1, dif_neg h1]
    by_cases h2 : col.val < 96
    · rw [dif_pos h2, dif_pos h2]
      refine congrArg (· * Named.named (F := Ideal) κ "inv_5" (φ := .f32) 0x3E4CCCCD#32) ?_
      refine (prodG2_apply _ _ r ⟨col.val - 64, by omega⟩).trans ?_
      refine Finset.sum_congr rfl fun j _ => ?_
      have e := sliceC_apply v12 r j
      have eg : shapeCast S160x32 v28 Facts₀.shapeCasts_S160x32_S160x32 (ix2 j (⟨col.val - 64, by omega⟩ : Fin 32))
          = v28 (ix2 j ⟨col.val - 64, by omega⟩) := shapeCast_apply v28 _ _ _ rfl
      exact congrArg₂ (· * ·) (congrArg (fun t => t * t) e) eg
    · rw [dif_neg h2, dif_neg h2]
      rfl

end Cert.KernelIdeal.Hand

end
-- ==== Proof.Val.Pieces0.lean ====
/- What each case of region 0's body leaves in the two output blocks, as values over the body's payloads: the
   found pieces of the body's runs read back. At a first-in-row point the zero fill is read back and the point's
   product added to it; at a later-in-row point the product is added to the running block. -/
import proofs.«421439_j25340307046985_3_alg».proof.Proof.KI.R0
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem

variable {F : FTy → Type} [FloatOps F] [Named F]

/-- Zero offsets, however many axes. -/
private theorem hz2 : (![0, 0] : Fin 2 → Nat) = fun _ => 0 := funext fun a => by fin_cases a <;> rfl
private theorem hz3 : (![0, 0, 0] : Fin 3 → Nat) = fun _ => 0 := funext fun a => by fin_cases a <;> rfl

/-- At a first-in-row point the first output block ends at the zero block plus the point's first product. -/
theorem piece0_A_4 (c : Dev nD) (i : grid0.Coords)
    (arg2 : Memref sig .tc .vmem S1000x1 .i32) (harg2 : arg2.IsWhole) (arg3 : Memref sig .tc .vmem S1000x480 .f32) (harg3 : arg3.IsWhole)
    (arg4 : Memref sig .tc .vmem S192x64 .bf16) (harg4 : arg4.IsWhole) (arg5 : Memref sig .tc .vmem S160x32 .bf16) (harg5 : arg5.IsWhole)
    (arg6 : Memref sig .tc .vmem S1x512x256 .f32) (harg6 : arg6.IsWhole) (arg7 : Memref sig .tc .vmem S1x512x97 .f32) (harg7 : arg7.IsWhole)
    (hc0 : cond0_0 i)
    (x0 : Vec F S1000x1 .i32) (x1 : Vec F S1000x480 .f32) (x2 : Vec F S192x64 .bf16) (x3 : Vec F S160x32 .bf16) :
    out0_A_4 c i arg2 harg2 arg3 harg3 arg4 harg4 arg5 harg5 arg6 harg6 arg7 harg7 hc0 x0 x1 x2 x3 = k0_pay1 (k0_pay6 x0 x1) (k0_pay3 (F := F)) := by
  unfold out0_A_4
  rw [View.read_writes_eq_canon _ _ _ (cover0_A_4 c i arg2 harg2 arg3 harg3 arg4 harg4 arg5 harg5 arg6 harg6 arg7 harg7 hc0 x0 x1 x2 x3)]
  unfold kernelRun0_A
  dsimp only
  sl_unfold_words
  rw [View.canon_cons_unit_zero (S := S1x512x256) hz3, View.readCov_unit_zero (S := S1x512x256) _ hz3]
  simp only [View.readAt_eq_ld, harg2.read_unread, harg3.read_unread, View.ld_unit_zero (S := S1000x1) hz2, View.ld_unit_zero (S := S1000x480) hz2]

/-- At a first-in-row point the second output block ends at the zero block plus the point's second product. -/
theorem piece0_A_5 (c : Dev nD) (i : grid0.Coords)
    (arg2 : Memref sig .tc .vmem S1000x1 .i32) (harg2 : arg2.IsWhole) (arg3 : Memref sig .tc .vmem S1000x480 .f32) (harg3 : arg3.IsWhole)
    (arg4 : Memref sig .tc .vmem S192x64 .bf16) (harg4 : arg4.IsWhole) (arg5 : Memref sig .tc .vmem S160x32 .bf16) (harg5 : arg5.IsWhole)
    (arg6 : Memref sig .tc .vmem S1x512x256 .f32) (harg6 : arg6.IsWhole) (arg7 : Memref sig .tc .vmem S1x512x97 .f32) (harg7 : arg7.IsWhole)
    (hc0 : cond0_0 i)
    (x0 : Vec F S1000x1 .i32) (x1 : Vec F S1000x480 .f32) (x2 : Vec F S192x64 .bf16) (x3 : Vec F S160x32 .bf16) :
    out0_A_5 c i arg2 harg2 arg3 harg3 arg4 harg4 arg5 harg5 arg6 harg6 arg7 harg7 hc0 x0 x1 x2 x3 = k0_pay2 (k0_pay7 x0 x1 x2 x3) (k0_pay4 (F := F)) := by
  unfold out0_A_5
  rw [View.read_writes_eq_canon _ _ _ (cover0_A_5 c i arg2 harg2 arg3 harg3 arg4 harg4 arg5 harg5 arg6 harg6 arg7 harg7 hc0 x0 x1 x2 x3)]
  unfold kernelRun0_A
  dsimp only
  sl_unfold_words
  rw [View.canon_cons_unit_zero (S := S1x512x97) hz3, View.readCov_unit_zero (S := S1x512x97) _ hz3]
  simp only [View.readAt_eq_ld, harg2.read_unread, harg3.read_unread, View.ld_unit_zero (S := S1000x1) hz2, View.ld_unit_zero (S := S1000x480) hz2,
    harg4.read_unread, harg5.read_unread, View.ld_unit_zero (S := S192x64) hz2, View.ld_unit_zero (S := S160x32) hz2]

/-- At a later-in-row point the first output block ends at the running block plus the point's first product. -/
theorem piece0_B_4 (c : Dev nD) (i : grid0.Coords)
    (arg2 : Memref sig .tc .vmem S1000x1 .i32) (harg2 : arg2.IsWhole) (arg3 : Memref sig .tc .vmem S1000x480 .f32) (harg3 : arg3.IsWhole)
    (arg4 : Memref sig .tc .vmem S192x64 .bf16) (harg4 : arg4.IsWhole) (arg5 : Memref sig .tc .vmem S160x32 .bf16) (harg5 : arg5.IsWhole)
    (arg6 : Memref sig .tc .vmem S1x512x256 .f32) (harg6 : arg6.IsWhole) (arg7 : Memref sig .tc .vmem S1x512x97 .f32) (harg7 : arg7.IsWhole)
    (hc0 : ¬cond0_0 i)
    (x0 : Vec F S1000x1 .i32) (x1 : Vec F S1000x480 .f32) (x2 : Vec F S192x64 .bf16) (x3 : Vec F S160x32 .bf16)
    (xo4 : Vec F S1x512x256 .f32) (xo5 : Vec F S1x512x97 .f32) :
    out0_B_4 c i arg2 harg2 arg3 harg3 arg4 harg4 arg5 harg5 arg6 harg6 arg7 harg7 hc0 x0 x1 x2 x3 xo4 xo5 = k0_pay1 (k0_pay6 x0 x1) xo4 := by
  unfold out0_B_4
  rw [View.read_writes_eq_canon _ _ _ (cover0_B_4 c i arg2 harg2 arg3 harg3 arg4 harg4 arg5 harg5 arg6 harg6 arg7 harg7 hc0 x0 x1 x2 x3 xo4 xo5)]
  unfold kernelRun0_B
  dsimp only
  sl_unfold_words
  rw [View.canon_unit_zero (S := S1x512x256) hz3]
  simp only [View.readAt_eq_ld, harg2.read_unread, harg3.read_unread, View.ld_unit_zero (S := S1000x1) hz2, View.ld_unit_zero (S := S1000x480) hz2, harg6.read_unread, View.ld_unit_zero (S := S1x512x256) hz3]

/-- At a later-in-row point the second output block ends at the running block plus the point's second product. -/
theorem piece0_B_5 (c : Dev nD) (i : grid0.Coords)
    (arg2 : Memref sig .tc .vmem S1000x1 .i32) (harg2 : arg2.IsWhole) (arg3 : Memref sig .tc .vmem S1000x480 .f32) (harg3 : arg3.IsWhole)
    (arg4 : Memref sig .tc .vmem S192x64 .bf16) (harg4 : arg4.IsWhole) (arg5 : Memref sig .tc .vmem S160x32 .bf16) (harg5 : arg5.IsWhole)
    (arg6 : Memref sig .tc .vmem S1x512x256 .f32) (harg6 : arg6.IsWhole) (arg7 : Memref sig .tc .vmem S1x512x97 .f32) (harg7 : arg7.IsWhole)
    (hc0 : ¬cond0_0 i)
    (x0 : Vec F S1000x1 .i32) (x1 : Vec F S1000x480 .f32) (x2 : Vec F S192x64 .bf16) (x3 : Vec F S160x32 .bf16)
    (xo4 : Vec F S1x512x256 .f32) (xo5 : Vec F S1x512x97 .f32) :
    out0_B_5 c i arg2 harg2 arg3 harg3 arg4 harg4 arg5 harg5 arg6 harg6 arg7 harg7 hc0 x0 x1 x2 x3 xo4 xo5 = k0_pay2 (k0_pay7 x0 x1 x2 x3) xo5 := by
  unfold out0_B_5
  rw [View.read_writes_eq_canon _ _ _ (cover0_B_5 c i arg2 harg2 arg3 harg3 arg4 harg4 arg5 harg5 arg6 harg6 arg7 harg7 hc0 x0 x1 x2 x3 xo4 xo5)]
  unfold kernelRun0_B
  dsimp only
  sl_unfold_words
  rw [View.canon_unit_zero (S := S1x512x97) hz3]
  simp only [View.readAt_eq_ld, harg2.read_unread, harg3.read_unread, View.ld_unit_zero (S := S1000x1) hz2, View.ld_unit_zero (S := S1000x480) hz2,
    harg4.read_unread, harg5.read_unread, View.ld_unit_zero (S := S192x64) hz2, View.ld_unit_zero (S := S160x32) hz2, harg7.read_unread, View.ld_unit_zero (S := S1x512x97) hz3]

end Cert.KernelIdeal.Hand

end
-- ==== Proof.Val.Acc0.lean ====
/-
  What the first reduction kernel's two accumulator arrays hold at the end, index by index, at the ideal values: row
  `k` of each is the sum, over the hundred blocks of a thousand nodes that core row `k` visits, of the block's
  one-hot product — the per-graph sums of the nodes' feature rows.
-/
import proofs.«421439_j25340307046985_3_alg».proof.Proof.KI.R0
import proofs.«421439_j25340307046985_3_alg».proof.Proof.Val.Pay0
import proofs.«421439_j25340307046985_3_alg».proof.Proof.Val.Pieces0
import Idealize.ShloMosaic.Lib.Pipeline.Value

noncomputable section

namespace Cert.KernelIdeal.Hand

open Cert.KernelIdeal Cert.KernelIdeal.Gen Cert.Spec
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-! ## A point's two accumulator blocks over the payloads -/

/-- At the first point of a core row: the zero block plus the point's products. -/
theorem outs_A (c : Dev nD) (t : Fin cfg0.N) (h0 : t.val % 100 = 0) :
    outsAt0 V c t.val t.isLt
      = (k0_pay1 (k0_pay6 (iblk0 V c 0 t) (iblk0 V c 1 t)) (k0_pay3 (F := Ideal)),
         k0_pay2 (k0_pay7 (iblk0 V c 0 t) (iblk0 V c 1 t) (iblk0 V c 2 t) (iblk0 V c 3 t)) (k0_pay4 (F := Ideal))) := by
  rw [outsAt0_A V c t h0, piece0_A_4, piece0_A_5]

/-- At a later point of a core row: what the point before left plus the point's products. -/
theorem outs_B (c : Dev nD) (t : Fin cfg0.N) (h0 : ¬t.val % 100 = 0) :
    outsAt0 V c t.val t.isLt
      = (k0_pay1 (k0_pay6 (iblk0 V c 0 t) (iblk0 V c 1 t))
           (outsAt0 V c (t.val - 1) (Nat.lt_of_le_of_lt (Nat.sub_le _ _) t.isLt)).1,
         k0_pay2 (k0_pay7 (iblk0 V c 0 t) (iblk0 V c 1 t) (iblk0 V c 2 t) (iblk0 V c 3 t))
           (outsAt0 V c (t.val - 1) (Nat.lt_of_le_of_lt (Nat.sub_le _ _) t.isLt)).2) := by
  rw [outsAt0_B V c t h0, piece0_B_4, piece0_B_5]

/-! ## The addends: point `n`'s two products at an index -/

/-- Point `n`'s first product at `(g, col)` (zero past the grid, where it is never used). -/
def addA (c : Dev nD) (g : Fin 512) (col : Fin 256) (n : ℕ) : EReal :=
  if h : n < cfg0.N then k0_pay6 (F := Ideal) (iblk0 V c 0 ⟨n, h⟩) (iblk0 V c 1 ⟨n, h⟩) (ix2 g col) else 0

/-- Point `n`'s second product at `(g, col)`. -/
def addB (c : Dev nD) (g : Fin 512) (col : Fin 97) (n : ℕ) : EReal :=
  if h : n < cfg0.N then
    k0_pay7 (F := Ideal) (iblk0 V c 0 ⟨n, h⟩) (iblk0 V c 1 ⟨n, h⟩) (iblk0 V c 2 ⟨n, h⟩) (iblk0 V c 3 ⟨n, h⟩) (ix2 g col)
  else 0

theorem stepA_first (c : Dev nD) (g : Fin 512) (col : Fin 256) (n : ℕ) (h : n < cfg0.N) (h0 : n % 100 = 0) :
    (outsAt0 V c n h).1 (ix3 (0 : Fin 1) g col) = addA V c g col n := by
  have e := outs_A V c ⟨n, h⟩ h0
  rw [show outsAt0 V c n h = _ from e]
  show k0_pay1 _ _ (ix3 (0 : Fin 1) g col) = _
  rw [pay1_apply, pay3_apply, zero_add]
  unfold addA
  rw [dif_pos h]

theorem stepA_next (c : Dev nD) (g : Fin 512) (col : Fin 256) (n : ℕ) (h : n + 1 < cfg0.N) (h0 : ¬(n + 1) % 100 = 0) :
    (outsAt0 V c (n + 1) h).1 (ix3 (0 : Fin 1) g col)
      = (outsAt0 V c n (Nat.lt_of_succ_lt h)).1 (ix3 (0 : Fin 1) g col) + addA V c g col (n + 1) := by
  have e := outs_B V c ⟨n + 1, h⟩ h0
  rw [show outsAt0 V c (n + 1) h = _ from e]
  show k0_pay1 _ _ (ix3 (0 : Fin 1) g col) = _
  rw [pay1_apply]
  unfold addA
  rw [dif_pos h]
  rfl

theorem stepB_first (c : Dev nD) (g : Fin 512) (col : Fin 97) (n : ℕ) (h : n < cfg0.N) (h0 : n % 100 = 0) :
    (outsAt0 V c n h).2 (ix3 (0 : Fin 1) g col) = addB V c g col n := by
  have e := outs_A V c ⟨n, h⟩ h0
  rw [show outsAt0 V c n h = _ from e]
  show k0_pay2 _ _ (ix3 (0 : Fin 1) g col) = _
  rw [pay2_apply, pay4_apply, zero_add]
  unfold addB
  rw [dif_pos h]

theorem stepB_next (c : Dev nD) (g : Fin 512) (col : Fin 97) (n : ℕ) (h : n + 1 < cfg0.N) (h0 : ¬(n + 1) % 100 = 0) :
    (outsAt0 V c (n + 1) h).2 (ix3 (0 : Fin 1) g col)
      = (outsAt0 V c n (Nat.lt_of_succ_lt h)).2 (ix3 (0 : Fin 1) g col) + addB V c g col (n + 1) := by
  have e := outs_B V c ⟨n + 1, h⟩ h0
  rw [show outsAt0 V c (n + 1) h = _ from e]
  show k0_pay2 _ _ (ix3 (0 : Fin 1) g col) = _
  rw [pay2_apply]
  unfold addB
  rw [dif_pos h]
  rfl

/-! ## The running sums along a core row -/

/-- After point `100 q + j` the first accumulator block holds the sum of the row's addends so far. -/
theorem rowA (c : Dev nD) (g : Fin 512) (col : Fin 256) (q : ℕ) : ∀ (j : ℕ) (_ : j < 100) (h : 100 * q + j < cfg0.N),
    (outsAt0 V c (100 * q + j) h).1 (ix3 (0 : Fin 1) g col) = ∑ s ∈ Finset.range (j + 1), addA V c g col (100 * q + s)
  | 0, _, h => by
    rw [Finset.sum_range_one]
    exact stepA_first V c g col (100 * q + 0) h (by omega)
  | j + 1, hj, h => by
    rw [Finset.sum_range_succ, ← rowA c g col q j (by omega) (Nat.lt_of_succ_lt h)]
    exact stepA_next V c g col (100 * q + j) h (by omega)

/-- The second accumulator block likewise. -/
theorem rowB (c : Dev nD) (g : Fin 512) (col : Fin 97) (q : ℕ) : ∀ (j : ℕ) (_ : j < 100) (h : 100 * q + j < cfg0.N),
    (outsAt0 V c (100 * q + j) h).2 (ix3 (0 : Fin 1) g col) = ∑ s ∈ Finset.range (j + 1), addB V c g col (100 * q + s)
  | 0, _, h => by
    rw [Finset.sum_range_one]
    exact stepB_first V c g col (100 * q + 0) h (by omega)
  | j + 1, hj, h => by
    rw [Finset.sum_range_succ, ← rowB c g col q j (by omega) (Nat.lt_of_succ_lt h)]
    exact stepB_next V c g col (100 * q + j) h (by omega)

/-! ## The windows' block indices over the grid, and the blocks read off the arrays -/

theorem lt200 (t : Fin cfg0.N) : t.val < 200 := by
  have h := t.isLt
  have e : cfg0.N = 200 := N_0
  omega

/-- The node-id window and the feature window move with the point: block `t` of a thousand rows. -/
theorem index0_0 : ∀ t : Fin cfg0.N, win0_0.index t 0 = t.val ∧ win0_0.index t 1 = 0 :=
  (by decide +kernel : ∀ t : Fin grid0.N, win0_0.index t 0 = t.val ∧ win0_0.index t 1 = 0)
theorem index0_1 : ∀ t : Fin cfg0.N, win0_1.index t 0 = t.val ∧ win0_1.index t 1 = 0 :=
  (by decide +kernel : ∀ t : Fin grid0.N, win0_1.index t 0 = t.val ∧ win0_1.index t 1 = 0)
/-- The two projection tables are whole arrays at every point. -/
theorem index0_2 : ∀ t : Fin cfg0.N, win0_2.index t 0 = 0 ∧ win0_2.index t 1 = 0 :=
  (by decide +kernel : ∀ t : Fin grid0.N, win0_2.index t 0 = 0 ∧ win0_2.index t 1 = 0)
theorem index0_3 : ∀ t : Fin cfg0.N, win0_3.index t 0 = 0 ∧ win0_3.index t 1 = 0 :=
  (by decide +kernel : ∀ t : Fin grid0.N, win0_3.index t 0 = 0 ∧ win0_3.index t 1 = 0)
/-- The two accumulators' block is row `t / 100` of the result. -/
theorem index0_4 : ∀ t : Fin cfg0.N, win0_4.index t 0 = t.val / 100 ∧ win0_4.index t 1 = 0 ∧ win0_4.index t 2 = 0 :=
  (by decide +kernel : ∀ t : Fin grid0.N, win0_4.index t 0 = t.val / 100 ∧ win0_4.index t 1 = 0 ∧ win0_4.index t 2 = 0)
theorem index0_5 : ∀ t : Fin cfg0.N, win0_5.index t 0 = t.val / 100 ∧ win0_5.index t 1 = 0 ∧ win0_5.index t 2 = 0 :=
  (by decide +kernel : ∀ t : Fin grid0.N, win0_5.index t 0 = t.val / 100 ∧ win0_5.index t 1 = 0 ∧ win0_5.index t 2 = 0)

/-- Row `r` of the node-id block at point `t` is row `1000 t + r` of the id array. -/
theorem iblk0_0_apply (c : Dev nD) (t : Fin cfg0.N) (r : Fin 1000) :
    (iblk0 V c 0 t : Vec Ideal S1000x1 .i32) (ix2 r (0 : Fin 1))
      = (V c main_v1 : Vec Ideal S200000x1 .i32) (ix2 ⟨1000 * t.val + r.val, by have := lt200 t; omega⟩ (0 : Fin 1)) := by
  have hi := index0_0 t
  unfold iblk0
  rw [View.read_apply]
  show V c main_v1 _ = V c main_v1 _
  congr 1
  funext a
  apply Fin.ext
  match a with
  | ⟨0, _⟩ =>
    show win0_0.index t 0 * 1000 + 1 * r.val = _
    rw [hi.1]
    show _ = 1000 * t.val + r.val
    omega
  | ⟨1, _⟩ =>
    show win0_0.index t 1 * 1 + 1 * (0 : ℕ) = _
    rw [hi.2]
    show _ = (0 : ℕ)
    omega

/-- Entry `(r, x)` of the feature block at point `t` is entry `(1000 t + r, x)` of the feature array. -/
theorem iblk0_1_apply (c : Dev nD) (t : Fin cfg0.N) (r : Fin 1000) (x : Fin 480) :
    (iblk0 V c 1 t : Vec Ideal S1000x480 .f32) (ix2 r x)
      = (V c main_arg0 : Vec Ideal S200000x480 .f32) (ix2 ⟨1000 * t.val + r.val, by have := lt200 t; omega⟩ x) := by
  have hi := index0_1 t
  unfold iblk0
  rw [View.read_apply]
  show V c main_arg0 _ = V c main_arg0 _
  congr 1
  funext a
  apply Fin.ext
  match a with
  | ⟨0, _⟩ =>
    show win0_1.index t 0 * 1000 + 1 * r.val = _
    rw [hi.1]
    show _ = 1000 * t.val + r.val
    omega
  | ⟨1, _⟩ =>
    show win0_1.index t 1 * 480 + 1 * x.val = _
    rw [hi.2]
    show _ = x.val
    omega

/-- The first projection table's block is the table. -/
theorem iblk0_2_apply (c : Dev nD) (t : Fin cfg0.N) (j : Fin 192) (x : Fin 64) :
    (iblk0 V c 2 t : Vec Ideal S192x64 .bf16) (ix2 j x) = (V c main_v11 : Vec Ideal S192x64 .bf16) (ix2 j x) := by
  have hi := index0_2 t
  unfold iblk0
  rw [View.read_apply]
  show V c main_v11 _ = V c main_v11 _
  congr 1
  funext a
  apply Fin.ext
  match a with
  | ⟨0, _⟩ =>
    show win0_2.index t 0 * 192 + 1 * j.val = _
    rw [hi.1]
    show _ = j.val
    omega
  | ⟨1, _⟩ =>
    show win0_2.index t 1 * 64 + 1 * x.val = _
    rw [hi.2]
    show _ = x.val
    omega

/-- The second projection table's block is the table. -/
theorem iblk0_3_apply (c : Dev nD) (t : Fin cfg0.N) (j : Fin 160) (x : Fin 32) :
    (iblk0 V c 3 t : Vec Ideal S160x32 .bf16) (ix2 j x) = (V c main_v20 : Vec Ideal S160x32 .bf16) (ix2 j x) := by
  have hi := index0_3 t
  unfold iblk0
  rw [View.read_apply]
  show V c main_v20 _ = V c main_v20 _
  congr 1
  funext a
  apply Fin.ext
  match a with
  | ⟨0, _⟩ =>
    show win0_3.index t 0 * 160 + 1 * j.val = _
    rw [hi.1]
    show _ = j.val
    omega
  | ⟨1, _⟩ =>
    show win0_3.index t 1 * 32 + 1 * x.val = _
    rw [hi.2]
    show _ = x.val
    omega

/-! ## A node's two rows over the whole feature array -/

/-- Node `n`'s row of the first product's right operand, read off the whole feature array. -/
def catAN (X : Vec Ideal S200000x480 .f32) (n : Fin 200000) (col : Fin 256) : EReal :=
  if h : col.val < 128 then X (ix2 n ⟨col.val, by omega⟩)
  else X (ix2 n ⟨col.val - 128, by omega⟩) * X (ix2 n ⟨col.val - 128, by omega⟩)

/-- Node `n`'s row of the second product's right operand, read off the whole feature array and the two tables. -/
def catBN (X : Vec Ideal S200000x480 .f32) (G1 : Vec Ideal S192x64 .bf16) (G2 : Vec Ideal S160x32 .bf16) (n : Fin 200000)
    (col : Fin 97) : EReal :=
  if h1 : col.val < 64 then
    (∑ j : Fin 192, (X (ix2 n ⟨128 + j.val, by omega⟩) * X (ix2 n ⟨128 + j.val, by omega⟩)) * G1 (ix2 j ⟨col.val, h1⟩))
      * Named.named (F := Ideal) κ "inv_3" (φ := .f32) 0x3EAAAAAB#32
  else if h2 : col.val < 96 then
    (∑ j : Fin 160, (X (ix2 n ⟨320 + j.val, by omega⟩) * X (ix2 n ⟨320 + j.val, by omega⟩))
        * G2 (ix2 j ⟨col.val - 64, by omega⟩))
      * Named.named (F := Ideal) κ "inv_5" (φ := .f32) 0x3E4CCCCD#32
  else Ideal.ofBits .bf16 0x3F80#16

/-- Node `r` of the block of core row `k`, step `j`. -/
abbrev node (k : Fin 2) (j : Fin 100) (r : Fin 1000) : Fin 200000 :=
  ⟨100000 * k.val + 1000 * j.val + r.val, by omega⟩

/-- The point of core row `k`, step `j`. -/
abbrev pt (k : Fin 2) (j : Fin 100) : Fin cfg0.N := ⟨100 * k.val + j.val, by rw [show cfg0.N = 200 from N_0]; omega⟩

theorem node_eq (k : Fin 2) (j : Fin 100) (r : Fin 1000) (h : 1000 * (pt k j).val + r.val < 200000) :
    (⟨1000 * (pt k j).val + r.val, h⟩ : Fin 200000) = node k j r :=
  Fin.ext (by show 1000 * (100 * k.val + j.val) + r.val = 100000 * k.val + 1000 * j.val + r.val; omega)

theorem catA_blk (c : Dev nD) (k : Fin 2) (j : Fin 100) (r : Fin 1000) (col : Fin 256) :
    catA (iblk0 V c 1 (pt k j)) r col = catAN (V c main_arg0) (node k j r) col := by
  unfold catA catAN
  by_cases hc : col.val < 128
  · rw [dif_pos hc, dif_pos hc, iblk0_1_apply, node_eq]
  · rw [dif_neg hc, dif_neg hc, iblk0_1_apply, node_eq]

theorem catB_blk (c : Dev nD) (k : Fin 2) (j : Fin 100) (r : Fin 1000) (col : Fin 97) :
    catB (iblk0 V c 1 (pt k j)) (iblk0 V c 2 (pt k j)) (iblk0 V c 3 (pt k j)) r col
      = catBN (V c main_arg0) (V c main_v11) (V c main_v20) (node k j r) col := by
  unfold catB catBN
  by_cases h1 : col.val < 64
  · rw [dif_pos h1, dif_pos h1]
    refine congrArg (· * Named.named (F := Ideal) κ "inv_3" (φ := .f32) 0x3EAAAAAB#32) ?_
    refine Finset.sum_congr rfl fun i _ => ?_
    rw [iblk0_1_apply, node_eq, iblk0_2_apply]
  · rw [dif_neg h1, dif_neg h1]
    by_cases h2 : col.val < 96
    · rw [dif_pos h2, dif_pos h2]
      refine congrArg (· * Named.named (F := Ideal) κ "inv_5" (φ := .f32) 0x3E4CCCCD#32) ?_
      refine Finset.sum_congr rfl fun i _ => ?_
      rw [iblk0_1_apply, node_eq, iblk0_3_apply]
    · rw [dif_neg h2, dif_neg h2]

/-! ## The addends in closed form -/

theorem addA_eq (c : Dev nD) (g : Fin 512) (col : Fin 256) (k : Fin 2) (j : Fin 100) :
    addA V c g col (100 * k.val + j.val)
      = ∑ r : Fin 1000, oh ((V c main_v1 : Vec Ideal S200000x1 .i32) (ix2 (node k j r) (0 : Fin 1))) g
          * catAN (V c main_arg0) (node k j r) col := by
  unfold addA
  rw [dif_pos (pt k j).isLt]
  show k0_pay6 (F := Ideal) (iblk0 V c 0 (pt k j)) (iblk0 V c 1 (pt k j)) (ix2 g col) = _
  rw [pay6_apply]
  refine Finset.sum_congr rfl fun r _ => ?_
  rw [iblk0_0_apply, node_eq, catA_blk]

theorem addB_eq (c : Dev nD) (g : Fin 512) (col : Fin 97) (k : Fin 2) (j : Fin 100) :
    addB V c g col (100 * k.val + j.val)
      = ∑ r : Fin 1000, oh ((V c main_v1 : Vec Ideal S200000x1 .i32) (ix2 (node k j r) (0 : Fin 1))) g
          * catBN (V c main_arg0) (V c main_v11) (V c main_v20) (node k j r) col := by
  unfold addB
  rw [dif_pos (pt k j).isLt]
  show k0_pay7 (F := Ideal) (iblk0 V c 0 (pt k j)) (iblk0 V c 1 (pt k j)) (iblk0 V c 2 (pt k j)) (iblk0 V c 3 (pt k j))
      (ix2 g col) = _
  rw [pay7_apply]
  refine Finset.sum_congr rfl fun r _ => ?_
  rw [iblk0_0_apply, node_eq, catB_blk]

/-! ## The result arrays -/

theorem outsAt0_congr (c : Dev nD) {n n' : ℕ} (e : n = n') (h : n < cfg0.N) (h' : n' < cfg0.N) :
    outsAt0 V c n h = outsAt0 V c n' h' := by
  subst e
  rfl

/-- What the first result array ends holding: at `(k, g, col)` the sum of core row `k`'s hundred addends. -/
def resA (c : Dev nD) : Vec Ideal S2x512x256 .f32 :=
  fun i => ∑ s ∈ Finset.range 100, addA V c (i 1) (i 2) (100 * (i 0).val + s)

/-- Where an element of the accumulator block at point `t` sits in the result array: row `t / 100`. -/
theorem emb0_4 (t : Fin cfg0.N) (g : Fin 512) (col : Fin 256) :
    ((cfg0.win 4).blk t).view.emb (ix3 (0 : Fin 1) g col)
      = (ix3 (⟨t.val / 100, by have := lt200 t; omega⟩ : Fin 2) g col : S2x512x256.Idx) := by
  have hi := index0_4 t
  funext a
  apply Fin.ext
  match a with
  | ⟨0, _⟩ =>
    show win0_4.index t 0 * 1 + 1 * (0 : ℕ) = _
    rw [hi.1]
    show _ = t.val / 100
    omega
  | ⟨1, _⟩ =>
    show win0_4.index t 1 * 512 + 1 * g.val = _
    rw [hi.2.1]
    show _ = g.val
    omega
  | ⟨2, _⟩ =>
    show win0_4.index t 2 * 256 + 1 * col.val = _
    rw [hi.2.2]
    show _ = col.val
    omega

/-- What a writing point writes back is its block of the closed form. -/
theorem flushedA_eq (c : Dev nD) (t : Fin cfg0.N) (hf : (cfg0.win 4).flush t = true) :
    (dat0 V c).flushed 4 t = ((cfg0.win 4).blk t).view.read (Elt Ideal) (resA V c) := by
  have h99 : t.val % 100 = 99 := (flush0_4 t).mp hf
  funext y
  obtain ⟨u, g, col, rfl⟩ : ∃ (u : Fin 1) (g : Fin 512) (col : Fin 256), y = ix3 u g col :=
    ⟨y 0, y 1, y 2, eq_ix3 (n0 := 1) (n1 := 512) (n2 := 256) y⟩
  obtain rfl : u = 0 := Subsingleton.elim _ _
  rw [View.read_apply]
  show (dat0 V c).after 4 t (ix3 (0 : Fin 1) g col) = resA V c (((cfg0.win 4).blk t).view.emb (ix3 (0 : Fin 1) g col))
  rw [emb0_4, after0_4]
  have e : t.val = 100 * (t.val / 100) + 99 := by omega
  have h' : 100 * (t.val / 100) + 99 < cfg0.N := by have := t.isLt; omega
  rw [outsAt0_congr V c e t.isLt h']
  exact rowA V c g col (t.val / 100) 99 (by omega) h'

/-- Every element of the result array is under the block of its row's last point. -/
theorem coverA (i : S2x512x256.Idx) :
    ∃ t : Fin cfg0.N, (cfg0.win 4).flush t = true ∧ i ∈ ((cfg0.win 4).blk t).view.set := by
  obtain ⟨k, g, col, rfl⟩ : ∃ (k : Fin 2) (g : Fin 512) (col : Fin 256), i = ix3 k g col :=
    ⟨i 0, i 1, i 2, eq_ix3 (n0 := 2) (n1 := 512) (n2 := 256) i⟩
  refine ⟨pt k 99, (flush0_4 _).mpr (by show (100 * k.val + 99) % 100 = 99; omega), ?_⟩
  have e := emb0_4 (pt k 99) g col
  have ek : ∀ h, (⟨(pt k 99).val / 100, h⟩ : Fin 2) = k := fun h =>
    Fin.ext (by show (100 * k.val + 99) / 100 = k.val; omega)
  rw [ek] at e
  rw [← e]
  exact ((cfg0.win 4).blk (pt k 99)).view.emb_mem_set _

/-- So the first result array ends at the closed form. -/
theorem arrA_eq (c : Dev nD) : (dat0 V c).arrAt 4 cfg0.N = resA V c :=
  (dat0 V c).arrAt_eq_of_cover 4 (resA V c) (flushedA_eq V c) coverA

/-- THE FIRST ACCUMULATOR: row `k`, graph `g`, column `col` of the result is the sum over core row `k`'s hundred blocks
    of a thousand nodes of the node's weight in graph `g` times the node's row entry. -/
theorem accA_eq (c : Dev nD) (k : Fin 2) (g : Fin 512) (col : Fin 256) :
    (dat0 V c).arrAt 4 cfg0.N (ix3 k g col)
      = ∑ j : Fin 100, ∑ r : Fin 1000,
          oh ((V c main_v1 : Vec Ideal S200000x1 .i32) (ix2 (node k j r) (0 : Fin 1))) g
            * catAN (V c main_arg0) (node k j r) col := by
  refine (congrFun (arrA_eq V c) (ix3 k g col)).trans ?_
  show ∑ s ∈ Finset.range 100, addA V c g col (100 * k.val + s) = _
  rw [Finset.sum_range]
  exact Finset.sum_congr rfl fun j _ => addA_eq V c g col k j

/-- What the second result array ends holding: at `(k, g, col)` the sum of core row `k`'s hundred addends. -/
def resB (c : Dev nD) : Vec Ideal S2x512x97 .f32 :=
  fun i => ∑ s ∈ Finset.range 100, addB V c (i 1) (i 2) (100 * (i 0).val + s)

/-- Where an element of the accumulator block at point `t` sits in the result array: row `t / 100`. -/
theorem emb0_5 (t : Fin cfg0.N) (g : Fin 512) (col : Fin 97) :
    ((cfg0.win 5).blk t).view.emb (ix3 (0 : Fin 1) g col)
      = (ix3 (⟨t.val / 100, by have := lt200 t; omega⟩ : Fin 2) g col : S2x512x97.Idx) := by
  have hi := index0_5 t
  funext a
  apply Fin.ext
  match a with
  | ⟨0, _⟩ =>
    show win0_5.index t 0 * 1 + 1 * (0 : ℕ) = _
    rw [hi.1]
    show _ = t.val / 100
    omega
  | ⟨1, _⟩ =>
    show win0_5.index t 1 * 512 + 1 * g.val = _
    rw [hi.2.1]
    show _ = g.val
    omega
  | ⟨2, _⟩ =>
    show win0_5.index t 2 * 97 + 1 * col.val = _
    rw [hi.2.2]
    show _ = col.val
    omega

/-- What a writing point writes back is its block of the closed form. -/
theorem flushedB_eq (c : Dev nD) (t : Fin cfg0.N) (hf : (cfg0.win 5).flush t = true) :
    (dat0 V c).flushed 5 t = ((cfg0.win 5).blk t).view.read (Elt Ideal) (resB V c) := by
  have h99 : t.val % 100 = 99 := (flush0_5 t).mp hf
  funext y
  obtain ⟨u, g, col, rfl⟩ : ∃ (u : Fin 1) (g : Fin 512) (col : Fin 97), y = ix3 u g col :=
    ⟨y 0, y 1, y 2, eq_ix3 (n0 := 1) (n1 := 512) (n2 := 97) y⟩
  obtain rfl : u = 0 := Subsingleton.elim _ _
  rw [View.read_apply]
  show (dat0 V c).after 5 t (ix3 (0 : Fin 1) g col) = resB V c (((cfg0.win 5).blk t).view.emb (ix3 (0 : Fin 1) g col))
  rw [emb0_5, after0_5]
  have e : t.val = 100 * (t.val / 100) + 99 := by omega
  have h' : 100 * (t.val / 100) + 99 < cfg0.N := by have := t.isLt; omega
  rw [outsAt0_congr V c e t.isLt h']
  exact rowB V c g col (t.val / 100) 99 (by omega) h'

/-- Every element of the result array is under the block of its row's last point. -/
theorem coverB (i : S2x512x97.Idx) :
    ∃ t : Fin cfg0.N, (cfg0.win 5).flush t = true ∧ i ∈ ((cfg0.win 5).blk t).view.set := by
  obtain ⟨k, g, col, rfl⟩ : ∃ (k : Fin 2) (g : Fin 512) (col : Fin 97), i = ix3 k g col :=
    ⟨i 0, i 1, i 2, eq_ix3 (n0 := 2) (n1 := 512) (n2 := 97) i⟩
  refine ⟨pt k 99, (flush0_5 _).mpr (by show (100 * k.val + 99) % 100 = 99; omega), ?_⟩
  have e := emb0_5 (pt k 99) g col
  have ek : ∀ h, (⟨(pt k 99).val / 100, h⟩ : Fin 2) = k := fun h =>
    Fin.ext (by show (100 * k.val + 99) / 100 = k.val; omega)
  rw [ek] at e
  rw [← e]
  exact ((cfg0.win 5).blk (pt k 99)).view.emb_mem_set _

/-- So the second result array ends at the closed form. -/
theorem arrB_eq (c : Dev nD) : (dat0 V c).arrAt 5 cfg0.N = resB V c :=
  (dat0 V c).arrAt_eq_of_cover 5 (resB V c) (flushedB_eq V c) coverB

/-- THE SECOND ACCUMULATOR: row `k`, graph `g`, column `col` of the result is the sum over core row `k`'s hundred blocks
    of a thousand nodes of the node's weight in graph `g` times the node's row entry. -/
theorem accB_eq (c : Dev nD) (k : Fin 2) (g : Fin 512) (col : Fin 97) :
    (dat0 V c).arrAt 5 cfg0.N (ix3 k g col)
      = ∑ j : Fin 100, ∑ r : Fin 1000,
          oh ((V c main_v1 : Vec Ideal S200000x1 .i32) (ix2 (node k j r) (0 : Fin 1))) g
            * catBN (V c main_arg0) (V c main_v11) (V c main_v20) (node k j r) col := by
  refine (congrFun (arrB_eq V c) (ix3 k g col)).trans ?_
  show ∑ s ∈ Finset.range 100, addB V c g col (100 * k.val + s) = _
  rw [Finset.sum_range]
  exact Finset.sum_congr rfl fun j _ => addB_eq V c g col k j

end Cert.KernelIdeal.Hand

end
-- ==== Proof.Val.Consts.lean ====
/-
  The float words the two programs and the precondition spell, as the extended reals they denote: +infinity, 1 (in both
  the 32-bit and the 16-bit format), 3 and 5. One module states them all, so that the denotation function is unfolded once.
-/
import Idealize.ShloMosaic.PureOps.Ideal
import Idealize.ShloMosaic.PureOps.Ideal.Laws

noncomputable section

namespace Cert.Consts

open Idealize.ShloMosaic

/-- The word 0x7F800000 is +infinity. -/
theorem ofBits_inf : Ideal.ofBits .f32 0x7F800000#32 = (⊤ : EReal) := by simp [Ideal.ofBits, Ideal.ieee]

/-- The 32-bit word of 1.0 denotes 1. -/
theorem ofBits_one : Ideal.ofBits .f32 0x3F800000#32 = (1 : EReal) := by
  simp [Ideal.ofBits, Ideal.ieee, -EReal.coe_mul]; norm_num

/-- The 16-bit word of 1.0 denotes 1. -/
theorem ofBits_one_bf16 : Ideal.ofBits .bf16 0x3F80#16 = (1 : EReal) := by
  simp [Ideal.ofBits, Ideal.ieee, -EReal.coe_mul]; norm_num

/-- The word of 3.0 denotes the real 3. -/
theorem ofBits_three : Ideal.ofBits .f32 0x40400000#32 = ((3 : ℝ) : EReal) := by
  simp [Ideal.ofBits, Ideal.ieee, -EReal.coe_mul]; norm_num

/-- The word of 5.0 denotes the real 5. -/
theorem ofBits_five : Ideal.ofBits .f32 0x40A00000#32 = ((5 : ℝ) : EReal) := by
  simp [Ideal.ofBits, Ideal.ieee, -EReal.coe_mul]; norm_num

end Cert.Consts

end
-- ==== Proof.Val.Sums.lean ====
import Idealize.ShloMosaic.PureOps.Ideal
import Mathlib.Algebra.BigOperators.Fin
import Mathlib.Data.EReal.Basic
import Mathlib.Tactic.Ring
import Mathlib.Tactic.Linarith
import Mathlib.Tactic.FieldSimp

/-!
Finite-sum identities: regrouping a sum over 200000 indices into blocks, sums against
0/1 selection matrices, the real-to-extended-real cast of a finite sum, and the
two-moment formula for a weighted variance with 0/1 weights.
-/

namespace Cert.Sums

open Finset

/-- Mixed-radix numbering of 200000 indices: `n = 100000 k + 1000 j + r` with
`k < 2`, `j < 100`, `r < 1000`; the inverse takes quotients and remainders. -/
def nodeEquiv : Fin 2 × Fin 100 × Fin 1000 ≃ Fin 200000 where
  toFun p := ⟨100000 * p.1.val + 1000 * p.2.1.val + p.2.2.val, by omega⟩
  invFun n := (⟨n.val / 100000, by omega⟩, ⟨n.val % 100000 / 1000, by omega⟩,
    ⟨n.val % 1000, by omega⟩)
  left_inv := by
    rintro ⟨⟨k, hk⟩, ⟨j, hj⟩, ⟨r, hr⟩⟩
    simp only [Prod.mk.injEq, Fin.mk.injEq]
    refine ⟨?_, ?_, ?_⟩ <;> omega
  right_inv := by
    rintro ⟨n, hn⟩
    simp only [Fin.mk.injEq]
    omega

/-- A sum over all 200000 indices equals the iterated sum over the three mixed-radix digits. -/
theorem sum_node {M} [AddCommMonoid M] (f : Fin 200000 → M) :
    ∑ k : Fin 2, ∑ j : Fin 100, ∑ r : Fin 1000,
      f ⟨100000 * k.val + 1000 * j.val + r.val, by omega⟩ = ∑ n : Fin 200000, f n := by
  rw [← Fintype.sum_equiv nodeEquiv (fun p => f (nodeEquiv p)) f (fun _ => rfl)]
  rw [Fintype.sum_prod_type]
  refine Fintype.sum_congr _ _ (fun k => ?_)
  rw [Fintype.sum_prod_type]
  refine Fintype.sum_congr _ _ (fun j => ?_)
  refine Fintype.sum_congr _ _ (fun r => ?_)
  rfl

/-- Summing `a j` against the indicator of `j / q = k` keeps exactly the `q` consecutive
indices `q k, …, q k + q - 1`. -/
theorem sum_expand (n q : ℕ) (hq : 0 < q) (a : Fin n → EReal) (k : ℕ) (hk : q * k + q ≤ n) :
    ∑ j : Fin n, a j * (if j.val / q = k then (1 : EReal) else 0)
      = ∑ d : Fin q, a ⟨q * k + d.val, by omega⟩ := by
  simp only [mul_ite, mul_one, mul_zero]
  rw [← Finset.sum_filter]
  symm
  refine Finset.sum_bij (fun d _ => (⟨q * k + d.val, by omega⟩ : Fin n)) ?_ ?_ ?_ ?_
  · intro d _
    simp only [Finset.mem_filter, Finset.mem_univ, true_and]
    rw [Nat.mul_add_div hq, Nat.div_eq_of_lt d.isLt, add_zero]
  · intro d₁ _ d₂ _ h
    have h' := Fin.mk.inj h
    exact Fin.ext (by omega)
  · intro j hj
    simp only [Finset.mem_filter, Finset.mem_univ, true_and] at hj
    refine ⟨⟨j.val % q, Nat.mod_lt _ hq⟩, Finset.mem_univ _, ?_⟩
    apply Fin.ext
    show q * k + j.val % q = j.val
    rw [← hj]
    exact Nat.div_add_mod _ _
  · intro d _
    rfl

theorem sum_expand3 (a : Fin 192 → EReal) (k : Fin 64) :
    ∑ j : Fin 192, a j * (if j.val / 3 = k.val then (1 : EReal) else 0)
      = ∑ d : Fin 3, a ⟨3 * k.val + d.val, by omega⟩ :=
  sum_expand 192 3 (by norm_num) a k.val (by omega)

theorem sum_expand5 (a : Fin 160 → EReal) (k : Fin 32) :
    ∑ j : Fin 160, a j * (if j.val / 5 = k.val then (1 : EReal) else 0)
      = ∑ d : Fin 5, a ⟨5 * k.val + d.val, by omega⟩ :=
  sum_expand 160 5 (by norm_num) a k.val (by omega)

/-- Summing `s k` against the indicator of `j / q = k` picks the single term `k = j / q`. -/
theorem sum_pick (n q : ℕ) (s : Fin n → EReal) (j : ℕ) (h : j / q < n) :
    ∑ k : Fin n, s k * (if j / q = k.val then (1 : EReal) else 0) = s ⟨j / q, h⟩ := by
  rw [Finset.sum_eq_single (⟨j / q, h⟩ : Fin n)]
  · simp
  · intro b _ hb
    have hne : ¬ (j / q = b.val) := fun e => hb (Fin.ext e.symm)
    simp [hne]
  · intro h'
    exact absurd (Finset.mem_univ _) h'

theorem sum_pick3 (s : Fin 64 → EReal) (j : Fin 192) :
    ∑ k : Fin 64, s k * (if j.val / 3 = k.val then (1 : EReal) else 0)
      = s ⟨j.val / 3, by omega⟩ :=
  sum_pick 64 3 s j.val (by omega)

theorem sum_pick5 (s : Fin 32 → EReal) (j : Fin 160) :
    ∑ k : Fin 32, s k * (if j.val / 5 = k.val then (1 : EReal) else 0)
      = s ⟨j.val / 5, by omega⟩ :=
  sum_pick 32 5 s j.val (by omega)

/-- The cast from the reals to the extended reals commutes with finite sums. -/
theorem coe_sum {ι} (s : Finset ι) (f : ι → ℝ) :
    ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- Weighted variance with 0/1 weights, normalised by `max N 1` where `N` is the total
weight: the centred second moment equals the raw second moment minus the squared mean.
If `N ≥ 1` the normaliser is `N` and `∑ w (x - μ)² = ∑ w x² - 2 μ ∑ w x + μ² N` with
`∑ w x = μ N`; otherwise no weight is 1, all weights vanish and both sides are 0. -/
theorem variance_explicit (ι : Type*) [Fintype ι] (w x : ι → ℝ)
    (hw : ∀ i, w i = 0 ∨ w i = 1) :
    (∑ i, w i * ((x i - (∑ i, w i * x i) / max (∑ i, w i) 1)
        * (x i - (∑ i, w i * x i) / max (∑ i, w i) 1))) / max (∑ i, w i) 1
      = (∑ i, w i * (x i * x i)) / max (∑ i, w i) 1
        - ((∑ i, w i * x i) / max (∑ i, w i) 1) * ((∑ i, w i * x i) / max (∑ i, w i) 1) := by
  by_cases hN : 1 ≤ ∑ i, w i
  · rw [max_eq_left hN]
    have hN0 : (∑ i, w i) ≠ 0 := by linarith
    have key : ∀ μ : ℝ, ∑ i, w i * ((x i - μ) * (x i - μ))
        = (∑ i, w i * (x i * x i)) - 2 * μ * (∑ i, w i * x i) + μ * μ * (∑ i, w i) := by
      intro μ
      rw [Finset.mul_sum, Finset.mul_sum, ← Finset.sum_sub_distrib, ← Finset.sum_add_distrib]
      refine Finset.sum_congr rfl (fun i _ => ?_)
      ring
    rw [key]
    field_simp
    ring
  · have hw0 : ∀ i, w i = 0 := by
      intro i
      rcases hw i with h | h
      · exact h
      · exfalso
        apply hN
        calc (1 : ℝ) = w i := h.symm
          _ ≤ ∑ j, w j :=
            Finset.single_le_sum
              (fun j _ => by rcases hw j with h | h <;> rw [h] <;> norm_num)
              (Finset.mem_univ i)
    simp [hw0]

theorem variance (ι : Type*) [Fintype ι] (w x : ι → ℝ) (hw : ∀ i, w i = 0 ∨ w i = 1) :
    let N := ∑ i, w i
    let c := max N 1
    let mu := (∑ i, w i * x i) / c
    (∑ i, w i * ((x i - mu) * (x i - mu))) / c = (∑ i, w i * (x i * x i)) / c - mu * mu := by
  intro N c mu
  exact variance_explicit ι w x hw

/-- The normaliser `max N 1` is positive, hence nonzero. -/
theorem max_one_pos (N : ℝ) : 0 < max N 1 ∧ max N 1 ≠ 0 :=
  ⟨lt_max_of_lt_right one_pos, ne_of_gt (lt_max_of_lt_right one_pos)⟩

end Cert.Sums
-- ==== Proof.Val.Math.lean ====
/-
  The mathematics that joins the two programs. Both compute, for each of 512 graphs g, statistics of the nodes n whose
  id is g — sums weighted by `oh (b n) g` — and read a per-graph table back at each node through the same weights. With
  every id in range, reading a table through the weights of node n picks the row of n's graph; with every input a real
  number, the sums and quotients are real numbers, and the one identity that is not a re-arrangement is the variance
  identity: the mean of the squared deviations from the mean is the mean of the squares less the square of the mean.
-/
import proofs.«421439_j25340307046985_3_alg».proof.Proof.Spec
import proofs.«421439_j25340307046985_3_alg».proof.Proof.Val.Consts
import proofs.«421439_j25340307046985_3_alg».proof.Proof.Val.Sums
import Idealize.ShloMosaic.PureOps.Ideal.Laws

noncomputable section

namespace Cert.Bridge

open Idealize.ShloMosaic Cert.Spec

/-- An id whose signed value lies in [0, 512) is the word of the graph numbered by its unsigned value. -/
theorem toNat_lt_of_range {b : BitVec 32} (h : 0 ≤ b.toInt ∧ b.toInt < 512) : b.toNat < 512 := by
  have := BitVec.toInt_eq_toNat_cond b
  split at this <;> omega

/-- The graph of an in-range id. -/
def gid (b : BitVec 32) (h : 0 ≤ b.toInt ∧ b.toInt < 512) : Fin 512 := ⟨b.toNat, toNat_lt_of_range h⟩

theorem eq_ofNat_gid (b : BitVec 32) (h : 0 ≤ b.toInt ∧ b.toInt < 512) : b = BitVec.ofNat 32 (gid b h).val := by
  simp [gid]

/-- Reading a per-graph table through the weights of an in-range id picks the row of its graph. -/
theorem pick (b : BitVec 32) (h : 0 ≤ b.toInt ∧ b.toInt < 512) (T : Fin 512 → EReal) :
    ∑ g : Fin 512, oh b g * T g = T (gid b h) := by
  conv_lhs => rw [eq_ofNat_gid b h]
  exact sum_oh_mul (gid b h) T

/-- The weight as a real number. -/
def w (b : BitVec 32) (g : Fin 512) : ℝ := if b = BitVec.ofNat 32 g.val then 1 else 0

theorem oh_eq_coe (b : BitVec 32) (g : Fin 512) : oh b g = ((w b g : ℝ) : EReal) := by
  unfold oh w; split <;> simp

theorem w_zero_or_one (b : BitVec 32) (g : Fin 512) : w b g = 0 ∨ w b g = 1 := by
  unfold w; split <;> simp

/-- The weight of an in-range id is 1 exactly at its graph. -/
theorem w_eq_one_iff (b : BitVec 32) (h : 0 ≤ b.toInt ∧ b.toInt < 512) (g : Fin 512) : w b g = 1 ↔ gid b h = g := by
  unfold w
  constructor
  · intro hw
    split at hw
    · rename_i he
      exact ofNat_inj_of_lt ((eq_ofNat_gid b h).symm.trans he)
    · exact absurd hw (by norm_num)
  · intro hg
    rw [if_pos (by rw [← hg]; exact eq_ofNat_gid b h)]

/-- The quotient of two real numbers, the divisor not zero, is the real quotient. -/
theorem div_coe_coe (a c : ℝ) (hc : c ≠ 0) : Ideal.div (a : EReal) (c : EReal) = ((a / c : ℝ) : EReal) := by
  rw [Ideal.div_coe hc, ← EReal.coe_mul]
  congr 1
  field_simp

/-- Dividing by the word of 1.0 changes nothing. -/
theorem div_one (x : EReal) : Ideal.div x (Ideal.ofBits .f32 0x3F800000#32) = x := by
  rw [Cert.Consts.ofBits_one, show (1 : EReal) = ((1 : ℝ) : EReal) from rfl, Ideal.div_coe one_ne_zero]
  simp

/-! ## Per-graph statistics -/

variable (b : Fin 200000 → BitVec 32)

/-- The sum over the nodes of graph `g` of a per-node term. -/
def segsum (f : Fin 200000 → EReal) (g : Fin 512) : EReal := ∑ n, oh (b n) g * f n

/-- The number of nodes of graph `g`. -/
def cnt (g : Fin 512) : EReal := ∑ n, oh (b n) g

/-- The node count clamped below by 1 (an empty graph divides by 1). -/
def cc (g : Fin 512) : EReal := max (cnt b g) 1

/-- The per-graph mean of a per-node term. -/
def mean (f : Fin 200000 → EReal) (g : Fin 512) : EReal := Ideal.div (segsum b f g) (cc b g)

/-- The same as real numbers. -/
def cntR (g : Fin 512) : ℝ := ∑ n, w (b n) g
def ccR (g : Fin 512) : ℝ := max (cntR b g) 1
def segsumR (f : Fin 200000 → ℝ) (g : Fin 512) : ℝ := ∑ n, w (b n) g * f n
def meanR (f : Fin 200000 → ℝ) (g : Fin 512) : ℝ := segsumR b f g / ccR b g

theorem segsum_coe (f : Fin 200000 → ℝ) (g : Fin 512) :
    segsum b (fun n => ((f n : ℝ) : EReal)) g = ((segsumR b f g : ℝ) : EReal) := by
  unfold segsum segsumR
  rw [Cert.Sums.coe_sum]
  exact Finset.sum_congr rfl fun n _ => by rw [oh_eq_coe, EReal.coe_mul]

theorem cnt_coe (g : Fin 512) : cnt b g = ((cntR b g : ℝ) : EReal) := by
  unfold cnt cntR
  rw [Cert.Sums.coe_sum]
  exact Finset.sum_congr rfl fun n _ => oh_eq_coe _ _

theorem cc_coe (g : Fin 512) : cc b g = ((ccR b g : ℝ) : EReal) := by
  unfold cc ccR
  rw [cnt_coe, ← EReal.coe_one]
  exact (EReal.coe_strictMono.monotone.map_max).symm

theorem ccR_ne_zero (g : Fin 512) : ccR b g ≠ 0 := (Cert.Sums.max_one_pos _).2

theorem mean_coe (f : Fin 200000 → ℝ) (g : Fin 512) :
    mean b (fun n => ((f n : ℝ) : EReal)) g = ((meanR b f g : ℝ) : EReal) := by
  unfold mean meanR
  rw [segsum_coe, cc_coe, div_coe_coe _ _ (ccR_ne_zero b g)]

/-- THE VARIANCE IDENTITY for the nodes of one graph, every term a real number and every id in range: the per-graph mean
    of the squared deviation of each node's term from ITS OWN graph's mean (read through the node's weights) is the mean
    of the squares less the square of the mean. -/
theorem variance_ereal (hb : ∀ n, 0 ≤ (b n).toInt ∧ (b n).toInt < 512)
    (xs : Fin 200000 → EReal) (hx : ∀ n, ∃ r : ℝ, xs n = (r : EReal)) (g : Fin 512) :
    mean b (fun n => (xs n - ∑ g', oh (b n) g' * mean b xs g') * (xs n - ∑ g', oh (b n) g' * mean b xs g')) g
      = mean b (fun n => xs n * xs n) g - mean b xs g * mean b xs g := by
  choose r hr using hx
  obtain rfl : xs = fun n => ((r n : ℝ) : EReal) := funext hr
  have hpick : ∀ n, ∑ g', oh (b n) g' * mean b (fun n => ((r n : ℝ) : EReal)) g'
      = ((meanR b r (gid (b n) (hb n)) : ℝ) : EReal) := fun n => by
    rw [pick (b n) (hb n), mean_coe]
  have hL : mean b (fun n => (((r n : ℝ) : EReal) - ∑ g', oh (b n) g' * mean b (fun n => ((r n : ℝ) : EReal)) g')
        * (((r n : ℝ) : EReal) - ∑ g', oh (b n) g' * mean b (fun n => ((r n : ℝ) : EReal)) g')) g
      = mean b (fun n => (((r n - meanR b r g) * (r n - meanR b r g) : ℝ) : EReal)) g := by
    have hs : segsum b (fun n => (((r n : ℝ) : EReal) - ∑ g', oh (b n) g' * mean b (fun n => ((r n : ℝ) : EReal)) g')
          * (((r n : ℝ) : EReal) - ∑ g', oh (b n) g' * mean b (fun n => ((r n : ℝ) : EReal)) g')) g
        = segsum b (fun n => (((r n - meanR b r g) * (r n - meanR b r g) : ℝ) : EReal)) g := by
      unfold segsum
      refine Finset.sum_congr rfl fun n _ => ?_
      dsimp only
      rw [hpick n, oh_eq_coe]
      rcases w_zero_or_one (b n) g with h0 | h1
      · rw [h0, EReal.coe_zero, zero_mul, zero_mul]
      · rw [(w_eq_one_iff (b n) (hb n) g).1 h1, ← EReal.coe_sub, ← EReal.coe_mul]
    exact congrArg (fun s => Ideal.div s (cc b g)) hs
  rw [hL, mean_coe, mean_coe]
  have hsq : (fun n => ((r n : ℝ) : EReal) * ((r n : ℝ) : EReal)) = fun n => (((r n * r n : ℝ)) : EReal) :=
    funext fun n => (EReal.coe_mul _ _).symm
  rw [hsq, mean_coe, ← EReal.coe_mul, ← EReal.coe_sub, EReal.coe_eq_coe_iff]
  have h := Cert.Sums.variance_explicit (Fin 200000) (fun n => w (b n) g) r (fun n => w_zero_or_one _ _)
  beta_reduce at h
  simp only [meanR, segsumR, ccR, cntR]
  exact h

/-! ## The result in one form

The 480 columns of a node's row are 128 scalar channels, 64 channels of 3 components and 32 channels of 5 components.
`pw` is the power function and `eps`, `mh` the two literals (the epsilon and the exponent −1/2) both programs apply
it with; nothing here depends on what they are. -/

variable (X : Fin 200000 → Fin 480 → EReal) (Wt : Fin 224 → EReal) (Bi : Fin 128 → EReal)
variable (pw : EReal → EReal → EReal) (eps mh : EReal)

/-- Scalar channel `k` of node `n`. -/
def x0 (n : Fin 200000) (k : Fin 128) : EReal := X n ⟨k.val, by omega⟩
/-- Component `d` of 3-component channel `k` of node `n`. -/
def x1 (n : Fin 200000) (k : Fin 64) (d : Fin 3) : EReal := X n ⟨128 + 3 * k.val + d.val, by omega⟩
/-- Component `d` of 5-component channel `k` of node `n`. -/
def x2 (n : Fin 200000) (k : Fin 32) (d : Fin 5) : EReal := X n ⟨320 + 5 * k.val + d.val, by omega⟩

/-- The mean square of the components of a channel of a node. -/
def ms1 (n : Fin 200000) (k : Fin 64) : EReal := Ideal.div (∑ d : Fin 3, x1 X n k d * x1 X n k d) ((3 : ℝ) : EReal)
def ms2 (n : Fin 200000) (k : Fin 32) : EReal := Ideal.div (∑ d : Fin 5, x2 X n k d * x2 X n k d) ((5 : ℝ) : EReal)

/-- The per-graph mean of scalar channel `k`. -/
def mean0 (g : Fin 512) (k : Fin 128) : EReal := mean b (fun n => x0 X n k) g
/-- A node's scalar channel less its own graph's mean, the mean read through the node's weights. -/
def dev0 (n : Fin 200000) (k : Fin 128) : EReal := x0 X n k - ∑ g, oh (b n) g * mean0 b X g k
/-- The scalar channels' normaliser as the mean of the squares less the square of the mean, -/
def fnK0 (g : Fin 512) (k : Fin 128) : EReal :=
  mean b (fun n => x0 X n k * x0 X n k) g - mean0 b X g k * mean0 b X g k
/-- and as the mean of the squared deviations. -/
def fnR0 (g : Fin 512) (k : Fin 128) : EReal := mean b (fun n => dev0 b X n k * dev0 b X n k) g
/-- The multi-component channels' normalisers: the per-graph mean of the per-node mean square. -/
def fn1 (g : Fin 512) (k : Fin 64) : EReal := mean b (fun n => ms1 X n k) g
def fn2 (g : Fin 512) (k : Fin 32) : EReal := mean b (fun n => ms2 X n k) g

/-- The two forms of the scalar channels' normaliser agree when every id is in range and every input is a real number. -/
theorem fnK0_eq_fnR0 (hb : ∀ n, 0 ≤ (b n).toInt ∧ (b n).toInt < 512) (hX : ∀ n k, ∃ r : ℝ, X n k = (r : EReal))
    (g : Fin 512) (k : Fin 128) : fnK0 b X g k = fnR0 b X g k :=
  (variance_ereal b hb (fun n => x0 X n k) (fun n => hX n _) g).symm

/-- The per-graph scales: the normaliser plus epsilon to the power −1/2, times the channel's weight. -/
def sc0 (fn0 : Fin 512 → Fin 128 → EReal) (g : Fin 512) (k : Fin 128) : EReal :=
  pw (fn0 g k + eps) mh * Wt ⟨k.val, by omega⟩
def sc1 (g : Fin 512) (k : Fin 64) : EReal := pw (fn1 b X g k + eps) mh * Wt ⟨128 + k.val, by omega⟩
def sc2 (g : Fin 512) (k : Fin 32) : EReal := pw (fn2 b X g k + eps) mh * Wt ⟨192 + k.val, by omega⟩

/-- The result at a scalar column: the deviation times the node's graph's scale, plus the bias. -/
def out0 (fn0 : Fin 512 → Fin 128 → EReal) (n : Fin 200000) (k : Fin 128) : EReal :=
  dev0 b X n k * (∑ g, oh (b n) g * sc0 Wt pw eps mh fn0 g k) + Bi k
/-- The result at a column of a multi-component channel: the entry times the node's graph's scale of the channel. -/
def out1 (n : Fin 200000) (j : Fin 192) : EReal :=
  X n ⟨128 + j.val, by omega⟩ * ∑ g, oh (b n) g * sc1 b X Wt pw eps mh g ⟨j.val / 3, by omega⟩
def out2 (n : Fin 200000) (j : Fin 160) : EReal :=
  X n ⟨320 + j.val, by omega⟩ * ∑ g, oh (b n) g * sc2 b X Wt pw eps mh g ⟨j.val / 5, by omega⟩

/-- The scalar columns' result does not depend on which form of the normaliser is used. -/
theorem out0_fnK0_eq (hb : ∀ n, 0 ≤ (b n).toInt ∧ (b n).toInt < 512) (hX : ∀ n k, ∃ r : ℝ, X n k = (r : EReal))
    (n : Fin 200000) (k : Fin 128) :
    out0 b X Wt Bi pw eps mh (fnK0 b X) n k = out0 b X Wt Bi pw eps mh (fnR0 b X) n k := by
  have h : fnK0 b X = fnR0 b X := funext fun g => funext fun k => fnK0_eq_fnR0 b X hb hX g k
  rw [h]

/-! ## The arrays as functions of their coordinates -/

open Idealize.ShloMosaic.ValueIdx

/-- The epsilon and the exponent −1/2 both programs apply the power with, as printed. -/
abbrev epsL : EReal := Ideal.ofBits .f32 0x3727C5AC#32
abbrev mhL : EReal := Ideal.ofBits .f32 0xBF000000#32

/-- The graph ids, the node features, the channel weights and the scalar channels' biases by coordinates. -/
abbrev bF (b : (⟨1, ![200000]⟩ : Shape).Idx → BitVec 32) : Fin 200000 → BitVec 32 := fun n => b (ix1 n)
abbrev XF (X : (⟨2, ![200000, 480]⟩ : Shape).Idx → EReal) : Fin 200000 → Fin 480 → EReal := fun n k => X (ix2 n k)
abbrev WtF (Wt : (⟨1, ![224]⟩ : Shape).Idx → EReal) : Fin 224 → EReal := fun f => Wt (ix1 f)
abbrev BiF (Bi : (⟨1, ![128]⟩ : Shape).Idx → EReal) : Fin 128 → EReal := fun k => Bi (ix1 k)

end Cert.Bridge

end
-- ==== Proof.Val.KGlue.lean ====
/-
  The idealized kernel's result is the canonical form. The kernel program splits the 200000 nodes into two halves of
  a hundred blocks of a thousand, accumulates per half, for each graph, the sums of each node's scalar channels, their
  squares, the per-channel mean squares of its multi-component channels and a column of ones (the node count), adds the
  two halves, divides by the clamped count, and then reads the per-graph means and scales back at each node through the
  node's weights. Regrouping the block sums into sums over all nodes, and reading the two selection matrices (column
  j of a 3- or 5-component channel belongs to channel j / 3 or j / 5) as sums over a channel's components, turns each
  of these into the per-graph statistics of the canonical form.
-/
import proofs.«421439_j25340307046985_3_alg».proof.Proof.Val.Math

noncomputable section

namespace Cert.Bridge

open Idealize.ShloMosaic Cert.Spec

/-- Node `r` of block `j` of half `k`. -/
def node (k : Fin 2) (j : Fin 100) (r : Fin 1000) : Fin 200000 := ⟨100000 * k.val + 1000 * j.val + r.val, by omega⟩

/-- A sum over all nodes, regrouped by half, block and position in the block. -/
theorem sum_nodes (f : Fin 200000 → EReal) :
    ∑ k : Fin 2, ∑ j : Fin 100, ∑ r : Fin 1000, f (node k j r) = ∑ n, f n := Cert.Sums.sum_node f

variable (b : Fin 200000 → BitVec 32)
variable (X : Fin 200000 → Fin 480 → EReal) (Wt : Fin 224 → EReal) (Bi : Fin 128 → EReal)
variable (pw : EReal → EReal → EReal) (eps mh : EReal)
variable (z one32 one16 i3 i5 : EReal)
variable (Bc : Fin 200000 → BitVec 32)
variable (G1 : Fin 192 → Fin 64 → EReal) (G2 : Fin 160 → Fin 32 → EReal)
variable (B2 : Fin 128 → EReal)
variable (A : Fin 2 → Fin 512 → Fin 256 → EReal) (Bq : Fin 2 → Fin 512 → Fin 97 → EReal)
variable (Mn : Fin 512 → Fin 128 → EReal) (Sc : Fin 512 → Fin 224 → EReal)

/-! ## What the kernel accumulates per node -/

/-- The first accumulator's row of node `n`: its 128 scalar channels, then their squares. -/
def catAN (n : Fin 200000) (col : Fin 256) : EReal :=
  if h : col.val < 128 then X n ⟨col.val, by omega⟩ else X n ⟨col.val - 128, by omega⟩ * X n ⟨col.val - 128, by omega⟩

/-- The second accumulator's row of node `n`: the mean squares of its 64 three-component channels (the squared
    columns summed through the selection matrix, times a third), of its 32 five-component channels (times a fifth),
    then a one. -/
def catBN (n : Fin 200000) (col : Fin 97) : EReal :=
  if h1 : col.val < 64 then
    (∑ j : Fin 192, (X n ⟨128 + j.val, by omega⟩ * X n ⟨128 + j.val, by omega⟩) * G1 j ⟨col.val, h1⟩) * i3
  else if h2 : col.val < 96 then
    (∑ j : Fin 160, (X n ⟨320 + j.val, by omega⟩ * X n ⟨320 + j.val, by omega⟩) * G2 j ⟨col.val - 64, by omega⟩) * i5
  else one16

theorem catAN_lo (n : Fin 200000) (k : Fin 128) : catAN X n ⟨k.val, by omega⟩ = x0 X n k := by
  unfold catAN x0
  rw [dif_pos k.isLt]

theorem catAN_hi (n : Fin 200000) (k : Fin 128) : catAN X n ⟨128 + k.val, by omega⟩ = x0 X n k * x0 X n k := by
  unfold catAN x0
  rw [dif_neg (by dsimp only; omega)]
  have e : ∀ h', (⟨128 + k.val - 128, h'⟩ : Fin 480) = ⟨k.val, by omega⟩ := fun h' => Fin.ext (by dsimp only; omega)
  dsimp only
  rw [e]

/-- Dividing by 3 is multiplying by a third, for every extended real. -/
theorem div_three (x : EReal) : Ideal.div x ((3 : ℝ) : EReal) = x * ((1 / 3 : ℝ) : EReal) := Ideal.div_coe (by norm_num) x
theorem div_five (x : EReal) : Ideal.div x ((5 : ℝ) : EReal) = x * ((1 / 5 : ℝ) : EReal) := Ideal.div_coe (by norm_num) x

theorem catBN_1 (hi3 : i3 = ((1 / 3 : ℝ) : EReal)) (hG1 : ∀ j k, G1 j k = if j.val / 3 = k.val then 1 else 0)
    (n : Fin 200000) (k : Fin 64) : catBN X one16 i3 i5 G1 G2 n ⟨k.val, by omega⟩ = ms1 X n k := by
  unfold catBN ms1
  rw [dif_pos k.isLt, div_three, hi3]
  refine congrArg (· * _) ?_
  have h := Cert.Sums.sum_expand3 (fun j => X n ⟨128 + j.val, by omega⟩ * X n ⟨128 + j.val, by omega⟩) k
  refine ((Finset.sum_congr rfl fun j _ => ?_).trans h).trans (Finset.sum_congr rfl fun d _ => ?_)
  · rw [hG1]
  · unfold x1
    have e : (⟨128 + (3 * k.val + d.val), by omega⟩ : Fin 480) = ⟨128 + 3 * k.val + d.val, by omega⟩ := Fin.ext (by dsimp only; omega)
    dsimp only
    rw [e]

theorem catBN_2 (hi5 : i5 = ((1 / 5 : ℝ) : EReal)) (hG2 : ∀ j k, G2 j k = if j.val / 5 = k.val then 1 else 0)
    (n : Fin 200000) (k : Fin 32) : catBN X one16 i3 i5 G1 G2 n ⟨64 + k.val, by omega⟩ = ms2 X n k := by
  unfold catBN ms2
  rw [dif_neg (by dsimp only; omega), dif_pos (by dsimp only; omega), div_five, hi5]
  refine congrArg (· * _) ?_
  have h := Cert.Sums.sum_expand5 (fun j => X n ⟨320 + j.val, by omega⟩ * X n ⟨320 + j.val, by omega⟩) k
  refine ((Finset.sum_congr rfl fun j _ => ?_).trans h).trans (Finset.sum_congr rfl fun d _ => ?_)
  · have e : (⟨64 + k.val - 64, by omega⟩ : Fin 32) = k := Fin.ext (by dsimp only; omega)
    dsimp only
    rw [e, hG2]
  · unfold x2
    have e : (⟨320 + (5 * k.val + d.val), by omega⟩ : Fin 480) = ⟨320 + 5 * k.val + d.val, by omega⟩ := Fin.ext (by dsimp only; omega)
    dsimp only
    rw [e]

theorem catBN_one (h16 : one16 = 1) (n : Fin 200000) : catBN X one16 i3 i5 G1 G2 n ⟨96, by omega⟩ = 1 := by
  unfold catBN
  rw [dif_neg (by dsimp only; omega), dif_neg (by dsimp only; omega), h16]

/-! ## The accumulators as per-graph sums -/

/-- The two halves' block sums over the clipped ids, added to zero, are the sum over all nodes. -/
theorem halves_eq_segsum (hz : z = 0) (hBc : ∀ n, Bc n = b n) (T : Fin 2 → EReal) (f : Fin 200000 → EReal) (g : Fin 512)
    (hT : ∀ k, T k = ∑ j : Fin 100, ∑ r : Fin 1000, oh (Bc (node k j r)) g * f (node k j r)) :
    z + ∑ k : Fin 2, T k = segsum b f g := by
  rw [hz, zero_add]
  unfold segsum
  rw [← sum_nodes (fun n => oh (b n) g * f n)]
  refine Finset.sum_congr rfl fun k _ => ?_
  rw [hT k]
  refine Finset.sum_congr rfl fun j _ => Finset.sum_congr rfl fun r _ => ?_
  rw [hBc]

/-- A column of the first accumulator, the halves added: the per-graph sum of what the column holds per node. -/
theorem sumA (hz : z = 0) (hBc : ∀ n, Bc n = b n)
    (hA : ∀ k g col, A k g col = ∑ j : Fin 100, ∑ r : Fin 1000, oh (Bc (node k j r)) g * catAN X (node k j r) col)
    (g : Fin 512) (col : Fin 256) (f : Fin 200000 → EReal) (hf : ∀ n, catAN X n col = f n) :
    z + ∑ k' : Fin 2, A k' g col = segsum b f g := by
  rw [halves_eq_segsum b z Bc hz hBc (fun k' => A k' g col) (fun n => catAN X n col) g (fun k' => hA k' g col)]
  exact congrArg (fun f => segsum b f g) (funext hf)

/-- A column of the second accumulator, the halves added. -/
theorem sumB (hz : z = 0) (hBc : ∀ n, Bc n = b n)
    (hBq : ∀ k g col, Bq k g col = ∑ j : Fin 100, ∑ r : Fin 1000, oh (Bc (node k j r)) g * catBN X one16 i3 i5 G1 G2 (node k j r) col)
    (g : Fin 512) (col : Fin 97) (f : Fin 200000 → EReal) (hf : ∀ n, catBN X one16 i3 i5 G1 G2 n col = f n) :
    z + ∑ k' : Fin 2, Bq k' g col = segsum b f g := by
  rw [halves_eq_segsum b z Bc hz hBc (fun k' => Bq k' g col) (fun n => catBN X one16 i3 i5 G1 G2 n col) g (fun k' => hBq k' g col)]
  exact congrArg (fun f => segsum b f g) (funext hf)

/-- The kernel's clamped node count: the last column of the second accumulator, clamped below by one. -/
def ccK (g : Fin 512) : EReal := max (z + ∑ k : Fin 2, Bq k g ⟨96, by omega⟩) one32

/-- It is the clamped node count. -/
theorem ccK_eq (hz : z = 0) (h32 : one32 = 1) (h16 : one16 = 1) (hBc : ∀ n, Bc n = b n)
    (hBq : ∀ k g col, Bq k g col = ∑ j : Fin 100, ∑ r : Fin 1000, oh (Bc (node k j r)) g * catBN X one16 i3 i5 G1 G2 (node k j r) col)
    (g : Fin 512) : ccK z one32 Bq g = cc b g := by
  unfold ccK cc cnt
  rw [h32, sumB b X z one16 i3 i5 Bc G1 G2 Bq hz hBc hBq g ⟨96, by omega⟩ (fun n => 1) (fun n => catBN_one X one16 i3 i5 G1 G2 h16 n)]
  unfold segsum
  exact congrArg (max · 1) (Finset.sum_congr rfl fun n _ => mul_one _)

/-! ## The per-graph means and normalisers -/

/-- The kernel's per-graph mean of a scalar channel is the mean. -/
theorem Mn_eq (hz : z = 0) (h32 : one32 = 1) (h16 : one16 = 1) (hBc : ∀ n, Bc n = b n)
    (hA : ∀ k g col, A k g col = ∑ j : Fin 100, ∑ r : Fin 1000, oh (Bc (node k j r)) g * catAN X (node k j r) col)
    (hBq : ∀ k g col, Bq k g col = ∑ j : Fin 100, ∑ r : Fin 1000, oh (Bc (node k j r)) g * catBN X one16 i3 i5 G1 G2 (node k j r) col)
    (hMn : ∀ g k, Mn g k = Ideal.div (z + ∑ k' : Fin 2, A k' g ⟨k.val, by omega⟩) (ccK z one32 Bq g))
    (g : Fin 512) (k : Fin 128) : Mn g k = mean0 b X g k := by
  rw [hMn, ccK_eq b X z one32 one16 i3 i5 Bc G1 G2 Bq hz h32 h16 hBc hBq, sumA b X z Bc A hz hBc hA g ⟨k.val, by omega⟩ (fun n => x0 X n k) (fun n => catAN_lo X n k)]
  rfl

/-- The kernel's normalisers, one row of 224 per graph: for a scalar channel the mean of the squares less the square
    of the mean; for a multi-component channel the mean of the per-node mean squares. -/
def fnK (g : Fin 512) (f : Fin 224) : EReal :=
  if h : f.val < 128 then
    Ideal.div (z + ∑ k' : Fin 2, A k' g ⟨128 + f.val, by omega⟩) (ccK z one32 Bq g) - Mn g ⟨f.val, h⟩ * Mn g ⟨f.val, h⟩
  else if h2 : f.val < 192 then Ideal.div (z + ∑ k' : Fin 2, Bq k' g ⟨f.val - 128, by omega⟩) (ccK z one32 Bq g)
  else Ideal.div (z + ∑ k' : Fin 2, Bq k' g ⟨64 + (f.val - 192), by omega⟩) (ccK z one32 Bq g)

theorem fnK_0 (hz : z = 0) (h32 : one32 = 1) (h16 : one16 = 1) (hBc : ∀ n, Bc n = b n)
    (hA : ∀ k g col, A k g col = ∑ j : Fin 100, ∑ r : Fin 1000, oh (Bc (node k j r)) g * catAN X (node k j r) col)
    (hBq : ∀ k g col, Bq k g col = ∑ j : Fin 100, ∑ r : Fin 1000, oh (Bc (node k j r)) g * catBN X one16 i3 i5 G1 G2 (node k j r) col)
    (hMn : ∀ g k, Mn g k = Ideal.div (z + ∑ k' : Fin 2, A k' g ⟨k.val, by omega⟩) (ccK z one32 Bq g))
    (g : Fin 512) (k : Fin 128) : fnK z one32 A Bq Mn g ⟨k.val, by omega⟩ = fnK0 b X g k := by
  unfold fnK fnK0
  rw [dif_pos k.isLt]
  dsimp only
  rw [ccK_eq b X z one32 one16 i3 i5 Bc G1 G2 Bq hz h32 h16 hBc hBq, sumA b X z Bc A hz hBc hA g ⟨128 + k.val, by omega⟩ (fun n => x0 X n k * x0 X n k) (fun n => catAN_hi X n k),
    Mn_eq b X z one32 one16 i3 i5 Bc G1 G2 A Bq Mn hz h32 h16 hBc hA hBq hMn]
  rfl

theorem fnK_1 (hz : z = 0) (h32 : one32 = 1) (h16 : one16 = 1) (hBc : ∀ n, Bc n = b n) (hi3 : i3 = ((1 / 3 : ℝ) : EReal)) (hG1 : ∀ j k, G1 j k = if j.val / 3 = k.val then 1 else 0)
    (hBq : ∀ k g col, Bq k g col = ∑ j : Fin 100, ∑ r : Fin 1000, oh (Bc (node k j r)) g * catBN X one16 i3 i5 G1 G2 (node k j r) col)
    (g : Fin 512) (k : Fin 64) : fnK z one32 A Bq Mn g ⟨128 + k.val, by omega⟩ = fn1 b X g k := by
  unfold fnK fn1
  rw [dif_neg (by dsimp only; omega), dif_pos (by dsimp only; omega)]
  have e : (⟨128 + k.val - 128, by omega⟩ : Fin 97) = ⟨k.val, by omega⟩ := Fin.ext (by dsimp only; omega)
  dsimp only
  rw [e, ccK_eq b X z one32 one16 i3 i5 Bc G1 G2 Bq hz h32 h16 hBc hBq, sumB b X z one16 i3 i5 Bc G1 G2 Bq hz hBc hBq g ⟨k.val, by omega⟩ (fun n => ms1 X n k) (fun n => catBN_1 X one16 i3 i5 G1 G2 hi3 hG1 n k)]
  rfl

theorem fnK_2 (hz : z = 0) (h32 : one32 = 1) (h16 : one16 = 1) (hBc : ∀ n, Bc n = b n) (hi5 : i5 = ((1 / 5 : ℝ) : EReal)) (hG2 : ∀ j k, G2 j k = if j.val / 5 = k.val then 1 else 0)
    (hBq : ∀ k g col, Bq k g col = ∑ j : Fin 100, ∑ r : Fin 1000, oh (Bc (node k j r)) g * catBN X one16 i3 i5 G1 G2 (node k j r) col)
    (g : Fin 512) (k : Fin 32) : fnK z one32 A Bq Mn g ⟨192 + k.val, by omega⟩ = fn2 b X g k := by
  unfold fnK fn2
  rw [dif_neg (by dsimp only; omega), dif_neg (by dsimp only; omega)]
  have e : (⟨64 + (192 + k.val - 192), by omega⟩ : Fin 97) = ⟨64 + k.val, by omega⟩ := Fin.ext (by dsimp only; omega)
  dsimp only
  rw [e, ccK_eq b X z one32 one16 i3 i5 Bc G1 G2 Bq hz h32 h16 hBc hBq, sumB b X z one16 i3 i5 Bc G1 G2 Bq hz hBc hBq g ⟨64 + k.val, by omega⟩ (fun n => ms2 X n k) (fun n => catBN_2 X one16 i3 i5 G1 G2 hi5 hG2 n k)]
  rfl

/-! ## The per-graph scales -/

theorem Sc_0 (hz : z = 0) (h32 : one32 = 1) (h16 : one16 = 1) (hBc : ∀ n, Bc n = b n)
    (hA : ∀ k g col, A k g col = ∑ j : Fin 100, ∑ r : Fin 1000, oh (Bc (node k j r)) g * catAN X (node k j r) col)
    (hBq : ∀ k g col, Bq k g col = ∑ j : Fin 100, ∑ r : Fin 1000, oh (Bc (node k j r)) g * catBN X one16 i3 i5 G1 G2 (node k j r) col)
    (hMn : ∀ g k, Mn g k = Ideal.div (z + ∑ k' : Fin 2, A k' g ⟨k.val, by omega⟩) (ccK z one32 Bq g))
    (hSc : ∀ g f, Sc g f = pw (fnK z one32 A Bq Mn g f + eps) mh * Wt f)
    (g : Fin 512) (k : Fin 128) : Sc g ⟨k.val, by omega⟩ = sc0 Wt pw eps mh (fnK0 b X) g k := by
  rw [hSc, fnK_0 b X z one32 one16 i3 i5 Bc G1 G2 A Bq Mn hz h32 h16 hBc hA hBq hMn]
  rfl

theorem Sc_1 (hz : z = 0) (h32 : one32 = 1) (h16 : one16 = 1) (hBc : ∀ n, Bc n = b n) (hi3 : i3 = ((1 / 3 : ℝ) : EReal)) (hG1 : ∀ j k, G1 j k = if j.val / 3 = k.val then 1 else 0)
    (hBq : ∀ k g col, Bq k g col = ∑ j : Fin 100, ∑ r : Fin 1000, oh (Bc (node k j r)) g * catBN X one16 i3 i5 G1 G2 (node k j r) col)
    (hSc : ∀ g f, Sc g f = pw (fnK z one32 A Bq Mn g f + eps) mh * Wt f)
    (g : Fin 512) (k : Fin 64) : Sc g ⟨128 + k.val, by omega⟩ = sc1 b X Wt pw eps mh g k := by
  rw [hSc, fnK_1 b X z one32 one16 i3 i5 Bc G1 G2 A Bq Mn hz h32 h16 hBc hi3 hG1 hBq]
  rfl

theorem Sc_2 (hz : z = 0) (h32 : one32 = 1) (h16 : one16 = 1) (hBc : ∀ n, Bc n = b n) (hi5 : i5 = ((1 / 5 : ℝ) : EReal)) (hG2 : ∀ j k, G2 j k = if j.val / 5 = k.val then 1 else 0)
    (hBq : ∀ k g col, Bq k g col = ∑ j : Fin 100, ∑ r : Fin 1000, oh (Bc (node k j r)) g * catBN X one16 i3 i5 G1 G2 (node k j r) col)
    (hSc : ∀ g f, Sc g f = pw (fnK z one32 A Bq Mn g f + eps) mh * Wt f)
    (g : Fin 512) (k : Fin 32) : Sc g ⟨192 + k.val, by omega⟩ = sc2 b X Wt pw eps mh g k := by
  rw [hSc, fnK_2 b X z one32 one16 i3 i5 Bc G1 G2 A Bq Mn hz h32 h16 hBc hi5 hG2 hBq]
  rfl

/-! ## The kernel's result -/

/-- The kernel's result at a scalar column: the entry less its graph's mean, times its graph's scale, plus the bias;
    the per-graph tables read at the node through its weights. -/
def KOut0 (n : Fin 200000) (k : Fin 128) : EReal :=
  (X n ⟨k.val, by omega⟩ - ∑ g : Fin 512, oh (Bc n) g * Mn g k) * (∑ g : Fin 512, oh (Bc n) g * Sc g ⟨k.val, by omega⟩) + B2 k

/-- At a column of a three-component channel: the entry times its graph's scale of the column's channel, the scale
    spread from the 64 channels to the 192 columns by the selection matrix. -/
def KOut1 (n : Fin 200000) (j : Fin 192) : EReal :=
  X n ⟨128 + j.val, by omega⟩ * ∑ k : Fin 64, (∑ g : Fin 512, oh (Bc n) g * Sc g ⟨128 + k.val, by omega⟩) * G1 j k

/-- At a column of a five-component channel. -/
def KOut2 (n : Fin 200000) (j : Fin 160) : EReal :=
  X n ⟨320 + j.val, by omega⟩ * ∑ k : Fin 32, (∑ g : Fin 512, oh (Bc n) g * Sc g ⟨192 + k.val, by omega⟩) * G2 j k

theorem kout0_eq (hz : z = 0) (h32 : one32 = 1) (h16 : one16 = 1) (hBc : ∀ n, Bc n = b n) (hB2 : ∀ k, B2 k = Bi k)
    (hA : ∀ k g col, A k g col = ∑ j : Fin 100, ∑ r : Fin 1000, oh (Bc (node k j r)) g * catAN X (node k j r) col)
    (hBq : ∀ k g col, Bq k g col = ∑ j : Fin 100, ∑ r : Fin 1000, oh (Bc (node k j r)) g * catBN X one16 i3 i5 G1 G2 (node k j r) col)
    (hMn : ∀ g k, Mn g k = Ideal.div (z + ∑ k' : Fin 2, A k' g ⟨k.val, by omega⟩) (ccK z one32 Bq g))
    (hSc : ∀ g f, Sc g f = pw (fnK z one32 A Bq Mn g f + eps) mh * Wt f)
    (n : Fin 200000) (k : Fin 128) : KOut0 X Bc B2 Mn Sc n k = out0 b X Wt Bi pw eps mh (fnK0 b X) n k := by
  unfold KOut0 out0 dev0 x0
  rw [hBc, hB2]
  have h1 : ∑ g : Fin 512, oh (b n) g * Mn g k = ∑ g : Fin 512, oh (b n) g * mean0 b X g k :=
    Finset.sum_congr rfl fun g _ => by rw [Mn_eq b X z one32 one16 i3 i5 Bc G1 G2 A Bq Mn hz h32 h16 hBc hA hBq hMn]
  have h2 : ∑ g : Fin 512, oh (b n) g * Sc g ⟨k.val, by omega⟩ = ∑ g : Fin 512, oh (b n) g * sc0 Wt pw eps mh (fnK0 b X) g k :=
    Finset.sum_congr rfl fun g _ => by rw [Sc_0 b X Wt pw eps mh z one32 one16 i3 i5 Bc G1 G2 A Bq Mn Sc hz h32 h16 hBc hA hBq hMn hSc]
  rw [h1, h2]

theorem kout1_eq (hz : z = 0) (h32 : one32 = 1) (h16 : one16 = 1) (hBc : ∀ n, Bc n = b n) (hi3 : i3 = ((1 / 3 : ℝ) : EReal)) (hG1 : ∀ j k, G1 j k = if j.val / 3 = k.val then 1 else 0)
    (hBq : ∀ k g col, Bq k g col = ∑ j : Fin 100, ∑ r : Fin 1000, oh (Bc (node k j r)) g * catBN X one16 i3 i5 G1 G2 (node k j r) col)
    (hSc : ∀ g f, Sc g f = pw (fnK z one32 A Bq Mn g f + eps) mh * Wt f)
    (n : Fin 200000) (j : Fin 192) : KOut1 X Bc G1 Sc n j = out1 b X Wt pw eps mh n j := by
  unfold KOut1 out1
  refine congrArg (_ * ·) ?_
  have h := Cert.Sums.sum_pick3 (fun k : Fin 64 => ∑ g : Fin 512, oh (Bc n) g * Sc g ⟨128 + k.val, by omega⟩) j
  refine ((Finset.sum_congr rfl fun k _ => by rw [hG1]).trans h).trans ?_
  dsimp only
  rw [hBc]
  exact Finset.sum_congr rfl fun g _ => by
    rw [Sc_1 b X Wt pw eps mh z one32 one16 i3 i5 Bc G1 G2 A Bq Mn Sc hz h32 h16 hBc hi3 hG1 hBq hSc g ⟨j.val / 3, by omega⟩]

theorem kout2_eq (hz : z = 0) (h32 : one32 = 1) (h16 : one16 = 1) (hBc : ∀ n, Bc n = b n) (hi5 : i5 = ((1 / 5 : ℝ) : EReal)) (hG2 : ∀ j k, G2 j k = if j.val / 5 = k.val then 1 else 0)
    (hBq : ∀ k g col, Bq k g col = ∑ j : Fin 100, ∑ r : Fin 1000, oh (Bc (node k j r)) g * catBN X one16 i3 i5 G1 G2 (node k j r) col)
    (hSc : ∀ g f, Sc g f = pw (fnK z one32 A Bq Mn g f + eps) mh * Wt f)
    (n : Fin 200000) (j : Fin 160) : KOut2 X Bc G2 Sc n j = out2 b X Wt pw eps mh n j := by
  unfold KOut2 out2
  refine congrArg (_ * ·) ?_
  have h := Cert.Sums.sum_pick5 (fun k : Fin 32 => ∑ g : Fin 512, oh (Bc n) g * Sc g ⟨192 + k.val, by omega⟩) j
  refine ((Finset.sum_congr rfl fun k _ => by rw [hG2]).trans h).trans ?_
  dsimp only
  rw [hBc]
  exact Finset.sum_congr rfl fun g _ => by
    rw [Sc_2 b X Wt pw eps mh z one32 one16 i3 i5 Bc G1 G2 A Bq Mn Sc hz h32 h16 hBc hi5 hG2 hBq hSc g ⟨j.val / 5, by omega⟩]

end Cert.Bridge

end
-- ==== Proof.Val.KFinal.lean ====
/-
  The idealized kernel program's result is the canonical form. The run leaves in the result buffer what the second
  kernel region's write-backs fold; that region reads, at each node, the per-graph means and scales through the node's
  weights; the means and scales are what the host stretch between the regions computes from the two accumulator arrays
  the first region leaves; and those hold, per half of the nodes, the per-graph sums of each node's scalar channels,
  their squares, its multi-component channels' mean squares and a one. Each of these is read here at an index and
  named, and the regrouping of the named sums into the per-graph statistics gives the canonical form.
-/
import proofs.«421439_j25340307046985_3_alg».proof.Proof.KI.Trunk
import proofs.«421439_j25340307046985_3_alg».proof.Proof.Val.Out1
import proofs.«421439_j25340307046985_3_alg».proof.Proof.Val.HostPre
import proofs.«421439_j25340307046985_3_alg».proof.Proof.Val.HostMid
import proofs.«421439_j25340307046985_3_alg».proof.Proof.Val.Acc0
import proofs.«421439_j25340307046985_3_alg».proof.Proof.Val.KGlue
import Idealize.ShloMosaic.PureOps.IdealRules

noncomputable section

namespace Cert.KernelIdeal.Hand

open Cert.KernelIdeal Cert.KernelIdeal.Gen Cert.Spec
open Cert.Bridge (out0 out1 out2 fnK0 bF XF WtF BiF epsL mhL KOut0 KOut1 KOut2 ccK fnK kout0_eq kout1_eq kout2_eq)
open Idealize.ShloMosaic Idealize.ShloMosaic.TcCoe Idealize.ShloMosaic.ValueIdx Idealize.SL.Sem

variable (m : (ℓ : Loc nD τ sig) → Buf (Elt Ideal) ℓ) (c : Dev nD)

/-! ## The names -/

/-- The launch arrays by coordinates: graph ids, node features, channel weights, scalar channels' biases. -/
abbrev kb : Fin 200000 → BitVec 32 := bF (m ((c : Thread nD τ).loc main_arg3))
abbrev kX : Fin 200000 → Fin 480 → EReal := XF (m ((c : Thread nD τ).loc main_arg0))
abbrev kWt : Fin 224 → EReal := WtF (m ((c : Thread nD τ).loc main_arg1))
abbrev kBi : Fin 128 → EReal := BiF (m ((c : Thread nD τ).loc main_arg2))

/-- The literals the program spells: zero, one (in both formats), a third and a fifth. -/
abbrev kz : EReal := Ideal.ofBits .f32 0x00000000#32
abbrev k32 : EReal := Ideal.ofBits .f32 0x3F800000#32
abbrev k16 : EReal := Ideal.ofBits .bf16 0x3F80#16
abbrev ki3 : EReal := Named.named (F := Ideal) κ "inv_3" (φ := .f32) 0x3EAAAAAB#32
abbrev ki5 : EReal := Named.named (F := Ideal) κ "inv_5" (φ := .f32) 0x3E4CCCCD#32

/-- What the host stretches before the first region leave: the clamped ids as a column, the two selection matrices,
    the bias as a row. -/
abbrev kBc (n : Fin 200000) : BitVec 32 := (V7 m c main_v1 : S200000x1.Idx → BitVec 32) (ix2 n 0)
abbrev kG1 (j : Fin 192) (k : Fin 64) : EReal := (V7 m c main_v11 : S192x64.Idx → EReal) (ix2 j k)
abbrev kG2 (j : Fin 160) (k : Fin 32) : EReal := (V7 m c main_v20 : S160x32.Idx → EReal) (ix2 j k)
abbrev kB2 (k : Fin 128) : EReal := (V7 m c main_v2 : S1x128.Idx → EReal) (ix2 0 k)

/-- What the first region leaves: the two accumulator arrays. -/
abbrev kA (k : Fin 2) (g : Fin 512) (col : Fin 256) : EReal := (outsOf m 8 main_v21_0 c : S2x512x256.Idx → EReal) (ix3 k g col)
abbrev kBq (k : Fin 2) (g : Fin 512) (col : Fin 97) : EReal := (outsOf m 8 main_v21_1 c : S2x512x97.Idx → EReal) (ix3 k g col)

/-- What the host stretch between the regions leaves: the per-graph means and scales. -/
abbrev kMn (g : Fin 512) (k : Fin 128) : EReal := (V9 m (outsOf m) c main_v32 : S512x128.Idx → EReal) (ix2 g k)
abbrev kSc (g : Fin 512) (f : Fin 224) : EReal := (V9 m (outsOf m) c main_v48 : S512x224.Idx → EReal) (ix2 g f)

/-! ## The literals -/

theorem kz_eq : kz = 0 := Ideal.ofBits_zero_f32
theorem k32_eq : k32 = 1 := Cert.Consts.ofBits_one
theorem k16_eq : k16 = 1 := Cert.Consts.ofBits_one_bf16
theorem ki3_eq : ki3 = ((1 / 3 : ℝ) : EReal) := IdealRules.named_const.ideal_named_scalar _ _ _ _ rfl
theorem ki5_eq : ki5 = ((1 / 5 : ℝ) : EReal) := IdealRules.named_const.ideal_named_scalar _ _ _ _ rfl

/-! ## The first region's accumulators -/

theorem kA_eq (k : Fin 2) (g : Fin 512) (col : Fin 256) :
    kA m c k g col = ∑ j : Fin 100, ∑ r : Fin 1000,
      oh (kBc m c (Cert.Bridge.node k j r)) g * Cert.Bridge.catAN (kX m c) (Cert.Bridge.node k j r) col := by
  have h := accA_eq (E0 m) c k g col
  dsimp only [E0] at h
  rw [V7_arg0] at h
  exact (congrFun (outs8_0 m c) (ix3 k g col)).trans h

theorem kBq_eq (k : Fin 2) (g : Fin 512) (col : Fin 97) :
    kBq m c k g col = ∑ j : Fin 100, ∑ r : Fin 1000,
      oh (kBc m c (Cert.Bridge.node k j r)) g
        * Cert.Bridge.catBN (kX m c) k16 ki3 ki5 (kG1 m c) (kG2 m c) (Cert.Bridge.node k j r) col := by
  have h := accB_eq (E0 m) c k g col
  dsimp only [E0] at h
  rw [V7_arg0] at h
  exact (congrFun (outs8_1 m c) (ix3 k g col)).trans h

/-! ## The means and scales the host stretch between the regions leaves -/

theorem kMn_eq (g : Fin 512) (k : Fin 128) :
    kMn m c g k = Ideal.div (kz + ∑ k' : Fin 2, kA m c k' g ⟨k.val, by omega⟩) (ccK kz k32 (kBq m c) g) :=
  (V9_mean m (outsOf m) c g k).trans rfl

/-- The normalisers the host stretch computes are the kernel's normalisers over the named arrays. -/
theorem hfn_eq (g : Fin 512) (f : Fin 224) :
    hfn (outsOf m 8 main_v21_0 c) (outsOf m 8 main_v21_1 c) g f = fnK kz k32 (kA m c) (kBq m c) (kMn m c) g f := by
  unfold hfn fnK
  by_cases h : f.val < 128
  · rw [dif_pos h, dif_pos h]
    show _ = _ - kMn m c g ⟨f.val, h⟩ * kMn m c g ⟨f.val, h⟩
    rw [show kMn m c g ⟨f.val, h⟩ = hmean (outsOf m 8 main_v21_0 c) (outsOf m 8 main_v21_1 c) g ⟨f.val, h⟩ from
      V9_mean m (outsOf m) c g ⟨f.val, h⟩]
    rfl
  · rw [dif_neg h, dif_neg h]
    by_cases h2 : f.val < 192
    · rw [dif_pos h2, dif_pos h2]; rfl
    · rw [dif_neg h2, dif_neg h2]; rfl

theorem kSc_eq (g : Fin 512) (f : Fin 224) :
    kSc m c g f = Ideal.pow (fnK kz k32 (kA m c) (kBq m c) (kMn m c) g f + epsL) mhL * kWt m c f := by
  rw [← hfn_eq]
  exact V9_scale m (outsOf m) c g f

/-! ## The result, given the means and scales -/

section Given
variable (hb : ∀ n : Fin 200000, 0 ≤ (kb m c n).toInt ∧ (kb m c n).toInt < 512)
  (hMn : ∀ g k, kMn m c g k = Ideal.div (kz + ∑ k' : Fin 2, kA m c k' g ⟨k.val, by omega⟩) (ccK kz k32 (kBq m c) g))
  (hSc : ∀ g f, kSc m c g f = Ideal.pow (fnK kz k32 (kA m c) (kBq m c) (kMn m c) g f + epsL) mhL * kWt m c f)
include hb hMn hSc

theorem kernel_out0_of (n : Fin 200000) (k : Fin 128) :
    (V10 m (outsOf m) c main_v49 : S200000x480.Idx → EReal) (ix2 n ⟨k.val, by omega⟩)
      = out0 (kb m c) (kX m c) (kWt m c) (kBi m c) Ideal.pow epsL mhL (fnK0 (kb m c) (kX m c)) n k := by
  rw [result_eq m c, out_eq_a (E1 m (outsOf m)) c n k]
  dsimp only [aX, aBc, aMn, aSc, aB2, E1]
  rw [V9_arg0, V9_v1, V9_v2, V7_arg0]
  exact kout0_eq (kb m c) (kX m c) (kWt m c) (kBi m c) Ideal.pow epsL mhL kz k32 k16 ki3 ki5 (kBc m c) (kG1 m c) (kG2 m c)
    (kB2 m c) (kA m c) (kBq m c) (kMn m c) (kSc m c) kz_eq k32_eq k16_eq (fun n => V7_batch m c n (hb n))
    (fun k => V7_bias m c k) (kA_eq m c) (kBq_eq m c) hMn hSc n k

theorem kernel_out1_of (n : Fin 200000) (j : Fin 192) :
    (V10 m (outsOf m) c main_v49 : S200000x480.Idx → EReal) (ix2 n ⟨128 + j.val, by omega⟩)
      = out1 (kb m c) (kX m c) (kWt m c) Ideal.pow epsL mhL n j := by
  rw [result_eq m c, out_eq_b (E1 m (outsOf m)) c n j]
  dsimp only [aX, aBc, aSc, aG1, E1]
  rw [V9_arg0, V9_v1, V9_v11, V7_arg0]
  exact kout1_eq (kb m c) (kX m c) (kWt m c) Ideal.pow epsL mhL kz k32 k16 ki3 ki5 (kBc m c) (kG1 m c) (kG2 m c)
    (kA m c) (kBq m c) (kMn m c) (kSc m c) kz_eq k32_eq k16_eq (fun n => V7_batch m c n (hb n))
    ki3_eq (fun j k => V7_G1 m c j k) (kBq_eq m c) hSc n j

theorem kernel_out2_of (n : Fin 200000) (j : Fin 160) :
    (V10 m (outsOf m) c main_v49 : S200000x480.Idx → EReal) (ix2 n ⟨320 + j.val, by omega⟩)
      = out2 (kb m c) (kX m c) (kWt m c) Ideal.pow epsL mhL n j := by
  rw [result_eq m c, out_eq_c (E1 m (outsOf m)) c n j]
  dsimp only [aX, aBc, aSc, aG2, E1]
  rw [V9_arg0, V9_v1, V9_v20, V7_arg0]
  exact kout2_eq (kb m c) (kX m c) (kWt m c) Ideal.pow epsL mhL kz k32 k16 ki3 ki5 (kBc m c) (kG1 m c) (kG2 m c)
    (kA m c) (kBq m c) (kMn m c) (kSc m c) kz_eq k32_eq k16_eq (fun n => V7_batch m c n (hb n))
    ki5_eq (fun j k => V7_G2 m c j k) (kBq_eq m c) hSc n j

end Given

/-! ## The result -/

/-- THE KERNEL PROGRAM'S RESULT at a scalar column, every id a graph number: the canonical form. -/
theorem kernel_out0 (hb : ∀ n : Fin 200000, 0 ≤ ((m ((c.tc : Thread nD τ).loc main_arg3)) (ix1 n)).toInt ∧ ((m ((c.tc : Thread nD τ).loc main_arg3)) (ix1 n)).toInt < 512)
    (n : Fin 200000) (k : Fin 128) :
    (V10 m (outsOf m) c main_v49 : S200000x480.Idx → EReal) (ix2 n ⟨k.val, by omega⟩)
      = out0 (bF (m ((c.tc : Thread nD τ).loc main_arg3))) (XF (m ((c.tc : Thread nD τ).loc main_arg0))) (WtF (m ((c.tc : Thread nD τ).loc main_arg1))) (BiF (m ((c.tc : Thread nD τ).loc main_arg2))) Ideal.pow epsL mhL
          (fnK0 (bF (m ((c.tc : Thread nD τ).loc main_arg3))) (XF (m ((c.tc : Thread nD τ).loc main_arg0)))) n k :=
  kernel_out0_of m c hb (kMn_eq m c) (kSc_eq m c) n k

/-- At a column of a three-component channel. -/
theorem kernel_out1 (hb : ∀ n : Fin 200000, 0 ≤ ((m ((c.tc : Thread nD τ).loc main_arg3)) (ix1 n)).toInt ∧ ((m ((c.tc : Thread nD τ).loc main_arg3)) (ix1 n)).toInt < 512)
    (n : Fin 200000) (j : Fin 192) :
    (V10 m (outsOf m) c main_v49 : S200000x480.Idx → EReal) (ix2 n ⟨128 + j.val, by omega⟩)
      = out1 (bF (m ((c.tc : Thread nD τ).loc main_arg3))) (XF (m ((c.tc : Thread nD τ).loc main_arg0))) (WtF (m ((c.tc : Thread nD τ).loc main_arg1))) Ideal.pow epsL mhL n j :=
  kernel_out1_of m c hb (kMn_eq m c) (kSc_eq m c) n j

/-- At a column of a five-component channel. -/
theorem kernel_out2 (hb : ∀ n : Fin 200000, 0 ≤ ((m ((c.tc : Thread nD τ).loc main_arg3)) (ix1 n)).toInt ∧ ((m ((c.tc : Thread nD τ).loc main_arg3)) (ix1 n)).toInt < 512)
    (n : Fin 200000) (j : Fin 160) :
    (V10 m (outsOf m) c main_v49 : S200000x480.Idx → EReal) (ix2 n ⟨320 + j.val, by omega⟩)
      = out2 (bF (m ((c.tc : Thread nD τ).loc main_arg3))) (XF (m ((c.tc : Thread nD τ).loc main_arg0))) (WtF (m ((c.tc : Thread nD τ).loc main_arg1))) Ideal.pow epsL mhL n j :=
  kernel_out2_of m c hb (kMn_eq m c) (kSc_eq m c) n j

end Cert.KernelIdeal.Hand

end
-- ==== Proof.Val.RefScatter.lean ====
/-
  The reference's accumulating scatters and row gathers, read at an index.

  A scatter of the per-node updates into a per-graph table, with the node's graph id as the (signed, unclamped) row,
  adds to row `g` exactly the updates of the nodes whose id is the word `g`: the sum over the landing updates is the
  sum over all nodes of the one-hot weight `oh` times the update (an id outside the table lands nowhere and is the
  word of no graph). A gather of a table's row at the node's id (signed, clamped into the table) reads, when the id is
  a non-negative number below 512, the row of the id; through the one-hot weights it is the sum over the graphs of
  `oh` times the table's row.
-/
import proofs.«421439_j25340307046985_3_alg».proof.ReferenceIdeal
import proofs.«421439_j25340307046985_3_alg».proof.Proof.Spec
import Idealize.ShloMosaic.Lib.ValueIdx
import Idealize.ShloMosaic.Lib.ValueIdxRank1
import Idealize.ShloMosaic.PureOps.Ideal

noncomputable section

open scoped BigOperators

namespace Cert.ReferenceIdeal.RefValue

open Cert.ReferenceIdeal Cert.Spec Idealize.ShloMosaic Idealize.ShloMosaic.ValueIdx

/-! ## Words -/

/-- A signed word is the word of graph `g` exactly when its signed value is `g`. -/
theorem word_eq_iff (v : BitVec 32) (g : Fin 512) :
    v = BitVec.ofNat 32 g.val ↔ v.toInt = (g.val : Int) := by
  have hg : g.val < 512 := g.isLt
  have hv : v.toNat < 2 ^ 32 := v.isLt
  rw [BitVec.toInt_eq_toNat_cond]
  constructor
  · intro h
    have := congrArg BitVec.toNat h
    rw [BitVec.toNat_ofNat] at this
    split <;> omega
  · intro h
    apply BitVec.eq_of_toNat_eq
    rw [BitVec.toNat_ofNat]
    split at h <;> omega

/-! ## A scatter of rows -/

/-- The dimension numbers of a scatter of `[200000, C]` update rows into a `[512, C]` table at `[200000, 1]` row
    indices: the update's axis 1 is the window, the table's axis 0 the scattered one. -/
abbrev rowScatter (C : Nat) (wf : ScatterDims.WF ⟨2, ![512, C]⟩ ⟨2, ![200000, 1]⟩ ⟨2, ![200000, C]⟩ [1] [0] [0] 1) :
    ScatterDims ⟨2, ![512, C]⟩ ⟨2, ![200000, 1]⟩ ⟨2, ![200000, C]⟩ where
  updateWindowDims := [1]
  insertedWindowDims := [0]
  scatterDimsToOperandDims := [0]
  indexVectorDim := 1
  wf := wf

section RowScatter
variable {C w : Nat} (wf : ScatterDims.WF ⟨2, ![512, C]⟩ ⟨2, ![200000, 1]⟩ ⟨2, ![200000, C]⟩ [1] [0] [0] 1)

/-- On the table's row axis the window starts at the update row's index, read signed. -/
theorem rowScatter_start0 (j : (⟨2, ![200000, C]⟩ : Shape).Idx) (idx : IVec ⟨2, ![200000, 1]⟩ w) :
    (rowScatter C wf).start j idx 0 = (idx (ix2 (j 0) 0)).toInt := by
  unfold ScatterDims.start
  rw [dif_pos (show (0 : Fin 2) ∈ (rowScatter C wf).scatterDimsToOperandDims from List.mem_singleton.mpr rfl)]
  congr 2
  funext b; refine Fin.ext ?_
  match b with
  | ⟨0, _⟩ => rfl
  | ⟨1, _⟩ => rfl

/-- On the table's column axis the window starts at 0. -/
theorem rowScatter_start1 (j : (⟨2, ![200000, C]⟩ : Shape).Idx) (idx : IVec ⟨2, ![200000, 1]⟩ w) :
    (rowScatter C wf).start j idx 1 = 0 := by
  unfold ScatterDims.start
  rw [dif_neg (show ¬ (1 : Fin 2) ∈ (rowScatter C wf).scatterDimsToOperandDims from
    show ¬ (1 : Fin 2) ∈ ([0] : List (Fin 2)) by decide)]

/-- The row axis is inserted: no window coordinate. -/
theorem rowScatter_window0 (j : (⟨2, ![200000, C]⟩ : Shape).Idx) : (rowScatter C wf).window j 0 = 0 := by
  unfold ScatterDims.window
  rw [dif_neg (show ¬ (0 : Fin 2) ∈ (rowScatter C wf).sKept from
    show ¬ (0 : Fin 2) ∈ ([1] : List (Fin 2)) by decide)]

/-- The column axis carries the update's column. -/
theorem rowScatter_window1 (j : (⟨2, ![200000, C]⟩ : Shape).Idx) : (rowScatter C wf).window j 1 = (j 1).val := by
  unfold ScatterDims.window
  rw [dif_pos (show (1 : Fin 2) ∈ (rowScatter C wf).sKept from
    show (1 : Fin 2) ∈ ([1] : List (Fin 2)) by decide)]
  rfl

end RowScatter

section RowScatterLands
variable {C : Nat} (wf : ScatterDims.WF ⟨2, ![512, C]⟩ ⟨2, ![200000, 1]⟩ ⟨2, ![200000, C]⟩ [1] [0] [0] 1)

/-- Update `(n, k')` lands on table element `(g, k)` exactly when the signed row index of `n` is `g` and the
    columns agree (a row index outside the table lands nowhere). -/
theorem rowScatter_lands (idx : IVec ⟨2, ![200000, 1]⟩ 32) (n : Fin 200000) (k' : Fin C) (g : Fin 512) (k : Fin C) :
    (rowScatter C wf).resultIdx? (ix2 n k') idx = some (ix2 g k) ↔ (idx (ix2 n 0)).toInt = (g.val : Int) ∧ k' = k := by
  have e0 : (rowScatter C wf).start (ix2 n k') idx 0 + ((rowScatter C wf).window (ix2 n k') 0 : Nat)
      = (idx (ix2 n 0)).toInt := by
    rw [rowScatter_start0, rowScatter_window0]
    show (idx (ix2 n 0)).toInt + ((0 : Nat) : Int) = _
    simp
  have e1 : (rowScatter C wf).start (ix2 n k') idx 1 + ((rowScatter C wf).window (ix2 n k') 1 : Nat)
      = (k'.val : Int) := by
    rw [rowScatter_start1, rowScatter_window1]
    show (0 : Int) + ((k'.val : Nat) : Int) = _
    simp
  have hg : g.val < 512 := g.isLt
  have hk : k.val < C := k.isLt
  have hk' : k'.val < C := k'.isLt
  unfold ScatterDims.resultIdx?
  constructor
  · intro h
    split at h
    · have hf := Option.some.inj h
      have c0 : ((rowScatter C wf).start (ix2 n k') idx 0 + ((rowScatter C wf).window (ix2 n k') 0 : Nat)).toNat = g.val :=
        congrArg (fun f => (f 0).val) hf
      have c1 : ((rowScatter C wf).start (ix2 n k') idx 1 + ((rowScatter C wf).window (ix2 n k') 1 : Nat)).toNat = k.val :=
        congrArg (fun f => (f 1).val) hf
      rename_i hr
      have r0 := (hr 0).1
      rw [e0] at c0 r0
      rw [e1] at c1
      exact ⟨by omega, Fin.ext (by omega)⟩
    · exact absurd h (by simp)
  · rintro ⟨h0, rfl⟩
    have hr : ∀ a : Fin 2, 0 ≤ (rowScatter C wf).start (ix2 n k') idx a + ((rowScatter C wf).window (ix2 n k') a : Nat) ∧
        (rowScatter C wf).start (ix2 n k') idx a + ((rowScatter C wf).window (ix2 n k') a : Nat)
          < ((![512, C] : Fin 2 → Nat) a : Nat) := by
      refine Fin.forall_fin_two.mpr ⟨?_, ?_⟩
      · rw [e0, h0]; constructor
        · omega
        · show (g.val : Int) < ((512 : Nat) : Int); omega
      · rw [e1]; constructor
        · omega
        · show (k'.val : Int) < ((C : Nat) : Int); omega
    rw [dif_pos hr]
    congr 1
    funext a; refine Fin.ext ?_
    match a with
    | ⟨0, _⟩ =>
      show ((rowScatter C wf).start (ix2 n k') idx 0 + ((rowScatter C wf).window (ix2 n k') 0 : Nat)).toNat = g.val
      rw [e0, h0]; simp
    | ⟨1, _⟩ =>
      show ((rowScatter C wf).start (ix2 n k') idx 1 + ((rowScatter C wf).window (ix2 n k') 1 : Nat)).toNat = k'.val
      rw [e1]; simp

end RowScatterLands

section RowScatterApply
variable {C : Nat} (wf : ScatterDims.WF ⟨2, ![512, C]⟩ ⟨2, ![200000, 1]⟩ ⟨2, ![200000, C]⟩ [1] [0] [0] 1)

/-- THE SCATTER OF ROWS READ AT `(g, k)`: the table's element plus the column-`k` updates of the nodes whose row index
    is the word `g`. -/
theorem rowScatter_apply (x : FVec Ideal ⟨2, ![512, C]⟩ .f32) (idx : IVec ⟨2, ![200000, 1]⟩ 32)
    (upd : FVec Ideal ⟨2, ![200000, C]⟩ .f32) (g : Fin 512) (k : Fin C) :
    Host.scatterAdd (F := Ideal) (rowScatter C wf) x idx upd (ix2 g k)
      = x (ix2 g k) + ∑ n : Fin 200000, oh (idx (ix2 n 0)) g * upd (ix2 n k) := by
  unfold Host.scatterAdd
  rw [Ideal.hostScatterAdd_def]
  unfold Ideal.hostScatterAdd
  refine congrArg (x (ix2 g k) + ·) ?_
  rw [Finset.sum_filter, sum_idx2]
  refine Finset.sum_congr rfl fun n _ => ?_
  have key : ∀ k' : Fin C,
      (if (rowScatter C wf).resultIdx? (ix2 n k') idx = some (ix2 g k) then upd (ix2 n k') else 0)
        = if k' = k then oh (idx (ix2 n 0)) g * upd (ix2 n k) else 0 := by
    intro k'
    by_cases hk : k' = k
    · subst hk
      rw [if_pos rfl]
      by_cases hw : idx (ix2 n 0) = BitVec.ofNat 32 g.val
      · rw [if_pos ((rowScatter_lands wf idx n k' g k').mpr ⟨(word_eq_iff _ g).mp hw, rfl⟩), hw, oh_self, one_mul]
      · rw [if_neg (fun h => hw ((word_eq_iff _ g).mpr ((rowScatter_lands wf idx n k' g k').mp h).1)),
          oh_of_ne hw, zero_mul]
    · rw [if_neg hk, if_neg (fun h => hk ((rowScatter_lands wf idx n k' g k).mp h).2)]
  rw [Finset.sum_congr rfl (fun k' _ => key k'), Finset.sum_ite_eq', if_pos (Finset.mem_univ _)]

end RowScatterApply

/-! ## A scatter of scalars -/

/-- The dimension numbers of a scatter of `[200000]` updates into a `[512]` table at `[200000, 1]` indices. -/
abbrev vecScatter (wf : ScatterDims.WF ⟨1, ![512]⟩ ⟨2, ![200000, 1]⟩ ⟨1, ![200000]⟩ [] [0] [0] 1) :
    ScatterDims ⟨1, ![512]⟩ ⟨2, ![200000, 1]⟩ ⟨1, ![200000]⟩ where
  updateWindowDims := []
  insertedWindowDims := [0]
  scatterDimsToOperandDims := [0]
  indexVectorDim := 1
  wf := wf

section VecScatter
variable (wf : ScatterDims.WF ⟨1, ![512]⟩ ⟨2, ![200000, 1]⟩ ⟨1, ![200000]⟩ [] [0] [0] 1)

/-- The window starts at the update's index, read signed. -/
theorem vecScatter_start0 {w : Nat} (j : (⟨1, ![200000]⟩ : Shape).Idx) (idx : IVec ⟨2, ![200000, 1]⟩ w) :
    (vecScatter wf).start j idx 0 = (idx (ix2 (j 0) 0)).toInt := by
  unfold ScatterDims.start
  rw [dif_pos (show (0 : Fin 1) ∈ (vecScatter wf).scatterDimsToOperandDims from List.mem_singleton.mpr rfl)]
  congr 2
  funext b; refine Fin.ext ?_
  match b with
  | ⟨0, _⟩ => rfl
  | ⟨1, _⟩ => rfl

/-- The one axis is inserted: no window coordinate. -/
theorem vecScatter_window0 (j : (⟨1, ![200000]⟩ : Shape).Idx) : (vecScatter wf).window j 0 = 0 := by
  unfold ScatterDims.window
  rw [dif_neg (show ¬ (0 : Fin 1) ∈ (vecScatter wf).sKept from
    show ¬ (0 : Fin 1) ∈ ([] : List (Fin 1)) from List.not_mem_nil)]

/-- Update `n` lands on table element `g` exactly when its signed index is `g`. -/
theorem vecScatter_lands (idx : IVec ⟨2, ![200000, 1]⟩ 32) (n : Fin 200000) (g : Fin 512) :
    (vecScatter wf).resultIdx? (ix1 n) idx = some (ix1 g) ↔ (idx (ix2 n 0)).toInt = (g.val : Int) := by
  have e0 : (vecScatter wf).start (ix1 n) idx 0 + ((vecScatter wf).window (ix1 n) 0 : Nat)
      = (idx (ix2 n 0)).toInt := by
    rw [vecScatter_start0, vecScatter_window0]
    show (idx (ix2 n 0)).toInt + ((0 : Nat) : Int) = _
    simp
  have hg : g.val < 512 := g.isLt
  unfold ScatterDims.resultIdx?
  constructor
  · intro h
    split at h
    · have hf := Option.some.inj h
      have c0 : ((vecScatter wf).start (ix1 n) idx 0 + ((vecScatter wf).window (ix1 n) 0 : Nat)).toNat = g.val :=
        congrArg (fun f => (f 0).val) hf
      rename_i hr
      have r0 := (hr 0).1
      rw [e0] at c0 r0
      omega
    · exact absurd h (by simp)
  · intro h0
    have hr : ∀ a : Fin 1, 0 ≤ (vecScatter wf).start (ix1 n) idx a + ((vecScatter wf).window (ix1 n) a : Nat) ∧
        (vecScatter wf).start (ix1 n) idx a + ((vecScatter wf).window (ix1 n) a : Nat)
          < ((![512] : Fin 1 → Nat) a : Nat) := by
      intro a
      obtain rfl : a = 0 := Subsingleton.elim _ _
      rw [e0, h0]; constructor
      · omega
      · show (g.val : Int) < ((512 : Nat) : Int); omega
    rw [dif_pos hr]
    congr 1
    funext a; refine Fin.ext ?_
    obtain rfl : a = 0 := Subsingleton.elim _ _
    show ((vecScatter wf).start (ix1 n) idx 0 + ((vecScatter wf).window (ix1 n) 0 : Nat)).toNat = g.val
    rw [e0, h0]; simp

/-- THE SCATTER OF SCALARS READ AT `g`: the table's element plus the updates of the nodes whose index is the word
    `g`. -/
theorem vecScatter_apply (x : FVec Ideal ⟨1, ![512]⟩ .f32) (idx : IVec ⟨2, ![200000, 1]⟩ 32)
    (upd : FVec Ideal ⟨1, ![200000]⟩ .f32) (g : Fin 512) :
    Host.scatterAdd (F := Ideal) (vecScatter wf) x idx upd (ix1 g)
      = x (ix1 g) + ∑ n : Fin 200000, oh (idx (ix2 n 0)) g * upd (ix1 n) := by
  unfold Host.scatterAdd
  rw [Ideal.hostScatterAdd_def]
  unfold Ideal.hostScatterAdd
  refine congrArg (x (ix1 g) + ·) ?_
  rw [Finset.sum_filter, ← Equiv.sum_comp (idxEquiv1 (n := 200000)).symm]
  refine Finset.sum_congr rfl fun n _ => ?_
  show (if (vecScatter wf).resultIdx? (ix1 n) idx = some (ix1 g) then upd (ix1 n) else 0) = _
  by_cases hw : idx (ix2 n 0) = BitVec.ofNat 32 g.val
  · rw [if_pos ((vecScatter_lands wf idx n g).mpr ((word_eq_iff _ g).mp hw)), hw, oh_self, one_mul]
  · rw [if_neg (fun h => hw ((word_eq_iff _ g).mpr ((vecScatter_lands wf idx n g).mp h))), oh_of_ne hw, zero_mul]

end VecScatter

/-! ## A gather of rows -/

/-- The dimension numbers of a gather of `[200000, C]` rows out of a `[512, C]` table at `[200000, 1]` row indices:
    the table's axis 0 is collapsed and indexed, its axis 1 the result's offset axis. -/
abbrev rowGather (C : Nat)
    (wf : GatherDims.WF ⟨2, ![512, C]⟩ ⟨2, ![200000, 1]⟩ ⟨2, ![200000, C]⟩ [1] [0] [] [0] [] 1 ![1, C]) :
    GatherDims ⟨2, ![512, C]⟩ ⟨2, ![200000, 1]⟩ ⟨2, ![200000, C]⟩ where
  offsetDims := [1]
  collapsedSliceDims := [0]
  operandBatchingDims := []
  startIndicesBatchingDims := []
  startIndexMap := [0]
  indexVectorDim := 1
  sliceSizes := ![1, C]
  wf := wf

section RowGather
variable {C : Nat}
  (wf : GatherDims.WF ⟨2, ![512, C]⟩ ⟨2, ![200000, 1]⟩ ⟨2, ![200000, C]⟩ [1] [0] [] [0] [] 1 ![1, C])

/-- On the table's row axis the slice starts at the row index, read signed and clamped into the table. -/
theorem rowGather_start0 {w : Nat} (j : (⟨2, ![200000, C]⟩ : Shape).Idx) (idx : IVec ⟨2, ![200000, 1]⟩ w) :
    (rowGather C wf).start j idx 0 = min (idx (ix2 (j 0) 0)).toInt.toNat 511 := by
  unfold GatherDims.start
  rw [dif_pos (show (0 : Fin 2) ∈ (rowGather C wf).startIndexMap from List.mem_singleton.mpr rfl)]
  have hsi : (rowGather C wf).siIdx j ⟨List.idxOf (0 : Fin 2) (rowGather C wf).startIndexMap,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- On the table's column axis the slice starts at 0. -/
theorem rowGather_start1 {w : Nat} (j : (⟨2, ![200000, C]⟩ : Shape).Idx) (idx : IVec ⟨2, ![200000, 1]⟩ w) :
    (rowGather C wf).start j idx 1 = 0 := by
  unfold GatherDims.start
  rw [dif_neg (show ¬ (1 : Fin 2) ∈ (rowGather C wf).startIndexMap from
    show ¬ (1 : Fin 2) ∈ ([0] : List (Fin 2)) by decide)]

/-- The row axis is collapsed: no offset coordinate. -/
theorem rowGather_off0 (j : (⟨2, ![200000, C]⟩ : Shape).Idx) : (rowGather C wf).offCoord j 0 = 0 :=
  GatherDims.offCoord_eq_zero _ _ _ (fun h => ((GatherDims.mem_sKept _ _).mp h).1 (List.mem_singleton.mpr rfl))

/-- The column axis carries the result's column. -/
theorem rowGather_off1 (j : (⟨2, ![200000, C]⟩ : Shape).Idx) : (rowGather C wf).offCoord j 1 = (j 1).val := by
  unfold GatherDims.offCoord
  rw [dif_pos ((GatherDims.mem_sKept _ _).mpr
    ⟨show ¬ (1 : Fin 2) ∈ ([0] : List (Fin 2)) by decide, List.not_mem_nil⟩)]
  rfl

/-- THE GATHER OF ROWS READ AT `(n, k)`: the table at the row index of `n`, read signed and clamped into
    `[0, 511]`, column `k`. -/
theorem rowGather_apply {α : Type} {w : Nat} (tbl : (⟨2, ![512, C]⟩ : Shape).Idx → α) (idx : IVec ⟨2, ![200000, 1]⟩ w)
    (n : Fin 200000) (k : Fin C) :
    Host.gather (rowGather C wf) tbl idx (ix2 n k)
      = tbl (ix2 (⟨min (idx (ix2 n 0)).toInt.toNat 511, by omega⟩ : Fin 512) k) := by
  unfold Host.gather
  refine congrArg tbl ?_
  funext a; refine Fin.ext ?_
  match a with
  | ⟨0, _⟩ =>
    show (rowGather C wf).start (ix2 n k) idx 0 + (rowGather C wf).batchCoord (ix2 n k) 0
      + (rowGather C wf).offCoord (ix2 n k) 0 = min (idx (ix2 n 0)).toInt.toNat 511
    rw [rowGather_start0, GatherDims.batchCoord_eq_zero _ _ _ List.not_mem_nil, rowGather_off0]
    rfl
  | ⟨1, _⟩ =>
    show (rowGather C wf).start (ix2 n k) idx 1 + (rowGather C wf).batchCoord (ix2 n k) 1
      + (rowGather C wf).offCoord (ix2 n k) 1 = k.val
    rw [rowGather_start1, GatherDims.batchCoord_eq_zero _ _ _ List.not_mem_nil, rowGather_off1]
    show 0 + 0 + k.val = k.val
    omega

/-- A row index that is a non-negative number below 512 is not moved by the clamp, and is the word of its graph: the
    gathered element is the sum over the graphs of the one-hot weight times the table's row. -/
theorem rowGather_apply_oh (tbl : (⟨2, ![512, C]⟩ : Shape).Idx → EReal) (idx : IVec ⟨2, ![200000, 1]⟩ 32)
    (n : Fin 200000) (k : Fin C) (h : 0 ≤ (idx (ix2 n 0)).toInt ∧ (idx (ix2 n 0)).toInt < 512) :
    Host.gather (rowGather C wf) tbl idx (ix2 n k) = ∑ g : Fin 512, oh (idx (ix2 n 0)) g * tbl (ix2 g k) := by
  rw [rowGather_apply]
  have hw : idx (ix2 n 0)
      = BitVec.ofNat 32 (⟨min (idx (ix2 n 0)).toInt.toNat 511, by omega⟩ : Fin 512).val :=
    (word_eq_iff _ _).mpr (by
      show (idx (ix2 n 0)).toInt = ((min (idx (ix2 n 0)).toInt.toNat 511 : Nat) : Int)
      omega)
  have hs := sum_oh_mul (⟨min (idx (ix2 n 0)).toInt.toNat 511, by omega⟩ : Fin 512) (fun g => tbl (ix2 g k))
  rw [← hw] at hs
  exact hs.symm

end RowGather

/-! ## The normalised ids -/

/-- A non-negative id is not moved by the wrap of negative ids (`select (b < 0) (b + 512) b`). -/
theorem select_slt_zero (v a : BitVec 32) (h0 : 0 ≤ v.toInt) :
    Scalar.select (IntOp.cmpi .slt v 0#32) a v = v := by
  have hs : v.slt 0#32 = false := by
    rw [BitVec.slt, BitVec.toInt_zero]
    exact decide_eq_false (by omega)
  show (if BitVec.ofBool (v.slt 0#32) = 1#1 then a else v) = v
  rw [hs]
  rfl

/-! ## The program's dimension records -/

section Program
variable [Facts₀]

/-- The count scatter at graph `g`. -/
theorem scatter1_apply (x : FVec Ideal S512 .f32) (idx : IVec S200000x1 32) (upd : FVec Ideal S200000 .f32)
    (g : Fin 512) :
    Host.scatterAdd (F := Ideal) scatter_S512_S200000x1_S200000_n_0_0_1 x idx upd (ix1 g)
      = x (ix1 g) + ∑ n : Fin 200000, oh (idx (ix2 n 0)) g * upd (ix1 n) :=
  vecScatter_apply Facts₀.scatter_S512_S200000x1_S200000_n_0_0_1_wf x idx upd g

/-- The 128-column scatter at `(g, k)`. -/
theorem scatter128_apply (x : FVec Ideal S512x128 .f32) (idx : IVec S200000x1 32) (upd : FVec Ideal S200000x128 .f32)
    (g : Fin 512) (k : Fin 128) :
    Host.scatterAdd (F := Ideal) scatter_S512x128_S200000x1_S200000x128_1_0_0_1 x idx upd (ix2 g k)
      = x (ix2 g k) + ∑ n : Fin 200000, oh (idx (ix2 n 0)) g * upd (ix2 n k) :=
  rowScatter_apply Facts₀.scatter_S512x128_S200000x1_S200000x128_1_0_0_1_wf x idx upd g k

/-- The 64-column scatter at `(g, k)`. -/
theorem scatter64_apply (x : FVec Ideal S512x64 .f32) (idx : IVec S200000x1 32) (upd : FVec Ideal S200000x64 .f32)
    (g : Fin 512) (k : Fin 64) :
    Host.scatterAdd (F := Ideal) scatter_S512x64_S200000x1_S200000x64_1_0_0_1 x idx upd (ix2 g k)
      = x (ix2 g k) + ∑ n : Fin 200000, oh (idx (ix2 n 0)) g * upd (ix2 n k) :=
  rowScatter_apply Facts₀.scatter_S512x64_S200000x1_S200000x64_1_0_0_1_wf x idx upd g k

/-- The 32-column scatter at `(g, k)`. -/
theorem scatter32_apply (x : FVec Ideal S512x32 .f32) (idx : IVec S200000x1 32) (upd : FVec Ideal S200000x32 .f32)
    (g : Fin 512) (k : Fin 32) :
    Host.scatterAdd (F := Ideal) scatter_S512x32_S200000x1_S200000x32_1_0_0_1 x idx upd (ix2 g k)
      = x (ix2 g k) + ∑ n : Fin 200000, oh (idx (ix2 n 0)) g * upd (ix2 n k) :=
  rowScatter_apply Facts₀.scatter_S512x32_S200000x1_S200000x32_1_0_0_1_wf x idx upd g k

/-- The 128-column gather at `(n, k)`, the row index in range. -/
theorem gather128_apply (tbl : S512x128.Idx → EReal) (idx : IVec S200000x1 32) (n : Fin 200000) (k : Fin 128)
    (h : 0 ≤ (idx (ix2 n 0)).toInt ∧ (idx (ix2 n 0)).toInt < 512) :
    Host.gather gather_S512x128_S200000x1_S200000x128_1_0_n_n_0_1_1128 tbl idx (ix2 n k)
      = ∑ g : Fin 512, oh (idx (ix2 n 0)) g * tbl (ix2 g k) :=
  rowGather_apply_oh Facts₀.gather_S512x128_S200000x1_S200000x128_1_0_n_n_0_1_1128_wf tbl idx n k h

/-- The 64-column gather at `(n, k)`, the row index in range. -/
theorem gather64_apply (tbl : S512x64.Idx → EReal) (idx : IVec S200000x1 32) (n : Fin 200000) (k : Fin 64)
    (h : 0 ≤ (idx (ix2 n 0)).toInt ∧ (idx (ix2 n 0)).toInt < 512) :
    Host.gather gather_S512x64_S200000x1_S200000x64_1_0_n_n_0_1_164 tbl idx (ix2 n k)
      = ∑ g : Fin 512, oh (idx (ix2 n 0)) g * tbl (ix2 g k) :=
  rowGather_apply_oh Facts₀.gather_S512x64_S200000x1_S200000x64_1_0_n_n_0_1_164_wf tbl idx n k h

/-- The 32-column gather at `(n, k)`, the row index in range. -/
theorem gather32_apply (tbl : S512x32.Idx → EReal) (idx : IVec S200000x1 32) (n : Fin 200000) (k : Fin 32)
    (h : 0 ≤ (idx (ix2 n 0)).toInt ∧ (idx (ix2 n 0)).toInt < 512) :
    Host.gather gather_S512x32_S200000x1_S200000x32_1_0_n_n_0_1_132 tbl idx (ix2 n k)
      = ∑ g : Fin 512, oh (idx (ix2 n 0)) g * tbl (ix2 g k) :=
  rowGather_apply_oh Facts₀.gather_S512x32_S200000x1_S200000x32_1_0_n_n_0_1_132_wf tbl idx n k h

end Program

end Cert.ReferenceIdeal.RefValue

end
-- ==== Proof.Val.RefValue.lean ====
/-
  The reference's result, read at an index.

  The reference normalises each of the three fields of a node's 480 columns by a statistic of the node's graph. With
  `oh b g` the weight 1 or 0 of a node whose graph id is `b` in graph `g`: the count of graph `g` is the sum of
  the weights over the nodes (and at least one where it divides); field 0 (columns 0–127, one scalar each) subtracts
  the graph's mean, and divides by the root of the graph's mean squared deviation (plus a small constant), scaled by a
  weight and shifted by a bias; field 1 (columns 128–319, 64 vectors of 3) and field 2 (columns 320–479, 32 vectors of 5)
  divide by the root of the graph's mean of the vectors' mean squares, scaled by a weight. Every segment sum is an
  accumulating scatter and every per-node read of a per-graph table a gather of a row; both are read through `oh`
  (Val/RefScatter.lean), and the stages between them one element at a time (the generated Read module).
-/
import proofs.«421439_j25340307046985_3_alg».proof.Proof.Gen.ReferenceIdeal.Read
import proofs.«421439_j25340307046985_3_alg».proof.Proof.Spec
import proofs.«421439_j25340307046985_3_alg».proof.Proof.Val.RefScatter
import Idealize.ShloMosaic.Lib.ValueIdx
import Idealize.ShloMosaic.Lib.Pipeline.Value

noncomputable section

open scoped BigOperators

namespace Cert.ReferenceIdeal.RefValue

open Cert.ReferenceIdeal Cert.ReferenceIdeal.Read Cert.Spec Idealize.ShloMosaic Idealize.ShloMosaic.ValueIdx

/-! ## The statistics, as sums over the nodes and the graphs -/

section Defs
variable (X : S200000x480.Idx → EReal) (Wt : S224.Idx → EReal) (b : S200000.Idx → BitVec 32)

/-- The number of nodes of graph `g`. -/
def cnt (g : Fin 512) : EReal :=
  Ideal.ofBits .f32 0x00000000#32 + ∑ n : Fin 200000, oh (b (ix1 n)) g * Ideal.ofBits .f32 0x3F800000#32

/-- The count a mean divides by: at least one. -/
def cc (g : Fin 512) : EReal := max (cnt b g) (Ideal.ofBits .f32 0x3F800000#32)

/-- Field 0: the mean of column `k` over the nodes of graph `g`. -/
def mean (g : Fin 512) (k : Fin 128) : EReal :=
  Ideal.div (Ideal.ofBits .f32 0x00000000#32 + ∑ n : Fin 200000, oh (b (ix1 n)) g * X (ix2 n ⟨k.val, by omega⟩)) (cc b g)

/-- Field 0: node `n`'s column `k` less the mean of its graph. -/
def dev (n : Fin 200000) (k : Fin 128) : EReal :=
  X (ix2 n ⟨k.val, by omega⟩) - ∑ g : Fin 512, oh (b (ix1 n)) g * mean X b g k

/-- Field 0: the mean square of the one-component vector at `(n, k)`. -/
def sq0 (n : Fin 200000) (k : Fin 128) : EReal :=
  Ideal.div (Ideal.ofBits .f32 0x00000000#32 + dev X b n k * dev X b n k) (Ideal.ofBits .f32 0x3F800000#32)

/-- Field 0: the mean of those over the nodes of graph `g`. -/
def msq0 (g : Fin 512) (k : Fin 128) : EReal :=
  Ideal.div (Ideal.ofBits .f32 0x00000000#32 + ∑ n : Fin 200000, oh (b (ix1 n)) g * sq0 X b n k) (cc b g)

/-- Field 0: the factor of graph `g` at column `k`. -/
def scale0 (g : Fin 512) (k : Fin 128) : EReal :=
  Ideal.pow (msq0 X b g k + Ideal.ofBits .f32 0x3727C5AC#32) (Ideal.ofBits .f32 0xBF000000#32) * Wt (ix1 ⟨k.val, by omega⟩)

/-- Field 1: the mean square of the 3-vector `q` of node `n`. -/
def sq1 (n : Fin 200000) (q : Fin 64) : EReal :=
  Ideal.div (Ideal.ofBits .f32 0x00000000#32 + ∑ d : Fin 3,
    X (ix2 n ⟨128 + 3 * q.val + d.val, by omega⟩) * X (ix2 n ⟨128 + 3 * q.val + d.val, by omega⟩))
    (Ideal.ofBits .f32 0x40400000#32)

/-- Field 1: the mean of those over the nodes of graph `g`. -/
def msq1 (g : Fin 512) (q : Fin 64) : EReal :=
  Ideal.div (Ideal.ofBits .f32 0x00000000#32 + ∑ n : Fin 200000, oh (b (ix1 n)) g * sq1 X n q) (cc b g)

/-- Field 1: the factor of graph `g` at vector `q`. -/
def scale1 (g : Fin 512) (q : Fin 64) : EReal :=
  Ideal.pow (msq1 X b g q + Ideal.ofBits .f32 0x3727C5AC#32) (Ideal.ofBits .f32 0xBF000000#32)
    * Wt (ix1 ⟨128 + q.val, by omega⟩)

/-- Field 2: the mean square of the 5-vector `q` of node `n`. -/
def sq2 (n : Fin 200000) (q : Fin 32) : EReal :=
  Ideal.div (Ideal.ofBits .f32 0x00000000#32 + ∑ d : Fin 5,
    X (ix2 n ⟨320 + 5 * q.val + d.val, by omega⟩) * X (ix2 n ⟨320 + 5 * q.val + d.val, by omega⟩))
    (Ideal.ofBits .f32 0x40A00000#32)

/-- Field 2: the mean of those over the nodes of graph `g`. -/
def msq2 (g : Fin 512) (q : Fin 32) : EReal :=
  Ideal.div (Ideal.ofBits .f32 0x00000000#32 + ∑ n : Fin 200000, oh (b (ix1 n)) g * sq2 X n q) (cc b g)

/-- Field 2: the factor of graph `g` at vector `q`. -/
def scale2 (g : Fin 512) (q : Fin 32) : EReal :=
  Ideal.pow (msq2 X b g q + Ideal.ofBits .f32 0x3727C5AC#32) (Ideal.ofBits .f32 0xBF000000#32)
    * Wt (ix1 ⟨192 + q.val, by omega⟩)

end Defs

/-! ## The counts -/

section Count
variable (b : S200000.Idx → BitVec 32)

/-- The ids as a column: row `n` holds the id of node `n`. -/
theorem idx_v2 (n : Fin 200000) (c : Fin 1) : idx_main_v2 (ix2 n c) = ix1 n :=
  funext fun a => Fin.ext (by match a with | ⟨0, _⟩ => rfl)

/-- The count scatter at graph `g`. -/
theorem v3_at (g : Fin 512) : val_main_v3 (F := Ideal) b (ix1 g) = cnt b g := by
  unfold val_main_v3
  rw [scatter1_apply]
  unfold cnt
  rw [val_main_v1_apply]
  refine congrArg₂ (· + ·) rfl (Finset.sum_congr rfl fun n _ => ?_)
  rw [val_main_v2_apply, idx_v2, val_main_v0_apply]
  rfl

/-- The count a mean divides by, at graph `g`. -/
theorem v5_at (g : Fin 512) : val_main_v5 (F := Ideal) b (ix1 g) = cc b g := by
  rw [val_main_v5_apply, v3_at, val_main_v4_apply]
  rfl

end Count

/-! ## Field 0: the mean and the deviation -/

section Field0
variable (X : S200000x480.Idx → EReal) (Wt : S224.Idx → EReal) (Bi : S128.Idx → EReal) (b : S200000.Idx → BitVec 32)

/-- Field 0 as `[200000, 128, 1]`: element `(n, k, 0)` is column `k` of node `n`. -/
theorem idx_v7 (n : Fin 200000) (k : Fin 128) (c : Fin 1) :
    idx_main_v6 (idx_main_v7 (ix3 n k c)) = ix2 n ⟨k.val, by omega⟩ :=
  funext fun a => Fin.ext (by
    have hn := n.isLt; have hk := k.isLt; have hc := c.isLt
    match a with
    | ⟨0, _⟩ => show ((n.val * 128 + k.val) * 1 + c.val) / 128 = n.val; omega
    | ⟨1, _⟩ => show ((n.val * 128 + k.val) * 1 + c.val) % 128 = k.val; omega)

theorem v7_at (n : Fin 200000) (k : Fin 128) (c : Fin 1) :
    val_main_v7 (F := Ideal) X (ix3 n k c) = X (ix2 n ⟨k.val, by omega⟩) := by
  rw [val_main_v7_apply, val_main_v6_apply, idx_v7]

/-- Back to `[200000, 128]`. -/
theorem idx_v8 (n : Fin 200000) (k : Fin 128) : idx_main_v8 (ix2 n k) = ix3 n k (0 : Fin 1) :=
  funext fun a => Fin.ext (by
    have hn := n.isLt; have hk := k.isLt
    match a with
    | ⟨0, _⟩ => show (n.val * 128 + k.val) / 128 = n.val; omega
    | ⟨1, _⟩ => show (n.val * 128 + k.val) / 1 % 128 = k.val; omega
    | ⟨2, _⟩ => rfl)

theorem v8_at (n : Fin 200000) (k : Fin 128) :
    val_main_v8 (F := Ideal) X (ix2 n k) = X (ix2 n ⟨k.val, by omega⟩) := by
  rw [val_main_v8_apply, idx_v8, v7_at]

theorem idx_v10 (n : Fin 200000) (c : Fin 1) : idx_main_v10 (ix2 n c) = ix1 n :=
  funext fun a => Fin.ext (by match a with | ⟨0, _⟩ => rfl)

/-- The column sums of field 0 per graph. -/
theorem v11_at (g : Fin 512) (k : Fin 128) :
    val_main_v11 (F := Ideal) X b (ix2 g k)
      = Ideal.ofBits .f32 0x00000000#32 + ∑ n : Fin 200000, oh (b (ix1 n)) g * X (ix2 n ⟨k.val, by omega⟩) := by
  unfold val_main_v11
  rw [scatter128_apply, val_main_v9_apply]
  refine congrArg₂ (· + ·) rfl (Finset.sum_congr rfl fun n _ => ?_)
  rw [val_main_v10_apply, idx_v10, v8_at]

/-- The count, broadcast along the columns. -/
theorem v13_at (g : Fin 512) (k : Fin 128) : val_main_v13 (F := Ideal) b (ix2 g k) = cc b g := by
  rw [val_main_v13_apply, val_main_v12_apply,
    show idx_main_v12 (idx_main_v13 (ix2 g k)) = ix1 g from
      funext fun a => Fin.ext (by match a with | ⟨0, _⟩ => rfl),
    v5_at]

/-- The mean of field 0 per graph. -/
theorem v14_at (g : Fin 512) (k : Fin 128) : val_main_v14 (F := Ideal) X b (ix2 g k) = mean X b g k := by
  rw [val_main_v14_apply, v11_at, v13_at]
  rfl

end Field0

/-! ## The ids the gathers read -/

section Ids
variable (b : S200000.Idx → BitVec 32)
  (hb : ∀ n : Fin 200000, 0 ≤ (b (ix1 n)).toInt ∧ (b (ix1 n)).toInt < 512)
include hb

/-- In range, the wrap of negative ids moves nothing: the first gather's ids are the ids. -/
theorem v20_at (n : Fin 200000) (c : Fin 1) : val_main_v20 (F := Ideal) b (ix2 n c) = b (ix1 n) := by
  rw [val_main_v20_apply,
    show idx_main_v20 (ix2 n c) = ix1 n from funext fun a => Fin.ext (by match a with | ⟨0, _⟩ => rfl),
    val_main_v19_apply, val_main_v16_apply, val_main_v15_apply]
  exact select_slt_zero _ _ (hb n).1

/-- The second gather's. -/
theorem v47_at (n : Fin 200000) (c : Fin 1) : val_main_v47 (F := Ideal) b (ix2 n c) = b (ix1 n) := by
  rw [val_main_v47_apply,
    show idx_main_v47 (ix2 n c) = ix1 n from funext fun a => Fin.ext (by match a with | ⟨0, _⟩ => rfl),
    val_main_v46_apply, val_main_v43_apply, val_main_v42_apply]
  exact select_slt_zero _ _ (hb n).1

/-- The third gather's. -/
theorem v80_at (n : Fin 200000) (c : Fin 1) : val_main_v80 (F := Ideal) b (ix2 n c) = b (ix1 n) := by
  rw [val_main_v80_apply,
    show idx_main_v80 (ix2 n c) = ix1 n from funext fun a => Fin.ext (by match a with | ⟨0, _⟩ => rfl),
    val_main_v79_apply, val_main_v76_apply, val_main_v75_apply]
  exact select_slt_zero _ _ (hb n).1

/-- The fourth gather's. -/
theorem v111_at (n : Fin 200000) (c : Fin 1) : val_main_v111 (F := Ideal) b (ix2 n c) = b (ix1 n) := by
  rw [val_main_v111_apply,
    show idx_main_v111 (ix2 n c) = ix1 n from funext fun a => Fin.ext (by match a with | ⟨0, _⟩ => rfl),
    val_main_v110_apply, val_main_v107_apply, val_main_v106_apply]
  exact select_slt_zero _ _ (hb n).1

end Ids

/-! ## Field 0: the deviation, its mean square per graph, the factor -/

section Field0b
variable (X : S200000x480.Idx → EReal) (Wt : S224.Idx → EReal) (Bi : S128.Idx → EReal) (b : S200000.Idx → BitVec 32)
  (hb : ∀ n : Fin 200000, 0 ≤ (b (ix1 n)).toInt ∧ (b (ix1 n)).toInt < 512)
include hb

/-- The mean of a node's graph. -/
theorem v21_at (n : Fin 200000) (k : Fin 128) :
    val_main_v21 (F := Ideal) X b (ix2 n k) = ∑ g : Fin 512, oh (b (ix1 n)) g * mean X b g k := by
  have h : 0 ≤ (val_main_v20 (F := Ideal) b (ix2 n 0)).toInt ∧ (val_main_v20 (F := Ideal) b (ix2 n 0)).toInt < 512 := by
    rw [v20_at b hb]; exact hb n
  unfold val_main_v21
  rw [gather128_apply _ _ n k h, v20_at b hb]
  refine Finset.sum_congr rfl fun g _ => ?_
  rw [v14_at]

/-- The deviation. -/
theorem v23_at (n : Fin 200000) (k : Fin 128) (c : Fin 1) :
    val_main_v23 (F := Ideal) X b (ix3 n k c) = dev X b n k := by
  rw [val_main_v23_apply, v7_at, val_main_v22_apply,
    show idx_main_v22 (ix3 n k c) = ix2 n k from
      funext fun a => Fin.ext (by match a with | ⟨0, _⟩ => rfl | ⟨1, _⟩ => rfl),
    v21_at X b hb]
  rfl

/-- The mean square over the one component. -/
theorem v27_at (n : Fin 200000) (k : Fin 128) : val_main_v27 (F := Ideal) X b (ix2 n k) = sq0 X b n k := by
  rw [val_main_v27_apply, val_main_v25_apply, Fin.sum_univ_one, val_main_v24_apply,
    show idx_main_v25 (ix2 n k) 0 = ix3 n k (0 : Fin 1) from
      funext fun a => Fin.ext (by match a with | ⟨0, _⟩ => rfl | ⟨1, _⟩ => rfl | ⟨2, _⟩ => rfl),
    v23_at X b hb, val_main_v26_apply]
  rfl

omit hb in
theorem idx_v29 (n : Fin 200000) (c : Fin 1) : idx_main_v29 (ix2 n c) = ix1 n :=
  funext fun a => Fin.ext (by match a with | ⟨0, _⟩ => rfl)

/-- Its sums per graph. -/
theorem v30_at (g : Fin 512) (k : Fin 128) :
    val_main_v30 (F := Ideal) X b (ix2 g k)
      = Ideal.ofBits .f32 0x00000000#32 + ∑ n : Fin 200000, oh (b (ix1 n)) g * sq0 X b n k := by
  unfold val_main_v30
  rw [scatter128_apply, val_main_v28_apply]
  refine congrArg₂ (· + ·) rfl (Finset.sum_congr rfl fun n _ => ?_)
  rw [val_main_v29_apply, idx_v29, v27_at X b hb]

omit hb in
theorem v32_at (g : Fin 512) (k : Fin 128) : val_main_v32 (F := Ideal) b (ix2 g k) = cc b g := by
  rw [val_main_v32_apply, val_main_v31_apply,
    show idx_main_v31 (idx_main_v32 (ix2 g k)) = ix1 g from
      funext fun a => Fin.ext (by match a with | ⟨0, _⟩ => rfl),
    v5_at]

/-- The mean per graph. -/
theorem v33_at (g : Fin 512) (k : Fin 128) : val_main_v33 (F := Ideal) X b (ix2 g k) = msq0 X b g k := by
  rw [val_main_v33_apply, v30_at X b hb, v32_at]
  rfl

/-- The factor per graph. -/
theorem v41_at (g : Fin 512) (k : Fin 128) :
    val_main_v41 (F := Ideal) X Wt b (ix2 g k) = scale0 X Wt b g k := by
  rw [val_main_v41_apply, val_main_v37_apply, val_main_v35_apply, v33_at X b hb, val_main_v34_apply,
    val_main_v36_apply, val_main_v40_apply, val_main_v39_apply, val_main_v38_apply,
    show idx_main_v38 (idx_main_v39 (idx_main_v40 (ix2 g k))) = ix1 ⟨k.val, by omega⟩ from
      funext fun a => Fin.ext (by match a with | ⟨0, _⟩ => rfl)]
  rfl

/-- The factor of a node's graph. -/
theorem v48_at (n : Fin 200000) (k : Fin 128) :
    val_main_v48 (F := Ideal) X Wt b (ix2 n k) = ∑ g : Fin 512, oh (b (ix1 n)) g * scale0 X Wt b g k := by
  have h : 0 ≤ (val_main_v47 (F := Ideal) b (ix2 n 0)).toInt ∧ (val_main_v47 (F := Ideal) b (ix2 n 0)).toInt < 512 := by
    rw [v47_at b hb]; exact hb n
  unfold val_main_v48
  rw [gather128_apply _ _ n k h, v47_at b hb]
  refine Finset.sum_congr rfl fun g _ => ?_
  rw [v41_at X Wt b hb]

/-- Field 0 of the result as `[200000, 128, 1]`. -/
theorem v53_at (n : Fin 200000) (k : Fin 128) (c : Fin 1) :
    val_main_v53 (F := Ideal) X Wt Bi b (ix3 n k c)
      = dev X b n k * (∑ g : Fin 512, oh (b (ix1 n)) g * scale0 X Wt b g k) + Bi (ix1 k) := by
  rw [val_main_v53_apply, val_main_v50_apply, v23_at X b hb, val_main_v49_apply,
    show idx_main_v49 (ix3 n k c) = ix2 n k from
      funext fun a => Fin.ext (by match a with | ⟨0, _⟩ => rfl | ⟨1, _⟩ => rfl),
    v48_at X Wt b hb, val_main_v52_apply, val_main_v51_apply,
    show idx_main_v51 (idx_main_v52 (ix3 n k c)) = ix1 k from
      funext fun a => Fin.ext (by match a with | ⟨0, _⟩ => rfl)]
  rfl

/-- Field 0 of the result. -/
theorem v54_at (n : Fin 200000) (k : Fin 128) :
    val_main_v54 (F := Ideal) X Wt Bi b (ix2 n k)
      = dev X b n k * (∑ g : Fin 512, oh (b (ix1 n)) g * scale0 X Wt b g k) + Bi (ix1 k) := by
  rw [val_main_v54_apply,
    show idx_main_v54 (ix2 n k) = ix3 n k (0 : Fin 1) from
      funext fun a => Fin.ext (by
        have hn := n.isLt; have hk := k.isLt
        match a with
        | ⟨0, _⟩ => show (n.val * 128 + k.val) / 128 = n.val; omega
        | ⟨1, _⟩ => show (n.val * 128 + k.val) / 1 % 128 = k.val; omega
        | ⟨2, _⟩ => rfl),
    v53_at X Wt Bi b hb]

end Field0b

/-! ## Field 1: 64 vectors of 3 -/

section Field1
variable (X : S200000x480.Idx → EReal) (Wt : S224.Idx → EReal) (b : S200000.Idx → BitVec 32)

/-- Field 1 as `[200000, 64, 3]`: element `(n, q, d)` is column `128 + 3 q + d` of node `n`. -/
theorem idx_v56 (n : Fin 200000) (q : Fin 64) (d : Fin 3) :
    idx_main_v55 (idx_main_v56 (ix3 n q d)) = ix2 n ⟨128 + 3 * q.val + d.val, by omega⟩ :=
  funext fun a => Fin.ext (by
    have hn := n.isLt; have hq := q.isLt; have hd := d.isLt
    match a with
    | ⟨0, _⟩ => show ((n.val * 64 + q.val) * 3 + d.val) / 192 = n.val; omega
    | ⟨1, _⟩ => show 128 + ((n.val * 64 + q.val) * 3 + d.val) % 192 = 128 + 3 * q.val + d.val; omega)

theorem v56_at (n : Fin 200000) (q : Fin 64) (d : Fin 3) :
    val_main_v56 (F := Ideal) X (ix3 n q d) = X (ix2 n ⟨128 + 3 * q.val + d.val, by omega⟩) := by
  rw [val_main_v56_apply, val_main_v55_apply, idx_v56]

/-- The mean square of a vector. -/
theorem v60_at (n : Fin 200000) (q : Fin 64) : val_main_v60 (F := Ideal) X (ix2 n q) = sq1 X n q := by
  rw [val_main_v60_apply, val_main_v58_apply, val_main_v59_apply]
  unfold sq1
  refine congrArg₂ Ideal.div (congrArg₂ (· + ·) rfl (Finset.sum_congr rfl fun d _ => ?_)) rfl
  rw [val_main_v57_apply,
    show idx_main_v58 (ix2 n q) d = ix3 n q d from
      funext fun a => Fin.ext (by match a with | ⟨0, _⟩ => rfl | ⟨1, _⟩ => rfl | ⟨2, _⟩ => rfl),
    v56_at]
  rfl

theorem idx_v62 (n : Fin 200000) (c : Fin 1) : idx_main_v62 (ix2 n c) = ix1 n :=
  funext fun a => Fin.ext (by match a with | ⟨0, _⟩ => rfl)

/-- Its sums per graph. -/
theorem v63_at (g : Fin 512) (q : Fin 64) :
    val_main_v63 (F := Ideal) X b (ix2 g q)
      = Ideal.ofBits .f32 0x00000000#32 + ∑ n : Fin 200000, oh (b (ix1 n)) g * sq1 X n q := by
  unfold val_main_v63
  rw [scatter64_apply, val_main_v61_apply]
  refine congrArg₂ (· + ·) rfl (Finset.sum_congr rfl fun n _ => ?_)
  rw [val_main_v62_apply, idx_v62, v60_at]

theorem v65_at (g : Fin 512) (q : Fin 64) : val_main_v65 (F := Ideal) b (ix2 g q) = cc b g := by
  rw [val_main_v65_apply, val_main_v64_apply,
    show idx_main_v64 (idx_main_v65 (ix2 g q)) = ix1 g from
      funext fun a => Fin.ext (by match a with | ⟨0, _⟩ => rfl),
    v5_at]

/-- The mean per graph. -/
theorem v66_at (g : Fin 512) (q : Fin 64) : val_main_v66 (F := Ideal) X b (ix2 g q) = msq1 X b g q := by
  rw [val_main_v66_apply, v63_at, v65_at]
  rfl

/-- The factor per graph. -/
theorem v74_at (g : Fin 512) (q : Fin 64) :
    val_main_v74 (F := Ideal) X Wt b (ix2 g q) = scale1 X Wt b g q := by
  rw [val_main_v74_apply, val_main_v70_apply, val_main_v68_apply, v66_at, val_main_v67_apply,
    val_main_v69_apply, val_main_v73_apply, val_main_v72_apply, val_main_v71_apply,
    show idx_main_v71 (idx_main_v72 (idx_main_v73 (ix2 g q))) = ix1 ⟨128 + q.val, by omega⟩ from
      funext fun a => Fin.ext (by match a with | ⟨0, _⟩ => rfl)]
  rfl

variable (hb : ∀ n : Fin 200000, 0 ≤ (b (ix1 n)).toInt ∧ (b (ix1 n)).toInt < 512)
include hb

/-- The factor of a node's graph. -/
theorem v81_at (n : Fin 200000) (q : Fin 64) :
    val_main_v81 (F := Ideal) X Wt b (ix2 n q) = ∑ g : Fin 512, oh (b (ix1 n)) g * scale1 X Wt b g q := by
  have h : 0 ≤ (val_main_v80 (F := Ideal) b (ix2 n 0)).toInt ∧ (val_main_v80 (F := Ideal) b (ix2 n 0)).toInt < 512 := by
    rw [v80_at b hb]; exact hb n
  unfold val_main_v81
  rw [gather64_apply _ _ n q h, v80_at b hb]
  refine Finset.sum_congr rfl fun g _ => ?_
  rw [v74_at]

/-- Field 1 of the result as `[200000, 64, 3]`. -/
theorem v84_at (n : Fin 200000) (q : Fin 64) (d : Fin 3) :
    val_main_v84 (F := Ideal) X Wt b (ix3 n q d)
      = X (ix2 n ⟨128 + 3 * q.val + d.val, by omega⟩) * ∑ g : Fin 512, oh (b (ix1 n)) g * scale1 X Wt b g q := by
  rw [val_main_v84_apply, v56_at, val_main_v83_apply, val_main_v82_apply,
    show idx_main_v82 (idx_main_v83 (ix3 n q d)) = ix2 n q from
      funext fun a => Fin.ext (by match a with | ⟨0, _⟩ => rfl | ⟨1, _⟩ => rfl),
    v81_at X Wt b hb]
  rfl

/-- Field 1 of the result: column `j` of the field belongs to vector `j / 3`. -/
theorem v85_at (n : Fin 200000) (j : Fin 192) :
    val_main_v85 (F := Ideal) X Wt b (ix2 n j)
      = X (ix2 n ⟨128 + j.val, by omega⟩)
        * ∑ g : Fin 512, oh (b (ix1 n)) g * scale1 X Wt b g ⟨j.val / 3, by omega⟩ := by
  rw [val_main_v85_apply,
    show idx_main_v85 (ix2 n j) = ix3 n (⟨j.val / 3, by omega⟩ : Fin 64) (⟨j.val % 3, by omega⟩ : Fin 3) from
      funext fun a => Fin.ext (by
        have hn := n.isLt; have hj := j.isLt
        match a with
        | ⟨0, _⟩ => show (n.val * 192 + j.val) / 192 = n.val; omega
        | ⟨1, _⟩ => show (n.val * 192 + j.val) / 3 % 64 = j.val / 3; omega
        | ⟨2, _⟩ => show (n.val * 192 + j.val) % 3 = j.val % 3; omega),
    v84_at X Wt b hb]
  have e : (⟨128 + 3 * (j.val / 3) + j.val % 3, by omega⟩ : Fin 480) = ⟨128 + j.val, by omega⟩ :=
    Fin.ext (by show 128 + 3 * (j.val / 3) + j.val % 3 = 128 + j.val; omega)
  exact congrArg (fun c => X (ix2 n c) * ∑ g : Fin 512, oh (b (ix1 n)) g * scale1 X Wt b g ⟨j.val / 3, by omega⟩) e

end Field1

/-! ## Field 2: 32 vectors of 5 -/

section Field2
variable (X : S200000x480.Idx → EReal) (Wt : S224.Idx → EReal) (b : S200000.Idx → BitVec 32)

/-- Field 2 as `[200000, 32, 5]`: element `(n, q, d)` is column `320 + 5 q + d` of node `n`. -/
theorem idx_v87 (n : Fin 200000) (q : Fin 32) (d : Fin 5) :
    idx_main_v86 (idx_main_v87 (ix3 n q d)) = ix2 n ⟨320 + 5 * q.val + d.val, by omega⟩ :=
  funext fun a => Fin.ext (by
    have hn := n.isLt; have hq := q.isLt; have hd := d.isLt
    match a with
    | ⟨0, _⟩ => show ((n.val * 32 + q.val) * 5 + d.val) / 160 = n.val; omega
    | ⟨1, _⟩ => show 320 + ((n.val * 32 + q.val) * 5 + d.val) % 160 = 320 + 5 * q.val + d.val; omega)

theorem v87_at (n : Fin 200000) (q : Fin 32) (d : Fin 5) :
    val_main_v87 (F := Ideal) X (ix3 n q d) = X (ix2 n ⟨320 + 5 * q.val + d.val, by omega⟩) := by
  rw [val_main_v87_apply, val_main_v86_apply, idx_v87]

/-- The mean square of a vector. -/
theorem v91_at (n : Fin 200000) (q : Fin 32) : val_main_v91 (F := Ideal) X (ix2 n q) = sq2 X n q := by
  rw [val_main_v91_apply, val_main_v89_apply, val_main_v90_apply]
  unfold sq2
  refine congrArg₂ Ideal.div (congrArg₂ (· + ·) rfl (Finset.sum_congr rfl fun d _ => ?_)) rfl
  rw [val_main_v88_apply,
    show idx_main_v89 (ix2 n q) d = ix3 n q d from
      funext fun a => Fin.ext (by match a with | ⟨0, _⟩ => rfl | ⟨1, _⟩ => rfl | ⟨2, _⟩ => rfl),
    v87_at]
  rfl

theorem idx_v93 (n : Fin 200000) (c : Fin 1) : idx_main_v93 (ix2 n c) = ix1 n :=
  funext fun a => Fin.ext (by match a with | ⟨0, _⟩ => rfl)

/-- Its sums per graph. -/
theorem v94_at (g : Fin 512) (q : Fin 32) :
    val_main_v94 (F := Ideal) X b (ix2 g q)
      = Ideal.ofBits .f32 0x00000000#32 + ∑ n : Fin 200000, oh (b (ix1 n)) g * sq2 X n q := by
  unfold val_main_v94
  rw [scatter32_apply, val_main_v92_apply]
  refine congrArg₂ (· + ·) rfl (Finset.sum_congr rfl fun n _ => ?_)
  rw [val_main_v93_apply, idx_v93, v91_at]

theorem v96_at (g : Fin 512) (q : Fin 32) : val_main_v96 (F := Ideal) b (ix2 g q) = cc b g := by
  rw [val_main_v96_apply, val_main_v95_apply,
    show idx_main_v95 (idx_main_v96 (ix2 g q)) = ix1 g from
      funext fun a => Fin.ext (by match a with | ⟨0, _⟩ => rfl),
    v5_at]

/-- The mean per graph. -/
theorem v97_at (g : Fin 512) (q : Fin 32) : val_main_v97 (F := Ideal) X b (ix2 g q) = msq2 X b g q := by
  rw [val_main_v97_apply, v94_at, v96_at]
  rfl

/-- The factor per graph. -/
theorem v105_at (g : Fin 512) (q : Fin 32) :
    val_main_v105 (F := Ideal) X Wt b (ix2 g q) = scale2 X Wt b g q := by
  rw [val_main_v105_apply, val_main_v101_apply, val_main_v99_apply, v97_at, val_main_v98_apply,
    val_main_v100_apply, val_main_v104_apply, val_main_v103_apply, val_main_v102_apply,
    show idx_main_v102 (idx_main_v103 (idx_main_v104 (ix2 g q))) = ix1 ⟨192 + q.val, by omega⟩ from
      funext fun a => Fin.ext (by match a with | ⟨0, _⟩ => rfl)]
  rfl

variable (hb : ∀ n : Fin 200000, 0 ≤ (b (ix1 n)).toInt ∧ (b (ix1 n)).toInt < 512)
include hb

/-- The factor of a node's graph. -/
theorem v112_at (n : Fin 200000) (q : Fin 32) :
    val_main_v112 (F := Ideal) X Wt b (ix2 n q) = ∑ g : Fin 512, oh (b (ix1 n)) g * scale2 X Wt b g q := by
  have h : 0 ≤ (val_main_v111 (F := Ideal) b (ix2 n 0)).toInt
      ∧ (val_main_v111 (F := Ideal) b (ix2 n 0)).toInt < 512 := by
    rw [v111_at b hb]; exact hb n
  unfold val_main_v112
  rw [gather32_apply _ _ n q h, v111_at b hb]
  refine Finset.sum_congr rfl fun g _ => ?_
  rw [v105_at]

/-- Field 2 of the result as `[200000, 32, 5]`. -/
theorem v115_at (n : Fin 200000) (q : Fin 32) (d : Fin 5) :
    val_main_v115 (F := Ideal) X Wt b (ix3 n q d)
      = X (ix2 n ⟨320 + 5 * q.val + d.val, by omega⟩) * ∑ g : Fin 512, oh (b (ix1 n)) g * scale2 X Wt b g q := by
  rw [val_main_v115_apply, v87_at, val_main_v114_apply, val_main_v113_apply,
    show idx_main_v113 (idx_main_v114 (ix3 n q d)) = ix2 n q from
      funext fun a => Fin.ext (by match a with | ⟨0, _⟩ => rfl | ⟨1, _⟩ => rfl),
    v112_at X Wt b hb]
  rfl

/-- Field 2 of the result: column `j` of the field belongs to vector `j / 5`. -/
theorem v116_at (n : Fin 200000) (j : Fin 160) :
    val_main_v116 (F := Ideal) X Wt b (ix2 n j)
      = X (ix2 n ⟨320 + j.val, by omega⟩)
        * ∑ g : Fin 512, oh (b (ix1 n)) g * scale2 X Wt b g ⟨j.val / 5, by omega⟩ := by
  rw [val_main_v116_apply,
    show idx_main_v116 (ix2 n j) = ix3 n (⟨j.val / 5, by omega⟩ : Fin 32) (⟨j.val % 5, by omega⟩ : Fin 5) from
      funext fun a => Fin.ext (by
        have hn := n.isLt; have hj := j.isLt
        match a with
        | ⟨0, _⟩ => show (n.val * 160 + j.val) / 160 = n.val; omega
        | ⟨1, _⟩ => show (n.val * 160 + j.val) / 5 % 32 = j.val / 5; omega
        | ⟨2, _⟩ => show (n.val * 160 + j.val) % 5 = j.val % 5; omega),
    v115_at X Wt b hb]
  have e : (⟨320 + 5 * (j.val / 5) + j.val % 5, by omega⟩ : Fin 480) = ⟨320 + j.val, by omega⟩ :=
    Fin.ext (by show 320 + 5 * (j.val / 5) + j.val % 5 = 320 + j.val; omega)
  exact congrArg (fun c => X (ix2 n c) * ∑ g : Fin 512, oh (b (ix1 n)) g * scale2 X Wt b g ⟨j.val / 5, by omega⟩) e

end Field2

/-! ## The result: the three fields side by side -/

section Pieces
variable (X : S200000x480.Idx → EReal) (Wt : S224.Idx → EReal) (Bi : S128.Idx → EReal) (b : S200000.Idx → BitVec 32)

/-- Columns 0–127 of the result are field 0. -/
theorem v117_piece0 (n : Fin 200000) (k : Fin 128) :
    val_main_v117 (F := Ideal) X Wt Bi b (ix2 n ⟨k.val, by omega⟩) = val_main_v54 (F := Ideal) X Wt Bi b (ix2 n k) := by
  unfold val_main_v117
  refine concatenate_apply_piece (t := S200000x480) _ _ _ _ 0 ?_ S200000x128 _ ?_ rfl 0 ?_ (ix2 n k) ?_ ?_
  · show (0 : Nat) < 3; decide
  · rfl
  · rfl
  · intro c hc
    match c with
    | ⟨0, _⟩ => rfl
    | ⟨1, _⟩ => exact absurd rfl hc
  · exact Nat.zero_add _

/-- Columns 128–319 are field 1. -/
theorem v117_piece1 (n : Fin 200000) (j : Fin 192) :
    val_main_v117 (F := Ideal) X Wt Bi b (ix2 n ⟨128 + j.val, by omega⟩) = val_main_v85 (F := Ideal) X Wt b (ix2 n j) := by
  unfold val_main_v117
  refine concatenate_apply_piece (t := S200000x480) _ _ _ _ 1 ?_ S200000x192 _ ?_ rfl 128 ?_ (ix2 n j) ?_ ?_
  · show (1 : Nat) < 3; decide
  · rfl
  · rfl
  · intro c hc
    match c with
    | ⟨0, _⟩ => rfl
    | ⟨1, _⟩ => exact absurd rfl hc
  · rfl

/-- Columns 320–479 are field 2. -/
theorem v117_piece2 (n : Fin 200000) (j : Fin 160) :
    val_main_v117 (F := Ideal) X Wt Bi b (ix2 n ⟨320 + j.val, by omega⟩) = val_main_v116 (F := Ideal) X Wt b (ix2 n j) := by
  unfold val_main_v117
  refine concatenate_apply_piece (t := S200000x480) _ _ _ _ 2 ?_ S200000x160 _ ?_ rfl 320 ?_ (ix2 n j) ?_ ?_
  · show (2 : Nat) < 3; decide
  · rfl
  · rfl
  · intro c hc
    match c with
    | ⟨0, _⟩ => rfl
    | ⟨1, _⟩ => exact absurd rfl hc
  · rfl

end Pieces

/-! ## The result buffer of a run -/

section Run
open Idealize.ShloMosaic.TcCoe Idealize.SL.Sem

/-- The node features in a launch memory. -/
abbrev argX (m : (ℓ : Loc nD τ sig) → Buf (Elt Ideal) ℓ) (c : Dev nD) : S200000x480.Idx → EReal :=
  m ((c.tc : Thread nD τ).loc main_arg0)
/-- The weights. -/
abbrev argW (m : (ℓ : Loc nD τ sig) → Buf (Elt Ideal) ℓ) (c : Dev nD) : S224.Idx → EReal :=
  m ((c.tc : Thread nD τ).loc main_arg1)
/-- The biases. -/
abbrev argB (m : (ℓ : Loc nD τ sig) → Buf (Elt Ideal) ℓ) (c : Dev nD) : S128.Idx → EReal :=
  m ((c.tc : Thread nD τ).loc main_arg2)
/-- The graph ids. -/
abbrev argI (m : (ℓ : Loc nD τ sig) → Buf (Elt Ideal) ℓ) (c : Dev nD) : S200000.Idx → BitVec 32 :=
  m ((c.tc : Thread nD τ).loc main_arg3)

variable (m : (ℓ : Loc nD τ sig) → Buf (Elt Ideal) ℓ) (c : Dev nD)
  (hb : ∀ n : Fin 200000, 0 ≤ (argI m c (ix1 n)).toInt ∧ (argI m c (ix1 n)).toInt < 512)
include hb

/-- FIELD 0 OF THE RESULT: the deviation from the graph's mean, times the graph's factor, plus the bias. -/
theorem ref_out0 (n : Fin 200000) (k : Fin 128) :
    Cert.ReferenceIdeal.Value.res_out0 m c (ix2 n ⟨k.val, by omega⟩)
      = dev (argX m c) (argI m c) n k
          * (∑ g : Fin 512, oh (argI m c (ix1 n)) g * scale0 (argX m c) (argW m c) (argI m c) g k)
        + argB m c (ix1 k) :=
  (congrFun (val_main_v117_eq m c) _).trans
    ((v117_piece0 (argX m c) (argW m c) (argB m c) (argI m c) n k).trans
      (v54_at (argX m c) (argW m c) (argB m c) (argI m c) hb n k))

/-- FIELD 1 OF THE RESULT: the column times the graph's factor of its vector. -/
theorem ref_out1 (n : Fin 200000) (j : Fin 192) :
    Cert.ReferenceIdeal.Value.res_out0 m c (ix2 n ⟨128 + j.val, by omega⟩)
      = argX m c (ix2 n ⟨128 + j.val, by omega⟩)
          * ∑ g : Fin 512, oh (argI m c (ix1 n)) g * scale1 (argX m c) (argW m c) (argI m c) g ⟨j.val / 3, by omega⟩ :=
  (congrFun (val_main_v117_eq m c) _).trans
    ((v117_piece1 (argX m c) (argW m c) (argB m c) (argI m c) n j).trans
      (v85_at (argX m c) (argW m c) (argI m c) hb n j))

/-- FIELD 2 OF THE RESULT: the column times the graph's factor of its vector. -/
theorem ref_out2 (n : Fin 200000) (j : Fin 160) :
    Cert.ReferenceIdeal.Value.res_out0 m c (ix2 n ⟨320 + j.val, by omega⟩)
      = argX m c (ix2 n ⟨320 + j.val, by omega⟩)
          * ∑ g : Fin 512, oh (argI m c (ix1 n)) g * scale2 (argX m c) (argW m c) (argI m c) g ⟨j.val / 5, by omega⟩ :=
  (congrFun (val_main_v117_eq m c) _).trans
    ((v117_piece2 (argX m c) (argW m c) (argB m c) (argI m c) n j).trans
      (v116_at (argX m c) (argW m c) (argI m c) hb n j))

end Run

end Cert.ReferenceIdeal.RefValue

end
-- ==== Proof.Val.RGlue.lean ====
/-
  The reference's statistics, as the reference's value module states them (with the printed literals 0.0, 1.0, 3.0, 5.0
  inside), are the canonical ones: adding the literal 0.0 and multiplying or dividing by the literal 1.0 change nothing, and
  the literals 3.0 and 5.0 are the reals 3 and 5.
-/
import proofs.«421439_j25340307046985_3_alg».proof.Proof.Val.RefValue
import proofs.«421439_j25340307046985_3_alg».proof.Proof.Val.Math

noncomputable section

namespace Cert.Bridge

open Cert.Spec Idealize.ShloMosaic Idealize.ShloMosaic.ValueIdx
open Cert.ReferenceIdeal (S200000x480 S224 S128 S200000)

section
variable (X : S200000x480.Idx → EReal) (Wt : S224.Idx → EReal) (Bi : S128.Idx → EReal) (b : S200000.Idx → BitVec 32)

theorem r_cnt (g : Fin 512) : Cert.ReferenceIdeal.RefValue.cnt b g = cnt (bF b) g := by
  unfold Cert.ReferenceIdeal.RefValue.cnt cnt
  rw [Ideal.ofBits_zero_f32, zero_add, Cert.Consts.ofBits_one]
  exact Finset.sum_congr rfl fun n _ => mul_one _

theorem r_cc (g : Fin 512) : Cert.ReferenceIdeal.RefValue.cc b g = cc (bF b) g := by
  unfold Cert.ReferenceIdeal.RefValue.cc cc
  rw [r_cnt, Cert.Consts.ofBits_one]

theorem r_mean (g : Fin 512) (k : Fin 128) : Cert.ReferenceIdeal.RefValue.mean X b g k = mean0 (bF b) (XF X) g k := by
  unfold Cert.ReferenceIdeal.RefValue.mean mean0 mean segsum x0
  rw [Ideal.ofBits_zero_f32, zero_add, r_cc]

theorem r_dev (n : Fin 200000) (k : Fin 128) : Cert.ReferenceIdeal.RefValue.dev X b n k = dev0 (bF b) (XF X) n k := by
  unfold Cert.ReferenceIdeal.RefValue.dev dev0 x0
  refine congrArg (fun s => X (ix2 n ⟨k.val, by omega⟩) - s) (Finset.sum_congr rfl fun g _ => ?_)
  rw [r_mean]

theorem r_sq0 (n : Fin 200000) (k : Fin 128) :
    Cert.ReferenceIdeal.RefValue.sq0 X b n k = dev0 (bF b) (XF X) n k * dev0 (bF b) (XF X) n k := by
  unfold Cert.ReferenceIdeal.RefValue.sq0
  rw [Ideal.ofBits_zero_f32, zero_add, div_one, r_dev]

theorem r_msq0 (g : Fin 512) (k : Fin 128) : Cert.ReferenceIdeal.RefValue.msq0 X b g k = fnR0 (bF b) (XF X) g k := by
  unfold Cert.ReferenceIdeal.RefValue.msq0 fnR0 mean segsum
  rw [Ideal.ofBits_zero_f32, zero_add, r_cc]
  exact congrArg (fun s => Ideal.div s (cc (bF b) g)) (Finset.sum_congr rfl fun n _ => by rw [r_sq0])

theorem r_scale0 (g : Fin 512) (k : Fin 128) :
    Cert.ReferenceIdeal.RefValue.scale0 X Wt b g k = sc0 (WtF Wt) Ideal.pow epsL mhL (fnR0 (bF b) (XF X)) g k := by
  unfold Cert.ReferenceIdeal.RefValue.scale0 sc0
  rw [r_msq0]

theorem r_sq1 (n : Fin 200000) (q : Fin 64) : Cert.ReferenceIdeal.RefValue.sq1 X n q = ms1 (XF X) n q := by
  unfold Cert.ReferenceIdeal.RefValue.sq1 ms1 x1
  rw [Ideal.ofBits_zero_f32, zero_add, Cert.Consts.ofBits_three]

theorem r_msq1 (g : Fin 512) (q : Fin 64) : Cert.ReferenceIdeal.RefValue.msq1 X b g q = fn1 (bF b) (XF X) g q := by
  unfold Cert.ReferenceIdeal.RefValue.msq1 fn1 mean segsum
  rw [Ideal.ofBits_zero_f32, zero_add, r_cc]
  exact congrArg (fun s => Ideal.div s (cc (bF b) g)) (Finset.sum_congr rfl fun n _ => by rw [r_sq1])

theorem r_scale1 (g : Fin 512) (q : Fin 64) :
    Cert.ReferenceIdeal.RefValue.scale1 X Wt b g q = sc1 (bF b) (XF X) (WtF Wt) Ideal.pow epsL mhL g q := by
  unfold Cert.ReferenceIdeal.RefValue.scale1 sc1
  rw [r_msq1]

theorem r_sq2 (n : Fin 200000) (q : Fin 32) : Cert.ReferenceIdeal.RefValue.sq2 X n q = ms2 (XF X) n q := by
  unfold Cert.ReferenceIdeal.RefValue.sq2 ms2 x2
  rw [Ideal.ofBits_zero_f32, zero_add, Cert.Consts.ofBits_five]

theorem r_msq2 (g : Fin 512) (q : Fin 32) : Cert.ReferenceIdeal.RefValue.msq2 X b g q = fn2 (bF b) (XF X) g q := by
  unfold Cert.ReferenceIdeal.RefValue.msq2 fn2 mean segsum
  rw [Ideal.ofBits_zero_f32, zero_add, r_cc]
  exact congrArg (fun s => Ideal.div s (cc (bF b) g)) (Finset.sum_congr rfl fun n _ => by rw [r_sq2])

theorem r_scale2 (g : Fin 512) (q : Fin 32) :
    Cert.ReferenceIdeal.RefValue.scale2 X Wt b g q = sc2 (bF b) (XF X) (WtF Wt) Ideal.pow epsL mhL g q := by
  unfold Cert.ReferenceIdeal.RefValue.scale2 sc2
  rw [r_msq2]

end

/-! ## The reference's result is the canonical form -/

section Final

open Cert.ReferenceIdeal.RefValue (argX argW argB argI)

variable (m : (ℓ : Loc Cert.ReferenceIdeal.nD Cert.ReferenceIdeal.τ Cert.ReferenceIdeal.sig) → Buf (Elt Ideal) ℓ)
  (c : Dev Cert.ReferenceIdeal.nD)
  (hb : ∀ n : Fin 200000, 0 ≤ (argI m c (ix1 n)).toInt ∧ (argI m c (ix1 n)).toInt < 512)
include hb

/-- A scalar column of the reference's result. -/
theorem ref_can0 (n : Fin 200000) (k : Fin 128) :
    Cert.ReferenceIdeal.Value.res_out0 m c (ix2 n ⟨k.val, by omega⟩)
      = out0 (bF (argI m c)) (XF (argX m c)) (WtF (argW m c)) (BiF (argB m c)) Ideal.pow epsL mhL
          (fnR0 (bF (argI m c)) (XF (argX m c))) n k := by
  rw [Cert.ReferenceIdeal.RefValue.ref_out0 m c hb n k, r_dev]
  unfold out0
  refine congrArg (fun s => dev0 (bF (argI m c)) (XF (argX m c)) n k * s + argB m c (ix1 k))
    (Finset.sum_congr rfl fun g _ => ?_)
  rw [r_scale0]

/-- A column of a 3-component channel of the reference's result. -/
theorem ref_can1 (n : Fin 200000) (j : Fin 192) :
    Cert.ReferenceIdeal.Value.res_out0 m c (ix2 n ⟨128 + j.val, by omega⟩)
      = out1 (bF (argI m c)) (XF (argX m c)) (WtF (argW m c)) Ideal.pow epsL mhL n j := by
  rw [Cert.ReferenceIdeal.RefValue.ref_out1 m c hb n j]
  unfold out1
  refine congrArg (fun s => argX m c (ix2 n ⟨128 + j.val, by omega⟩) * s) (Finset.sum_congr rfl fun g _ => ?_)
  rw [r_scale1]

/-- A column of a 5-component channel of the reference's result. -/
theorem ref_can2 (n : Fin 200000) (j : Fin 160) :
    Cert.ReferenceIdeal.Value.res_out0 m c (ix2 n ⟨320 + j.val, by omega⟩)
      = out2 (bF (argI m c)) (XF (argX m c)) (WtF (argW m c)) Ideal.pow epsL mhL n j := by
  rw [Cert.ReferenceIdeal.RefValue.ref_out2 m c hb n j]
  unfold out2
  refine congrArg (fun s => argX m c (ix2 n ⟨320 + j.val, by omega⟩) * s) (Finset.sum_congr rfl fun g _ => ?_)
  rw [r_scale2]

end Final

end Cert.Bridge

end
-- ==== Proof.Val.PreFacts.lean ====
/-
  What the precondition says, entry by entry. The printed predicate is a conjunction of four `all`s: the absolute value of
  every entry of the three float inputs is below +infinity, and every graph id is at least 0 and below 512. Read at the
  ideal instance, the first three say that every float entry is a real number; the last bounds each id as a signed word.
-/
import proofs.«421439_j25340307046985_3_alg».proof.Pre_finite_inputs
import proofs.«421439_j25340307046985_3_alg».proof.Proof.Val.Consts
import Idealize.ShloMosaic.Lib.ReduceAll
import Idealize.ShloMosaic.Lib.ValueIdx
import Idealize.ShloMosaic.Lib.Pipeline.Value
import Idealize.ShloMosaic.PureOps.Ideal

noncomputable section

namespace Cert.PreFacts

open Idealize.ShloMosaic Idealize.ShloMosaic.ValueIdx Cert.Pre_finite_inputs

variable [Cert.Pre_finite_inputs.Facts]
open Cert.Pre_finite_inputs.Facts

instance : Subsingleton S_.Idx := ⟨fun a b => funext fun d => d.elim0⟩

/-- An extended real whose absolute value max x (-x) is below +infinity is a real number. -/
theorem real_of_abs_lt (x : EReal) (h : Ideal.cmp .olt (max x (-x)) (Ideal.ofBits .f32 0x7F800000#32) = 1#1) :
    ∃ r : ℝ, x = (r : EReal) := by
  rw [Cert.Consts.ofBits_inf] at h
  have hlt : max x (-x) < ⊤ := by
    by_contra hc
    unfold Ideal.cmp at h
    dsimp only at h
    rw [decide_eq_false hc] at h
    exact absurd h (by decide)
  induction x using EReal.rec with
  | bot => exact absurd hlt (by simp)
  | coe r => exact ⟨r, rfl⟩
  | top => exact absurd hlt (by simp)

variable (x0 : FVec Ideal S200000x480 .f32) (x1 : FVec Ideal S224 .f32) (x2 : FVec Ideal S128 .f32) (x3 : IVec S200000 32)

/-- Under the precondition every entry of the three float inputs is a real number and every graph id lies in [0, 512). -/
theorem decode (h : fn (F := Ideal) x0 x1 x2 x3 = fun _ => 1#1) :
    (∀ i, ∃ r : ℝ, x0 i = (r : EReal)) ∧ (∀ i, ∃ r : ℝ, x1 i = (r : EReal)) ∧ (∀ i, ∃ r : ℝ, x2 i = (r : EReal))
      ∧ ∀ i, 0 ≤ (x3 i).toInt ∧ (x3 i).toInt < 512 := by
  have h0 := congrFun h ix0
  dsimp only [fn, fn_part1] at h0
  obtain ⟨h012, h3⟩ := IntOp.andi_eq_one.1 h0
  obtain ⟨h01, h2⟩ := IntOp.andi_eq_one.1 h012
  obtain ⟨h0', h1⟩ := IntOp.andi_eq_one.1 h01
  refine ⟨fun i => ?_, fun i => ?_, fun i => ?_, fun i => ?_⟩
  · exact real_of_abs_lt _ (Host.reduce_andi_all _ _ _ _ _ h0' i)
  · exact real_of_abs_lt _ (Host.reduce_andi_all _ _ _ _ _ h1 i)
  · exact real_of_abs_lt _ (Host.reduce_andi_all _ _ _ _ _ h2 i)
  · have hi := Host.reduce_andi_all _ _ _ _ _ h3 i
    obtain ⟨hge, hlt⟩ := IntOp.andi_eq_one.1 hi
    have hge' := IntOp.cmpi_sge.1 hge
    have hlt' := IntOp.cmpi_slt.1 hlt
    have e0 : broadcastInDim S200000 ![] bcast_S_S200000 (constantI S_ 32 0#32) i = 0#32 := rfl
    have e1 : broadcastInDim S200000 ![] bcast_S_S200000 (constantI S_ 32 512#32) i = 512#32 := rfl
    rw [e0] at hge'
    rw [e1] at hlt'
    exact ⟨by simpa using hge', by simpa using hlt'⟩

end Cert.PreFacts

end
-- ==== Proof.lean ====
/-
  The certificate of a graph-wise normalisation of node features (200000 nodes in 512 graphs; per node 128 scalar
  channels, 64 channels of 3 components and 32 channels of 5 components) against its reference.

  THE MATHEMATICS. For each graph g the reference sums over the nodes of g (an accumulating scatter) the scalar channels,
  their squared deviations from the graph's mean, and the mean squares of the multi-component channels; divides by the
  node count (at least 1); adds a small constant, raises to the power −1/2 and multiplies by a channel weight; and reads
  the per-graph tables back at each node (a gather). The kernel computes the same sums as products with the one-hot
  matrix of the graph ids, 1000 nodes at a time and separately on two halves of the nodes (added afterwards), the mean
  squares through 0/1 expansion matrices and the folded reciprocals 1/3 and 1/5, and the scalar channels' normaliser as
  the mean of the squares less the square of the mean; a second pass reads the tables back through the same one-hot
  matrix. At the ideal instance (floats extended reals, a change of format the identity) all of this is re-arrangement
  of finite sums, except ONE identity, the variance identity, which holds because every input is a real number (the
  precondition) — and both programs index the 512 graphs by the ids, so the ids must lie in [0, 512) (the precondition's
  evident-domain conjunct: there the kernel's clip is the identity, the reference's scatters drop nothing and its
  gathers clamp nothing).

  THE PARTS. The frames of the two kernel programs: the proof data and body obligations of the two kernel regions
  (KI/R0, KI/R1), and the launch over @main's ten segments (KI/Trunk), whose post holds every buffer at the end; the
  word-level program's three modules are the same text with the namespace substituted (K/). The reference's frame is its
  generated run. The kernel's value: the regions' outputs index by index (Val/Pay0, Val/Pieces0, Val/Acc0, Val/Pay1,
  Val/Out1), the host stretches read at an index (Val/HostPre, Val/HostMid), put together and brought to one canonical
  form (Val/KGlue, Val/KFinal). The reference's value: its scatters and gathers as weighted sums (Val/RefScatter), its
  stages chained (Val/RefValue) and brought to the same canonical form (Val/RGlue). The finite-sum lemmas (Val/Sums), the
  canonical form and the variance identity (Val/Math), the literals (Val/Consts) and the precondition read entry by
  entry (Val/PreFacts).
-/
import proofs.«421439_j25340307046985_3_alg».proof.Defs
import proofs.«421439_j25340307046985_3_alg».proof.Proof.Gen.Kernel
import proofs.«421439_j25340307046985_3_alg».proof.Proof.Gen.KernelIdeal
import proofs.«421439_j25340307046985_3_alg».proof.Proof.Gen.ReferenceIdeal
import proofs.«421439_j25340307046985_3_alg».proof.Proof.Gen.Pre_finite_inputs
import proofs.«421439_j25340307046985_3_alg».proof.Proof.Gen.ReferenceIdeal.Run
import proofs.«421439_j25340307046985_3_alg».proof.Proof.Gen.ReferenceIdeal.Read
import proofs.«421439_j25340307046985_3_alg».proof.Proof.K.Trunk
import proofs.«421439_j25340307046985_3_alg».proof.Proof.KI.Trunk
import proofs.«421439_j25340307046985_3_alg».proof.Proof.Val.KFinal
import proofs.«421439_j25340307046985_3_alg».proof.Proof.Val.RGlue
import proofs.«421439_j25340307046985_3_alg».proof.Proof.Val.PreFacts
import Idealize.ShloMosaic.PureOps.IdealRules
import Idealize.ShloMosaic.Adequacy
import Idealize.ShloMosaic.Init

noncomputable section

namespace Cert.Proof

open Idealize.ShloMosaic Idealize.ShloMosaic.TcCoe Idealize.SL.Sem Idealize.ShloMosaic.ValueIdx
open Cert.Bridge

/-! ## The frames -/

/-- The word-level kernel program runs and leaves its arguments unchanged. -/
theorem frame_p : Cert.frame_Kernel (hKernel := Cert.Kernel.Gen.facts) (hPre_finite_inputs := Cert.Pre_finite_inputs.Gen.facts) :=
  fun m ρ _ => Cert.Kernel.Hand.frame (F := Bits) m ρ

/-- The idealized kernel program runs and leaves its arguments unchanged. -/
theorem frame_pi : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- The reference runs and leaves its arguments unchanged: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-! ## The idealization's two rewrites: the folded reciprocals are 1/3 and 1/5 -/

theorem preserves : Cert.preserves_Kernel_KernelIdeal :=
  ⟨IdealRules.named_const.statement Cert.KernelIdeal.κ "inv_3" .f32 0x3EAAAAAB#32 ((1 / 3 : ℝ) : EReal) rfl,
   IdealRules.named_const.statement Cert.KernelIdeal.κ "inv_5" .f32 0x3E4CCCCD#32 ((1 / 5 : ℝ) : EReal) rfl⟩

/-! ## The precondition, entry by entry -/

theorem pre_facts (m : (ℓ : Loc Cert.KernelIdeal.nD Cert.KernelIdeal.τ Cert.KernelIdeal.sig) → Buf (Elt Ideal) ℓ)
    (hpre : Cert.Pre_KernelIdeal (hPre_finite_inputs := Cert.Pre_finite_inputs.Gen.facts) m) (c : Dev Cert.KernelIdeal.nD) :
    (∀ i, ∃ r : ℝ, m ((c.tc : Thread Cert.KernelIdeal.nD Cert.KernelIdeal.τ).loc Cert.KernelIdeal.main_arg0) i = (r : EReal))
      ∧ (∀ i, ∃ r : ℝ, m ((c.tc : Thread Cert.KernelIdeal.nD Cert.KernelIdeal.τ).loc Cert.KernelIdeal.main_arg1) i = (r : EReal))
      ∧ (∀ i, ∃ r : ℝ, m ((c.tc : Thread Cert.KernelIdeal.nD Cert.KernelIdeal.τ).loc Cert.KernelIdeal.main_arg2) i = (r : EReal))
      ∧ ∀ i, 0 ≤ (m ((c.tc : Thread Cert.KernelIdeal.nD Cert.KernelIdeal.τ).loc Cert.KernelIdeal.main_arg3) i).toInt
          ∧ (m ((c.tc : Thread Cert.KernelIdeal.nD Cert.KernelIdeal.τ).loc Cert.KernelIdeal.main_arg3) i).toInt < 512 :=
  Cert.PreFacts.decode _ _ _ _ (hpre c)

/-! ## The two results are one function of the arguments -/

open Cert.ReferenceIdeal.RefValue (argX argW argB argI) in
/-- From memories that agree on the arguments, under the precondition, the reference's result array is the kernel's:
    column band by column band both are the canonical form, the scalar band through the variance identity. -/
theorem bridge (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal (hPre_finite_inputs := Cert.Pre_finite_inputs.Gen.facts) m)
    (c : Dev Cert.KernelIdeal.nD)
    (e0 : argX m' c = m ((c.tc : Thread Cert.KernelIdeal.nD Cert.KernelIdeal.τ).loc Cert.KernelIdeal.main_arg0))
    (e1 : argW m' c = m ((c.tc : Thread Cert.KernelIdeal.nD Cert.KernelIdeal.τ).loc Cert.KernelIdeal.main_arg1))
    (e2 : argB m' c = m ((c.tc : Thread Cert.KernelIdeal.nD Cert.KernelIdeal.τ).loc Cert.KernelIdeal.main_arg2))
    (e3 : argI m' c = m ((c.tc : Thread Cert.KernelIdeal.nD Cert.KernelIdeal.τ).loc Cert.KernelIdeal.main_arg3)) :
    Cert.ReferenceIdeal.Value.res_out0 m' c
      = Cert.KernelIdeal.Gen.V10 m (Cert.KernelIdeal.Hand.outsOf m) c Cert.KernelIdeal.main_v49 := by
  obtain ⟨hX, -, -, hb⟩ := pre_facts m hpre c
  have hb0 : ∀ n : Fin 200000, 0 ≤ (m ((c.tc : Thread Cert.KernelIdeal.nD Cert.KernelIdeal.τ).loc Cert.KernelIdeal.main_arg3) (ix1 n)).toInt
      ∧ (m ((c.tc : Thread Cert.KernelIdeal.nD Cert.KernelIdeal.τ).loc Cert.KernelIdeal.main_arg3) (ix1 n)).toInt < 512 := fun n => hb _
  have hb' : ∀ n : Fin 200000, 0 ≤ (argI m' c (ix1 n)).toInt ∧ (argI m' c (ix1 n)).toInt < 512 := by
    rw [e3]; exact hb0
  funext i
  obtain ⟨n, col, rfl⟩ : ∃ (n : Fin 200000) (col : Fin 480), i = ix2 n col := ⟨i 0, i 1, eq_ix2 i⟩
  by_cases h1 : col.val < 128
  · have hc : col = ⟨(⟨col.val, h1⟩ : Fin 128).val, by omega⟩ := rfl
    rw [hc, ref_can0 m' c hb' n ⟨col.val, h1⟩, Cert.KernelIdeal.Hand.kernel_out0 m c hb0 n ⟨col.val, h1⟩, e0, e1, e2, e3]
    exact (out0_fnK0_eq _ _ _ _ _ _ _ hb0 (fun n k => hX _) n ⟨col.val, h1⟩).symm
  · by_cases h2 : col.val < 320
    · have hc : col = ⟨128 + (⟨col.val - 128, by omega⟩ : Fin 192).val, by omega⟩ := Fin.ext (by show col.val = 128 + (col.val - 128); omega)
      rw [hc, ref_can1 m' c hb' n ⟨col.val - 128, by omega⟩, Cert.KernelIdeal.Hand.kernel_out1 m c hb0 n ⟨col.val - 128, by omega⟩, e0, e1, e3]
    · have hc : col = ⟨320 + (⟨col.val - 320, by omega⟩ : Fin 160).val, by omega⟩ := Fin.ext (by show col.val = 320 + (col.val - 320); have := col.isLt; omega)
      rw [hc, ref_can2 m' c hb' n ⟨col.val - 320, by have := col.isLt; omega⟩, Cert.KernelIdeal.Hand.kernel_out2 m c hb0 n ⟨col.val - 320, by have := col.isLt; omega⟩, e0, e1, e3]

/-! ## The algebraic conjunct -/

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Gen.V10 m (Cert.KernelIdeal.Hand.outsOf m) c Cert.KernelIdeal.main_v49, ?_, ?_⟩
  · exact (θ_run Cert.KernelIdeal.defs _ _).mono (fun r h c =>
      ⟨h c _ (Cert.KernelIdeal.Hand.mem_uc Cert.KernelIdeal.main_v49 (by decide)),
        (h c _ (Cert.KernelIdeal.Hand.mem_uc Cert.KernelIdeal.main_arg0 (by decide))).trans (Cert.KernelIdeal.Gen.V10_main_arg0 m _ c),
        (h c _ (Cert.KernelIdeal.Hand.mem_uc Cert.KernelIdeal.main_arg1 (by decide))).trans (Cert.KernelIdeal.Gen.V10_main_arg1 m _ c),
        (h c _ (Cert.KernelIdeal.Hand.mem_uc Cert.KernelIdeal.main_arg2 (by decide))).trans (Cert.KernelIdeal.Gen.V10_main_arg2 m _ c),
        (h c _ (Cert.KernelIdeal.Hand.mem_uc Cert.KernelIdeal.main_arg3 (by decide))).trans (Cert.KernelIdeal.Gen.V10_main_arg3 m _ c)⟩)
      (Cert.KernelIdeal.Hand.run (F := Ideal) m ρ)
  · exact (θ_run Cert.ReferenceIdeal.defs _ _).mono (fun _ h c =>
      ⟨(h c).1.trans (bridge m m' hpre c (hagree c).1 (hagree c).2.1 (hagree c).2.2.1 (hagree c).2.2.2), (h c).2⟩)
      (Cert.ReferenceIdeal.Value.run (F := Ideal) m' ρ')

/-! ## The claim -/

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
